-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v247_0)) (v1 : (c : Dev Cert.KernelIdeal.nD) → Buf (Elt Ideal) ((c.tc : Thread Cert.KernelIdeal.nD Cert.KernelIdeal.τ).loc Cert.KernelIdeal.main_v247_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v247_0) = v0 c
          ∧ r.2.mem ((c.tc : Thread Cert.KernelIdeal.nD Cert.KernelIdeal.τ).loc Cert.KernelIdeal.main_v247_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v462) = v0 c
          ∧ r.2.mem ((c.tc : Thread Cert.ReferenceIdeal.nD Cert.ReferenceIdeal.τ).loc Cert.ReferenceIdeal.main_v458) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S2101 : Shape := ⟨1, ![2101]⟩
abbrev S_ : Shape := ⟨0, ![]⟩
abbrev S1x2101 : Shape := ⟨2, ![1, 2101]⟩
abbrev S8192x2101 : Shape := ⟨2, ![8192, 2101]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S2101 : S_.BroadcastsInDim S2101 (![] : Fin 0 → Fin S2101.rank)
  reducesTo_S2101_S_d0 : S2101.ReducesTo [0] S_
  bcast_S2101_S1x2101_1 : S2101.BroadcastsInDim S1x2101 (![1] : Fin 1 → Fin S1x2101.rank)
  bcast_S8192x1_S8192x2101_0_1 : S8192x1.BroadcastsInDim S8192x2101 (![0, 1] : Fin 2 → Fin S8192x2101.rank)
  bcast_S1x2101_S8192x2101_0_1 : S1x2101.BroadcastsInDim S8192x2101 (![0, 1] : Fin 2 → Fin S8192x2101.rank)
  bcast_S_S8192x2101 : S_.BroadcastsInDim S8192x2101 (![] : Fin 0 → Fin S8192x2101.rank)
  reducesTo_S8192x2101_S_d0_1 : S8192x2101.ReducesTo [0, 1] S_

variable [Facts]

def fn_part24 {F : FTy → Type} [FloatOps F] (main_arg0 : FVec F S8192x1 .f32) (main_v66 : IVec S_ 1) (main_v399 : FVec F S8192x2101 .f32) (main_v406 : FVec F S8192x2101 .f32) (main_v410 : IVec S8192x2101 1) (main_v454 : FVec F S8192x2101 .f32) : IVec S_ 1 :=
  let main_cst_119 : FVec F S_ .f32 := constant S_ .f32 0x3F800000#32
  let main_v455 : FVec F S8192x2101 .f32 := broadcastInDim S8192x2101 ![] bcast_S_S8192x2101 main_cst_119
  let main_v456 : FVec F S8192x2101 .f32 := subf main_v455 main_v399
  let main_cst_120 : FVec F S_ .f32 := constant S_ .f32 0x3F800000#32
  let main_v457 : FVec F S8192x1 .f32 := broadcastInDim S8192x1 ![] bcast_S_S8192x1 main_cst_120
  let main_v458 : FVec F S8192x1 .f32 := subf main_arg0 main_v457
  let main_v459 : FVec F S8192x2101 .f32 := broadcastInDim S8192x2101 ![0, 1] bcast_S8192x1_S8192x2101_0_1 main_v458
  let main_v460 : FVec F S8192x2101 .f32 := mulf main_v456 main_v459
  let main_v461 : FVec F S8192x2101 .f32 := addf main_v399 main_v460
  let main_v462 : FVec F S8192x2101 .f32 := Host.divf main_v399 main_v461
  let main_cst_121 : FVec F S_ .f32 := constant S_ .f32 0x3F800000#32
  let main_v463 : FVec F S8192x2101 .f32 := broadcastInDim S8192x2101 ![] bcast_S_S8192x2101 main_cst_121
  let main_v464 : FVec F S8192x2101 .f32 := subf main_v463 main_v462
  let main_v465 : FVec F S8192x2101 .f32 := select main_v410 main_v464 main_v454
  let main_v466 : FVec F S8192x2101 .f32 := mulf main_v465 main_v406
  let main_cst_122 : FVec F S_ .f32 := constant S_ .f32 0x3F800000#32
  let main_v467 : FVec F S8192x2101 .f32 := broadcastInDim S8192x2101 ![] bcast_S_S8192x2101 main_cst_122
  let main_v468 : FVec F S8192x2101 .f32 := subf main_v467 main_v466
  let main_cst_123 : FVec F S_ .f32 := constant S_ .f32 0x00000000#32
  let main_v469 : FVec F S8192x2101 .f32 := broadcastInDim S8192x2101 ![] bcast_S_S8192x2101 main_cst_123
  let main_v470 : IVec S8192x2101 1 := cmpf .une main_v468 main_v469
  let main_c_124 : IVec S_ 1 := constantI S_ 1 1#1
  let main_v471 : IVec S_ 1 := (fun x v => Host.reduce IntOp.andi x v reducesTo_S8192x2101_S_d0_1 h_S_) main_v470 main_c_124
  let main_v472 : IVec S_ 1 := andi main_v66 main_v471
  main_v472

def fn_part23 {F : FTy → Type} [FloatOps F] (main_arg0 : FVec F S8192x1 .f32) (main_v66 : IVec S_ 1) (main_v399 : FVec F S8192x2101 .f32) (main_v406 : FVec F S8192x2101 .f32) (main_v410 : IVec S8192x2101 1) (main_v424 : FVec F S8192x2101 .f32) (main_v433 : FVec F S8192x2101 .f32) (main_v435 : FVec F S8192x2101 .f32) : IVec S_ 1 :=
  let main_v436 : FVec F S8192x2101 .f32 := addf main_v435 main_v424
  let main_cst_114 : FVec F S_ .f32 := constant S_ .f32 0x40000000#32
  let main_v437 : FVec F S8192x2101 .f32 := broadcastInDim S8192x2101 ![] bcast_S_S8192x2101 main_cst_114
  let main_v438 : FVec F S8192x2101 .f32 := mulf main_v437 main_v399
  let main_v439 : FVec F S8192x2101 .f32 := Host.divf main_v436 main_v438
  let main_cst_115 : FVec F S_ .f32 := constant S_ .f32 0x3F800000#32
  let main_v440 : FVec F S8192x2101 .f32 := broadcastInDim S8192x2101 ![] bcast_S_S8192x2101 main_cst_115
  let main_v441 : FVec F S8192x2101 .f32 := select main_v410 main_v440 main_v439
  let main_cst_116 : FVec F S_ .f32 := constant S_ .f32 0x3F800000#32
  let main_v442 : FVec F S8192x1 .f32 := broadcastInDim S8192x1 ![] bcast_S_S8192x1 main_cst_116
  let main_v443 : FVec F S8192x1 .f32 := subf main_arg0 main_v442
  let main_v444 : FVec F S8192x2101 .f32 := broadcastInDim S8192x2101 ![0, 1] bcast_S8192x1_S8192x2101_0_1 main_v443
  let main_v445 : FVec F S8192x2101 .f32 := Host.powf main_v441 main_v444
  let main_v446 : FVec F S8192x2101 .f32 := mulf main_v445 main_v445
  let main_v447 : FVec F S8192x2101 .f32 := mulf main_v433 main_v433
  let main_v448 : FVec F S8192x2101 .f32 := mulf main_v447 main_v446
  let main_cst_117 : FVec F S_ .f32 := constant S_ .f32 0x3F800000#32
  let main_v449 : FVec F S8192x2101 .f32 := broadcastInDim S8192x2101 ![] bcast_S_S8192x2101 main_cst_117
  let main_v450 : FVec F S8192x2101 .f32 := subf main_v448 main_v449
  let main_cst_118 : FVec F S_ .f32 := constant S_ .f32 0x3F800000#32
  let main_v451 : FVec F S8192x2101 .f32 := broadcastInDim S8192x2101 ![] bcast_S_S8192x2101 main_cst_118
  let main_v452 : FVec F S8192x2101 .f32 := subf main_v446 main_v451
  let main_v453 : FVec F S8192x2101 .f32 := mulf main_v433 main_v452
  let main_v454 : FVec F S8192x2101 .f32 := Host.divf main_v453 main_v450
  fn_part24 (F := F) main_arg0 main_v66 main_v399 main_v406 main_v410 main_v454

def fn_part22 {F : FTy → Type} [FloatOps F] (main_arg0 : FVec F S8192x1 .f32) (main_v66 : IVec S_ 1) (main_v399 : FVec F S8192x2101 .f32) (main_v406 : FVec F S8192x2101 .f32) (main_v407 : FVec F S8192x2101 .f32) (main_v408 : FVec F S8192x2101 .f32) (main_v410 : IVec S8192x2101 1) (main_v415 : FVec F S8192x2101 .f32) (main_v416 : FVec F S8192x2101 .f32) : IVec S_ 1 :=
  let main_v417 : FVec F S8192x2101 .f32 := subf main_v416 main_v408
  let main_v418 : FVec F S8192x2101 .f32 := mulf main_v415 main_v417
  let main_cst_109 : FVec F S_ .f32 := constant S_ .f32 0x3F800000#32
  let main_v419 : FVec F S8192x2101 .f32 := broadcastInDim S8192x2101 ![] bcast_S_S8192x2101 main_cst_109
  let main_v420 : FVec F S8192x2101 .f32 := subf main_v419 main_v407
  let main_v421 : FVec F S8192x2101 .f32 := mulf main_v418 main_v420
  let main_cst_110 : FVec F S_ .f32 := constant S_ .f32 0x3F800000#32
  let main_v422 : FVec F S8192x2101 .f32 := broadcastInDim S8192x2101 ![] bcast_S_S8192x2101 main_cst_110
  let main_v423 : FVec F S8192x2101 .f32 := select main_v410 main_v422 main_v421
  let main_v424 : FVec F S8192x2101 .f32 := Host.sqrt main_v423
  let main_v425 : FVec F S8192x2101 .f32 := mulf main_v406 main_v406
  let main_v426 : FVec F S8192x2101 .f32 := mulf main_v399 main_v399
  let main_v427 : FVec F S8192x2101 .f32 := subf main_v425 main_v426
  let main_cst_111 : FVec F S_ .f32 := constant S_ .f32 0x3F800000#32
  let main_v428 : FVec F S8192x2101 .f32 := broadcastInDim S8192x2101 ![] bcast_S_S8192x2101 main_cst_111
  let main_v429 : FVec F S8192x2101 .f32 := addf main_v428 main_v427
  let main_v430 : FVec F S8192x2101 .f32 := addf main_v429 main_v424
  let main_cst_112 : FVec F S_ .f32 := constant S_ .f32 0x40000000#32
  let main_v431 : FVec F S8192x2101 .f32 := broadcastInDim S8192x2101 ![] bcast_S_S8192x2101 main_cst_112
  let main_v432 : FVec F S8192x2101 .f32 := mulf main_v431 main_v406
  let main_v433 : FVec F S8192x2101 .f32 := Host.divf main_v430 main_v432
  let main_cst_113 : FVec F S_ .f32 := constant S_ .f32 0x3F800000#32
  let main_v434 : FVec F S8192x2101 .f32 := broadcastInDim S8192x2101 ![] bcast_S_S8192x2101 main_cst_113
  let main_v435 : FVec F S8192x2101 .f32 := subf main_v434 main_v427
  fn_part23 (F := F) main_arg0 main_v66 main_v399 main_v406 main_v410 main_v424 main_v433 main_v435

def fn_part21 {F : FTy → Type} [FloatOps F] (main_arg0 : FVec F S8192x1 .f32) (main_v66 : IVec S_ 1) (main_v155 : FVec F S8192x2101 .f32) (main_v381 : FVec F S2101 .f32) (main_v385 : FVec F S2101 .f32) (main_v392 : FVec F S8192x2101 .f32) (main_v395 : FVec F S8192x2101 .f32) (main_v396 : FVec F S1x2101 .f32) : IVec S_ 1 :=
  let main_v397 : FVec F S8192x2101 .f32 := broadcastInDim S8192x2101 ![0, 1] bcast_S1x2101_S8192x2101_0_1 main_v396
  let main_v398 : FVec F S8192x2101 .f32 := mulf main_v395 main_v397
  let main_v399 : FVec F S8192x2101 .f32 := Host.divf main_v398 main_v392
  let main_v400 : FVec F S1x2101 .f32 := broadcastInDim S1x2101 ![1] bcast_S2101_S1x2101_1 main_v385
  let main_v401 : FVec F S8192x2101 .f32 := broadcastInDim S8192x2101 ![0, 1] bcast_S1x2101_S8192x2101_0_1 main_v400
  let main_v402 : FVec F S8192x2101 .f32 := mulf main_v401 main_v155
  let main_v403 : FVec F S8192x2101 .f32 := mulf main_v402 main_v399
  let main_v404 : FVec F S1x2101 .f32 := broadcastInDim S1x2101 ![1] bcast_S2101_S1x2101_1 main_v381
  let main_v405 : FVec F S8192x2101 .f32 := broadcastInDim S8192x2101 ![0, 1] bcast_S1x2101_S8192x2101_0_1 main_v404
  let main_v406 : FVec F S8192x2101 .f32 := addf main_v405 main_v403
  let main_v407 : FVec F S8192x2101 .f32 := addf main_v406 main_v399
  let main_v408 : FVec F S8192x2101 .f32 := subf main_v406 main_v399
  let main_cst_105 : FVec F S_ .f32 := constant S_ .f32 0x3F800000#32
  let main_v409 : FVec F S8192x2101 .f32 := broadcastInDim S8192x2101 ![] bcast_S_S8192x2101 main_cst_105
  let main_v410 : IVec S8192x2101 1 := cmpf .oge main_v407 main_v409
  let main_cst_106 : FVec F S_ .f32 := constant S_ .f32 0x3F800000#32
  let main_v411 : FVec F S8192x2101 .f32 := broadcastInDim S8192x2101 ![] bcast_S_S8192x2101 main_cst_106
  let main_v412 : FVec F S8192x2101 .f32 := addf main_v411 main_v407
  let main_cst_107 : FVec F S_ .f32 := constant S_ .f32 0x3F800000#32
  let main_v413 : FVec F S8192x2101 .f32 := broadcastInDim S8192x2101 ![] bcast_S_S8192x2101 main_cst_107
  let main_v414 : FVec F S8192x2101 .f32 := addf main_v413 main_v408
  let main_v415 : FVec F S8192x2101 .f32 := mulf main_v412 main_v414
  let main_cst_108 : FVec F S_ .f32 := constant S_ .f32 0x3F800000#32
  let main_v416 : FVec F S8192x2101 .f32 := broadcastInDim S8192x2101 ![] bcast_S_S8192x2101 main_cst_108
  fn_part22 (F := F) main_arg0 main_v66 main_v399 main_v406 main_v407 main_v408 main_v410 main_v415 main_v416

def fn_part20 {F : FTy → Type} [FloatOps F] (main_arg0 : FVec F S8192x1 .f32) (main_arg6 : FVec F S2101 .f32) (main_v66 : IVec S_ 1) (main_v155 : FVec F S8192x2101 .f32) (main_v318 : FVec F S2101 .f32) (main_v376 : FVec F S2101 .f32) : IVec S_ 1 :=
  let main_v377 : FVec F S2101 .f32 := addf main_v318 main_v376
  let main_cst_101 : FVec F S_ .f32 := constant S_ .f32 0x40000000#32
  let main_v378 : FVec F S2101 .f32 := broadcastInDim S2101 ![] bcast_S_S2101 main_cst_101
  let main_v379 : FVec F S2101 .f32 := Host.divf main_v377 main_v378
  let main_cst_102 : FVec F S_ .f32 := constant S_ .f32 0x3F800000#32
  let main_v380 : FVec F S2101 .f32 := broadcastInDim S2101 ![] bcast_S_S2101 main_cst_102
  let main_v381 : FVec F S2101 .f32 := subf main_v380 main_v379
  let main_v382 : FVec F S2101 .f32 := mulf main_arg6 main_arg6
  let main_v383 : FVec F S2101 .f32 := Host.divf main_v379 main_v382
  let main_cst_103 : FVec F S_ .f32 := constant S_ .f32 0x3F800000#32
  let main_v384 : FVec F S2101 .f32 := broadcastInDim S2101 ![] bcast_S_S2101 main_cst_103
  let main_v385 : FVec F S2101 .f32 := subf main_v384 main_v383
  let main_v386 : FVec F S2101 .f32 := mulf main_v385 main_v385
  let main_v387 : FVec F S1x2101 .f32 := broadcastInDim S1x2101 ![1] bcast_S2101_S1x2101_1 main_v386
  let main_v388 : FVec F S8192x2101 .f32 := broadcastInDim S8192x2101 ![0, 1] bcast_S1x2101_S8192x2101_0_1 main_v387
  let main_v389 : FVec F S8192x2101 .f32 := mulf main_v388 main_v155
  let main_v390 : FVec F S8192x2101 .f32 := mulf main_v389 main_v155
  let main_cst_104 : FVec F S_ .f32 := constant S_ .f32 0x3F800000#32
  let main_v391 : FVec F S8192x2101 .f32 := broadcastInDim S8192x2101 ![] bcast_S_S8192x2101 main_cst_104
  let main_v392 : FVec F S8192x2101 .f32 := subf main_v391 main_v390
  let main_v393 : FVec F S1x2101 .f32 := broadcastInDim S1x2101 ![1] bcast_S2101_S1x2101_1 main_v379
  let main_v394 : FVec F S8192x2101 .f32 := broadcastInDim S8192x2101 ![0, 1] bcast_S1x2101_S8192x2101_0_1 main_v393
  let main_v395 : FVec F S8192x2101 .f32 := mulf main_v394 main_v155
  let main_v396 : FVec F S1x2101 .f32 := broadcastInDim S1x2101 ![1] bcast_S2101_S1x2101_1 main_v383
  fn_part21 (F := F) main_arg0 main_v66 main_v155 main_v381 main_v385 main_v392 main_v395 main_v396

def fn_part19 {F : FTy → Type} [FloatOps F] (main_arg0 : FVec F S8192x1 .f32) (main_arg6 : FVec F S2101 .f32) (main_v66 : IVec S_ 1) (main_v155 : FVec F S8192x2101 .f32) (main_v271 : FVec F S2101 .f32) (main_v318 : FVec F S2101 .f32) (main_v324 : FVec F S2101 .f32) (main_v325 : FVec F S2101 .f32) (main_v332 : FVec F S2101 .f32) (main_v340 : FVec F S2101 .f32) (main_v343 : FVec F S2101 .f32) (main_v347 : FVec F S2101 .f32) (main_v351 : FVec F S2101 .f32) (main_v353 : FVec F S2101 .f32) (main_v355 : FVec F S2101 .f32) : IVec S_ 1 :=
  let main_v356 : FVec F S2101 .f32 := mulf main_v353 main_v355
  let main_v357 : FVec F S2101 .f32 := Host.divf main_v351 main_v347
  let main_v358 : FVec F S2101 .f32 := Host.log main_v357
  let main_v359 : FVec F S2101 .f32 := mulf main_v356 main_v358
  let main_v360 : FVec F S2101 .f32 := mulf main_v343 main_v325
  let main_v361 : FVec F S2101 .f32 := Host.divf main_v359 main_v360
  let main_v362 : FVec F S2101 .f32 := mulf main_v271 main_v271
  let main_v363 : FVec F S2101 .f32 := mulf main_v362 main_v271
  let main_cst_98 : FVec F S_ .f32 := constant S_ .f32 0x41800000#32
  let main_v364 : FVec F S2101 .f32 := broadcastInDim S2101 ![] bcast_S_S2101 main_cst_98
  let main_v365 : FVec F S2101 .f32 := mulf main_v364 main_v363
  let main_cst_99 : FVec F S_ .f32 := constant S_ .f32 0x3F800000#32
  let main_v366 : FVec F S2101 .f32 := broadcastInDim S2101 ![] bcast_S_S2101 main_cst_99
  let main_v367 : FVec F S2101 .f32 := Host.divf main_v366 main_v351
  let main_cst_100 : FVec F S_ .f32 := constant S_ .f32 0x3F800000#32
  let main_v368 : FVec F S2101 .f32 := broadcastInDim S2101 ![] bcast_S_S2101 main_cst_100
  let main_v369 : FVec F S2101 .f32 := Host.divf main_v368 main_v347
  let main_v370 : FVec F S2101 .f32 := subf main_v367 main_v369
  let main_v371 : FVec F S2101 .f32 := mulf main_v365 main_v370
  let main_v372 : FVec F S2101 .f32 := Host.divf main_v371 main_v343
  let main_v373 : FVec F S2101 .f32 := addf main_v324 main_v332
  let main_v374 : FVec F S2101 .f32 := addf main_v373 main_v340
  let main_v375 : FVec F S2101 .f32 := addf main_v374 main_v361
  let main_v376 : FVec F S2101 .f32 := addf main_v375 main_v372
  fn_part20 (F := F) main_arg0 main_arg6 main_v66 main_v155 main_v318 main_v376

def fn_part18 {F : FTy → Type} [FloatOps F] (main_arg0 : FVec F S8192x1 .f32) (main_arg6 : FVec F S2101 .f32) (main_v66 : IVec S_ 1) (main_v155 : FVec F S8192x2101 .f32) (main_v271 : FVec F S2101 .f32) (main_v273 : FVec F S2101 .f32) (main_v282 : FVec F S2101 .f32) (main_v296 : FVec F S2101 .f32) (main_v318 : FVec F S2101 .f32) (main_v324 : FVec F S2101 .f32) (main_v325 : FVec F S2101 .f32) (main_v332 : FVec F S2101 .f32) (main_v334 : FVec F S2101 .f32) (main_v336 : FVec F S2101 .f32) : IVec S_ 1 :=
  let main_v337 : FVec F S2101 .f32 := subf main_v334 main_v336
  let main_v338 : FVec F S2101 .f32 := mulf main_v271 main_v337
  let main_cst_93 : FVec F S_ .f32 := constant S_ .f32 0x40000000#32
  let main_v339 : FVec F S2101 .f32 := broadcastInDim S2101 ![] bcast_S_S2101 main_cst_93
  let main_v340 : FVec F S2101 .f32 := Host.divf main_v338 main_v339
  let main_v341 : FVec F S2101 .f32 := mulf main_v271 main_v271
  let main_v342 : FVec F S2101 .f32 := mulf main_v273 main_v273
  let main_v343 : FVec F S2101 .f32 := mulf main_v342 main_v273
  let main_cst_94 : FVec F S_ .f32 := constant S_ .f32 0x40000000#32
  let main_v344 : FVec F S2101 .f32 := broadcastInDim S2101 ![] bcast_S_S2101 main_cst_94
  let main_v345 : FVec F S2101 .f32 := mulf main_v344 main_v273
  let main_v346 : FVec F S2101 .f32 := mulf main_v345 main_v282
  let main_v347 : FVec F S2101 .f32 := subf main_v346 main_v325
  let main_cst_95 : FVec F S_ .f32 := constant S_ .f32 0x40000000#32
  let main_v348 : FVec F S2101 .f32 := broadcastInDim S2101 ![] bcast_S_S2101 main_cst_95
  let main_v349 : FVec F S2101 .f32 := mulf main_v348 main_v273
  let main_v350 : FVec F S2101 .f32 := mulf main_v349 main_v296
  let main_v351 : FVec F S2101 .f32 := subf main_v350 main_v325
  let main_cst_96 : FVec F S_ .f32 := constant S_ .f32 0x41800000#32
  let main_v352 : FVec F S2101 .f32 := broadcastInDim S2101 ![] bcast_S_S2101 main_cst_96
  let main_v353 : FVec F S2101 .f32 := mulf main_v352 main_v341
  let main_cst_97 : FVec F S_ .f32 := constant S_ .f32 0x3F800000#32
  let main_v354 : FVec F S2101 .f32 := broadcastInDim S2101 ![] bcast_S_S2101 main_cst_97
  let main_v355 : FVec F S2101 .f32 := addf main_v341 main_v354
  fn_part19 (F := F) main_arg0 main_arg6 main_v66 main_v155 main_v271 main_v318 main_v324 main_v325 main_v332 main_v340 main_v343 main_v347 main_v351 main_v353 main_v355

def fn_part17 {F : FTy → Type} [FloatOps F] (main_arg0 : FVec F S8192x1 .f32) (main_arg6 : FVec F S2101 .f32) (main_v66 : IVec S_ 1) (main_v155 : FVec F S8192x2101 .f32) (main_v271 : FVec F S2101 .f32) (main_v273 : FVec F S2101 .f32) (main_v275 : FVec F S2101 .f32) (main_v282 : FVec F S2101 .f32) (main_v296 : FVec F S2101 .f32) (main_v307 : FVec F S2101 .f32) (main_v314 : FVec F S2101 .f32) (main_v316 : FVec F S2101 .f32) : IVec S_ 1 :=
  let main_v317 : FVec F S2101 .f32 := subf main_v314 main_v316
  let main_v318 : FVec F S2101 .f32 := subf main_v307 main_v317
  let main_cst_89 : FVec F S_ .f32 := constant S_ .f32 0xC0000000#32
  let main_v319 : FVec F S2101 .f32 := broadcastInDim S2101 ![] bcast_S_S2101 main_cst_89
  let main_v320 : FVec F S2101 .f32 := mulf main_v319 main_v271
  let main_v321 : FVec F S2101 .f32 := subf main_v296 main_v282
  let main_v322 : FVec F S2101 .f32 := mulf main_v320 main_v321
  let main_v323 : FVec F S2101 .f32 := mulf main_v273 main_v273
  let main_v324 : FVec F S2101 .f32 := Host.divf main_v322 main_v323
  let main_v325 : FVec F S2101 .f32 := mulf main_v275 main_v275
  let main_cst_90 : FVec F S_ .f32 := constant S_ .f32 0xC0000000#32
  let main_v326 : FVec F S2101 .f32 := broadcastInDim S2101 ![] bcast_S_S2101 main_cst_90
  let main_v327 : FVec F S2101 .f32 := mulf main_v326 main_v271
  let main_v328 : FVec F S2101 .f32 := mulf main_v327 main_v273
  let main_v329 : FVec F S2101 .f32 := Host.divf main_v296 main_v282
  let main_v330 : FVec F S2101 .f32 := Host.log main_v329
  let main_v331 : FVec F S2101 .f32 := mulf main_v328 main_v330
  let main_v332 : FVec F S2101 .f32 := Host.divf main_v331 main_v325
  let main_cst_91 : FVec F S_ .f32 := constant S_ .f32 0x3F800000#32
  let main_v333 : FVec F S2101 .f32 := broadcastInDim S2101 ![] bcast_S_S2101 main_cst_91
  let main_v334 : FVec F S2101 .f32 := Host.divf main_v333 main_v296
  let main_cst_92 : FVec F S_ .f32 := constant S_ .f32 0x3F800000#32
  let main_v335 : FVec F S2101 .f32 := broadcastInDim S2101 ![] bcast_S_S2101 main_cst_92
  let main_v336 : FVec F S2101 .f32 := Host.divf main_v335 main_v282
  fn_part18 (F := F) main_arg0 main_arg6 main_v66 main_v155 main_v271 main_v273 main_v282 main_v296 main_v318 main_v324 main_v325 main_v332 main_v334 main_v336

def fn_part16 {F : FTy → Type} [FloatOps F] (main_arg0 : FVec F S8192x1 .f32) (main_arg6 : FVec F S2101 .f32) (main_v66 : IVec S_ 1) (main_v155 : FVec F S8192x2101 .f32) (main_v271 : FVec F S2101 .f32) (main_v273 : FVec F S2101 .f32) (main_v275 : FVec F S2101 .f32) (main_v282 : FVec F S2101 .f32) (main_v290 : FVec F S2101 .f32) (main_v296 : FVec F S2101 .f32) : IVec S_ 1 :=
  let main_v297 : FVec F S2101 .f32 := mulf main_v290 main_v290
  let main_v298 : FVec F S2101 .f32 := mulf main_v296 main_v296
  let main_v299 : FVec F S2101 .f32 := mulf main_v298 main_v296
  let main_cst_85 : FVec F S_ .f32 := constant S_ .f32 0x40C00000#32
  let main_v300 : FVec F S2101 .f32 := broadcastInDim S2101 ![] bcast_S_S2101 main_cst_85
  let main_v301 : FVec F S2101 .f32 := mulf main_v300 main_v299
  let main_v302 : FVec F S2101 .f32 := Host.divf main_v297 main_v301
  let main_v303 : FVec F S2101 .f32 := Host.divf main_v290 main_v296
  let main_v304 : FVec F S2101 .f32 := addf main_v302 main_v303
  let main_cst_86 : FVec F S_ .f32 := constant S_ .f32 0x40000000#32
  let main_v305 : FVec F S2101 .f32 := broadcastInDim S2101 ![] bcast_S_S2101 main_cst_86
  let main_v306 : FVec F S2101 .f32 := Host.divf main_v296 main_v305
  let main_v307 : FVec F S2101 .f32 := subf main_v304 main_v306
  let main_v308 : FVec F S2101 .f32 := mulf main_v282 main_v282
  let main_v309 : FVec F S2101 .f32 := mulf main_v308 main_v282
  let main_cst_87 : FVec F S_ .f32 := constant S_ .f32 0x40C00000#32
  let main_v310 : FVec F S2101 .f32 := broadcastInDim S2101 ![] bcast_S_S2101 main_cst_87
  let main_v311 : FVec F S2101 .f32 := mulf main_v310 main_v309
  let main_v312 : FVec F S2101 .f32 := Host.divf main_v297 main_v311
  let main_v313 : FVec F S2101 .f32 := Host.divf main_v290 main_v282
  let main_v314 : FVec F S2101 .f32 := addf main_v312 main_v313
  let main_cst_88 : FVec F S_ .f32 := constant S_ .f32 0x40000000#32
  let main_v315 : FVec F S2101 .f32 := broadcastInDim S2101 ![] bcast_S_S2101 main_cst_88
  let main_v316 : FVec F S2101 .f32 := Host.divf main_v282 main_v315
  fn_part17 (F := F) main_arg0 main_arg6 main_v66 main_v155 main_v271 main_v273 main_v275 main_v282 main_v296 main_v307 main_v314 main_v316

def fn_part15 {F : FTy → Type} [FloatOps F] (main_arg0 : FVec F S8192x1 .f32) (main_arg6 : FVec F S2101 .f32) (main_v66 : IVec S_ 1) (main_v155 : FVec F S8192x2101 .f32) (main_v271 : FVec F S2101 .f32) (main_v273 : FVec F S2101 .f32) (main_v275 : FVec F S2101 .f32) (main_v277 : FVec F S2101 .f32) (main_v279 : FVec F S2101 .f32) : IVec S_ 1 :=
  let main_v280 : FVec F S2101 .f32 := mulf main_v277 main_v279
  let main_cst_78 : FVec F S_ .f32 := constant S_ .f32 0x40000000#32
  let main_v281 : FVec F S2101 .f32 := broadcastInDim S2101 ![] bcast_S_S2101 main_cst_78
  let main_v282 : FVec F S2101 .f32 := Host.divf main_v280 main_v281
  let main_cst_79 : FVec F S_ .f32 := constant S_ .f32 0x3F800000#32
  let main_v283 : FVec F S2101 .f32 := broadcastInDim S2101 ![] bcast_S_S2101 main_cst_79
  let main_v284 : FVec F S2101 .f32 := subf main_v271 main_v283
  let main_v285 : FVec F S2101 .f32 := Host.negf main_v284
  let main_cst_80 : FVec F S_ .f32 := constant S_ .f32 0x3F800000#32
  let main_v286 : FVec F S2101 .f32 := broadcastInDim S2101 ![] bcast_S_S2101 main_cst_80
  let main_v287 : FVec F S2101 .f32 := subf main_v271 main_v286
  let main_v288 : FVec F S2101 .f32 := mulf main_v285 main_v287
  let main_cst_81 : FVec F S_ .f32 := constant S_ .f32 0x40800000#32
  let main_v289 : FVec F S2101 .f32 := broadcastInDim S2101 ![] bcast_S_S2101 main_cst_81
  let main_v290 : FVec F S2101 .f32 := Host.divf main_v288 main_v289
  let main_cst_82 : FVec F S_ .f32 := constant S_ .f32 0x40000000#32
  let main_v291 : FVec F S2101 .f32 := broadcastInDim S2101 ![] bcast_S_S2101 main_cst_82
  let main_v292 : FVec F S2101 .f32 := Host.divf main_v273 main_v291
  let main_cst_83 : FVec F S_ .f32 := constant S_ .f32 0x3F800000#32
  let main_v293 : FVec F S2101 .f32 := broadcastInDim S2101 ![] bcast_S_S2101 main_cst_83
  let main_v294 : FVec F S2101 .f32 := subf main_v293 main_v292
  let main_cst_84 : FVec F S_ .f32 := constant S_ .f32 0x00000000#32
  let main_v295 : FVec F S2101 .f32 := broadcastInDim S2101 ![] bcast_S_S2101 main_cst_84
  let main_v296 : FVec F S2101 .f32 := subf main_v295 main_v294
  fn_part16 (F := F) main_arg0 main_arg6 main_v66 main_v155 main_v271 main_v273 main_v275 main_v282 main_v290 main_v296

def fn_part14 {F : FTy → Type} [FloatOps F] (main_arg0 : FVec F S8192x1 .f32) (main_arg6 : FVec F S2101 .f32) (main_v66 : IVec S_ 1) (main_v155 : FVec F S8192x2101 .f32) (main_v209 : FVec F S2101 .f32) (main_v215 : FVec F S2101 .f32) (main_v223 : FVec F S2101 .f32) (main_v231 : FVec F S2101 .f32) (main_v234 : FVec F S2101 .f32) (main_v252 : FVec F S2101 .f32) (main_v256 : FVec F S2101 .f32) (main_v258 : FVec F S2101 .f32) (main_v260 : FVec F S2101 .f32) : IVec S_ 1 :=
  let main_v261 : FVec F S2101 .f32 := subf main_v258 main_v260
  let main_v262 : FVec F S2101 .f32 := mulf main_v256 main_v261
  let main_v263 : FVec F S2101 .f32 := Host.divf main_v262 main_v234
  let main_v264 : FVec F S2101 .f32 := addf main_v215 main_v223
  let main_v265 : FVec F S2101 .f32 := addf main_v264 main_v231
  let main_v266 : FVec F S2101 .f32 := addf main_v265 main_v252
  let main_v267 : FVec F S2101 .f32 := addf main_v266 main_v263
  let main_v268 : FVec F S2101 .f32 := addf main_v209 main_v267
  let main_cst_73 : FVec F S_ .f32 := constant S_ .f32 0x3F538BCB#32
  let main_v269 : FVec F S2101 .f32 := broadcastInDim S2101 ![] bcast_S_S2101 main_cst_73
  let main_v270 : FVec F S2101 .f32 := Host.divf main_v268 main_v269
  let main_v271 : FVec F S2101 .f32 := mulf main_arg6 main_arg6
  let main_cst_74 : FVec F S_ .f32 := constant S_ .f32 0x3F800000#32
  let main_v272 : FVec F S2101 .f32 := broadcastInDim S2101 ![] bcast_S_S2101 main_cst_74
  let main_v273 : FVec F S2101 .f32 := addf main_v271 main_v272
  let main_cst_75 : FVec F S_ .f32 := constant S_ .f32 0x3F800000#32
  let main_v274 : FVec F S2101 .f32 := broadcastInDim S2101 ![] bcast_S_S2101 main_cst_75
  let main_v275 : FVec F S2101 .f32 := subf main_v271 main_v274
  let main_cst_76 : FVec F S_ .f32 := constant S_ .f32 0x3F800000#32
  let main_v276 : FVec F S2101 .f32 := broadcastInDim S2101 ![] bcast_S_S2101 main_cst_76
  let main_v277 : FVec F S2101 .f32 := addf main_arg6 main_v276
  let main_cst_77 : FVec F S_ .f32 := constant S_ .f32 0x3F800000#32
  let main_v278 : FVec F S2101 .f32 := broadcastInDim S2101 ![] bcast_S_S2101 main_cst_77
  let main_v279 : FVec F S2101 .f32 := addf main_arg6 main_v278
  fn_part15 (F := F) main_arg0 main_arg6 main_v66 main_v155 main_v271 main_v273 main_v275 main_v277 main_v279

def fn_part13 {F : FTy → Type} [FloatOps F] (main_arg0 : FVec F S8192x1 .f32) (main_arg6 : FVec F S2101 .f32) (main_v66 : IVec S_ 1) (main_v155 : FVec F S8192x2101 .f32) (main_v156 : FVec F S2101 .f32) (main_v209 : FVec F S2101 .f32) (main_v215 : FVec F S2101 .f32) (main_v216 : FVec F S2101 .f32) (main_v223 : FVec F S2101 .f32) (main_v231 : FVec F S2101 .f32) (main_v232 : FVec F S2101 .f32) (main_v234 : FVec F S2101 .f32) (main_v238 : FVec F S2101 .f32) (main_v241 : FVec F S2101 .f32) : IVec S_ 1 :=
  let main_v242 : FVec F S2101 .f32 := subf main_v241 main_v216
  let main_cst_68 : FVec F S_ .f32 := constant S_ .f32 0x41800000#32
  let main_v243 : FVec F S2101 .f32 := broadcastInDim S2101 ![] bcast_S_S2101 main_cst_68
  let main_v244 : FVec F S2101 .f32 := mulf main_v243 main_v232
  let main_cst_69 : FVec F S_ .f32 := constant S_ .f32 0x3F800000#32
  let main_v245 : FVec F S2101 .f32 := broadcastInDim S2101 ![] bcast_S_S2101 main_cst_69
  let main_v246 : FVec F S2101 .f32 := addf main_v232 main_v245
  let main_v247 : FVec F S2101 .f32 := mulf main_v244 main_v246
  let main_v248 : FVec F S2101 .f32 := Host.divf main_v242 main_v238
  let main_v249 : FVec F S2101 .f32 := Host.log main_v248
  let main_v250 : FVec F S2101 .f32 := mulf main_v247 main_v249
  let main_v251 : FVec F S2101 .f32 := mulf main_v234 main_v216
  let main_v252 : FVec F S2101 .f32 := Host.divf main_v250 main_v251
  let main_v253 : FVec F S2101 .f32 := mulf main_v156 main_v156
  let main_v254 : FVec F S2101 .f32 := mulf main_v253 main_v156
  let main_cst_70 : FVec F S_ .f32 := constant S_ .f32 0x41800000#32
  let main_v255 : FVec F S2101 .f32 := broadcastInDim S2101 ![] bcast_S_S2101 main_cst_70
  let main_v256 : FVec F S2101 .f32 := mulf main_v255 main_v254
  let main_cst_71 : FVec F S_ .f32 := constant S_ .f32 0x3F800000#32
  let main_v257 : FVec F S2101 .f32 := broadcastInDim S2101 ![] bcast_S_S2101 main_cst_71
  let main_v258 : FVec F S2101 .f32 := Host.divf main_v257 main_v242
  let main_cst_72 : FVec F S_ .f32 := constant S_ .f32 0x3F800000#32
  let main_v259 : FVec F S2101 .f32 := broadcastInDim S2101 ![] bcast_S_S2101 main_cst_72
  let main_v260 : FVec F S2101 .f32 := Host.divf main_v259 main_v238
  fn_part14 (F := F) main_arg0 main_arg6 main_v66 main_v155 main_v209 main_v215 main_v223 main_v231 main_v234 main_v252 main_v256 main_v258 main_v260

def fn_part12 {F : FTy → Type} [FloatOps F] (main_arg0 : FVec F S8192x1 .f32) (main_arg6 : FVec F S2101 .f32) (main_v66 : IVec S_ 1) (main_v155 : FVec F S8192x2101 .f32) (main_v156 : FVec F S2101 .f32) (main_v158 : FVec F S2101 .f32) (main_v167 : FVec F S2101 .f32) (main_v187 : FVec F S2101 .f32) (main_v209 : FVec F S2101 .f32) (main_v215 : FVec F S2101 .f32) (main_v216 : FVec F S2101 .f32) (main_v222 : FVec F S2101 .f32) : IVec S_ 1 :=
  let main_v223 : FVec F S2101 .f32 := Host.divf main_v222 main_v216
  let main_cst_63 : FVec F S_ .f32 := constant S_ .f32 0x3F800000#32
  let main_v224 : FVec F S2101 .f32 := broadcastInDim S2101 ![] bcast_S_S2101 main_cst_63
  let main_v225 : FVec F S2101 .f32 := Host.divf main_v224 main_v187
  let main_cst_64 : FVec F S_ .f32 := constant S_ .f32 0x3F800000#32
  let main_v226 : FVec F S2101 .f32 := broadcastInDim S2101 ![] bcast_S_S2101 main_cst_64
  let main_v227 : FVec F S2101 .f32 := Host.divf main_v226 main_v167
  let main_v228 : FVec F S2101 .f32 := subf main_v225 main_v227
  let main_v229 : FVec F S2101 .f32 := mulf main_v156 main_v228
  let main_cst_65 : FVec F S_ .f32 := constant S_ .f32 0x40000000#32
  let main_v230 : FVec F S2101 .f32 := broadcastInDim S2101 ![] bcast_S_S2101 main_cst_65
  let main_v231 : FVec F S2101 .f32 := Host.divf main_v229 main_v230
  let main_v232 : FVec F S2101 .f32 := mulf main_v156 main_v156
  let main_v233 : FVec F S2101 .f32 := mulf main_v158 main_v158
  let main_v234 : FVec F S2101 .f32 := mulf main_v233 main_v158
  let main_cst_66 : FVec F S_ .f32 := constant S_ .f32 0x40000000#32
  let main_v235 : FVec F S2101 .f32 := broadcastInDim S2101 ![] bcast_S_S2101 main_cst_66
  let main_v236 : FVec F S2101 .f32 := mulf main_v235 main_v158
  let main_v237 : FVec F S2101 .f32 := mulf main_v236 main_v167
  let main_v238 : FVec F S2101 .f32 := subf main_v237 main_v216
  let main_cst_67 : FVec F S_ .f32 := constant S_ .f32 0x40000000#32
  let main_v239 : FVec F S2101 .f32 := broadcastInDim S2101 ![] bcast_S_S2101 main_cst_67
  let main_v240 : FVec F S2101 .f32 := mulf main_v239 main_v158
  let main_v241 : FVec F S2101 .f32 := mulf main_v240 main_v187
  fn_part13 (F := F) main_arg0 main_arg6 main_v66 main_v155 main_v156 main_v209 main_v215 main_v216 main_v223 main_v231 main_v232 main_v234 main_v238 main_v241

def fn_part11 {F : FTy → Type} [FloatOps F] (main_arg0 : FVec F S8192x1 .f32) (main_arg6 : FVec F S2101 .f32) (main_v66 : IVec S_ 1) (main_v155 : FVec F S8192x2101 .f32) (main_v156 : FVec F S2101 .f32) (main_v158 : FVec F S2101 .f32) (main_v160 : FVec F S2101 .f32) (main_v167 : FVec F S2101 .f32) (main_v175 : FVec F S2101 .f32) (main_v187 : FVec F S2101 .f32) (main_v188 : FVec F S2101 .f32) (main_v198 : FVec F S2101 .f32) (main_v200 : FVec F S2101 .f32) (main_v201 : FVec F S2101 .f32) : IVec S_ 1 :=
  let main_v202 : FVec F S2101 .f32 := mulf main_v201 main_v200
  let main_v203 : FVec F S2101 .f32 := Host.divf main_v188 main_v202
  let main_v204 : FVec F S2101 .f32 := Host.divf main_v175 main_v167
  let main_v205 : FVec F S2101 .f32 := addf main_v203 main_v204
  let main_cst_60 : FVec F S_ .f32 := constant S_ .f32 0x40000000#32
  let main_v206 : FVec F S2101 .f32 := broadcastInDim S2101 ![] bcast_S_S2101 main_cst_60
  let main_v207 : FVec F S2101 .f32 := Host.divf main_v167 main_v206
  let main_v208 : FVec F S2101 .f32 := subf main_v205 main_v207
  let main_v209 : FVec F S2101 .f32 := subf main_v198 main_v208
  let main_cst_61 : FVec F S_ .f32 := constant S_ .f32 0xC0000000#32
  let main_v210 : FVec F S2101 .f32 := broadcastInDim S2101 ![] bcast_S_S2101 main_cst_61
  let main_v211 : FVec F S2101 .f32 := mulf main_v210 main_v156
  let main_v212 : FVec F S2101 .f32 := subf main_v187 main_v167
  let main_v213 : FVec F S2101 .f32 := mulf main_v211 main_v212
  let main_v214 : FVec F S2101 .f32 := mulf main_v158 main_v158
  let main_v215 : FVec F S2101 .f32 := Host.divf main_v213 main_v214
  let main_v216 : FVec F S2101 .f32 := mulf main_v160 main_v160
  let main_cst_62 : FVec F S_ .f32 := constant S_ .f32 0xC0000000#32
  let main_v217 : FVec F S2101 .f32 := broadcastInDim S2101 ![] bcast_S_S2101 main_cst_62
  let main_v218 : FVec F S2101 .f32 := mulf main_v217 main_v156
  let main_v219 : FVec F S2101 .f32 := mulf main_v218 main_v158
  let main_v220 : FVec F S2101 .f32 := Host.divf main_v187 main_v167
  let main_v221 : FVec F S2101 .f32 := Host.log main_v220
  let main_v222 : FVec F S2101 .f32 := mulf main_v219 main_v221
  fn_part12 (F := F) main_arg0 main_arg6 main_v66 main_v155 main_v156 main_v158 main_v167 main_v187 main_v209 main_v215 main_v216 main_v222

def fn_part10 {F : FTy → Type} [FloatOps F] (main_arg0 : FVec F S8192x1 .f32) (main_arg6 : FVec F S2101 .f32) (main_v66 : IVec S_ 1) (main_v155 : FVec F S8192x2101 .f32) (main_v156 : FVec F S2101 .f32) (main_v158 : FVec F S2101 .f32) (main_v160 : FVec F S2101 .f32) (main_v167 : FVec F S2101 .f32) (main_v175 : FVec F S2101 .f32) (main_v182 : FVec F S2101 .f32) : IVec S_ 1 :=
  let main_cst_55 : FVec F S_ .f32 := constant S_ .f32 0x40000000#32
  let main_v183 : FVec F S2101 .f32 := broadcastInDim S2101 ![] bcast_S_S2101 main_cst_55
  let main_v184 : FVec F S2101 .f32 := Host.divf main_v158 main_v183
  let main_cst_56 : FVec F S_ .f32 := constant S_ .f32 0x3ED38BCB#32
  let main_v185 : FVec F S2101 .f32 := broadcastInDim S2101 ![] bcast_S_S2101 main_cst_56
  let main_v186 : FVec F S2101 .f32 := subf main_v185 main_v184
  let main_v187 : FVec F S2101 .f32 := subf main_v182 main_v186
  let main_v188 : FVec F S2101 .f32 := mulf main_v175 main_v175
  let main_v189 : FVec F S2101 .f32 := mulf main_v187 main_v187
  let main_v190 : FVec F S2101 .f32 := mulf main_v189 main_v187
  let main_cst_57 : FVec F S_ .f32 := constant S_ .f32 0x40C00000#32
  let main_v191 : FVec F S2101 .f32 := broadcastInDim S2101 ![] bcast_S_S2101 main_cst_57
  let main_v192 : FVec F S2101 .f32 := mulf main_v191 main_v190
  let main_v193 : FVec F S2101 .f32 := Host.divf main_v188 main_v192
  let main_v194 : FVec F S2101 .f32 := Host.divf main_v175 main_v187
  let main_v195 : FVec F S2101 .f32 := addf main_v193 main_v194
  let main_cst_58 : FVec F S_ .f32 := constant S_ .f32 0x40000000#32
  let main_v196 : FVec F S2101 .f32 := broadcastInDim S2101 ![] bcast_S_S2101 main_cst_58
  let main_v197 : FVec F S2101 .f32 := Host.divf main_v187 main_v196
  let main_v198 : FVec F S2101 .f32 := subf main_v195 main_v197
  let main_v199 : FVec F S2101 .f32 := mulf main_v167 main_v167
  let main_v200 : FVec F S2101 .f32 := mulf main_v199 main_v167
  let main_cst_59 : FVec F S_ .f32 := constant S_ .f32 0x40C00000#32
  let main_v201 : FVec F S2101 .f32 := broadcastInDim S2101 ![] bcast_S_S2101 main_cst_59
  fn_part11 (F := F) main_arg0 main_arg6 main_v66 main_v155 main_v156 main_v158 main_v160 main_v167 main_v175 main_v187 main_v188 main_v198 main_v200 main_v201

def fn_part9 {F : FTy → Type} [FloatOps F] (main_arg0 : FVec F S8192x1 .f32) (main_arg6 : FVec F S2101 .f32) (main_v66 : IVec S_ 1) (main_v155 : FVec F S8192x2101 .f32) (main_v156 : FVec F S2101 .f32) (main_v158 : FVec F S2101 .f32) (main_v160 : FVec F S2101 .f32) (main_v162 : FVec F S2101 .f32) (main_v164 : FVec F S2101 .f32) : IVec S_ 1 :=
  let main_v165 : FVec F S2101 .f32 := mulf main_v162 main_v164
  let main_cst_49 : FVec F S_ .f32 := constant S_ .f32 0x40000000#32
  let main_v166 : FVec F S2101 .f32 := broadcastInDim S2101 ![] bcast_S_S2101 main_cst_49
  let main_v167 : FVec F S2101 .f32 := Host.divf main_v165 main_v166
  let main_cst_50 : FVec F S_ .f32 := constant S_ .f32 0x3F800000#32
  let main_v168 : FVec F S2101 .f32 := broadcastInDim S2101 ![] bcast_S_S2101 main_cst_50
  let main_v169 : FVec F S2101 .f32 := subf main_v156 main_v168
  let main_v170 : FVec F S2101 .f32 := Host.negf main_v169
  let main_cst_51 : FVec F S_ .f32 := constant S_ .f32 0x3F800000#32
  let main_v171 : FVec F S2101 .f32 := broadcastInDim S2101 ![] bcast_S_S2101 main_cst_51
  let main_v172 : FVec F S2101 .f32 := subf main_v156 main_v171
  let main_v173 : FVec F S2101 .f32 := mulf main_v170 main_v172
  let main_cst_52 : FVec F S_ .f32 := constant S_ .f32 0x40800000#32
  let main_v174 : FVec F S2101 .f32 := broadcastInDim S2101 ![] bcast_S_S2101 main_cst_52
  let main_v175 : FVec F S2101 .f32 := Host.divf main_v173 main_v174
  let main_cst_53 : FVec F S_ .f32 := constant S_ .f32 0x40000000#32
  let main_v176 : FVec F S2101 .f32 := broadcastInDim S2101 ![] bcast_S_S2101 main_cst_53
  let main_v177 : FVec F S2101 .f32 := Host.divf main_v158 main_v176
  let main_cst_54 : FVec F S_ .f32 := constant S_ .f32 0x3ED38BCB#32
  let main_v178 : FVec F S2101 .f32 := broadcastInDim S2101 ![] bcast_S_S2101 main_cst_54
  let main_v179 : FVec F S2101 .f32 := subf main_v178 main_v177
  let main_v180 : FVec F S2101 .f32 := mulf main_v179 main_v179
  let main_v181 : FVec F S2101 .f32 := addf main_v180 main_v175
  let main_v182 : FVec F S2101 .f32 := Host.sqrt main_v181
  fn_part10 (F := F) main_arg0 main_arg6 main_v66 main_v155 main_v156 main_v158 main_v160 main_v167 main_v175 main_v182

def fn_part8 {F : FTy → Type} [FloatOps F] (main_arg0 : FVec F S8192x1 .f32) (main_arg6 : FVec F S2101 .f32) (main_v66 : IVec S_ 1) (main_v94 : FVec F S8192x2101 .f32) (main_v99 : FVec F S8192x2101 .f32) (main_v100 : FVec F S8192x2101 .f32) (main_v119 : FVec F S8192x2101 .f32) (main_v122 : FVec F S8192x2101 .f32) (main_v135 : FVec F S8192x2101 .f32) (main_v146 : FVec F S8192x2101 .f32) : IVec S_ 1 :=
  let main_cst_43 : FVec F S_ .f32 := constant S_ .f32 0x407D5803#32
  let main_v147 : FVec F S8192x2101 .f32 := broadcastInDim S8192x2101 ![] bcast_S_S8192x2101 main_cst_43
  let main_v148 : FVec F S8192x2101 .f32 := addf main_v146 main_v147
  let main_v149 : FVec F S8192x2101 .f32 := Host.divf main_v135 main_v148
  let main_v150 : FVec F S8192x2101 .f32 := mulf main_v122 main_v149
  let main_cst_44 : FVec F S_ .f32 := constant S_ .f32 0x3F800000#32
  let main_v151 : FVec F S8192x2101 .f32 := broadcastInDim S8192x2101 ![] bcast_S_S8192x2101 main_cst_44
  let main_v152 : IVec S8192x2101 1 := cmpf .ole main_v94 main_v151
  let main_v153 : FVec F S8192x2101 .f32 := select main_v152 main_v119 main_v150
  let main_v154 : FVec F S8192x2101 .f32 := mulf main_v100 main_v153
  let main_v155 : FVec F S8192x2101 .f32 := addf main_v99 main_v154
  let main_v156 : FVec F S2101 .f32 := mulf main_arg6 main_arg6
  let main_cst_45 : FVec F S_ .f32 := constant S_ .f32 0x3F800000#32
  let main_v157 : FVec F S2101 .f32 := broadcastInDim S2101 ![] bcast_S_S2101 main_cst_45
  let main_v158 : FVec F S2101 .f32 := addf main_v156 main_v157
  let main_cst_46 : FVec F S_ .f32 := constant S_ .f32 0x3F800000#32
  let main_v159 : FVec F S2101 .f32 := broadcastInDim S2101 ![] bcast_S_S2101 main_cst_46
  let main_v160 : FVec F S2101 .f32 := subf main_v156 main_v159
  let main_cst_47 : FVec F S_ .f32 := constant S_ .f32 0x3F800000#32
  let main_v161 : FVec F S2101 .f32 := broadcastInDim S2101 ![] bcast_S_S2101 main_cst_47
  let main_v162 : FVec F S2101 .f32 := addf main_arg6 main_v161
  let main_cst_48 : FVec F S_ .f32 := constant S_ .f32 0x3F800000#32
  let main_v163 : FVec F S2101 .f32 := broadcastInDim S2101 ![] bcast_S_S2101 main_cst_48
  let main_v164 : FVec F S2101 .f32 := addf main_arg6 main_v163
  fn_part9 (F := F) main_arg0 main_arg6 main_v66 main_v155 main_v156 main_v158 main_v160 main_v162 main_v164

def fn_part7 {F : FTy → Type} [FloatOps F] (main_arg0 : FVec F S8192x1 .f32) (main_arg6 : FVec F S2101 .f32) (main_v66 : IVec S_ 1) (main_v94 : FVec F S8192x2101 .f32) (main_v99 : FVec F S8192x2101 .f32) (main_v100 : FVec F S8192x2101 .f32) (main_v119 : FVec F S8192x2101 .f32) (main_v122 : FVec F S8192x2101 .f32) (main_v127 : FVec F S8192x2101 .f32) (main_v128 : FVec F S8192x2101 .f32) : IVec S_ 1 :=
  let main_v129 : FVec F S8192x2101 .f32 := addf main_v127 main_v128
  let main_v130 : FVec F S8192x2101 .f32 := mulf main_v129 main_v94
  let main_cst_37 : FVec F S_ .f32 := constant S_ .f32 0x410A27FB#32
  let main_v131 : FVec F S8192x2101 .f32 := broadcastInDim S8192x2101 ![] bcast_S_S8192x2101 main_cst_37
  let main_v132 : FVec F S8192x2101 .f32 := addf main_v130 main_v131
  let main_v133 : FVec F S8192x2101 .f32 := mulf main_v132 main_v94
  let main_cst_38 : FVec F S_ .f32 := constant S_ .f32 0x3E8919A4#32
  let main_v134 : FVec F S8192x2101 .f32 := broadcastInDim S8192x2101 ![] bcast_S_S8192x2101 main_cst_38
  let main_v135 : FVec F S8192x2101 .f32 := addf main_v133 main_v134
  let main_cst_39 : FVec F S_ .f32 := constant S_ .f32 0x3F800000#32
  let main_v136 : FVec F S8192x2101 .f32 := broadcastInDim S8192x2101 ![] bcast_S_S8192x2101 main_cst_39
  let main_v137 : FVec F S8192x2101 .f32 := mulf main_v136 main_v94
  let main_cst_40 : FVec F S_ .f32 := constant S_ .f32 0x41192C54#32
  let main_v138 : FVec F S8192x2101 .f32 := broadcastInDim S8192x2101 ![] bcast_S_S8192x2101 main_cst_40
  let main_v139 : FVec F S8192x2101 .f32 := addf main_v137 main_v138
  let main_v140 : FVec F S8192x2101 .f32 := mulf main_v139 main_v94
  let main_cst_41 : FVec F S_ .f32 := constant S_ .f32 0x41CD104B#32
  let main_v141 : FVec F S8192x2101 .f32 := broadcastInDim S8192x2101 ![] bcast_S_S8192x2101 main_cst_41
  let main_v142 : FVec F S8192x2101 .f32 := addf main_v140 main_v141
  let main_v143 : FVec F S8192x2101 .f32 := mulf main_v142 main_v94
  let main_cst_42 : FVec F S_ .f32 := constant S_ .f32 0x41A8CC17#32
  let main_v144 : FVec F S8192x2101 .f32 := broadcastInDim S8192x2101 ![] bcast_S_S8192x2101 main_cst_42
  let main_v145 : FVec F S8192x2101 .f32 := addf main_v143 main_v144
  let main_v146 : FVec F S8192x2101 .f32 := mulf main_v145 main_v94
  fn_part8 (F := F) main_arg0 main_arg6 main_v66 main_v94 main_v99 main_v100 main_v119 main_v122 main_v135 main_v146

def fn_part6 {F : FTy → Type} [FloatOps F] (main_arg0 : FVec F S8192x1 .f32) (main_arg6 : FVec F S2101 .f32) (main_v66 : IVec S_ 1) (main_v94 : FVec F S8192x2101 .f32) (main_v99 : FVec F S8192x2101 .f32) (main_v100 : FVec F S8192x2101 .f32) (main_v102 : FVec F S8192x2101 .f32) (main_v110 : FVec F S8192x2101 .f32) : IVec S_ 1 :=
  let main_cst_31 : FVec F S_ .f32 := constant S_ .f32 0xBE7FE88D#32
  let main_v111 : FVec F S8192x2101 .f32 := broadcastInDim S8192x2101 ![] bcast_S_S8192x2101 main_cst_31
  let main_v112 : FVec F S8192x2101 .f32 := addf main_v110 main_v111
  let main_v113 : FVec F S8192x2101 .f32 := mulf main_v112 main_v94
  let main_cst_32 : FVec F S_ .f32 := constant S_ .f32 0x3F7FFF79#32
  let main_v114 : FVec F S8192x2101 .f32 := broadcastInDim S8192x2101 ![] bcast_S_S8192x2101 main_cst_32
  let main_v115 : FVec F S8192x2101 .f32 := addf main_v113 main_v114
  let main_v116 : FVec F S8192x2101 .f32 := mulf main_v115 main_v94
  let main_cst_33 : FVec F S_ .f32 := constant S_ .f32 0xBF13C468#32
  let main_v117 : FVec F S8192x2101 .f32 := broadcastInDim S8192x2101 ![] bcast_S_S8192x2101 main_cst_33
  let main_v118 : FVec F S8192x2101 .f32 := addf main_v116 main_v117
  let main_v119 : FVec F S8192x2101 .f32 := addf main_v102 main_v118
  let main_v120 : FVec F S8192x2101 .f32 := Host.negf main_v94
  let main_v121 : FVec F S8192x2101 .f32 := Host.exp main_v120
  let main_v122 : FVec F S8192x2101 .f32 := Host.divf main_v121 main_v94
  let main_cst_34 : FVec F S_ .f32 := constant S_ .f32 0x3F800000#32
  let main_v123 : FVec F S8192x2101 .f32 := broadcastInDim S8192x2101 ![] bcast_S_S8192x2101 main_cst_34
  let main_v124 : FVec F S8192x2101 .f32 := mulf main_v123 main_v94
  let main_cst_35 : FVec F S_ .f32 := constant S_ .f32 0x41092C5B#32
  let main_v125 : FVec F S8192x2101 .f32 := broadcastInDim S8192x2101 ![] bcast_S_S8192x2101 main_cst_35
  let main_v126 : FVec F S8192x2101 .f32 := addf main_v124 main_v125
  let main_v127 : FVec F S8192x2101 .f32 := mulf main_v126 main_v94
  let main_cst_36 : FVec F S_ .f32 := constant S_ .f32 0x419078DE#32
  let main_v128 : FVec F S8192x2101 .f32 := broadcastInDim S8192x2101 ![] bcast_S_S8192x2101 main_cst_36
  fn_part7 (F := F) main_arg0 main_arg6 main_v66 main_v94 main_v99 main_v100 main_v119 main_v122 main_v127 main_v128

def fn_part5 {F : FTy → Type} [FloatOps F] (main_arg0 : FVec F S8192x1 .f32) (main_arg6 : FVec F S2101 .f32) (main_v66 : IVec S_ 1) (main_v90 : FVec F S8192x2101 .f32) (main_v91 : FVec F S8192x2101 .f32) : IVec S_ 1 :=
  let main_v92 : FVec F S8192x2101 .f32 := Host.divf main_v90 main_v91
  let main_cst_26 : FVec F S_ .f32 := constant S_ .f32 0x38D1B717#32
  let main_v93 : FVec F S8192x2101 .f32 := broadcastInDim S8192x2101 ![] bcast_S_S8192x2101 main_cst_26
  let main_v94 : FVec F S8192x2101 .f32 := maximumf main_v92 main_v93
  let main_cst_27 : FVec F S_ .f32 := constant S_ .f32 0x3F800000#32
  let main_v95 : FVec F S8192x2101 .f32 := broadcastInDim S8192x2101 ![] bcast_S_S8192x2101 main_cst_27
  let main_v96 : FVec F S8192x2101 .f32 := subf main_v95 main_v94
  let main_v97 : FVec F S8192x2101 .f32 := Host.negf main_v94
  let main_v98 : FVec F S8192x2101 .f32 := Host.exp main_v97
  let main_v99 : FVec F S8192x2101 .f32 := mulf main_v96 main_v98
  let main_v100 : FVec F S8192x2101 .f32 := mulf main_v94 main_v94
  let main_v101 : FVec F S8192x2101 .f32 := Host.log main_v94
  let main_v102 : FVec F S8192x2101 .f32 := Host.negf main_v101
  let main_cst_28 : FVec F S_ .f32 := constant S_ .f32 0x3A8D5ECE#32
  let main_v103 : FVec F S8192x2101 .f32 := broadcastInDim S8192x2101 ![] bcast_S_S8192x2101 main_cst_28
  let main_v104 : FVec F S8192x2101 .f32 := mulf main_v103 main_v94
  let main_cst_29 : FVec F S_ .f32 := constant S_ .f32 0xBC1FE893#32
  let main_v105 : FVec F S8192x2101 .f32 := broadcastInDim S8192x2101 ![] bcast_S_S8192x2101 main_cst_29
  let main_v106 : FVec F S8192x2101 .f32 := addf main_v104 main_v105
  let main_v107 : FVec F S8192x2101 .f32 := mulf main_v106 main_v94
  let main_cst_30 : FVec F S_ .f32 := constant S_ .f32 0x3D62190F#32
  let main_v108 : FVec F S8192x2101 .f32 := broadcastInDim S8192x2101 ![] bcast_S_S8192x2101 main_cst_30
  let main_v109 : FVec F S8192x2101 .f32 := addf main_v107 main_v108
  let main_v110 : FVec F S8192x2101 .f32 := mulf main_v109 main_v94
  fn_part6 (F := F) main_arg0 main_arg6 main_v66 main_v94 main_v99 main_v100 main_v102 main_v110

def fn_part4 {F : FTy → Type} [FloatOps F] (main_arg0 : FVec F S8192x1 .f32) (main_arg1 : FVec F S8192x1 .f32) (main_arg2 : FVec F S8192x1 .f32) (main_arg3 : FVec F S8192x1 .f32) (main_arg4 : FVec F S8192x1 .f32) (main_arg5 : FVec F S8192x1 .f32) (main_arg6 : FVec F S2101 .f32) (main_arg8 : FVec F S2101 .f32) (main_arg9 : FVec F S2101 .f32) (main_arg10 : FVec F S2101 .f32) (main_arg11 : FVec F S2101 .f32) (main_v66 : IVec S_ 1) (main_v67 : FVec F S1x2101 .f32) : IVec S_ 1 :=
  let main_v68 : FVec F S8192x2101 .f32 := broadcastInDim S8192x2101 ![0, 1] bcast_S8192x1_S8192x2101_0_1 main_arg1
  let main_v69 : FVec F S8192x2101 .f32 := broadcastInDim S8192x2101 ![0, 1] bcast_S1x2101_S8192x2101_0_1 main_v67
  let main_v70 : FVec F S8192x2101 .f32 := mulf main_v68 main_v69
  let main_v71 : FVec F S1x2101 .f32 := broadcastInDim S1x2101 ![1] bcast_S2101_S1x2101_1 main_arg8
  let main_v72 : FVec F S8192x2101 .f32 := broadcastInDim S8192x2101 ![0, 1] bcast_S8192x1_S8192x2101_0_1 main_arg2
  let main_v73 : FVec F S8192x2101 .f32 := broadcastInDim S8192x2101 ![0, 1] bcast_S1x2101_S8192x2101_0_1 main_v71
  let main_v74 : FVec F S8192x2101 .f32 := mulf main_v72 main_v73
  let main_v75 : FVec F S8192x2101 .f32 := addf main_v70 main_v74
  let main_v76 : FVec F S1x2101 .f32 := broadcastInDim S1x2101 ![1] bcast_S2101_S1x2101_1 main_arg9
  let main_v77 : FVec F S8192x2101 .f32 := broadcastInDim S8192x2101 ![0, 1] bcast_S8192x1_S8192x2101_0_1 main_arg5
  let main_v78 : FVec F S8192x2101 .f32 := broadcastInDim S8192x2101 ![0, 1] bcast_S1x2101_S8192x2101_0_1 main_v76
  let main_v79 : FVec F S8192x2101 .f32 := mulf main_v77 main_v78
  let main_v80 : FVec F S8192x2101 .f32 := addf main_v75 main_v79
  let main_v81 : FVec F S1x2101 .f32 := broadcastInDim S1x2101 ![1] bcast_S2101_S1x2101_1 main_arg10
  let main_v82 : FVec F S8192x2101 .f32 := broadcastInDim S8192x2101 ![0, 1] bcast_S8192x1_S8192x2101_0_1 main_arg3
  let main_v83 : FVec F S8192x2101 .f32 := broadcastInDim S8192x2101 ![0, 1] bcast_S1x2101_S8192x2101_0_1 main_v81
  let main_v84 : FVec F S8192x2101 .f32 := mulf main_v82 main_v83
  let main_v85 : FVec F S8192x2101 .f32 := addf main_v80 main_v84
  let main_v86 : FVec F S1x2101 .f32 := broadcastInDim S1x2101 ![1] bcast_S2101_S1x2101_1 main_arg11
  let main_v87 : FVec F S8192x2101 .f32 := broadcastInDim S8192x2101 ![0, 1] bcast_S8192x1_S8192x2101_0_1 main_arg4
  let main_v88 : FVec F S8192x2101 .f32 := broadcastInDim S8192x2101 ![0, 1] bcast_S1x2101_S8192x2101_0_1 main_v86
  let main_v89 : FVec F S8192x2101 .f32 := mulf main_v87 main_v88
  let main_v90 : FVec F S8192x2101 .f32 := addf main_v85 main_v89
  let main_v91 : FVec F S8192x2101 .f32 := broadcastInDim S8192x2101 ![0, 1] bcast_S8192x1_S8192x2101_0_1 main_arg0
  fn_part5 (F := F) main_arg0 main_arg6 main_v66 main_v90 main_v91

def fn_part3 {F : FTy → Type} [FloatOps F] (main_arg0 : FVec F S8192x1 .f32) (main_arg1 : FVec F S8192x1 .f32) (main_arg2 : FVec F S8192x1 .f32) (main_arg3 : FVec F S8192x1 .f32) (main_arg4 : FVec F S8192x1 .f32) (main_arg5 : FVec F S8192x1 .f32) (main_arg6 : FVec F S2101 .f32) (main_arg7 : FVec F S2101 .f32) (main_arg8 : FVec F S2101 .f32) (main_arg9 : FVec F S2101 .f32) (main_arg10 : FVec F S2101 .f32) (main_arg11 : FVec F S2101 .f32) (main_v48 : IVec S_ 1) (main_v49 : FVec F S2101 .f32) (main_v50 : FVec F S2101 .f32) : IVec S_ 1 :=
  let main_v51 : IVec S2101 1 := cmpf .olt main_v49 main_v50
  let main_c_19 : IVec S_ 1 := constantI S_ 1 1#1
  let main_v52 : IVec S_ 1 := (fun x v => Host.reduce IntOp.andi x v reducesTo_S2101_S_d0 h_S_) main_v51 main_c_19
  let main_v53 : IVec S_ 1 := andi main_v48 main_v52
  let main_v54 : FVec F S2101 .f32 := Host.absf main_arg11
  let main_cst_20 : FVec F S_ .f32 := constant S_ .f32 0x7F800000#32
  let main_v55 : FVec F S2101 .f32 := broadcastInDim S2101 ![] bcast_S_S2101 main_cst_20
  let main_v56 : IVec S2101 1 := cmpf .olt main_v54 main_v55
  let main_c_21 : IVec S_ 1 := constantI S_ 1 1#1
  let main_v57 : IVec S_ 1 := (fun x v => Host.reduce IntOp.andi x v reducesTo_S2101_S_d0 h_S_) main_v56 main_c_21
  let main_v58 : IVec S_ 1 := andi main_v53 main_v57
  let main_cst_22 : FVec F S_ .f32 := constant S_ .f32 0x00000000#32
  let main_v59 : FVec F S8192x1 .f32 := broadcastInDim S8192x1 ![] bcast_S_S8192x1 main_cst_22
  let main_v60 : IVec S8192x1 1 := cmpf .une main_arg0 main_v59
  let main_c_23 : IVec S_ 1 := constantI S_ 1 1#1
  let main_v61 : IVec S_ 1 := (fun x v => Host.reduce IntOp.andi x v reducesTo_S8192x1_S_d0_1 h_S_) main_v60 main_c_23
  let main_v62 : IVec S_ 1 := andi main_v58 main_v61
  let main_cst_24 : FVec F S_ .f32 := constant S_ .f32 0x3F800000#32
  let main_v63 : FVec F S2101 .f32 := broadcastInDim S2101 ![] bcast_S_S2101 main_cst_24
  let main_v64 : IVec S2101 1 := cmpf .ogt main_arg6 main_v63
  let main_c_25 : IVec S_ 1 := constantI S_ 1 1#1
  let main_v65 : IVec S_ 1 := (fun x v => Host.reduce IntOp.andi x v reducesTo_S2101_S_d0 h_S_) main_v64 main_c_25
  let main_v66 : IVec S_ 1 := andi main_v62 main_v65
  let main_v67 : FVec F S1x2101 .f32 := broadcastInDim S1x2101 ![1] bcast_S2101_S1x2101_1 main_arg7
  fn_part4 (F := F) main_arg0 main_arg1 main_arg2 main_arg3 main_arg4 main_arg5 main_arg6 main_arg8 main_arg9 main_arg10 main_arg11 main_v66 main_v67

def fn_part2 {F : FTy → Type} [FloatOps F] (main_arg0 : FVec F S8192x1 .f32) (main_arg1 : FVec F S8192x1 .f32) (main_arg2 : FVec F S8192x1 .f32) (main_arg3 : FVec F S8192x1 .f32) (main_arg4 : FVec F S8192x1 .f32) (main_arg5 : FVec F S8192x1 .f32) (main_arg6 : FVec F S2101 .f32) (main_arg7 : FVec F S2101 .f32) (main_arg8 : FVec F S2101 .f32) (main_arg9 : FVec F S2101 .f32) (main_arg10 : FVec F S2101 .f32) (main_arg11 : FVec F S2101 .f32) (main_v33 : IVec S_ 1) : IVec S_ 1 :=
  let main_v34 : FVec F S2101 .f32 := Host.absf main_arg7
  let main_cst_12 : FVec F S_ .f32 := constant S_ .f32 0x7F800000#32
  let main_v35 : FVec F S2101 .f32 := broadcastInDim S2101 ![] bcast_S_S2101 main_cst_12
  let main_v36 : IVec S2101 1 := cmpf .olt main_v34 main_v35
  let main_c_13 : IVec S_ 1 := constantI S_ 1 1#1
  let main_v37 : IVec S_ 1 := (fun x v => Host.reduce IntOp.andi x v reducesTo_S2101_S_d0 h_S_) main_v36 main_c_13
  let main_v38 : IVec S_ 1 := andi main_v33 main_v37
  let main_v39 : FVec F S2101 .f32 := Host.absf main_arg8
  let main_cst_14 : FVec F S_ .f32 := constant S_ .f32 0x7F800000#32
  let main_v40 : FVec F S2101 .f32 := broadcastInDim S2101 ![] bcast_S_S2101 main_cst_14
  let main_v41 : IVec S2101 1 := cmpf .olt main_v39 main_v40
  let main_c_15 : IVec S_ 1 := constantI S_ 1 1#1
  let main_v42 : IVec S_ 1 := (fun x v => Host.reduce IntOp.andi x v reducesTo_S2101_S_d0 h_S_) main_v41 main_c_15
  let main_v43 : IVec S_ 1 := andi main_v38 main_v42
  let main_v44 : FVec F S2101 .f32 := Host.absf main_arg9
  let main_cst_16 : FVec F S_ .f32 := constant S_ .f32 0x7F800000#32
  let main_v45 : FVec F S2101 .f32 := broadcastInDim S2101 ![] bcast_S_S2101 main_cst_16
  let main_v46 : IVec S2101 1 := cmpf .olt main_v44 main_v45
  let main_c_17 : IVec S_ 1 := constantI S_ 1 1#1
  let main_v47 : IVec S_ 1 := (fun x v => Host.reduce IntOp.andi x v reducesTo_S2101_S_d0 h_S_) main_v46 main_c_17
  let main_v48 : IVec S_ 1 := andi main_v43 main_v47
  let main_v49 : FVec F S2101 .f32 := Host.absf main_arg10
  let main_cst_18 : FVec F S_ .f32 := constant S_ .f32 0x7F800000#32
  let main_v50 : FVec F S2101 .f32 := broadcastInDim S2101 ![] bcast_S_S2101 main_cst_18
  fn_part3 (F := F) main_arg0 main_arg1 main_arg2 main_arg3 main_arg4 main_arg5 main_arg6 main_arg7 main_arg8 main_arg9 main_arg10 main_arg11 main_v48 main_v49 main_v50

def fn_part1 {F : FTy → Type} [FloatOps F] (main_arg0 : FVec F S8192x1 .f32) (main_arg1 : FVec F S8192x1 .f32) (main_arg2 : FVec F S8192x1 .f32) (main_arg3 : FVec F S8192x1 .f32) (main_arg4 : FVec F S8192x1 .f32) (main_arg5 : FVec F S8192x1 .f32) (main_arg6 : FVec F S2101 .f32) (main_arg7 : FVec F S2101 .f32) (main_arg8 : FVec F S2101 .f32) (main_arg9 : FVec F S2101 .f32) (main_arg10 : FVec F S2101 .f32) (main_arg11 : FVec F S2101 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192x1 .f32 := Host.absf main_arg4
  let main_cst_6 : FVec F S_ .f32 := constant S_ .f32 0x7F800000#32
  let main_v20 : FVec F S8192x1 .f32 := broadcastInDim S8192x1 ![] bcast_S_S8192x1 main_cst_6
  let main_v21 : IVec S8192x1 1 := cmpf .olt main_v19 main_v20
  let main_c_7 : IVec S_ 1 := constantI S_ 1 1#1
  let main_v22 : IVec S_ 1 := (fun x v => Host.reduce IntOp.andi x v reducesTo_S8192x1_S_d0_1 h_S_) main_v21 main_c_7
  let main_v23 : IVec S_ 1 := andi main_v18 main_v22
  let main_v24 : FVec F S8192x1 .f32 := Host.absf main_arg5
  let main_cst_8 : FVec F S_ .f32 := constant S_ .f32 0x7F800000#32
  let main_v25 : FVec F S8192x1 .f32 := broadcastInDim S8192x1 ![] bcast_S_S8192x1 main_cst_8
  let main_v26 : IVec S8192x1 1 := cmpf .olt main_v24 main_v25
  let main_c_9 : IVec S_ 1 := constantI S_ 1 1#1
  let main_v27 : IVec S_ 1 := (fun x v => Host.reduce IntOp.andi x v reducesTo_S8192x1_S_d0_1 h_S_) main_v26 main_c_9
  let main_v28 : IVec S_ 1 := andi main_v23 main_v27
  let main_v29 : FVec F S2101 .f32 := Host.absf main_arg6
  let main_cst_10 : FVec F S_ .f32 := constant S_ .f32 0x7F800000#32
  let main_v30 : FVec F S2101 .f32 := broadcastInDim S2101 ![] bcast_S_S2101 main_cst_10
  let main_v31 : IVec S2101 1 := cmpf .olt main_v29 main_v30
  let main_c_11 : IVec S_ 1 := constantI S_ 1 1#1
  let main_v32 : IVec S_ 1 := (fun x v => Host.reduce IntOp.andi x v reducesTo_S2101_S_d0 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_v33

def fn {F : FTy → Type} [FloatOps F] (main_arg0 : FVec F S8192x1 .f32) (main_arg1 : FVec F S8192x1 .f32) (main_arg2 : FVec F S8192x1 .f32) (main_arg3 : FVec F S8192x1 .f32) (main_arg4 : FVec F S8192x1 .f32) (main_arg5 : FVec F S8192x1 .f32) (main_arg6 : FVec F S2101 .f32) (main_arg7 : FVec F S2101 .f32) (main_arg8 : FVec F S2101 .f32) (main_arg9 : FVec F S2101 .f32) (main_arg10 : FVec F S2101 .f32) (main_arg11 : FVec F S2101 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg0 main_arg1 main_arg2 main_arg3 main_arg4 main_arg5 main_arg6 main_arg7 main_arg8 main_arg9 main_arg10 main_arg11 main_v13 main_v16
-- ==== Kernel.lean ====
abbrev S8192x1 : Shape := ⟨2, ![8192, 1]⟩
abbrev S2101 : Shape := ⟨1, ![2101]⟩
abbrev S_ : Shape := ⟨0, ![]⟩
abbrev S1x2101 : Shape := ⟨2, ![1, 2101]⟩
abbrev S8192x2101 : Shape := ⟨2, ![8192, 2101]⟩
abbrev S256x1 : Shape := ⟨2, ![256, 1]⟩
abbrev S256x2101 : Shape := ⟨2, ![256, 2101]⟩

abbrev nBuf : Space → Nat
  | .hbm => 323
  | .vmem => 27
  | .smem => 0
  | _ => 0

abbrev hbmTy0_0 (i : Nat) : BufTy := match i % 128 with
  | 0 => ⟨S8192x1, .f32⟩
  | 1 => ⟨S8192x1, .f32⟩
  | 2 => ⟨S8192x1, .f32⟩
  | 3 => ⟨S8192x1, .f32⟩
  | 4 => ⟨S8192x1, .f32⟩
  | 5 => ⟨S8192x1, .f32⟩
  | 6 => ⟨S2101, .f32⟩
  | 7 => ⟨S2101, .f32⟩
  | 8 => ⟨S2101, .f32⟩
  | 9 => ⟨S2101, .f32⟩
  | 10 => ⟨S2101, .f32⟩
  | 11 => ⟨S2101, .f32⟩
  | 12 => ⟨S2101, .f32⟩
  | 13 => ⟨S_, .f32⟩
  | 14 => ⟨S2101, .f32⟩
  | 15 => ⟨S2101, .f32⟩
  | 16 => ⟨S_, .f32⟩
  | 17 => ⟨S2101, .f32⟩
  | 18 => ⟨S2101, .f32⟩
  | 19 => ⟨S_, .f32⟩
  | 20 => ⟨S2101, .f32⟩
  | 21 => ⟨S2101, .f32⟩
  | 22 => ⟨S_, .f32⟩
  | 23 => ⟨S2101, .f32⟩
  | 24 => ⟨S2101, .f32⟩
  | 25 => ⟨S2101, .f32⟩
  | 26 => ⟨S_, .f32⟩
  | 27 => ⟨S2101, .f32⟩
  | 28 => ⟨S2101, .f32⟩
  | 29 => ⟨S_, .f32⟩
  | 30 => ⟨S2101, .f32⟩
  | 31 => ⟨S2101, .f32⟩
  | 32 => ⟨S2101, .f32⟩
  | 33 => ⟨S_, .f32⟩
  | 34 => ⟨S2101, .f32⟩
  | 35 => ⟨S2101, .f32⟩
  | 36 => ⟨S2101, .f32⟩
  | 37 => ⟨S_, .f32⟩
  | 38 => ⟨S2101, .f32⟩
  | 39 => ⟨S2101, .f32⟩
  | 40 => ⟨S_, .f32⟩
  | 41 => ⟨S2101, .f32⟩
  | 42 => ⟨S2101, .f32⟩
  | 43 => ⟨S_, .f32⟩
  | 44 => ⟨S2101, .f32⟩
  | 45 => ⟨S2101, .f32⟩
  | 46 => ⟨S_, .f32⟩
  | 47 => ⟨S2101, .f32⟩
  | 48 => ⟨S2101, .f32⟩
  | 49 => ⟨S_, .f32⟩
  | 50 => ⟨S2101, .f32⟩
  | 51 => ⟨S2101, .f32⟩
  | 52 => ⟨S2101, .f32⟩
  | 53 => ⟨S2101, .f32⟩
  | 54 => ⟨S2101, .f32⟩
  | 55 => ⟨S_, .f32⟩
  | 56 => ⟨S2101, .f32⟩
  | 57 => ⟨S2101, .f32⟩
  | 58 => ⟨S_, .f32⟩
  | 59 => ⟨S2101, .f32⟩
  | 60 => ⟨S2101, .f32⟩
  | 61 => ⟨S2101, .f32⟩
  | 62 => ⟨S2101, .f32⟩
  | 63 => ⟨S2101, .f32⟩
  | 64 => ⟨S2101, .f32⟩
  | 65 => ⟨S2101, .f32⟩
  | 66 => ⟨S2101, .f32⟩
  | 67 => ⟨S_, .f32⟩
  | 68 => ⟨S2101, .f32⟩
  | 69 => ⟨S2101, .f32⟩
  | 70 => ⟨S2101, .f32⟩
  | 71 => ⟨S2101, .f32⟩
  | 72 => ⟨S2101, .f32⟩
  | 73 => ⟨S_, .f32⟩
  | 74 => ⟨S2101, .f32⟩
  | 75 => ⟨S2101, .f32⟩
  | 76 => ⟨S2101, .f32⟩
  | 77 => ⟨S_, .f32⟩
  | 78 => ⟨S2101, .f32⟩
  | 79 => ⟨S2101, .f32⟩
  | 80 => ⟨S2101, .f32⟩
  | 81 => ⟨S2101, .f32⟩
  | 82 => ⟨S2101, .f32⟩
  | 83 => ⟨S_, .f32⟩
  | 84 => ⟨S2101, .f32⟩
  | 85 => ⟨S2101, .f32⟩
  | 86 => ⟨S2101, .f32⟩
  | 87 => ⟨S2101, .f32⟩
  | 88 => ⟨S2101, .f32⟩
  | 89 => ⟨S_, .f32⟩
  | 90 => ⟨S2101, .f32⟩
  | 91 => ⟨S2101, .f32⟩
  | 92 => ⟨S2101, .f32⟩
  | 93 => ⟨S2101, .f32⟩
  | 94 => ⟨S2101, .f32⟩
  | 95 => ⟨S2101, .f32⟩
  | 96 => ⟨S_, .f32⟩
  | 97 => ⟨S2101, .f32⟩
  | 98 => ⟨S2101, .f32⟩
  | 99 => ⟨S2101, .f32⟩
  | 100 => ⟨S2101, .f32⟩
  | 101 => ⟨S2101, .f32⟩
  | 102 => ⟨S2101, .f32⟩
  | 103 => ⟨S2101, .f32⟩
  | 104 => ⟨S_, .f32⟩
  | 105 => ⟨S2101, .f32⟩
  | 106 => ⟨S2101, .f32⟩
  | 107 => ⟨S_, .f32⟩
  | 108 => ⟨S2101, .f32⟩
  | 109 => ⟨S2101, .f32⟩
  | 110 => ⟨S2101, .f32⟩
  | 111 => ⟨S2101, .f32⟩
  | 112 => ⟨S_, .f32⟩
  | 113 => ⟨S2101, .f32⟩
  | 114 => ⟨S2101, .f32⟩
  | 115 => ⟨S2101, .f32⟩
  | 116 => ⟨S2101, .f32⟩
  | 117 => ⟨S2101, .f32⟩
  | 118 => ⟨S_, .f32⟩
  | 119 => ⟨S2101, .f32⟩
  | 120 => ⟨S2101, .f32⟩
  | 121 => ⟨S2101, .f32⟩
  | 122 => ⟨S2101, .f32⟩
  | 123 => ⟨S_, .f32⟩
  | 124 => ⟨S2101, .f32⟩
  | 125 => ⟨S2101, .f32⟩
  | 126 => ⟨S2101, .f32⟩
  | 127 => ⟨S2101, .f32⟩
  | _ => ⟨S8192x1, .f32⟩

abbrev hbmTy0_1 (i : Nat) : BufTy := match i % 128 with
  | 0 => ⟨S_, .f32⟩
  | 1 => ⟨S2101, .f32⟩
  | 2 => ⟨S2101, .f32⟩
  | 3 => ⟨S_, .f32⟩
  | 4 => ⟨S2101, .f32⟩
  | 5 => ⟨S2101, .f32⟩
  | 6 => ⟨S2101, .f32⟩
  | 7 => ⟨S2101, .f32⟩
  | 8 => ⟨S2101, .f32⟩
  | 9 => ⟨S2101, .f32⟩
  | 10 => ⟨S2101, .f32⟩
  | 11 => ⟨S2101, .f32⟩
  | 12 => ⟨S2101, .f32⟩
  | 13 => ⟨S2101, .f32⟩
  | 14 => ⟨S_, .f32⟩
  | 15 => ⟨S2101, .f32⟩
  | 16 => ⟨S2101, .f32⟩
  | 17 => ⟨S_, .f32⟩
  | 18 => ⟨S2101, .f32⟩
  | 19 => ⟨S2101, .f32⟩
  | 20 => ⟨S_, .f32⟩
  | 21 => ⟨S2101, .f32⟩
  | 22 => ⟨S2101, .f32⟩
  | 23 => ⟨S2101, .f32⟩
  | 24 => ⟨S2101, .f32⟩
  | 25 => ⟨S2101, .f32⟩
  | 26 => ⟨S2101, .f32⟩
  | 27 => ⟨S2101, .f32⟩
  | 28 => ⟨S2101, .f32⟩
  | 29 => ⟨S2101, .f32⟩
  | 30 => ⟨S2101, .f32⟩
  | 31 => ⟨S_, .f32⟩
  | 32 => ⟨S2101, .f32⟩
  | 33 => ⟨S2101, .f32⟩
  | 34 => ⟨S_, .f32⟩
  | 35 => ⟨S2101, .f32⟩
  | 36 => ⟨S2101, .f32⟩
  | 37 => ⟨S2101, .f32⟩
  | 38 => ⟨S_, .f32⟩
  | 39 => ⟨S2101, .f32⟩
  | 40 => ⟨S2101, .f32⟩
  | 41 => ⟨S_, .f32⟩
  | 42 => ⟨S2101, .f32⟩
  | 43 => ⟨S2101, .f32⟩
  | 44 => ⟨S_, .f32⟩
  | 45 => ⟨S2101, .f32⟩
  | 46 => ⟨S2101, .f32⟩
  | 47 => ⟨S_, .f32⟩
  | 48 => ⟨S2101, .f32⟩
  | 49 => ⟨S2101, .f32⟩
  | 50 => ⟨S2101, .f32⟩
  | 51 => ⟨S_, .f32⟩
  | 52 => ⟨S2101, .f32⟩
  | 53 => ⟨S2101, .f32⟩
  | 54 => ⟨S_, .f32⟩
  | 55 => ⟨S2101, .f32⟩
  | 56 => ⟨S2101, .f32⟩
  | 57 => ⟨S2101, .f32⟩
  | 58 => ⟨S_, .f32⟩
  | 59 => ⟨S2101, .f32⟩
  | 60 => ⟨S2101, .f32⟩
  | 61 => ⟨S2101, .f32⟩
  | 62 => ⟨S_, .f32⟩
  | 63 => ⟨S2101, .f32⟩
  | 64 => ⟨S2101, .f32⟩
  | 65 => ⟨S_, .f32⟩
  | 66 => ⟨S2101, .f32⟩
  | 67 => ⟨S2101, .f32⟩
  | 68 => ⟨S_, .f32⟩
  | 69 => ⟨S2101, .f32⟩
  | 70 => ⟨S2101, .f32⟩
  | 71 => ⟨S_, .f32⟩
  | 72 => ⟨S2101, .f32⟩
  | 73 => ⟨S2101, .f32⟩
  | 74 => ⟨S2101, .f32⟩
  | 75 => ⟨S2101, .f32⟩
  | 76 => ⟨S2101, .f32⟩
  | 77 => ⟨S2101, .f32⟩
  | 78 => ⟨S2101, .f32⟩
  | 79 => ⟨S_, .f32⟩
  | 80 => ⟨S2101, .f32⟩
  | 81 => ⟨S2101, .f32⟩
  | 82 => ⟨S2101, .f32⟩
  | 83 => ⟨S2101, .f32⟩
  | 84 => ⟨S2101, .f32⟩
  | 85 => ⟨S_, .f32⟩
  | 86 => ⟨S2101, .f32⟩
  | 87 => ⟨S2101, .f32⟩
  | 88 => ⟨S2101, .f32⟩
  | 89 => ⟨S_, .f32⟩
  | 90 => ⟨S2101, .f32⟩
  | 91 => ⟨S2101, .f32⟩
  | 92 => ⟨S2101, .f32⟩
  | 93 => ⟨S2101, .f32⟩
  | 94 => ⟨S2101, .f32⟩
  | 95 => ⟨S_, .f32⟩
  | 96 => ⟨S2101, .f32⟩
  | 97 => ⟨S2101, .f32⟩
  | 98 => ⟨S2101, .f32⟩
  | 99 => ⟨S2101, .f32⟩
  | 100 => ⟨S2101, .f32⟩
  | 101 => ⟨S_, .f32⟩
  | 102 => ⟨S2101, .f32⟩
  | 103 => ⟨S2101, .f32⟩
  | 104 => ⟨S2101, .f32⟩
  | 105 => ⟨S2101, .f32⟩
  | 106 => ⟨S2101, .f32⟩
  | 107 => ⟨S2101, .f32⟩
  | 108 => ⟨S_, .f32⟩
  | 109 => ⟨S2101, .f32⟩
  | 110 => ⟨S2101, .f32⟩
  | 111 => ⟨S2101, .f32⟩
  | 112 => ⟨S2101, .f32⟩
  | 113 => ⟨S2101, .f32⟩
  | 114 => ⟨S2101, .f32⟩
  | 115 => ⟨S2101, .f32⟩
  | 116 => ⟨S_, .f32⟩
  | 117 => ⟨S2101, .f32⟩
  | 118 => ⟨S2101, .f32⟩
  | 119 => ⟨S_, .f32⟩
  | 120 => ⟨S2101, .f32⟩
  | 121 => ⟨S2101, .f32⟩
  | 122 => ⟨S2101, .f32⟩
  | 123 => ⟨S2101, .f32⟩
  | 124 => ⟨S_, .f32⟩
  | 125 => ⟨S2101, .f32⟩
  | 126 => ⟨S2101, .f32⟩
  | 127 => ⟨S2101, .f32⟩
  | _ => ⟨S8192x1, .f32⟩

abbrev hbmTy0_2 (i : Nat) : BufTy := match i % 128 with
  | 0 => ⟨S2101, .f32⟩
  | 1 => ⟨S2101, .f32⟩
  | 2 => ⟨S_, .f32⟩
  | 3 => ⟨S2101, .f32⟩
  | 4 => ⟨S2101, .f32⟩
  | 5 => ⟨S2101, .f32⟩
  | 6 => ⟨S2101, .f32⟩
  | 7 => ⟨S_, .f32⟩
  | 8 => ⟨S2101, .f32⟩
  | 9 => ⟨S2101, .f32⟩
  | 10 => ⟨S2101, .f32⟩
  | 11 => ⟨S2101, .f32⟩
  | 12 => ⟨S_, .f32⟩
  | 13 => ⟨S2101, .f32⟩
  | 14 => ⟨S2101, .f32⟩
  | 15 => ⟨S_, .f32⟩
  | 16 => ⟨S2101, .f32⟩
  | 17 => ⟨S2101, .f32⟩
  | 18 => ⟨S2101, .f32⟩
  | 19 => ⟨S2101, .f32⟩
  | 20 => ⟨S2101, .f32⟩
  | 21 => ⟨S2101, .f32⟩
  | 22 => ⟨S2101, .f32⟩
  | 23 => ⟨S2101, .f32⟩
  | 24 => ⟨S2101, .f32⟩
  | 25 => ⟨S2101, .f32⟩
  | 26 => ⟨S_, .f32⟩
  | 27 => ⟨S2101, .f32⟩
  | 28 => ⟨S2101, .f32⟩
  | 29 => ⟨S_, .f32⟩
  | 30 => ⟨S2101, .f32⟩
  | 31 => ⟨S2101, .f32⟩
  | 32 => ⟨S_, .f32⟩
  | 33 => ⟨S2101, .f32⟩
  | 34 => ⟨S2101, .f32⟩
  | 35 => ⟨S2101, .f32⟩
  | 36 => ⟨S2101, .f32⟩
  | 37 => ⟨S2101, .f32⟩
  | 38 => ⟨S2101, .f32⟩
  | 39 => ⟨S2101, .f32⟩
  | 40 => ⟨S2101, .f32⟩
  | 41 => ⟨S2101, .f32⟩
  | 42 => ⟨S2101, .f32⟩
  | 43 => ⟨S_, .f32⟩
  | 44 => ⟨S2101, .f32⟩
  | 45 => ⟨S2101, .f32⟩
  | 46 => ⟨S_, .f32⟩
  | 47 => ⟨S2101, .f32⟩
  | 48 => ⟨S2101, .f32⟩
  | 49 => ⟨S2101, .f32⟩
  | 50 => ⟨S2101, .f32⟩
  | 51 => ⟨S_, .f32⟩
  | 52 => ⟨S2101, .f32⟩
  | 53 => ⟨S2101, .f32⟩
  | 54 => ⟨S1x2101, .f32⟩
  | 55 => ⟨S1x2101, .f32⟩
  | 56 => ⟨S1x2101, .f32⟩
  | 57 => ⟨S1x2101, .f32⟩
  | 58 => ⟨S1x2101, .f32⟩
  | 59 => ⟨S1x2101, .f32⟩
  | 60 => ⟨S1x2101, .f32⟩
  | 61 => ⟨S1x2101, .f32⟩
  | 62 => ⟨S1x2101, .f32⟩
  | 63 => ⟨S1x2101, .f32⟩
  | 64 => ⟨S1x2101, .f32⟩
  | 65 => ⟨S8192x2101, .f32⟩
  | 66 => ⟨S8192x2101, .f32⟩
  | _ => ⟨S8192x1, .f32⟩

abbrev hbmTy (i : Nat) : BufTy := match i / 128 with
  | 0 => hbmTy0_0 i
  | 1 => hbmTy0_1 i
  | 2 => hbmTy0_2 i
  | _ => ⟨S8192x1, .f32⟩

abbrev bufTy : (tb : Table) → Fin (tcTables nBuf tb) → BufTy
  | .hbm, ⟨i, _⟩ => hbmTy i
  | .local _ .vmem, ⟨0, _⟩ => ⟨S256x1, .f32⟩
  | .local _ .vmem, ⟨1, _⟩ => ⟨S256x1, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S1x2101, .f32⟩
  | .local _ .vmem, ⟨13, _⟩ => ⟨S1x2101, .f32⟩
  | .local _ .vmem, ⟨14, _⟩ => ⟨S1x2101, .f32⟩
  | .local _ .vmem, ⟨15, _⟩ => ⟨S1x2101, .f32⟩
  | .local _ .vmem, ⟨16, _⟩ => ⟨S1x2101, .f32⟩
  | .local _ .vmem, ⟨17, _⟩ => ⟨S1x2101, .f32⟩
  | .local _ .vmem, ⟨18, _⟩ => ⟨S1x2101, .f32⟩
  | .local _ .vmem, ⟨19, _⟩ => ⟨S1x2101, .f32⟩
  | .local _ .vmem, ⟨20, _⟩ => ⟨S1x2101, .f32⟩
  | .local _ .vmem, ⟨21, _⟩ => ⟨S1x2101, .f32⟩
  | .local _ .vmem, ⟨22, _⟩ => ⟨S1x2101, .f32⟩
  | .local _ .vmem, ⟨23, _⟩ => ⟨S256x2101, .f32⟩
  | .local _ .vmem, ⟨24, _⟩ => ⟨S256x2101, .f32⟩
  | .local _ .vmem, ⟨25, _⟩ => ⟨S256x2101, .f32⟩
  | .local _ .vmem, ⟨26, _⟩ => ⟨S256x2101, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_v20 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_v23 : Ref sig .tc := ⟨.hbm, 45, rfl⟩
abbrev main_cst_9 : Ref sig .tc := ⟨.hbm, 46, rfl⟩
abbrev main_v24 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_11 : Ref sig .tc := ⟨.hbm, 55, rfl⟩
abbrev main_v31 : Ref sig .tc := ⟨.hbm, 56, rfl⟩
abbrev main_v32 : Ref sig .tc := ⟨.hbm, 57, rfl⟩
abbrev main_cst_12 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_15 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_16 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_18 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_19 : Ref sig .tc := ⟨.hbm, 104, rfl⟩
abbrev main_v72 : Ref sig .tc := ⟨.hbm, 105, rfl⟩
abbrev main_v73 : Ref sig .tc := ⟨.hbm, 106, rfl⟩
abbrev main_cst_20 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_21 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_22 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_23 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_24 : Ref sig .tc := ⟨.hbm, 128, rfl⟩
abbrev main_v91 : Ref sig .tc := ⟨.hbm, 129, rfl⟩
abbrev main_v92 : Ref sig .tc := ⟨.hbm, 130, rfl⟩
abbrev main_cst_25 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_26 : Ref sig .tc := ⟨.hbm, 142, rfl⟩
abbrev main_v103 : Ref sig .tc := ⟨.hbm, 143, rfl⟩
abbrev main_v104 : Ref sig .tc := ⟨.hbm, 144, rfl⟩
abbrev main_cst_27 : Ref sig .tc := ⟨.hbm, 145, rfl⟩
abbrev main_v105 : Ref sig .tc := ⟨.hbm, 146, rfl⟩
abbrev main_v106 : Ref sig .tc := ⟨.hbm, 147, rfl⟩
abbrev main_cst_28 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_29 : Ref sig .tc := ⟨.hbm, 159, rfl⟩
abbrev main_v117 : Ref sig .tc := ⟨.hbm, 160, rfl⟩
abbrev main_v118 : Ref sig .tc := ⟨.hbm, 161, rfl⟩
abbrev main_cst_30 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_31 : Ref sig .tc := ⟨.hbm, 166, rfl⟩
abbrev main_v122 : Ref sig .tc := ⟨.hbm, 167, rfl⟩
abbrev main_v123 : Ref sig .tc := ⟨.hbm, 168, rfl⟩
abbrev main_cst_32 : Ref sig .tc := ⟨.hbm, 169, rfl⟩
abbrev main_v124 : Ref sig .tc := ⟨.hbm, 170, rfl⟩
abbrev main_v125 : Ref sig .tc := ⟨.hbm, 171, rfl⟩
abbrev main_cst_33 : Ref sig .tc := ⟨.hbm, 172, rfl⟩
abbrev main_v126 : Ref sig .tc := ⟨.hbm, 173, rfl⟩
abbrev main_v127 : Ref sig .tc := ⟨.hbm, 174, rfl⟩
abbrev main_cst_34 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_35 : Ref sig .tc := ⟨.hbm, 179, rfl⟩
abbrev main_v131 : Ref sig .tc := ⟨.hbm, 180, rfl⟩
abbrev main_v132 : Ref sig .tc := ⟨.hbm, 181, rfl⟩
abbrev main_cst_36 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_37 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_38 : Ref sig .tc := ⟨.hbm, 190, rfl⟩
abbrev main_v139 : Ref sig .tc := ⟨.hbm, 191, rfl⟩
abbrev main_v140 : Ref sig .tc := ⟨.hbm, 192, rfl⟩
abbrev main_cst_39 : Ref sig .tc := ⟨.hbm, 193, rfl⟩
abbrev main_v141 : Ref sig .tc := ⟨.hbm, 194, rfl⟩
abbrev main_v142 : Ref sig .tc := ⟨.hbm, 195, rfl⟩
abbrev main_cst_40 : Ref sig .tc := ⟨.hbm, 196, rfl⟩
abbrev main_v143 : Ref sig .tc := ⟨.hbm, 197, rfl⟩
abbrev main_v144 : Ref sig .tc := ⟨.hbm, 198, rfl⟩
abbrev main_cst_41 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_42 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_43 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_44 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_45 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_46 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_cst_47 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_48 : Ref sig .tc := ⟨.hbm, 244, rfl⟩
abbrev main_v183 : Ref sig .tc := ⟨.hbm, 245, rfl⟩
abbrev main_v184 : Ref sig .tc := ⟨.hbm, 246, rfl⟩
abbrev main_cst_49 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_50 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_cst_51 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_cst_52 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_cst_53 : Ref sig .tc := ⟨.hbm, 268, rfl⟩
abbrev main_v202 : Ref sig .tc := ⟨.hbm, 269, rfl⟩
abbrev main_v203 : Ref sig .tc := ⟨.hbm, 270, rfl⟩
abbrev main_cst_54 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_cst_55 : Ref sig .tc := ⟨.hbm, 282, rfl⟩
abbrev main_v214 : Ref sig .tc := ⟨.hbm, 283, rfl⟩
abbrev main_v215 : Ref sig .tc := ⟨.hbm, 284, rfl⟩
abbrev main_cst_56 : Ref sig .tc := ⟨.hbm, 285, rfl⟩
abbrev main_v216 : Ref sig .tc := ⟨.hbm, 286, rfl⟩
abbrev main_v217 : Ref sig .tc := ⟨.hbm, 287, rfl⟩
abbrev main_cst_57 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_cst_58 : Ref sig .tc := ⟨.hbm, 299, rfl⟩
abbrev main_v228 : Ref sig .tc := ⟨.hbm, 300, rfl⟩
abbrev main_v229 : Ref sig .tc := ⟨.hbm, 301, rfl⟩
abbrev main_cst_59 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_cst_60 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247_0 : Ref sig .tc := ⟨.hbm, 321, rfl⟩
abbrev main_v247_1 : Ref sig .tc := ⟨.hbm, 322, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2101 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2101 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2101 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2101 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2101 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2101 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2101 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2101 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2101 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2101 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2101 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x2101 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2101 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S_S2101 : S_.BroadcastsInDim S2101 (![] : Fin 0 → Fin S2101.rank)
  shapeCasts_S2101_S1x2101 : S2101.ShapeCasts S1x2101
  inb_S256x1_S256x1_0_0 : ∀ a, (![0, 0] : Fin 2 → Nat) a + S256x1.size a ≤ S256x1.size a
  h_S256x1 : 0 < S256x1.numel
  inb_S1x2101_S1x2101_0_0 : ∀ a, (![0, 0] : Fin 2 → Nat) a + S1x2101.size a ≤ S1x2101.size a
  h_S1x2101 : 0 < S1x2101.numel
  shapeCasts_S1x2101_S1x2101 : S1x2101.ShapeCasts S1x2101
  broadcasts_S256x1_S256x2101 : S256x1.Broadcasts S256x2101
  broadcasts_S1x2101_S256x2101 : S1x2101.Broadcasts S256x2101
  inb_S256x2101_S256x2101_0_0 : ∀ a, (![0, 0] : Fin 2 → Nat) a + S256x2101.size a ≤ S256x2101.size a
  h_S256x2101 : 0 < S256x2101.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2101.size a ≤ S1x2101.size a
  hwx0_6 : ∀ i : grid0.Coords, EltTy.bits .f32 = 32 ∨ (Rect.block (s := S1x2101) S1x2101.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2101.size a ≤ S1x2101.size a
  hwx0_7 : ∀ i : grid0.Coords, EltTy.bits .f32 = 32 ∨ (Rect.block (s := S1x2101) S1x2101.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2101.size a ≤ S1x2101.size a
  hwx0_8 : ∀ i : grid0.Coords, EltTy.bits .f32 = 32 ∨ (Rect.block (s := S1x2101) S1x2101.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2101.size a ≤ S1x2101.size a
  hwx0_9 : ∀ i : grid0.Coords, EltTy.bits .f32 = 32 ∨ (Rect.block (s := S1x2101) S1x2101.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2101.size a ≤ S1x2101.size a
  hwx0_10 : ∀ i : grid0.Coords, EltTy.bits .f32 = 32 ∨ (Rect.block (s := S1x2101) S1x2101.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2101.size a ≤ S1x2101.size a
  hwx0_11 : ∀ i : grid0.Coords, EltTy.bits .f32 = 32 ∨ (Rect.block (s := S1x2101) S1x2101.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2101.size a ≤ S1x2101.size a
  hwx0_12 : ∀ i : grid0.Coords, EltTy.bits .f32 = 32 ∨ (Rect.block (s := S1x2101) S1x2101.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2101.size a ≤ S1x2101.size a
  hwx0_13 : ∀ i : grid0.Coords, EltTy.bits .f32 = 32 ∨ (Rect.block (s := S1x2101) S1x2101.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2101.size a ≤ S1x2101.size a
  hwx0_14 : ∀ i : grid0.Coords, EltTy.bits .f32 = 32 ∨ (Rect.block (s := S1x2101) S1x2101.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x2101.size a ≤ S1x2101.size a
  hwx0_15 : ∀ i : grid0.Coords, EltTy.bits .f32 = 32 ∨ (Rect.block (s := S1x2101) S1x2101.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2101.size a ≤ S1x2101.size a
  hwx0_16 : ∀ i : grid0.Coords, EltTy.bits .f32 = 32 ∨ (Rect.block (s := S1x2101) S1x2101.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x2101.size a ≤ S8192x2101.size a
  hwx0_17 : ∀ i : grid0.Coords, EltTy.bits .f32 = 32 ∨ (Rect.block (s := S8192x2101) S256x2101.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x2101.size a ≤ S8192x2101.size a
  hwx0_18 : ∀ i : grid0.Coords, EltTy.bits .f32 = 32 ∨ (Rect.block (s := S8192x2101) S256x2101.size (cc0_transform_18 i) (hinb0_18 i)).WholeWords (EltTy.packing .f32)

variable [Facts₀]

abbrev win0_0 : Pipeline.Window sig grid0 :=
  Pipeline.Window.ofSpec (Memref.whole main_arg0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v236) S1x2101.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v237) S1x2101.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v238) S1x2101.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v239) S1x2101.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v240) S1x2101.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v241) S1x2101.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v242) S1x2101.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v243) S1x2101.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v244) S1x2101.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v245) S1x2101.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v246) S1x2101.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v247_0) S256x2101.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v247_1) S256x2101.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S8192x1 : Shape := ⟨2, ![8192, 1]⟩
abbrev S2101 : Shape := ⟨1, ![2101]⟩
abbrev S6 : Shape := ⟨1, ![6]⟩
abbrev S5 : Shape := ⟨1, ![5]⟩
abbrev S1x2101 : Shape := ⟨2, ![1, 2101]⟩
abbrev S8192x2101 : Shape := ⟨2, ![8192, 2101]⟩
abbrev S_ : Shape := ⟨0, ![]⟩
abbrev S1 : Shape := ⟨1, ![1]⟩
abbrev S4 : Shape := ⟨1, ![4]⟩

abbrev nBuf : Space → Nat
  | .hbm => 565
  | .vmem => 0
  | .smem => 0
  | _ => 0

abbrev hbmTy0_0 (i : Nat) : BufTy := match i % 128 with
  | 0 => ⟨S8192x1, .f32⟩
  | 1 => ⟨S8192x1, .f32⟩
  | 2 => ⟨S8192x1, .f32⟩
  | 3 => ⟨S8192x1, .f32⟩
  | 4 => ⟨S8192x1, .f32⟩
  | 5 => ⟨S8192x1, .f32⟩
  | 6 => ⟨S2101, .f32⟩
  | 7 => ⟨S2101, .f32⟩
  | 8 => ⟨S2101, .f32⟩
  | 9 => ⟨S2101, .f32⟩
  | 10 => ⟨S2101, .f32⟩
  | 11 => ⟨S2101, .f32⟩
  | 12 => ⟨S6, .f32⟩
  | 13 => ⟨S5, .f32⟩
  | 14 => ⟨S5, .f32⟩
  | 15 => ⟨S1x2101, .f32⟩
  | 16 => ⟨S8192x2101, .f32⟩
  | 17 => ⟨S8192x2101, .f32⟩
  | 18 => ⟨S8192x2101, .f32⟩
  | 19 => ⟨S1x2101, .f32⟩
  | 20 => ⟨S8192x2101, .f32⟩
  | 21 => ⟨S8192x2101, .f32⟩
  | 22 => ⟨S8192x2101, .f32⟩
  | 23 => ⟨S8192x2101, .f32⟩
  | 24 => ⟨S1x2101, .f32⟩
  | 25 => ⟨S8192x2101, .f32⟩
  | 26 => ⟨S8192x2101, .f32⟩
  | 27 => ⟨S8192x2101, .f32⟩
  | 28 => ⟨S8192x2101, .f32⟩
  | 29 => ⟨S1x2101, .f32⟩
  | 30 => ⟨S8192x2101, .f32⟩
  | 31 => ⟨S8192x2101, .f32⟩
  | 32 => ⟨S8192x2101, .f32⟩
  | 33 => ⟨S8192x2101, .f32⟩
  | 34 => ⟨S1x2101, .f32⟩
  | 35 => ⟨S8192x2101, .f32⟩
  | 36 => ⟨S8192x2101, .f32⟩
  | 37 => ⟨S8192x2101, .f32⟩
  | 38 => ⟨S8192x2101, .f32⟩
  | 39 => ⟨S8192x2101, .f32⟩
  | 40 => ⟨S8192x2101, .f32⟩
  | 41 => ⟨S_, .f32⟩
  | 42 => ⟨S8192x2101, .f32⟩
  | 43 => ⟨S8192x2101, .f32⟩
  | 44 => ⟨S_, .f32⟩
  | 45 => ⟨S8192x2101, .f32⟩
  | 46 => ⟨S8192x2101, .f32⟩
  | 47 => ⟨S8192x2101, .f32⟩
  | 48 => ⟨S8192x2101, .f32⟩
  | 49 => ⟨S8192x2101, .f32⟩
  | 50 => ⟨S8192x2101, .f32⟩
  | 51 => ⟨S8192x2101, .f32⟩
  | 52 => ⟨S8192x2101, .f32⟩
  | 53 => ⟨S6, .f32⟩
  | 54 => ⟨S1, .f32⟩
  | 55 => ⟨S_, .f32⟩
  | 56 => ⟨S5, .f32⟩
  | 57 => ⟨S1, .f32⟩
  | 58 => ⟨S_, .f32⟩
  | 59 => ⟨S1, .f32⟩
  | 60 => ⟨S_, .f32⟩
  | 61 => ⟨S1, .f32⟩
  | 62 => ⟨S_, .f32⟩
  | 63 => ⟨S1, .f32⟩
  | 64 => ⟨S_, .f32⟩
  | 65 => ⟨S1, .f32⟩
  | 66 => ⟨S_, .f32⟩
  | 67 => ⟨S8192x2101, .f32⟩
  | 68 => ⟨S8192x2101, .f32⟩
  | 69 => ⟨S8192x2101, .f32⟩
  | 70 => ⟨S8192x2101, .f32⟩
  | 71 => ⟨S8192x2101, .f32⟩
  | 72 => ⟨S8192x2101, .f32⟩
  | 73 => ⟨S8192x2101, .f32⟩
  | 74 => ⟨S8192x2101, .f32⟩
  | 75 => ⟨S8192x2101, .f32⟩
  | 76 => ⟨S8192x2101, .f32⟩
  | 77 => ⟨S8192x2101, .f32⟩
  | 78 => ⟨S8192x2101, .f32⟩
  | 79 => ⟨S8192x2101, .f32⟩
  | 80 => ⟨S8192x2101, .f32⟩
  | 81 => ⟨S8192x2101, .f32⟩
  | 82 => ⟨S8192x2101, .f32⟩
  | 83 => ⟨S8192x2101, .f32⟩
  | 84 => ⟨S8192x2101, .f32⟩
  | 85 => ⟨S8192x2101, .f32⟩
  | 86 => ⟨S8192x2101, .f32⟩
  | 87 => ⟨S1, .f32⟩
  | 88 => ⟨S_, .f32⟩
  | 89 => ⟨S4, .f32⟩
  | 90 => ⟨S1, .f32⟩
  | 91 => ⟨S_, .f32⟩
  | 92 => ⟨S1, .f32⟩
  | 93 => ⟨S_, .f32⟩
  | 94 => ⟨S1, .f32⟩
  | 95 => ⟨S_, .f32⟩
  | 96 => ⟨S1, .f32⟩
  | 97 => ⟨S_, .f32⟩
  | 98 => ⟨S8192x2101, .f32⟩
  | 99 => ⟨S8192x2101, .f32⟩
  | 100 => ⟨S8192x2101, .f32⟩
  | 101 => ⟨S8192x2101, .f32⟩
  | 102 => ⟨S8192x2101, .f32⟩
  | 103 => ⟨S8192x2101, .f32⟩
  | 104 => ⟨S8192x2101, .f32⟩
  | 105 => ⟨S8192x2101, .f32⟩
  | 106 => ⟨S8192x2101, .f32⟩
  | 107 => ⟨S8192x2101, .f32⟩
  | 108 => ⟨S8192x2101, .f32⟩
  | 109 => ⟨S8192x2101, .f32⟩
  | 110 => ⟨S8192x2101, .f32⟩
  | 111 => ⟨S1, .f32⟩
  | 112 => ⟨S_, .f32⟩
  | 113 => ⟨S4, .f32⟩
  | 114 => ⟨S1, .f32⟩
  | 115 => ⟨S_, .f32⟩
  | 116 => ⟨S1, .f32⟩
  | 117 => ⟨S_, .f32⟩
  | 118 => ⟨S1, .f32⟩
  | 119 => ⟨S_, .f32⟩
  | 120 => ⟨S1, .f32⟩
  | 121 => ⟨S_, .f32⟩
  | 122 => ⟨S8192x2101, .f32⟩
  | 123 => ⟨S8192x2101, .f32⟩
  | 124 => ⟨S8192x2101, .f32⟩
  | 125 => ⟨S8192x2101, .f32⟩
  | 126 => ⟨S8192x2101, .f32⟩
  | 127 => ⟨S8192x2101, .f32⟩
  | _ => ⟨S8192x1, .f32⟩

abbrev hbmTy0_1 (i : Nat) : BufTy := match i % 128 with
  | 0 => ⟨S8192x2101, .f32⟩
  | 1 => ⟨S8192x2101, .f32⟩
  | 2 => ⟨S8192x2101, .f32⟩
  | 3 => ⟨S8192x2101, .f32⟩
  | 4 => ⟨S8192x2101, .f32⟩
  | 5 => ⟨S8192x2101, .f32⟩
  | 6 => ⟨S8192x2101, .f32⟩
  | 7 => ⟨S8192x2101, .f32⟩
  | 8 => ⟨S8192x2101, .f32⟩
  | 9 => ⟨S_, .f32⟩
  | 10 => ⟨S8192x2101, .f32⟩
  | 11 => ⟨S8192x2101, .i1⟩
  | 12 => ⟨S8192x2101, .f32⟩
  | 13 => ⟨S8192x2101, .f32⟩
  | 14 => ⟨S8192x2101, .f32⟩
  | 15 => ⟨S2101, .f32⟩
  | 16 => ⟨S_, .f32⟩
  | 17 => ⟨S2101, .f32⟩
  | 18 => ⟨S2101, .f32⟩
  | 19 => ⟨S_, .f32⟩
  | 20 => ⟨S2101, .f32⟩
  | 21 => ⟨S2101, .f32⟩
  | 22 => ⟨S_, .f32⟩
  | 23 => ⟨S2101, .f32⟩
  | 24 => ⟨S2101, .f32⟩
  | 25 => ⟨S_, .f32⟩
  | 26 => ⟨S2101, .f32⟩
  | 27 => ⟨S2101, .f32⟩
  | 28 => ⟨S2101, .f32⟩
  | 29 => ⟨S_, .f32⟩
  | 30 => ⟨S2101, .f32⟩
  | 31 => ⟨S2101, .f32⟩
  | 32 => ⟨S_, .f32⟩
  | 33 => ⟨S2101, .f32⟩
  | 34 => ⟨S2101, .f32⟩
  | 35 => ⟨S2101, .f32⟩
  | 36 => ⟨S_, .f32⟩
  | 37 => ⟨S2101, .f32⟩
  | 38 => ⟨S2101, .f32⟩
  | 39 => ⟨S2101, .f32⟩
  | 40 => ⟨S_, .f32⟩
  | 41 => ⟨S2101, .f32⟩
  | 42 => ⟨S2101, .f32⟩
  | 43 => ⟨S_, .f32⟩
  | 44 => ⟨S2101, .f32⟩
  | 45 => ⟨S2101, .f32⟩
  | 46 => ⟨S_, .f32⟩
  | 47 => ⟨S2101, .f32⟩
  | 48 => ⟨S2101, .f32⟩
  | 49 => ⟨S2101, .f32⟩
  | 50 => ⟨S2101, .f32⟩
  | 51 => ⟨S2101, .f32⟩
  | 52 => ⟨S_, .f32⟩
  | 53 => ⟨S2101, .f32⟩
  | 54 => ⟨S2101, .f32⟩
  | 55 => ⟨S_, .f32⟩
  | 56 => ⟨S2101, .f32⟩
  | 57 => ⟨S2101, .f32⟩
  | 58 => ⟨S2101, .f32⟩
  | 59 => ⟨S2101, .f32⟩
  | 60 => ⟨S2101, .f32⟩
  | 61 => ⟨S2101, .f32⟩
  | 62 => ⟨S_, .f32⟩
  | 63 => ⟨S2101, .f32⟩
  | 64 => ⟨S2101, .f32⟩
  | 65 => ⟨S2101, .f32⟩
  | 66 => ⟨S2101, .f32⟩
  | 67 => ⟨S2101, .f32⟩
  | 68 => ⟨S_, .f32⟩
  | 69 => ⟨S2101, .f32⟩
  | 70 => ⟨S2101, .f32⟩
  | 71 => ⟨S2101, .f32⟩
  | 72 => ⟨S2101, .f32⟩
  | 73 => ⟨S2101, .f32⟩
  | 74 => ⟨S_, .f32⟩
  | 75 => ⟨S2101, .f32⟩
  | 76 => ⟨S2101, .f32⟩
  | 77 => ⟨S2101, .f32⟩
  | 78 => ⟨S2101, .f32⟩
  | 79 => ⟨S2101, .f32⟩
  | 80 => ⟨S_, .f32⟩
  | 81 => ⟨S2101, .f32⟩
  | 82 => ⟨S2101, .f32⟩
  | 83 => ⟨S2101, .f32⟩
  | 84 => ⟨S2101, .f32⟩
  | 85 => ⟨S_, .f32⟩
  | 86 => ⟨S2101, .f32⟩
  | 87 => ⟨S2101, .f32⟩
  | 88 => ⟨S2101, .f32⟩
  | 89 => ⟨S2101, .f32⟩
  | 90 => ⟨S2101, .f32⟩
  | 91 => ⟨S2101, .f32⟩
  | 92 => ⟨S2101, .f32⟩
  | 93 => ⟨S_, .f32⟩
  | 94 => ⟨S2101, .f32⟩
  | 95 => ⟨S2101, .f32⟩
  | 96 => ⟨S2101, .f32⟩
  | 97 => ⟨S2101, .f32⟩
  | 98 => ⟨S2101, .f32⟩
  | 99 => ⟨S2101, .f32⟩
  | 100 => ⟨S2101, .f32⟩
  | 101 => ⟨S_, .f32⟩
  | 102 => ⟨S2101, .f32⟩
  | 103 => ⟨S2101, .f32⟩
  | 104 => ⟨S_, .f32⟩
  | 105 => ⟨S2101, .f32⟩
  | 106 => ⟨S2101, .f32⟩
  | 107 => ⟨S2101, .f32⟩
  | 108 => ⟨S2101, .f32⟩
  | 109 => ⟨S_, .f32⟩
  | 110 => ⟨S2101, .f32⟩
  | 111 => ⟨S2101, .f32⟩
  | 112 => ⟨S2101, .f32⟩
  | 113 => ⟨S2101, .f32⟩
  | 114 => ⟨S2101, .f32⟩
  | 115 => ⟨S_, .f32⟩
  | 116 => ⟨S2101, .f32⟩
  | 117 => ⟨S2101, .f32⟩
  | 118 => ⟨S2101, .f32⟩
  | 119 => ⟨S2101, .f32⟩
  | 120 => ⟨S_, .f32⟩
  | 121 => ⟨S2101, .f32⟩
  | 122 => ⟨S2101, .f32⟩
  | 123 => ⟨S2101, .f32⟩
  | 124 => ⟨S2101, .f32⟩
  | 125 => ⟨S_, .f32⟩
  | 126 => ⟨S2101, .f32⟩
  | 127 => ⟨S2101, .f32⟩
  | _ => ⟨S8192x1, .f32⟩

abbrev hbmTy0_2 (i : Nat) : BufTy := match i % 128 with
  | 0 => ⟨S_, .f32⟩
  | 1 => ⟨S2101, .f32⟩
  | 2 => ⟨S2101, .f32⟩
  | 3 => ⟨S2101, .f32⟩
  | 4 => ⟨S2101, .f32⟩
  | 5 => ⟨S2101, .f32⟩
  | 6 => ⟨S2101, .f32⟩
  | 7 => ⟨S2101, .f32⟩
  | 8 => ⟨S2101, .f32⟩
  | 9 => ⟨S2101, .f32⟩
  | 10 => ⟨S2101, .f32⟩
  | 11 => ⟨S_, .f32⟩
  | 12 => ⟨S2101, .f32⟩
  | 13 => ⟨S2101, .f32⟩
  | 14 => ⟨S_, .f32⟩
  | 15 => ⟨S2101, .f32⟩
  | 16 => ⟨S2101, .f32⟩
  | 17 => ⟨S_, .f32⟩
  | 18 => ⟨S2101, .f32⟩
  | 19 => ⟨S2101, .f32⟩
  | 20 => ⟨S2101, .f32⟩
  | 21 => ⟨S2101, .f32⟩
  | 22 => ⟨S2101, .f32⟩
  | 23 => ⟨S2101, .f32⟩
  | 24 => ⟨S2101, .f32⟩
  | 25 => ⟨S2101, .f32⟩
  | 26 => ⟨S2101, .f32⟩
  | 27 => ⟨S2101, .f32⟩
  | 28 => ⟨S_, .f32⟩
  | 29 => ⟨S2101, .f32⟩
  | 30 => ⟨S2101, .f32⟩
  | 31 => ⟨S_, .f32⟩
  | 32 => ⟨S2101, .f32⟩
  | 33 => ⟨S2101, .f32⟩
  | 34 => ⟨S2101, .f32⟩
  | 35 => ⟨S_, .f32⟩
  | 36 => ⟨S2101, .f32⟩
  | 37 => ⟨S2101, .f32⟩
  | 38 => ⟨S_, .f32⟩
  | 39 => ⟨S2101, .f32⟩
  | 40 => ⟨S2101, .f32⟩
  | 41 => ⟨S_, .f32⟩
  | 42 => ⟨S2101, .f32⟩
  | 43 => ⟨S2101, .f32⟩
  | 44 => ⟨S_, .f32⟩
  | 45 => ⟨S2101, .f32⟩
  | 46 => ⟨S2101, .f32⟩
  | 47 => ⟨S2101, .f32⟩
  | 48 => ⟨S_, .f32⟩
  | 49 => ⟨S2101, .f32⟩
  | 50 => ⟨S2101, .f32⟩
  | 51 => ⟨S_, .f32⟩
  | 52 => ⟨S2101, .f32⟩
  | 53 => ⟨S2101, .f32⟩
  | 54 => ⟨S2101, .f32⟩
  | 55 => ⟨S_, .f32⟩
  | 56 => ⟨S2101, .f32⟩
  | 57 => ⟨S2101, .f32⟩
  | 58 => ⟨S2101, .f32⟩
  | 59 => ⟨S_, .f32⟩
  | 60 => ⟨S2101, .f32⟩
  | 61 => ⟨S2101, .f32⟩
  | 62 => ⟨S_, .f32⟩
  | 63 => ⟨S2101, .f32⟩
  | 64 => ⟨S2101, .f32⟩
  | 65 => ⟨S_, .f32⟩
  | 66 => ⟨S2101, .f32⟩
  | 67 => ⟨S2101, .f32⟩
  | 68 => ⟨S_, .f32⟩
  | 69 => ⟨S2101, .f32⟩
  | 70 => ⟨S2101, .f32⟩
  | 71 => ⟨S2101, .f32⟩
  | 72 => ⟨S2101, .f32⟩
  | 73 => ⟨S2101, .f32⟩
  | 74 => ⟨S_, .f32⟩
  | 75 => ⟨S2101, .f32⟩
  | 76 => ⟨S2101, .f32⟩
  | 77 => ⟨S2101, .f32⟩
  | 78 => ⟨S2101, .f32⟩
  | 79 => ⟨S2101, .f32⟩
  | 80 => ⟨S_, .f32⟩
  | 81 => ⟨S2101, .f32⟩
  | 82 => ⟨S2101, .f32⟩
  | 83 => ⟨S2101, .f32⟩
  | 84 => ⟨S2101, .f32⟩
  | 85 => ⟨S2101, .f32⟩
  | 86 => ⟨S_, .f32⟩
  | 87 => ⟨S2101, .f32⟩
  | 88 => ⟨S2101, .f32⟩
  | 89 => ⟨S2101, .f32⟩
  | 90 => ⟨S2101, .f32⟩
  | 91 => ⟨S2101, .f32⟩
  | 92 => ⟨S_, .f32⟩
  | 93 => ⟨S2101, .f32⟩
  | 94 => ⟨S2101, .f32⟩
  | 95 => ⟨S2101, .f32⟩
  | 96 => ⟨S2101, .f32⟩
  | 97 => ⟨S_, .f32⟩
  | 98 => ⟨S2101, .f32⟩
  | 99 => ⟨S2101, .f32⟩
  | 100 => ⟨S2101, .f32⟩
  | 101 => ⟨S2101, .f32⟩
  | 102 => ⟨S2101, .f32⟩
  | 103 => ⟨S2101, .f32⟩
  | 104 => ⟨S2101, .f32⟩
  | 105 => ⟨S_, .f32⟩
  | 106 => ⟨S2101, .f32⟩
  | 107 => ⟨S2101, .f32⟩
  | 108 => ⟨S2101, .f32⟩
  | 109 => ⟨S2101, .f32⟩
  | 110 => ⟨S2101, .f32⟩
  | 111 => ⟨S2101, .f32⟩
  | 112 => ⟨S2101, .f32⟩
  | 113 => ⟨S_, .f32⟩
  | 114 => ⟨S2101, .f32⟩
  | 115 => ⟨S2101, .f32⟩
  | 116 => ⟨S_, .f32⟩
  | 117 => ⟨S2101, .f32⟩
  | 118 => ⟨S2101, .f32⟩
  | 119 => ⟨S2101, .f32⟩
  | 120 => ⟨S2101, .f32⟩
  | 121 => ⟨S_, .f32⟩
  | 122 => ⟨S2101, .f32⟩
  | 123 => ⟨S2101, .f32⟩
  | 124 => ⟨S2101, .f32⟩
  | 125 => ⟨S2101, .f32⟩
  | 126 => ⟨S2101, .f32⟩
  | 127 => ⟨S_, .f32⟩
  | _ => ⟨S8192x1, .f32⟩

abbrev hbmTy0_3 (i : Nat) : BufTy := match i % 128 with
  | 0 => ⟨S2101, .f32⟩
  | 1 => ⟨S2101, .f32⟩
  | 2 => ⟨S2101, .f32⟩
  | 3 => ⟨S2101, .f32⟩
  | 4 => ⟨S_, .f32⟩
  | 5 => ⟨S2101, .f32⟩
  | 6 => ⟨S2101, .f32⟩
  | 7 => ⟨S2101, .f32⟩
  | 8 => ⟨S2101, .f32⟩
  | 9 => ⟨S_, .f32⟩
  | 10 => ⟨S2101, .f32⟩
  | 11 => ⟨S2101, .f32⟩
  | 12 => ⟨S_, .f32⟩
  | 13 => ⟨S2101, .f32⟩
  | 14 => ⟨S2101, .f32⟩
  | 15 => ⟨S2101, .f32⟩
  | 16 => ⟨S2101, .f32⟩
  | 17 => ⟨S2101, .f32⟩
  | 18 => ⟨S2101, .f32⟩
  | 19 => ⟨S2101, .f32⟩
  | 20 => ⟨S2101, .f32⟩
  | 21 => ⟨S2101, .f32⟩
  | 22 => ⟨S2101, .f32⟩
  | 23 => ⟨S_, .f32⟩
  | 24 => ⟨S2101, .f32⟩
  | 25 => ⟨S2101, .f32⟩
  | 26 => ⟨S_, .f32⟩
  | 27 => ⟨S2101, .f32⟩
  | 28 => ⟨S2101, .f32⟩
  | 29 => ⟨S_, .f32⟩
  | 30 => ⟨S2101, .f32⟩
  | 31 => ⟨S2101, .f32⟩
  | 32 => ⟨S2101, .f32⟩
  | 33 => ⟨S2101, .f32⟩
  | 34 => ⟨S2101, .f32⟩
  | 35 => ⟨S2101, .f32⟩
  | 36 => ⟨S2101, .f32⟩
  | 37 => ⟨S2101, .f32⟩
  | 38 => ⟨S2101, .f32⟩
  | 39 => ⟨S2101, .f32⟩
  | 40 => ⟨S_, .f32⟩
  | 41 => ⟨S2101, .f32⟩
  | 42 => ⟨S2101, .f32⟩
  | 43 => ⟨S_, .f32⟩
  | 44 => ⟨S2101, .f32⟩
  | 45 => ⟨S2101, .f32⟩
  | 46 => ⟨S2101, .f32⟩
  | 47 => ⟨S2101, .f32⟩
  | 48 => ⟨S_, .f32⟩
  | 49 => ⟨S2101, .f32⟩
  | 50 => ⟨S2101, .f32⟩
  | 51 => ⟨S2101, .f32⟩
  | 52 => ⟨S1x2101, .f32⟩
  | 53 => ⟨S8192x2101, .f32⟩
  | 54 => ⟨S8192x2101, .f32⟩
  | 55 => ⟨S8192x2101, .f32⟩
  | 56 => ⟨S_, .f32⟩
  | 57 => ⟨S8192x2101, .f32⟩
  | 58 => ⟨S8192x2101, .f32⟩
  | 59 => ⟨S1x2101, .f32⟩
  | 60 => ⟨S8192x2101, .f32⟩
  | 61 => ⟨S8192x2101, .f32⟩
  | 62 => ⟨S1x2101, .f32⟩
  | 63 => ⟨S8192x2101, .f32⟩
  | 64 => ⟨S8192x2101, .f32⟩
  | 65 => ⟨S8192x2101, .f32⟩
  | 66 => ⟨S1x2101, .f32⟩
  | 67 => ⟨S8192x2101, .f32⟩
  | 68 => ⟨S8192x2101, .f32⟩
  | 69 => ⟨S8192x2101, .f32⟩
  | 70 => ⟨S1x2101, .f32⟩
  | 71 => ⟨S8192x2101, .f32⟩
  | 72 => ⟨S8192x2101, .f32⟩
  | 73 => ⟨S1x2101, .f32⟩
  | 74 => ⟨S8192x2101, .f32⟩
  | 75 => ⟨S8192x2101, .f32⟩
  | 76 => ⟨S1x2101, .f32⟩
  | 77 => ⟨S8192x2101, .f32⟩
  | 78 => ⟨S8192x2101, .f32⟩
  | 79 => ⟨S8192x2101, .f32⟩
  | 80 => ⟨S1x2101, .f32⟩
  | 81 => ⟨S8192x2101, .f32⟩
  | 82 => ⟨S8192x2101, .f32⟩
  | 83 => ⟨S8192x2101, .f32⟩
  | 84 => ⟨S1x2101, .f32⟩
  | 85 => ⟨S8192x2101, .f32⟩
  | 86 => ⟨S8192x2101, .f32⟩
  | 87 => ⟨S8192x2101, .f32⟩
  | 88 => ⟨S8192x2101, .f32⟩
  | 89 => ⟨S_, .f32⟩
  | 90 => ⟨S8192x2101, .f32⟩
  | 91 => ⟨S8192x2101, .i1⟩
  | 92 => ⟨S_, .f32⟩
  | 93 => ⟨S8192x2101, .f32⟩
  | 94 => ⟨S8192x2101, .f32⟩
  | 95 => ⟨S_, .f32⟩
  | 96 => ⟨S8192x2101, .f32⟩
  | 97 => ⟨S8192x2101, .f32⟩
  | 98 => ⟨S8192x2101, .f32⟩
  | 99 => ⟨S_, .f32⟩
  | 100 => ⟨S8192x2101, .f32⟩
  | 101 => ⟨S8192x2101, .f32⟩
  | 102 => ⟨S8192x2101, .f32⟩
  | 103 => ⟨S_, .f32⟩
  | 104 => ⟨S8192x2101, .f32⟩
  | 105 => ⟨S8192x2101, .f32⟩
  | 106 => ⟨S8192x2101, .f32⟩
  | 107 => ⟨S_, .f32⟩
  | 108 => ⟨S_, .f32⟩
  | 109 => ⟨S8192x2101, .f32⟩
  | 110 => ⟨S8192x2101, .f32⟩
  | 111 => ⟨S8192x2101, .f32⟩
  | 112 => ⟨S8192x2101, .f32⟩
  | 113 => ⟨S8192x2101, .f32⟩
  | 114 => ⟨S8192x2101, .f32⟩
  | 115 => ⟨S_, .f32⟩
  | 116 => ⟨S8192x2101, .f32⟩
  | 117 => ⟨S8192x2101, .f32⟩
  | 118 => ⟨S8192x2101, .f32⟩
  | 119 => ⟨S_, .f32⟩
  | 120 => ⟨S8192x2101, .f32⟩
  | 121 => ⟨S8192x2101, .f32⟩
  | 122 => ⟨S8192x2101, .f32⟩
  | 123 => ⟨S_, .f32⟩
  | 124 => ⟨S8192x2101, .f32⟩
  | 125 => ⟨S8192x2101, .f32⟩
  | 126 => ⟨S8192x2101, .f32⟩
  | 127 => ⟨S_, .f32⟩
  | _ => ⟨S8192x1, .f32⟩

abbrev hbmTy0_4 (i : Nat) : BufTy := match i % 128 with
  | 0 => ⟨S8192x2101, .f32⟩
  | 1 => ⟨S8192x2101, .f32⟩
  | 2 => ⟨S8192x2101, .f32⟩
  | 3 => ⟨S_, .f32⟩
  | 4 => ⟨S_, .f32⟩
  | 5 => ⟨S8192x2101, .f32⟩
  | 6 => ⟨S8192x2101, .f32⟩
  | 7 => ⟨S_, .f32⟩
  | 8 => ⟨S8192x1, .f32⟩
  | 9 => ⟨S8192x1, .f32⟩
  | 10 => ⟨S8192x2101, .f32⟩
  | 11 => ⟨S8192x2101, .f32⟩
  | 12 => ⟨S8192x2101, .f32⟩
  | 13 => ⟨S8192x2101, .f32⟩
  | 14 => ⟨S8192x2101, .f32⟩
  | 15 => ⟨S_, .f32⟩
  | 16 => ⟨S8192x2101, .f32⟩
  | 17 => ⟨S8192x2101, .f32⟩
  | 18 => ⟨S_, .f32⟩
  | 19 => ⟨S8192x2101, .f32⟩
  | 20 => ⟨S8192x2101, .f32⟩
  | 21 => ⟨S8192x2101, .f32⟩
  | 22 => ⟨S8192x2101, .f32⟩
  | 23 => ⟨S_, .f32⟩
  | 24 => ⟨S8192x2101, .f32⟩
  | 25 => ⟨S8192x2101, .f32⟩
  | 26 => ⟨S8192x2101, .f32⟩
  | 27 => ⟨S8192x2101, .f32⟩
  | 28 => ⟨S_, .f32⟩
  | 29 => ⟨S8192x2101, .f32⟩
  | 30 => ⟨S8192x2101, .f32⟩
  | 31 => ⟨S_, .f32⟩
  | 32 => ⟨S8192x1, .f32⟩
  | 33 => ⟨S8192x1, .f32⟩
  | 34 => ⟨S8192x2101, .f32⟩
  | 35 => ⟨S8192x2101, .f32⟩
  | 36 => ⟨S8192x2101, .f32⟩
  | 37 => ⟨S8192x2101, .f32⟩
  | 38 => ⟨S8192x2101, .f32⟩
  | 39 => ⟨S_, .f32⟩
  | 40 => ⟨S8192x2101, .f32⟩
  | 41 => ⟨S8192x2101, .f32⟩
  | 42 => ⟨S8192x2101, .f32⟩
  | 43 => ⟨S8192x2101, .f32⟩
  | 44 => ⟨S_, .f32⟩
  | 45 => ⟨S8192x2101, .f32⟩
  | 46 => ⟨S8192x2101, .f32⟩
  | 47 => ⟨S8192x2101, .f32⟩
  | 48 => ⟨S8192x2101, .f32⟩
  | 49 => ⟨S8192x2101, .f32⟩
  | 50 => ⟨S8192x2101, .f32⟩
  | 51 => ⟨S8192x2101, .f32⟩
  | 52 => ⟨S8192x2101, .f32⟩
  | _ => ⟨S8192x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1, .f32⟩

abbrev bufTy : (tb : Table) → Fin (tcTables nBuf tb) → BufTy
  | .hbm, ⟨i, _⟩ => hbmTy i
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_cst_4 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_cst_5 : Ref sig .tc := ⟨.hbm, 144, rfl⟩
abbrev main_v126 : Ref sig .tc := ⟨.hbm, 145, rfl⟩
abbrev main_v127 : Ref sig .tc := ⟨.hbm, 146, rfl⟩
abbrev main_cst_6 : Ref sig .tc := ⟨.hbm, 147, rfl⟩
abbrev main_v128 : Ref sig .tc := ⟨.hbm, 148, rfl⟩
abbrev main_v129 : Ref sig .tc := ⟨.hbm, 149, rfl⟩
abbrev main_cst_7 : Ref sig .tc := ⟨.hbm, 150, rfl⟩
abbrev main_v130 : Ref sig .tc := ⟨.hbm, 151, rfl⟩
abbrev main_v131 : Ref sig .tc := ⟨.hbm, 152, rfl⟩
abbrev main_cst_8 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_9 : Ref sig .tc := ⟨.hbm, 157, rfl⟩
abbrev main_v135 : Ref sig .tc := ⟨.hbm, 158, rfl⟩
abbrev main_v136 : Ref sig .tc := ⟨.hbm, 159, rfl⟩
abbrev main_cst_10 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_cst_11 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_cst_12 : Ref sig .tc := ⟨.hbm, 168, rfl⟩
abbrev main_v143 : Ref sig .tc := ⟨.hbm, 169, rfl⟩
abbrev main_v144 : Ref sig .tc := ⟨.hbm, 170, rfl⟩
abbrev main_cst_13 : Ref sig .tc := ⟨.hbm, 171, rfl⟩
abbrev main_v145 : Ref sig .tc := ⟨.hbm, 172, rfl⟩
abbrev main_v146 : Ref sig .tc := ⟨.hbm, 173, rfl⟩
abbrev main_cst_14 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_cst_15 : Ref sig .tc := ⟨.hbm, 180, rfl⟩
abbrev main_v152 : Ref sig .tc := ⟨.hbm, 181, rfl⟩
abbrev main_v153 : Ref sig .tc := ⟨.hbm, 182, rfl⟩
abbrev main_cst_16 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_cst_17 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_cst_18 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_cst_19 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_cst_20 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_cst_21 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_cst_22 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_cst_23 : Ref sig .tc := ⟨.hbm, 229, rfl⟩
abbrev main_v193 : Ref sig .tc := ⟨.hbm, 230, rfl⟩
abbrev main_v194 : Ref sig .tc := ⟨.hbm, 231, rfl⟩
abbrev main_cst_24 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_cst_25 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_cst_26 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_cst_27 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_cst_28 : Ref sig .tc := ⟨.hbm, 253, rfl⟩
abbrev main_v212 : Ref sig .tc := ⟨.hbm, 254, rfl⟩
abbrev main_v213 : Ref sig .tc := ⟨.hbm, 255, rfl⟩
abbrev main_cst_29 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_cst_30 : Ref sig .tc := ⟨.hbm, 267, rfl⟩
abbrev main_v224 : Ref sig .tc := ⟨.hbm, 268, rfl⟩
abbrev main_v225 : Ref sig .tc := ⟨.hbm, 269, rfl⟩
abbrev main_cst_31 : Ref sig .tc := ⟨.hbm, 270, rfl⟩
abbrev main_v226 : Ref sig .tc := ⟨.hbm, 271, rfl⟩
abbrev main_v227 : Ref sig .tc := ⟨.hbm, 272, rfl⟩
abbrev main_cst_32 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_cst_33 : Ref sig .tc := ⟨.hbm, 284, rfl⟩
abbrev main_v238 : Ref sig .tc := ⟨.hbm, 285, rfl⟩
abbrev main_v239 : Ref sig .tc := ⟨.hbm, 286, rfl⟩
abbrev main_cst_34 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_cst_35 : Ref sig .tc := ⟨.hbm, 291, rfl⟩
abbrev main_v243 : Ref sig .tc := ⟨.hbm, 292, rfl⟩
abbrev main_v244 : Ref sig .tc := ⟨.hbm, 293, rfl⟩
abbrev main_cst_36 : Ref sig .tc := ⟨.hbm, 294, rfl⟩
abbrev main_v245 : Ref sig .tc := ⟨.hbm, 295, rfl⟩
abbrev main_v246 : Ref sig .tc := ⟨.hbm, 296, rfl⟩
abbrev main_cst_37 : Ref sig .tc := ⟨.hbm, 297, rfl⟩
abbrev main_v247 : Ref sig .tc := ⟨.hbm, 298, rfl⟩
abbrev main_v248 : Ref sig .tc := ⟨.hbm, 299, rfl⟩
abbrev main_cst_38 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_cst_39 : Ref sig .tc := ⟨.hbm, 304, rfl⟩
abbrev main_v252 : Ref sig .tc := ⟨.hbm, 305, rfl⟩
abbrev main_v253 : Ref sig .tc := ⟨.hbm, 306, rfl⟩
abbrev main_cst_40 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_cst_41 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_cst_42 : Ref sig .tc := ⟨.hbm, 315, rfl⟩
abbrev main_v260 : Ref sig .tc := ⟨.hbm, 316, rfl⟩
abbrev main_v261 : Ref sig .tc := ⟨.hbm, 317, rfl⟩
abbrev main_cst_43 : Ref sig .tc := ⟨.hbm, 318, rfl⟩
abbrev main_v262 : Ref sig .tc := ⟨.hbm, 319, rfl⟩
abbrev main_v263 : Ref sig .tc := ⟨.hbm, 320, rfl⟩
abbrev main_cst_44 : Ref sig .tc := ⟨.hbm, 321, rfl⟩
abbrev main_v264 : Ref sig .tc := ⟨.hbm, 322, rfl⟩
abbrev main_v265 : Ref sig .tc := ⟨.hbm, 323, rfl⟩
abbrev main_cst_45 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_cst_46 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_cst_47 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_cst_48 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_cst_49 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_cst_50 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_cst_51 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_cst_52 : Ref sig .tc := ⟨.hbm, 369, rfl⟩
abbrev main_v304 : Ref sig .tc := ⟨.hbm, 370, rfl⟩
abbrev main_v305 : Ref sig .tc := ⟨.hbm, 371, rfl⟩
abbrev main_cst_53 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_cst_54 : Ref sig .tc := ⟨.hbm, 377, rfl⟩
abbrev main_v310 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_cst_55 : Ref sig .tc := ⟨.hbm, 383, rfl⟩
abbrev main_v315 : Ref sig .tc := ⟨.hbm, 384, rfl⟩
abbrev main_v316 : Ref sig .tc := ⟨.hbm, 385, rfl⟩
abbrev main_v317 : Ref sig .tc := ⟨.hbm, 386, rfl⟩
abbrev main_v318 : Ref sig .tc := ⟨.hbm, 387, rfl⟩
abbrev main_cst_56 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_cst_57 : Ref sig .tc := ⟨.hbm, 393, rfl⟩
abbrev main_v323 : Ref sig .tc := ⟨.hbm, 394, rfl⟩
abbrev main_v324 : Ref sig .tc := ⟨.hbm, 395, rfl⟩
abbrev main_cst_58 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_cst_59 : Ref sig .tc := ⟨.hbm, 407, rfl⟩
abbrev main_v335 : Ref sig .tc := ⟨.hbm, 408, rfl⟩
abbrev main_v336 : Ref sig .tc := ⟨.hbm, 409, rfl⟩
abbrev main_cst_60 : Ref sig .tc := ⟨.hbm, 410, rfl⟩
abbrev main_v337 : Ref sig .tc := ⟨.hbm, 411, rfl⟩
abbrev main_v338 : Ref sig .tc := ⟨.hbm, 412, rfl⟩
abbrev main_cst_61 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_cst_62 : Ref sig .tc := ⟨.hbm, 424, rfl⟩
abbrev main_v349 : Ref sig .tc := ⟨.hbm, 425, rfl⟩
abbrev main_v350 : Ref sig .tc := ⟨.hbm, 426, rfl⟩
abbrev main_cst_63 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_cst_64 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_cst_65 : Ref sig .tc := ⟨.hbm, 440, rfl⟩
abbrev main_v362 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_v367 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_v374 : Ref sig .tc := ⟨.hbm, 453, rfl⟩
abbrev main_v375 : Ref sig .tc := ⟨.hbm, 454, rfl⟩
abbrev main_v376 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_v380 : Ref sig .tc := ⟨.hbm, 459, rfl⟩
abbrev main_v381 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_v385 : Ref sig .tc := ⟨.hbm, 464, rfl⟩
abbrev main_v386 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_v392 : Ref sig .tc := ⟨.hbm, 471, rfl⟩
abbrev main_v393 : Ref sig .tc := ⟨.hbm, 472, rfl⟩
abbrev main_cst_66 : Ref sig .tc := ⟨.hbm, 473, rfl⟩
abbrev main_v394 : Ref sig .tc := ⟨.hbm, 474, rfl⟩
abbrev main_v395 : Ref sig .tc := ⟨.hbm, 475, rfl⟩
abbrev main_cst_67 : Ref sig .tc := ⟨.hbm, 476, rfl⟩
abbrev main_v396 : Ref sig .tc := ⟨.hbm, 477, rfl⟩
abbrev main_v397 : Ref sig .tc := ⟨.hbm, 478, rfl⟩
abbrev main_cst_68 : Ref sig .tc := ⟨.hbm, 479, rfl⟩
abbrev main_v398 : Ref sig .tc := ⟨.hbm, 480, rfl⟩
abbrev main_v399 : Ref sig .tc := ⟨.hbm, 481, rfl⟩
abbrev main_v400 : Ref sig .tc := ⟨.hbm, 482, rfl⟩
abbrev main_cst_69 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_cst_70 : Ref sig .tc := ⟨.hbm, 487, rfl⟩
abbrev main_v404 : Ref sig .tc := ⟨.hbm, 488, rfl⟩
abbrev main_v405 : Ref sig .tc := ⟨.hbm, 489, rfl⟩
abbrev main_v406 : Ref sig .tc := ⟨.hbm, 490, rfl⟩
abbrev main_cst_71 : Ref sig .tc := ⟨.hbm, 491, rfl⟩
abbrev main_call1_v0 : Ref sig .tc := ⟨.hbm, 492, rfl⟩
abbrev main_call1_v1 : Ref sig .tc := ⟨.hbm, 493, rfl⟩
abbrev main_v407 : Ref sig .tc := ⟨.hbm, 494, rfl⟩
abbrev main_v408 : Ref sig .tc := ⟨.hbm, 495, rfl⟩
abbrev main_v409 : Ref sig .tc := ⟨.hbm, 496, rfl⟩
abbrev main_v410 : Ref sig .tc := ⟨.hbm, 497, rfl⟩
abbrev main_v411 : Ref sig .tc := ⟨.hbm, 498, rfl⟩
abbrev main_cst_72 : Ref sig .tc := ⟨.hbm, 499, rfl⟩
abbrev main_v412 : Ref sig .tc := ⟨.hbm, 500, rfl⟩
abbrev main_v413 : Ref sig .tc := ⟨.hbm, 501, rfl⟩
abbrev main_v414 : Ref sig .tc := ⟨.hbm, 502, rfl⟩
abbrev main_cst_73 : Ref sig .tc := ⟨.hbm, 503, rfl⟩
abbrev main_v415 : Ref sig .tc := ⟨.hbm, 504, rfl⟩
abbrev main_v416 : Ref sig .tc := ⟨.hbm, 505, rfl⟩
abbrev main_v417 : Ref sig .tc := ⟨.hbm, 506, rfl⟩
abbrev main_cst_74 : Ref sig .tc := ⟨.hbm, 507, rfl⟩
abbrev main_v418 : Ref sig .tc := ⟨.hbm, 508, rfl⟩
abbrev main_v419 : Ref sig .tc := ⟨.hbm, 509, rfl⟩
abbrev main_v420 : Ref sig .tc := ⟨.hbm, 510, rfl⟩
abbrev main_cst_75 : Ref sig .tc := ⟨.hbm, 511, rfl⟩
abbrev main_v421 : Ref sig .tc := ⟨.hbm, 512, rfl⟩
abbrev main_v422 : Ref sig .tc := ⟨.hbm, 513, rfl⟩
abbrev main_v423 : Ref sig .tc := ⟨.hbm, 514, rfl⟩
abbrev main_cst_76 : Ref sig .tc := ⟨.hbm, 515, rfl⟩
abbrev main_call2_v0 : Ref sig .tc := ⟨.hbm, 516, rfl⟩
abbrev main_call2_v1 : Ref sig .tc := ⟨.hbm, 517, rfl⟩
abbrev main_v424 : Ref sig .tc := ⟨.hbm, 518, rfl⟩
abbrev main_cst_77 : Ref sig .tc := ⟨.hbm, 519, rfl⟩
abbrev main_v425 : Ref sig .tc := ⟨.hbm, 520, rfl⟩
abbrev main_v426 : Ref sig .tc := ⟨.hbm, 521, rfl⟩
abbrev main_v427 : Ref sig .tc := ⟨.hbm, 522, rfl⟩
abbrev main_v428 : Ref sig .tc := ⟨.hbm, 523, rfl⟩
abbrev main_v429 : Ref sig .tc := ⟨.hbm, 524, rfl⟩
abbrev main_v430 : Ref sig .tc := ⟨.hbm, 525, rfl⟩
abbrev main_v431 : Ref sig .tc := ⟨.hbm, 526, rfl⟩
abbrev main_cst_78 : Ref sig .tc := ⟨.hbm, 527, rfl⟩
abbrev main_v432 : Ref sig .tc := ⟨.hbm, 528, rfl⟩
abbrev main_v433 : Ref sig .tc := ⟨.hbm, 529, rfl⟩
abbrev main_cst_79 : Ref sig .tc := ⟨.hbm, 530, rfl⟩
abbrev main_v434 : Ref sig .tc := ⟨.hbm, 531, rfl⟩
abbrev main_v435 : Ref sig .tc := ⟨.hbm, 532, rfl⟩
abbrev main_v436 : Ref sig .tc := ⟨.hbm, 533, rfl⟩
abbrev main_v437 : Ref sig .tc := ⟨.hbm, 534, rfl⟩
abbrev main_cst_80 : Ref sig .tc := ⟨.hbm, 535, rfl⟩
abbrev main_v438 : Ref sig .tc := ⟨.hbm, 536, rfl⟩
abbrev main_v439 : Ref sig .tc := ⟨.hbm, 537, rfl⟩
abbrev main_v440 : Ref sig .tc := ⟨.hbm, 538, rfl⟩
abbrev main_v441 : Ref sig .tc := ⟨.hbm, 539, rfl⟩
abbrev main_cst_81 : Ref sig .tc := ⟨.hbm, 540, rfl⟩
abbrev main_v442 : Ref sig .tc := ⟨.hbm, 541, rfl⟩
abbrev main_v443 : Ref sig .tc := ⟨.hbm, 542, rfl⟩
abbrev main_cst_82 : Ref sig .tc := ⟨.hbm, 543, rfl⟩
abbrev main_v444 : Ref sig .tc := ⟨.hbm, 544, rfl⟩
abbrev main_v445 : Ref sig .tc := ⟨.hbm, 545, rfl⟩
abbrev main_v446 : Ref sig .tc := ⟨.hbm, 546, rfl⟩
abbrev main_v447 : Ref sig .tc := ⟨.hbm, 547, rfl⟩
abbrev main_v448 : Ref sig .tc := ⟨.hbm, 548, rfl⟩
abbrev main_v449 : Ref sig .tc := ⟨.hbm, 549, rfl⟩
abbrev main_v450 : Ref sig .tc := ⟨.hbm, 550, rfl⟩
abbrev main_cst_83 : Ref sig .tc := ⟨.hbm, 551, rfl⟩
abbrev main_v451 : Ref sig .tc := ⟨.hbm, 552, rfl⟩
abbrev main_v452 : Ref sig .tc := ⟨.hbm, 553, rfl⟩
abbrev main_v453 : Ref sig .tc := ⟨.hbm, 554, rfl⟩
abbrev main_v454 : Ref sig .tc := ⟨.hbm, 555, rfl⟩
abbrev main_cst_84 : Ref sig .tc := ⟨.hbm, 556, rfl⟩
abbrev main_v455 : Ref sig .tc := ⟨.hbm, 557, rfl⟩
abbrev main_v456 : Ref sig .tc := ⟨.hbm, 558, rfl⟩
abbrev main_v457 : Ref sig .tc := ⟨.hbm, 559, rfl⟩
abbrev main_v458 : Ref sig .tc := ⟨.hbm, 560, rfl⟩
abbrev main_v459 : Ref sig .tc := ⟨.hbm, 561, rfl⟩
abbrev main_v460 : Ref sig .tc := ⟨.hbm, 562, rfl⟩
abbrev main_v461 : Ref sig .tc := ⟨.hbm, 563, rfl⟩
abbrev main_v462 : Ref sig .tc := ⟨.hbm, 564, rfl⟩

abbrev nD : Nat := 1
abbrev τ : Topo := Topo.v7x

variable {F : FTy → Type} [FloatOps F]

class Facts₀ : Prop where
  bcast_S2101_S1x2101_1 : S2101.BroadcastsInDim S1x2101 (![1] : Fin 1 → Fin S1x2101.rank)
  bcast_S8192x1_S8192x2101_0_1 : S8192x1.BroadcastsInDim S8192x2101 (![0, 1] : Fin 2 → Fin S8192x2101.rank)
  bcast_S1x2101_S8192x2101_0_1 : S1x2101.BroadcastsInDim S8192x2101 (![0, 1] : Fin 2 → Fin S8192x2101.rank)
  bcast_S_S8192x2101 : S_.BroadcastsInDim S8192x2101 (![] : Fin 0 → Fin S8192x2101.rank)
  slices_S6_S1_0 : S6.Slices ![0] S1
  shapeCasts_S1_S_ : S1.ShapeCasts S_
  slices_S6_S5_1 : S6.Slices ![1] S5
  slices_S5_S1_0 : S5.Slices ![0] S1
  slices_S5_S1_1 : S5.Slices ![1] S1
  slices_S5_S1_2 : S5.Slices ![2] S1
  slices_S5_S1_3 : S5.Slices ![3] S1
  slices_S5_S1_4 : S5.Slices ![4] S1
  slices_S5_S4_1 : S5.Slices ![1] S4
  slices_S4_S1_0 : S4.Slices ![0] S1
  slices_S4_S1_1 : S4.Slices ![1] S1
  slices_S4_S1_2 : S4.Slices ![2] S1
  slices_S4_S1_3 : S4.Slices ![3] S1
  bcast_S_S2101 : S_.BroadcastsInDim S2101 (![] : Fin 0 → Fin S2101.rank)
  bcast_S_S8192x1 : S_.BroadcastsInDim S8192x1 (![] : Fin 0 → Fin S8192x1.rank)

variable [Facts₀]

class Facts : Prop extends Facts₀ where

variable [Facts]
-- ==== Proof.Cell.lean ====
/-
  One cell (leaf i, wavelength j) of the leaf optical model, on the extended reals: the value both programs
  compute there as a function of the cell's seventeen scalars (six leaf traits, five absorption coefficients,
  six surface quantities that depend on the refractive index only). The two programs differ in four places:
  three quotients the kernel writes as a product with one shared reciprocal, and the power `b ^ (N - 1)`, which
  the kernel writes as `exp ((N - 1) * log b)`.
-/
import Idealize.ShloMosaic.PureOps.Ideal

namespace Cert.Cell

open Idealize.ShloMosaic

noncomputable section

/-- The 32-bit constants of the model, as the extended reals they denote. -/
abbrev lit (w : BitVec 32) : EReal := Ideal.ofBits .f32 w
abbrev c0 : EReal := lit 0x00000000#32
abbrev c1 : EReal := lit 0x3F800000#32
abbrev c2 : EReal := lit 0x40000000#32
/-- The lower clamp of the absorption (the constant nearest 1e-4). -/
abbrev ck0 : EReal := lit 0x38D1B717#32
abbrev cA0 : EReal := lit 0xBF13C468#32
abbrev cA1 : EReal := lit 0x3F7FFF79#32
abbrev cA2 : EReal := lit 0xBE7FE88D#32
abbrev cA3 : EReal := lit 0x3D62190F#32
abbrev cA4 : EReal := lit 0xBC1FE893#32
abbrev cA5 : EReal := lit 0x3A8D5ECE#32
abbrev cN1 : EReal := lit 0x41092C5B#32
abbrev cN2 : EReal := lit 0x419078DE#32
abbrev cN3 : EReal := lit 0x410A27FB#32
abbrev cN4 : EReal := lit 0x3E8919A4#32
abbrev cD1 : EReal := lit 0x41192C54#32
abbrev cD2 : EReal := lit 0x41CD104B#32
abbrev cD3 : EReal := lit 0x41A8CC17#32
abbrev cD4 : EReal := lit 0x407D5803#32

/-- A cell's scalars. -/
structure In where
  (N cab car water lma cant : EReal)
  (kab kcar kant kw km : EReal)
  (talf ralf t12 r12 t21 r21 : EReal)

/-! ### The stages both programs share -/

/-- The specific absorption, clamped from below. -/
def kall (x : In) : EReal :=
  max (Ideal.div (x.cab * x.kab + x.car * x.kcar + x.cant * x.kant + x.water * x.kw + x.lma * x.km) x.N) ck0

def polyA (k : EReal) : EReal := ((((cA5 * k + cA4) * k + cA3) * k + cA2) * k + cA1) * k + cA0
def polyN (k : EReal) : EReal := (((c1 * k + cN1) * k + cN2) * k + cN3) * k + cN4
def polyD (k : EReal) : EReal := (((c1 * k + cD1) * k + cD2) * k + cD3) * k + cD4

/-- The two-branch approximation of the exponential integral. -/
def e1 (k : EReal) : EReal :=
  Scalar.select (Ideal.cmp .ole k c1) (-Ideal.log k + polyA k)
    (Ideal.div (Ideal.exp (-k)) k * Ideal.div (polyN k) (polyD k))

/-- The layer's transmission factor. -/
def tau (k : EReal) : EReal := (c1 - k) * Ideal.exp (-k) + k * k * e1 k

def denom (r21 τ : EReal) : EReal := c1 - r21 * r21 * τ * τ
def Ra (ralf r21 τ Ta : EReal) : EReal := ralf + r21 * τ * Ta
def rr (r12 r21 τ t : EReal) : EReal := r12 + r21 * τ * t
/-- `r + t ≥ 1`: the thick-layer case. -/
def mask (r t : EReal) : BitVec 1 := Ideal.cmp .oge (r + t) c1
def Dsq (r t : EReal) : EReal := (c1 + (r + t)) * (c1 + (r - t)) * (c1 - (r - t)) * (c1 - (r + t))
def DD (r t : EReal) : EReal := Ideal.sqrt (Scalar.select (mask r t) c1 (Dsq r t))
def rq (r t : EReal) : EReal := r * r - t * t
def aa (r t : EReal) : EReal := Ideal.div (c1 + rq r t + DD r t) (c2 * r)
def bb (r t : EReal) : EReal := Ideal.div (c1 - rq r t + DD r t) (c2 * t)
def bsafe (r t : EReal) : EReal := Scalar.select (mask r t) c1 (bb r t)
def den2 (a bnm1 : EReal) : EReal := a * a * (bnm1 * bnm1) - c1
def Talt (t N : EReal) : EReal := Ideal.div t (t + (c1 - t) * (N - c1))
def den3 (Rsub r : EReal) : EReal := c1 - Rsub * r

/-- Everything a cell's two results are made of once `Ta`, `t` and the power `bnm1` are given, with the two
    quotients by `den2` and the two by `den3` supplied as functions (`q x d` is `x / d` for the reference and
    `x * (1 / d)` for the kernel): the reflectance and the transmittance. -/
def finish (q : EReal → EReal → EReal) (x : In) (τ Ta t bnm1 : EReal) : EReal × EReal :=
  let r := rr x.r12 x.r21 τ t
  let a := aa r t
  let d2 := den2 a bnm1
  let Rs := q (a * (bnm1 * bnm1 - c1)) d2
  let Ts := q (bnm1 * (a * a - c1)) d2
  let Ta' := Talt t x.N
  let Ts' := Scalar.select (mask r t) Ta' Ts
  let Rs' := Scalar.select (mask r t) (c1 - Ta') Rs
  let d3 := den3 Rs' r
  (Ra x.ralf x.r21 τ Ta + q (Ta * Rs' * t) d3, q (Ta * Ts') d3)

/-- The reference's quotient. -/
def qR (x d : EReal) : EReal := Ideal.div x d
/-- The kernel's quotient: a product with the reciprocal. -/
def qK (x d : EReal) : EReal := x * Ideal.div c1 d

/-- The reference's cell: (reflectance, transmittance). -/
def cellR (x : In) : EReal × EReal :=
  let τ := tau (kall x)
  let dn := denom x.r21 τ
  let Ta := qR (x.talf * τ * x.t21) dn
  let t := qR (x.t12 * τ * x.t21) dn
  let r := rr x.r12 x.r21 τ t
  finish qR x τ Ta t (Ideal.pow (bsafe r t) (x.N - c1))

/-- The kernel's cell. -/
def cellK (x : In) : EReal × EReal :=
  let τ := tau (kall x)
  let dn := denom x.r21 τ
  let Ta := qK (x.talf * τ * x.t21) dn
  let t := qK (x.t12 * τ * x.t21) dn
  let r := rr x.r12 x.r21 τ t
  finish qK x τ Ta t (Ideal.exp ((x.N - c1) * Ideal.log (bsafe r t)))

/-- The reference's last denominator at a cell. -/
def den3R (x : In) : EReal :=
  let τ := tau (kall x)
  let dn := denom x.r21 τ
  let t := qR (x.t12 * τ * x.t21) dn
  let r := rr x.r12 x.r21 τ t
  let bnm1 := Ideal.pow (bsafe r t) (x.N - c1)
  let a := aa r t
  let Rs := qR (a * (bnm1 * bnm1 - c1)) (den2 a bnm1)
  den3 (Scalar.select (mask r t) (c1 - Talt t x.N) Rs) r

/-- What the precondition gives at a cell: finite traits and coefficients, a nonzero structure parameter, a refractive
    index `n > 1` whose all-angle transmissivity `S` lies in `(0, 1]` and feeds the four surface quantities, and a nonzero
    last denominator of the reference. -/
structure Ok (x : In) : Prop where
  N_real : ∃ v : ℝ, v ≠ 0 ∧ x.N = (v : EReal)
  cab_real : ∃ v : ℝ, x.cab = (v : EReal)
  car_real : ∃ v : ℝ, x.car = (v : EReal)
  water_real : ∃ v : ℝ, x.water = (v : EReal)
  lma_real : ∃ v : ℝ, x.lma = (v : EReal)
  cant_real : ∃ v : ℝ, x.cant = (v : EReal)
  kab_real : ∃ v : ℝ, x.kab = (v : EReal)
  kcar_real : ∃ v : ℝ, x.kcar = (v : EReal)
  kant_real : ∃ v : ℝ, x.kant = (v : EReal)
  kw_real : ∃ v : ℝ, x.kw = (v : EReal)
  km_real : ∃ v : ℝ, x.km = (v : EReal)
  surface : ∃ n S : ℝ, 1 < n ∧ 0 < S ∧ S ≤ 1 ∧ x.t12 = (S : EReal) ∧ x.r12 = c1 - x.t12
    ∧ x.t21 = Ideal.div x.t12 ((n : EReal) * (n : EReal)) ∧ x.r21 = c1 - x.t21
  den3_ne : den3R x ≠ 0

end

end Cert.Cell
-- ==== Proof.HostVals.lean ====
/-
  The six surface quantities of a cell as functions of the refractive index `nr` alone, on the extended reals,
  operation by operation as both programs compute them on the host: the transmissivity of a plane dielectric
  surface averaged over an opening angle (Stern's closed form) at 40 degrees and at 90 degrees, and what is
  derived from the two.
-/
import proofs.«406795_j81097572483403_3_alg».proof.Proof.Cell

namespace Cert.Cell

open Idealize.ShloMosaic

noncomputable section

abbrev c4 : EReal := lit 0x40800000#32
abbrev c6 : EReal := lit 0x40C00000#32
abbrev c16 : EReal := lit 0x41800000#32
abbrev cm2 : EReal := lit 0xC0000000#32
/-- `sin² 40°` and its double, as the 32-bit constants both programs carry. -/
abbrev cS40 : EReal := lit 0x3ED38BCB#32
abbrev c2S40 : EReal := lit 0x3F538BCB#32

/-- Stern's form once `b` (which depends on the opening angle) is known; `den` is twice the squared sine of the angle. -/
def gavRest (n2 npx nm a k b den : EReal) : EReal :=
  let k2 := k * k
  let ts := Ideal.div k2 (c6 * (b * b * b)) + Ideal.div k b - Ideal.div b c2
    - (Ideal.div k2 (c6 * (a * a * a)) + Ideal.div k a - Ideal.div a c2)
  let tp1 := Ideal.div (cm2 * n2 * (b - a)) (npx * npx)
  let nm2 := nm * nm
  let tp2 := Ideal.div (cm2 * n2 * npx * Ideal.log (Ideal.div b a)) nm2
  let tp3 := Ideal.div (n2 * (Ideal.div c1 b - Ideal.div c1 a)) c2
  let n22 := n2 * n2
  let npx3 := npx * npx * npx
  let npaxa := c2 * npx * a - nm2
  let npxb := c2 * npx * b - nm2
  let tp4 := Ideal.div (c16 * n22 * (n22 + c1) * Ideal.log (Ideal.div npxb npaxa)) (npx3 * nm2)
  let tp5 := Ideal.div (c16 * (n2 * n2 * n2) * (Ideal.div c1 npxb - Ideal.div c1 npaxa)) npx3
  Ideal.div (ts + (tp1 + tp2 + tp3 + tp4 + tp5)) den

/-- The averaged transmissivity up to 40 degrees. -/
def gav40 (nr : EReal) : EReal :=
  let n2 := nr * nr
  let npx := n2 + c1
  let nm := n2 - c1
  let a := Ideal.div ((nr + c1) * (nr + c1)) c2
  let k := Ideal.div (-(n2 - c1) * (n2 - c1)) c4
  let u := cS40 - Ideal.div npx c2
  let b1 := Ideal.sqrt (u * u + k)
  let b2 := cS40 - Ideal.div npx c2
  gavRest n2 npx nm a k (b1 - b2) c2S40

/-- The averaged transmissivity over all angles. -/
def gav90 (nr : EReal) : EReal :=
  let n2 := nr * nr
  let npx := n2 + c1
  let nm := n2 - c1
  let a := Ideal.div ((nr + c1) * (nr + c1)) c2
  let k := Ideal.div (-(n2 - c1) * (n2 - c1)) c4
  let b2 := c1 - Ideal.div npx c2
  gavRest n2 npx nm a k (c0 - b2) c2

/-- A cell's scalars from the twelve inputs' entries. -/
def mkIn (N cab car water lma cant nr kab kcar kant kw km : EReal) : In :=
  let talf := gav40 nr
  let t12 := gav90 nr
  let t21 := Ideal.div t12 (nr * nr)
  { N := N, cab := cab, car := car, water := water, lma := lma, cant := cant,
    kab := kab, kcar := kcar, kant := kant, kw := kw, km := km,
    talf := talf, ralf := c1 - talf, t12 := t12, r12 := c1 - t12, t21 := t21, r21 := c1 - t21 }

end

end Cert.Cell
-- ==== Proof.Spec.lean ====
/-
  The two result arrays as functions of the twelve argument arrays: entry (i, j) is the cell function of leaf i's six
  traits, wavelength j's five coefficients and refractive index. One pair for the reference's cell, one for the kernel's.
-/
import proofs.«406795_j81097572483403_3_alg».proof.Proof.HostVals
import Idealize.ShloMosaic.Lib.ValueIdx

namespace Cert.Spec

open Idealize.ShloMosaic Idealize.ShloMosaic.ValueIdx Cert.Cell

noncomputable section

abbrev SL1 : Shape := ⟨2, ![8192, 1]⟩
abbrev SW : Shape := ⟨1, ![2101]⟩
abbrev SLW : Shape := ⟨2, ![8192, 2101]⟩

/-- Leaf `i`'s entry of a trait column and wavelength `j`'s entry of a spectrum. -/
abbrev atL (v : FVec Ideal SL1 .f32) (i : Fin 8192) : EReal := v (ix2 i (0 : Fin 1))
abbrev atW (v : FVec Ideal SW .f32) (j : Fin 2101) : EReal := v (ix1 j)

/-- The scalars of cell (i, j). -/
def cellIn (N cab car water lma cant : FVec Ideal SL1 .f32) (nr kab kcar kant kw km : FVec Ideal SW .f32)
    (i : Fin 8192) (j : Fin 2101) : In :=
  mkIn (atL N i) (atL cab i) (atL car i) (atL water i) (atL lma i) (atL cant i)
    (atW nr j) (atW kab j) (atW kcar j) (atW kant j) (atW kw j) (atW km j)

/-- The reference's reflectance and transmittance arrays. -/
def reflR (N cab car water lma cant : FVec Ideal SL1 .f32) (nr kab kcar kant kw km : FVec Ideal SW .f32) :
    FVec Ideal SLW .f32 := fun idx => (cellR (cellIn N cab car water lma cant nr kab kcar kant kw km (idx 0) (idx 1))).1
def tranR (N cab car water lma cant : FVec Ideal SL1 .f32) (nr kab kcar kant kw km : FVec Ideal SW .f32) :
    FVec Ideal SLW .f32 := fun idx => (cellR (cellIn N cab car water lma cant nr kab kcar kant kw km (idx 0) (idx 1))).2
/-- The kernel's. -/
def reflK (N cab car water lma cant : FVec Ideal SL1 .f32) (nr kab kcar kant kw km : FVec Ideal SW .f32) :
    FVec Ideal SLW .f32 := fun idx => (cellK (cellIn N cab car water lma cant nr kab kcar kant kw km (idx 0) (idx 1))).1
def tranK (N cab car water lma cant : FVec Ideal SL1 .f32) (nr kab kcar kant kw km : FVec Ideal SW .f32) :
    FVec Ideal SLW .f32 := fun idx => (cellK (cellIn N cab car water lma cant nr kab kcar kant kw km (idx 0) (idx 1))).2

end

end Cert.Spec
-- ==== Proof.PreFacts.lean ====
/-
  What the precondition says at one cell. The precondition is the conjunction of fifteen statements about whole arrays:
  each of the twelve argument arrays has every entry of magnitude below the infinity, every structure parameter `N` is
  not zero, every refractive index `nr` exceeds one, and the reference's last denominator, recomputed from the arguments
  over the whole leaf-by-wavelength rectangle, is nowhere zero. Read at leaf `i` and wavelength `j`: the twelve entries
  are real numbers, `N` is a nonzero real, `nr` a real above one, and the last denominator of the cell's scalars is not
  zero. The last statement recomputes, operation by operation, the clamped absorption, the layer's transmission factor,
  the all-angle surface transmissivity with the three quantities derived from it, and the stages from the layer's
  transmittance down to the denominator; each stage of that chain is read at (i, j) and identified with the cell's
  function of the same name.
-/
import proofs.«406795_j81097572483403_3_alg».proof.Pre_finite_inputs
import proofs.«406795_j81097572483403_3_alg».proof.Proof.Spec
import Idealize.ShloMosaic.Lib.ReduceAll
import Idealize.ShloMosaic.Lib.ValueIdx
import Idealize.ShloMosaic.Lib.IdealHost

namespace Cert.PreFacts

open Idealize.ShloMosaic Idealize.ShloMosaic.ValueIdx Cert.Cell Cert.Spec Cert.Pre_finite_inputs

noncomputable section

/-- The scalar shape has one index. -/
instance : Subsingleton S_.Idx := ⟨fun a b => funext fun d => d.elim0⟩

/-- A leaf column laid across the wavelengths reads, at (i, j), the column at (i, 0). -/
theorem bc_col {α : Type} (hb : S8192x1.BroadcastsInDim S8192x2101 (![0, 1] : Fin 2 → Fin S8192x2101.rank))
    (v : S8192x1.Idx → α) (i : Fin 8192) (j : Fin 2101) :
    broadcastInDim S8192x2101 ![0, 1] hb v (ix2 i j) = v (ix2 i (0 : Fin 1)) := by
  simp only [broadcastInDim]
  congr 1
  funext a
  match a with
  | ⟨0, _⟩ => rfl
  | ⟨1, _⟩ => rfl

/-- A one-row rectangle laid down the leaves reads, at (i, j), the row at (0, j). -/
theorem bc_row {α : Type} (hb : S1x2101.BroadcastsInDim S8192x2101 (![0, 1] : Fin 2 → Fin S8192x2101.rank))
    (v : S1x2101.Idx → α) (i : Fin 8192) (j : Fin 2101) :
    broadcastInDim S8192x2101 ![0, 1] hb v (ix2 i j) = v (ix2 (0 : Fin 1) j) := by
  simp only [broadcastInDim]
  congr 1
  funext a
  match a with
  | ⟨0, _⟩ => rfl
  | ⟨1, _⟩ => rfl

/-- A spectrum as a one-row rectangle reads, at (0, j), the spectrum at j. -/
theorem bc_w {α : Type} (hb : S2101.BroadcastsInDim S1x2101 (![1] : Fin 1 → Fin S1x2101.rank))
    (v : S2101.Idx → α) (j : Fin 2101) :
    broadcastInDim S1x2101 ![1] hb v (ix2 (0 : Fin 1) j) = v (ix1 j) := by
  simp only [broadcastInDim]
  congr 1
  funext a
  match a with
  | ⟨0, _⟩ => rfl

/-- The 32-bit pattern of the positive infinity is the top element. -/
theorem inf_eq_top : Ideal.ofBits .f32 0x7F800000#32 = ⊤ := by simp [Ideal.ofBits, Ideal.ieee]

/-- An entry whose magnitude `max x (-x)` is below the infinity is a real number. -/
theorem real_of_abs_lt (x : EReal) (h : Ideal.cmp .olt (max x (-x)) (Ideal.ofBits .f32 0x7F800000#32) = 1#1) :
    ∃ v : ℝ, x = (v : EReal) := by
  rw [inf_eq_top] at h
  induction x using EReal.rec with
  | bot => simp [Ideal.cmp] at h
  | top => simp [Ideal.cmp] at h
  | coe v => exact ⟨v, rfl⟩

/-- An entry that compares unequal to the zero pattern is not zero. -/
theorem ne_zero_of_une (x : EReal) (h : Ideal.cmp .une x (Ideal.ofBits .f32 0x00000000#32) = 1#1) : x ≠ 0 := by
  rw [Ideal.ofBits_zero_f32] at h
  intro hx
  simp [Ideal.cmp, hx] at h

/-- An entry that compares greater than the pattern of one exceeds one. -/
theorem one_lt_of_ogt (x : EReal) (h : Ideal.cmp .ogt x (Ideal.ofBits .f32 0x3F800000#32) = 1#1) : 1 < x := by
  rw [Ideal.ofBits_one_f32] at h
  by_contra hx
  simp [Ideal.cmp, hx] at h

/-- What the precondition says at cell (i, j): the six leaf traits and the five absorption coefficients are real, the
    structure parameter is a nonzero real, the refractive index a real above one, and the reference's last denominator
    at the cell is not zero. -/
theorem pre_cells (N cab car water lma cant : FVec Ideal SL1 .f32) (nr kab kcar kant kw km : FVec Ideal SW .f32)
    [Cert.Pre_finite_inputs.Facts]
    (h : Cert.Pre_finite_inputs.fn (F := Ideal) N cab car water lma cant nr kab kcar kant kw km = (fun _ => 1#1))
    (i : Fin 8192) (j : Fin 2101) :
    (∃ v : ℝ, v ≠ 0 ∧ atL N i = (v : EReal)) ∧ (∃ v : ℝ, atL cab i = (v : EReal)) ∧ (∃ v : ℝ, atL car i = (v : EReal))
    ∧ (∃ v : ℝ, atL water i = (v : EReal)) ∧ (∃ v : ℝ, atL lma i = (v : EReal)) ∧ (∃ v : ℝ, atL cant i = (v : EReal))
    ∧ (∃ v : ℝ, 1 < v ∧ atW nr j = (v : EReal)) ∧ (∃ v : ℝ, atW kab j = (v : EReal)) ∧ (∃ v : ℝ, atW kcar j = (v : EReal))
    ∧ (∃ v : ℝ, atW kant j = (v : EReal)) ∧ (∃ v : ℝ, atW kw j = (v : EReal)) ∧ (∃ v : ℝ, atW km j = (v : EReal))
    ∧ Cell.den3R (cellIn N cab car water lma cant nr kab kcar kant kw km i j) ≠ 0 := by
  unfold Cert.Pre_finite_inputs.fn at h
  extract_lets -merge
    _ _ _ main_v2 main_c main_v3 _ _ _ main_v6 main_c_1 main_v7 main_v8 _ _ _ main_v11 main_c_3 main_v12
    main_v13 _ _ _ main_v16 at h
  unfold fn_part1 at h
  extract_lets -merge
    main_c_5 main_v17 main_v18 _ _ _ main_v21 main_c_7 main_v22 main_v23 _ _ _ main_v26 main_c_9 main_v27
    main_v28 _ _ _ main_v31 main_c_11 main_v32 main_v33 at h
  unfold fn_part2 at h
  extract_lets -merge
    _ _ _ main_v36 main_c_13 main_v37 main_v38 _ _ _ main_v41 main_c_15 main_v42 main_v43 _ _ _ main_v46
    main_c_17 main_v47 main_v48 at h
  unfold fn_part3 at h
  extract_lets -merge
    main_v51 main_c_19 main_v52 main_v53 _ _ _ main_v56 main_c_21 main_v57 main_v58 _ _ main_v60 main_c_23
    main_v61 main_v62 _ _ main_v64 main_c_25 main_v65 main_v66 at h
  unfold fn_part4 at h
  extract_lets -merge
    main_v68 main_v69 _ _ main_v72 main_v73 _ _ _ main_v77 main_v78 _ _ _ main_v82 main_v83 _ _ _ main_v87
    main_v88 _ _ main_v91 at h
  unfold fn_part5 at h
  extract_lets -merge
    _ _ _ main_v94 at h
  unfold fn_part6 at h
  extract_lets -merge at h
  unfold fn_part7 at h
  extract_lets -merge at h
  unfold fn_part8 at h
  extract_lets -merge
    _ _ _ _ _ _ _ _ _ _ main_v155 at h
  unfold fn_part9 at h
  extract_lets -merge at h
  unfold fn_part10 at h
  extract_lets -merge at h
  unfold fn_part11 at h
  extract_lets -merge at h
  unfold fn_part12 at h
  extract_lets -merge at h
  unfold fn_part13 at h
  extract_lets -merge at h
  unfold fn_part14 at h
  extract_lets -merge at h
  unfold fn_part15 at h
  extract_lets -merge at h
  unfold fn_part16 at h
  extract_lets -merge at h
  unfold fn_part17 at h
  extract_lets -merge at h
  unfold fn_part18 at h
  extract_lets -merge at h
  unfold fn_part19 at h
  extract_lets -merge at h
  unfold fn_part20 at h
  extract_lets -merge
    _ _ _ main_v379 _ _ main_v381 _ main_v383 _ _ main_v385 main_v386 _ main_v388 _ _ _ _ _ _ main_v394 at h
  unfold fn_part21 at h
  extract_lets -merge
    main_v397 _ main_v399 _ main_v401 _ _ _ main_v405 main_v406 _ _ _ _ main_v410 at h
  unfold fn_part22 at h
  extract_lets -merge
    _ _ _ _ _ _ _ _ _ main_v424 _ _ main_v427 _ _ _ _ _ _ _ main_v433 at h
  unfold fn_part23 at h
  extract_lets -merge
    _ _ _ _ _ _ _ main_v441 _ _ main_v443 main_v444 main_v445 _ _ _ _ _ _ _ _ _ _ main_v454 at h
  unfold fn_part24 at h
  extract_lets -merge
    _ _ _ _ _ main_v458 main_v459 _ _ main_v462 _ _ _ _ _ _ _ main_v468 _ _ main_v470 main_c_124 main_v471 at h

  -- the conjunction, split from the outside in
  have c472 : IntOp.andi (main_v66 ix0) (main_v471 ix0) = 1#1 := congrFun h ix0
  obtain ⟨c66, c471⟩ := IntOp.andi_eq_one.1 c472
  obtain ⟨c62, c65⟩ := IntOp.andi_eq_one.1 (c66 : IntOp.andi (main_v62 ix0) (main_v65 ix0) = 1#1)
  obtain ⟨c58, c61⟩ := IntOp.andi_eq_one.1 (c62 : IntOp.andi (main_v58 ix0) (main_v61 ix0) = 1#1)
  obtain ⟨c53, c57⟩ := IntOp.andi_eq_one.1 (c58 : IntOp.andi (main_v53 ix0) (main_v57 ix0) = 1#1)
  obtain ⟨c48, c52⟩ := IntOp.andi_eq_one.1 (c53 : IntOp.andi (main_v48 ix0) (main_v52 ix0) = 1#1)
  obtain ⟨c43, c47⟩ := IntOp.andi_eq_one.1 (c48 : IntOp.andi (main_v43 ix0) (main_v47 ix0) = 1#1)
  obtain ⟨c38, c42⟩ := IntOp.andi_eq_one.1 (c43 : IntOp.andi (main_v38 ix0) (main_v42 ix0) = 1#1)
  obtain ⟨c33, c37⟩ := IntOp.andi_eq_one.1 (c38 : IntOp.andi (main_v33 ix0) (main_v37 ix0) = 1#1)
  obtain ⟨c28, c32⟩ := IntOp.andi_eq_one.1 (c33 : IntOp.andi (main_v28 ix0) (main_v32 ix0) = 1#1)
  obtain ⟨c23, c27⟩ := IntOp.andi_eq_one.1 (c28 : IntOp.andi (main_v23 ix0) (main_v27 ix0) = 1#1)
  obtain ⟨c18, c22⟩ := IntOp.andi_eq_one.1 (c23 : IntOp.andi (main_v18 ix0) (main_v22 ix0) = 1#1)
  obtain ⟨c13, c17⟩ := IntOp.andi_eq_one.1 (c18 : IntOp.andi (main_v13 ix0) (main_v17 ix0) = 1#1)
  obtain ⟨c8, c12⟩ := IntOp.andi_eq_one.1 (c13 : IntOp.andi (main_v8 ix0) (main_v12 ix0) = 1#1)
  obtain ⟨c3, c7⟩ := IntOp.andi_eq_one.1 (c8 : IntOp.andi (main_v3 ix0) (main_v7 ix0) = 1#1)
  -- each conjunct is a reduction by "and" over a whole array: every entry of the array is 1
  have a2 := Host.reduce_andi_all main_v2 main_c _ _ ix0 c3
  have a6 := Host.reduce_andi_all main_v6 main_c_1 _ _ ix0 c7
  have a11 := Host.reduce_andi_all main_v11 main_c_3 _ _ ix0 c12
  have a16 := Host.reduce_andi_all main_v16 main_c_5 _ _ ix0 c17
  have a21 := Host.reduce_andi_all main_v21 main_c_7 _ _ ix0 c22
  have a26 := Host.reduce_andi_all main_v26 main_c_9 _ _ ix0 c27
  have a31 := Host.reduce_andi_all main_v31 main_c_11 _ _ ix0 c32
  have a36 := Host.reduce_andi_all main_v36 main_c_13 _ _ ix0 c37
  have a41 := Host.reduce_andi_all main_v41 main_c_15 _ _ ix0 c42
  have a46 := Host.reduce_andi_all main_v46 main_c_17 _ _ ix0 c47
  have a51 := Host.reduce_andi_all main_v51 main_c_19 _ _ ix0 c52
  have a56 := Host.reduce_andi_all main_v56 main_c_21 _ _ ix0 c57
  have a60 := Host.reduce_andi_all main_v60 main_c_23 _ _ ix0 c61
  have a64 := Host.reduce_andi_all main_v64 main_c_25 _ _ ix0 c65
  have a470 := Host.reduce_andi_all main_v470 main_c_124 _ _ ix0 c471
  refine ⟨?_, real_of_abs_lt (cab (ix2 i 0)) (a6 _), real_of_abs_lt (car (ix2 i 0)) (a11 _),
    real_of_abs_lt (water (ix2 i 0)) (a16 _), real_of_abs_lt (lma (ix2 i 0)) (a21 _),
    real_of_abs_lt (cant (ix2 i 0)) (a26 _), ?_, real_of_abs_lt (kab (ix1 j)) (a36 _),
    real_of_abs_lt (kcar (ix1 j)) (a41 _), real_of_abs_lt (kant (ix1 j)) (a46 _),
    real_of_abs_lt (kw (ix1 j)) (a51 _), real_of_abs_lt (km (ix1 j)) (a56 _), ?_⟩
  · obtain ⟨v, hv⟩ := real_of_abs_lt (N (ix2 i 0)) (a2 _)
    have hne := ne_zero_of_une (N (ix2 i 0)) (a60 _)
    refine ⟨v, ?_, hv⟩
    rintro rfl
    exact hne (by rw [hv]; rfl)
  · obtain ⟨v, hv⟩ := real_of_abs_lt (nr (ix1 j)) (a31 _)
    have hgt := one_lt_of_ogt (nr (ix1 j)) (a64 _)
    refine ⟨v, ?_, hv⟩
    rw [hv] at hgt
    exact_mod_cast hgt
  · -- the last denominator: the entry of the compared array at (i, j) is not zero
    have e470 := ne_zero_of_une (main_v468 (ix2 i j)) (a470 (ix2 i j))
    let x : In := cellIn N cab car water lma cant nr kab kcar kant kw km i j
    let τ : EReal := tau (kall x)
    let t : EReal := qR (x.t12 * τ * x.t21) (denom x.r21 τ)
    let r : EReal := rr x.r12 x.r21 τ t
    let bn : EReal := Ideal.pow (bsafe r t) (x.N - c1)
    let a : EReal := aa r t
    let Rs : EReal := qR (a * (bn * bn - c1)) (den2 a bn)
    -- a leaf column or a spectrum laid over the rectangle reads the column at (i, 0), the spectrum at j
    have b68 : main_v68 (ix2 i j) = cab (ix2 i 0) := bc_col _ _ i j
    have b69 : main_v69 (ix2 i j) = kab (ix1 j) := (bc_row _ _ i j).trans (bc_w _ _ j)
    have b72 : main_v72 (ix2 i j) = car (ix2 i 0) := bc_col _ _ i j
    have b73 : main_v73 (ix2 i j) = kcar (ix1 j) := (bc_row _ _ i j).trans (bc_w _ _ j)
    have b77 : main_v77 (ix2 i j) = cant (ix2 i 0) := bc_col _ _ i j
    have b78 : main_v78 (ix2 i j) = kant (ix1 j) := (bc_row _ _ i j).trans (bc_w _ _ j)
    have b82 : main_v82 (ix2 i j) = water (ix2 i 0) := bc_col _ _ i j
    have b83 : main_v83 (ix2 i j) = kw (ix1 j) := (bc_row _ _ i j).trans (bc_w _ _ j)
    have b87 : main_v87 (ix2 i j) = lma (ix2 i 0) := bc_col _ _ i j
    have b88 : main_v88 (ix2 i j) = km (ix1 j) := (bc_row _ _ i j).trans (bc_w _ _ j)
    have b91 : main_v91 (ix2 i j) = N (ix2 i 0) := bc_col _ _ i j
    have b388 : main_v388 (ix2 i j) = main_v386 (ix1 j) := (bc_row _ _ i j).trans (bc_w _ _ j)
    have b394 : main_v394 (ix2 i j) = main_v379 (ix1 j) := (bc_row _ _ i j).trans (bc_w _ _ j)
    have b397 : main_v397 (ix2 i j) = main_v383 (ix1 j) := (bc_row _ _ i j).trans (bc_w _ _ j)
    have b401 : main_v401 (ix2 i j) = main_v385 (ix1 j) := (bc_row _ _ i j).trans (bc_w _ _ j)
    have b405 : main_v405 (ix2 i j) = main_v381 (ix1 j) := (bc_row _ _ i j).trans (bc_w _ _ j)
    have b444 : main_v444 (ix2 i j) = main_v443 (ix2 i 0) := bc_col _ _ i j
    have b459 : main_v459 (ix2 i j) = main_v458 (ix2 i 0) := bc_col _ _ i j
    -- the clamped absorption
    have ek : main_v94 (ix2 i j) = kall x := by
      have e : main_v94 (ix2 i j) = max (Ideal.div (main_v68 (ix2 i j) * main_v69 (ix2 i j) + main_v72 (ix2 i j) * main_v73 (ix2 i j)
          + main_v77 (ix2 i j) * main_v78 (ix2 i j) + main_v82 (ix2 i j) * main_v83 (ix2 i j)
          + main_v87 (ix2 i j) * main_v88 (ix2 i j)) (main_v91 (ix2 i j))) ck0 := rfl
      rw [e, b68, b69, b72, b73, b77, b78, b82, b83, b87, b88, b91]; rfl
    -- the transmission factor: operations 95 to 155 are pointwise
    have eτ : main_v155 (ix2 i j) = τ := by
      have e : main_v155 (ix2 i j) = tau (main_v94 (ix2 i j)) := rfl
      rw [e, ek]
    -- the all-angle surface transmissivity and what is derived from it: operations 271 to 385, pointwise in j
    have et12 : main_v379 (ix1 j) = x.t12 := rfl
    have et21 : main_v383 (ix1 j) = x.t21 := by
      have e : main_v383 (ix1 j) = Ideal.div (main_v379 (ix1 j)) (nr (ix1 j) * nr (ix1 j)) := rfl
      rw [e, et12]; rfl
    have er12 : main_v381 (ix1 j) = x.r12 := by
      have e : main_v381 (ix1 j) = c1 - main_v379 (ix1 j) := rfl
      rw [e, et12]; rfl
    have er21 : main_v385 (ix1 j) = x.r21 := by
      have e : main_v385 (ix1 j) = c1 - main_v383 (ix1 j) := rfl
      rw [e, et21]; rfl
    have e386 : main_v386 (ix1 j) = x.r21 * x.r21 := by
      have e : main_v386 (ix1 j) = main_v385 (ix1 j) * main_v385 (ix1 j) := rfl
      rw [e, er21]
    -- the layer's transmittance and reflectance
    have et : main_v399 (ix2 i j) = t := by
      have e : main_v399 (ix2 i j) = Ideal.div (main_v394 (ix2 i j) * main_v155 (ix2 i j) * main_v397 (ix2 i j))
          (c1 - main_v388 (ix2 i j) * main_v155 (ix2 i j) * main_v155 (ix2 i j)) := rfl
      rw [e, b394, b397, b388, eτ, et12, et21, e386]; rfl
    have er : main_v406 (ix2 i j) = r := by
      have e : main_v406 (ix2 i j) = main_v405 (ix2 i j) + main_v401 (ix2 i j) * main_v155 (ix2 i j) * main_v399 (ix2 i j) := rfl
      rw [e, b405, b401, er12, er21, eτ, et]; rfl
    have em : main_v410 (ix2 i j) = mask r t := by
      have e : main_v410 (ix2 i j) = mask (main_v406 (ix2 i j)) (main_v399 (ix2 i j)) := rfl
      rw [e, er, et]
    have eDD : main_v424 (ix2 i j) = DD r t := by
      have e : main_v424 (ix2 i j) = Ideal.sqrt (Scalar.select (main_v410 (ix2 i j)) c1 (Dsq (main_v406 (ix2 i j)) (main_v399 (ix2 i j)))) := rfl
      rw [e, em, er, et]; rfl
    have erq : main_v427 (ix2 i j) = rq r t := by
      have e : main_v427 (ix2 i j) = rq (main_v406 (ix2 i j)) (main_v399 (ix2 i j)) := rfl
      rw [e, er, et]
    have ea : main_v433 (ix2 i j) = a := by
      have e : main_v433 (ix2 i j) = Ideal.div (c1 + main_v427 (ix2 i j) + main_v424 (ix2 i j)) (c2 * main_v406 (ix2 i j)) := rfl
      rw [e, erq, eDD, er]; rfl
    have ebs : main_v441 (ix2 i j) = bsafe r t := by
      have e : main_v441 (ix2 i j) = Scalar.select (main_v410 (ix2 i j)) c1
          (Ideal.div (c1 - main_v427 (ix2 i j) + main_v424 (ix2 i j)) (c2 * main_v399 (ix2 i j))) := rfl
      rw [e, em, erq, eDD, et]; rfl
    have eN1 : main_v444 (ix2 i j) = x.N - c1 := by rw [b444]; rfl
    have ebn : main_v445 (ix2 i j) = bn := by
      have e : main_v445 (ix2 i j) = Ideal.pow (main_v441 (ix2 i j)) (main_v444 (ix2 i j)) := rfl
      rw [e, ebs, eN1]
    have eRs : main_v454 (ix2 i j) = Rs := by
      have e : main_v454 (ix2 i j) = Ideal.div (main_v433 (ix2 i j) * (main_v445 (ix2 i j) * main_v445 (ix2 i j) - c1))
          (main_v433 (ix2 i j) * main_v433 (ix2 i j) * (main_v445 (ix2 i j) * main_v445 (ix2 i j)) - c1) := rfl
      rw [e, ea, ebn]; rfl
    have eTa : main_v462 (ix2 i j) = Talt t x.N := by
      have e : main_v462 (ix2 i j) = Ideal.div (main_v399 (ix2 i j)) (main_v399 (ix2 i j) + (c1 - main_v399 (ix2 i j)) * main_v459 (ix2 i j)) := rfl
      rw [e, b459, et]; rfl
    have ed3 : main_v468 (ix2 i j) = den3 (Scalar.select (mask r t) (c1 - Talt t x.N) Rs) r := by
      have e : main_v468 (ix2 i j) = c1 - Scalar.select (main_v410 (ix2 i j)) (c1 - main_v462 (ix2 i j)) (main_v454 (ix2 i j)) * main_v406 (ix2 i j) := rfl
      rw [e, em, eTa, eRs, er]; rfl
    rw [ed3] at e470
    exact e470

end

end Cert.PreFacts
-- ==== Proof.TauBound.lean ====
/-
  The layer transmission factor `τ(k) = (1 - k) e^{-k} + k² E(k)`, with `E` the two-branch approximation of the
  exponential integral both programs use (a degree-5 polynomial minus `log k` up to `k = 1`, a quotient of two
  monic quartics times `e^{-k}/k` beyond), lies in `(0, 1]` for every `k` from the clamp value up.
  The coefficients are the exact rationals the programs' 32-bit constants denote.
-/
import Mathlib.Analysis.SpecialFunctions.Log.Basic
import Mathlib.Analysis.SpecialFunctions.Exp

namespace Cert.Analysis

noncomputable section

/-- The clamp value (the 32-bit constant nearest to 1e-4). -/
def k0 : ℝ := 13743895 / 137438953472

def cA0 : ℝ := -1210509 / 2097152
def cA1 : ℝ := 16777081 / 16777216
def cA2 : ℝ := -16771213 / 67108864
def cA3 : ℝ := 14817551 / 268435456
def cA4 : ℝ := -10479763 / 1073741824
def cA5 : ℝ := 4632423 / 4294967296
def cN1 : ℝ := 8989787 / 1048576
def cN2 : ℝ := 4734063 / 262144
def cN3 : ℝ := 9054203 / 1048576
def cN4 : ℝ := 2246249 / 8388608
def cD1 : ℝ := 2509589 / 262144
def cD2 : ℝ := 13439051 / 524288
def cD3 : ℝ := 11062295 / 524288
def cD4 : ℝ := 16603139 / 4194304

/-- The polynomial of the small branch, in Horner form from the leading coefficient. -/
def polyA (x : ℝ) : ℝ := ((((cA5 * x + cA4) * x + cA3) * x + cA2) * x + cA1) * x + cA0
/-- Numerator and denominator of the large branch's quotient. -/
def polyN (x : ℝ) : ℝ := (((1 * x + cN1) * x + cN2) * x + cN3) * x + cN4
def polyD (x : ℝ) : ℝ := (((1 * x + cD1) * x + cD2) * x + cD3) * x + cD4

def e1Small (x : ℝ) : ℝ := -Real.log x + polyA x
def e1Big (x : ℝ) : ℝ := Real.exp (-x) / x * (polyN x / polyD x)
def e1 (x : ℝ) : ℝ := if x ≤ 1 then e1Small x else e1Big x

def tau (k : ℝ) : ℝ := (1 - k) * Real.exp (-k) + k * k * e1 k

/-- The clamp value is positive. -/
theorem k0_pos : 0 < k0 := by unfold k0; norm_num

/-- The small-branch polynomial written out in powers. -/
theorem polyA_expand (x : ℝ) :
    polyA x = cA0 + cA1 * x + cA2 * x ^ 2 + cA3 * x ^ 3 + cA4 * x ^ 4 + cA5 * x ^ 5 := by
  unfold polyA; ring

/-- On `[0, 1]` the small-branch polynomial is at most `1/2`: drop the negative even-power terms and bound each
odd power by `1`; the sum `cA0 + cA1 + cA3 + cA5` is about `0.479`. -/
theorem polyA_le_half {x : ℝ} (h0 : 0 ≤ x) (h1 : x ≤ 1) : polyA x ≤ 1 / 2 := by
  have h2 : 0 ≤ x ^ 2 := by positivity
  have h4 : 0 ≤ x ^ 4 := by positivity
  have h3 : x ^ 3 ≤ 1 := pow_le_one₀ h0 h1
  have h5 : x ^ 5 ≤ 1 := pow_le_one₀ h0 h1
  rw [polyA_expand]
  unfold cA0 cA1 cA2 cA3 cA4 cA5
  linarith

/-- On `[0, 1]` one has `A(x) + 1 - x > 0`: drop the positive odd-power terms and bound each remaining power by
`1`; what is left is `1 + cA0 + (cA1 - 1) + cA2 + cA4`, about `0.163`. -/
theorem polyA_add_pos {x : ℝ} (h0 : 0 ≤ x) (h1 : x ≤ 1) : 0 < polyA x + 1 - x := by
  have h2 : x ^ 2 ≤ 1 := pow_le_one₀ h0 h1
  have h4 : x ^ 4 ≤ 1 := pow_le_one₀ h0 h1
  have h3 : 0 ≤ x ^ 3 := by positivity
  have h5 : 0 ≤ x ^ 5 := by positivity
  rw [polyA_expand]
  unfold cA0 cA1 cA2 cA3 cA4 cA5
  linarith

/-- The denominator quartic is positive on `[0, ∞)` (all its coefficients are positive). -/
theorem polyD_pos {x : ℝ} (h : 0 ≤ x) : 0 < polyD x := by
  have e : polyD x = x ^ 4 + cD1 * x ^ 3 + cD2 * x ^ 2 + cD3 * x + cD4 := by unfold polyD; ring
  have h2 : 0 ≤ x ^ 2 := by positivity
  have h3 : 0 ≤ x ^ 3 := by positivity
  have h4 : 0 ≤ x ^ 4 := by positivity
  rw [e]
  unfold cD1 cD2 cD3 cD4
  linarith

/-- `D - N` is a cubic with positive coefficients, so it is nonnegative on `[0, ∞)`. -/
theorem polyD_sub_polyN_nonneg {x : ℝ} (h : 0 ≤ x) : 0 ≤ polyD x - polyN x := by
  have e : polyD x - polyN x
      = (cD1 - cN1) * x ^ 3 + (cD2 - cN2) * x ^ 2 + (cD3 - cN3) * x + (cD4 - cN4) := by
    unfold polyD polyN; ring
  have h2 : 0 ≤ x ^ 2 := by positivity
  have h3 : 0 ≤ x ^ 3 := by positivity
  rw [e]
  unfold cD1 cD2 cD3 cD4 cN1 cN2 cN3 cN4
  linarith

/-- `D - x (D - N)` is a quartic whose five coefficients are all positive (the leading one is `7 / 2^20`), so it is
positive on `[0, ∞)`. -/
theorem polyD_sub_mul_pos {x : ℝ} (h : 0 ≤ x) : 0 < polyD x - x * (polyD x - polyN x) := by
  have e : polyD x - x * (polyD x - polyN x)
      = (1 - (cD1 - cN1)) * x ^ 4 + (cD1 - (cD2 - cN2)) * x ^ 3 + (cD2 - (cD3 - cN3)) * x ^ 2
        + (cD3 - (cD4 - cN4)) * x + cD4 := by
    unfold polyD polyN; ring
  have h2 : 0 ≤ x ^ 2 := by positivity
  have h3 : 0 ≤ x ^ 3 := by positivity
  have h4 : 0 ≤ x ^ 4 := by positivity
  rw [e]
  unfold cD1 cD2 cD3 cD4 cN1 cN2 cN3 cN4
  linarith

/-- The value of `τ` on the small branch. -/
theorem tau_small_eq {k : ℝ} (h1 : k ≤ 1) :
    tau k = (1 - k) * Real.exp (-k) + k * k * (-Real.log k + polyA k) := by
  unfold tau e1 e1Small
  rw [if_pos h1]

/-- The value of `τ` on the large branch: `e^{-k} (D - k (D - N)) / D`. -/
theorem tau_big_eq {k : ℝ} (h1 : 1 < k) :
    tau k = Real.exp (-k) * ((polyD k - k * (polyD k - polyN k)) / polyD k) := by
  have hk : k ≠ 0 := by linarith
  have hD : polyD k ≠ 0 := (polyD_pos (by linarith)).ne'
  unfold tau e1 e1Big
  rw [if_neg (not_le.mpr h1)]
  field_simp
  ring

theorem tau_pos {k : ℝ} (hk : k0 ≤ k) : 0 < tau k := by
  have hkpos : 0 < k := lt_of_lt_of_le k0_pos hk
  rcases le_or_gt k 1 with h1 | h1
  · -- small branch: `(1 - k) e^{-k} ≥ 0`, and `-log k + A(k) ≥ 1 - k + A(k) > 0`
    rw [tau_small_eq h1]
    have hlog : Real.log k ≤ k - 1 := Real.log_le_sub_one_of_pos hkpos
    have hA : 0 < polyA k + 1 - k := polyA_add_pos hkpos.le h1
    have hin : 0 < -Real.log k + polyA k := by linarith
    have hfirst : 0 ≤ (1 - k) * Real.exp (-k) :=
      mul_nonneg (by linarith) (Real.exp_pos _).le
    have hsecond : 0 < k * k * (-Real.log k + polyA k) := mul_pos (mul_pos hkpos hkpos) hin
    linarith
  · -- large branch: a product of positive factors
    rw [tau_big_eq h1]
    exact mul_pos (Real.exp_pos _)
      (div_pos (polyD_sub_mul_pos hkpos.le) (polyD_pos hkpos.le))

theorem tau_le_one {k : ℝ} (hk : k0 ≤ k) : tau k ≤ 1 := by
  have hkpos : 0 < k := lt_of_lt_of_le k0_pos hk
  rcases le_or_gt k 1 with h1 | h1
  · -- small branch: `e^{-k} (1 + k) ≤ 1`, `-k log k ≤ 1 - k`, `A(k) ≤ 1/2`; then compare after multiplying by `1 + k`
    rw [tau_small_eq h1]
    have hE : Real.exp (-k) * (1 + k) ≤ 1 := by
      have h := Real.add_one_le_exp k
      have hpos : 0 < Real.exp (-k) := Real.exp_pos _
      have hmul : Real.exp (-k) * Real.exp k = 1 := by
        rw [← Real.exp_add]; simp
      calc Real.exp (-k) * (1 + k) ≤ Real.exp (-k) * Real.exp k :=
            mul_le_mul_of_nonneg_left (by linarith) hpos.le
        _ = 1 := hmul
    have hL : -(k * Real.log k) ≤ 1 - k := by
      have h := Real.one_sub_inv_le_log_of_pos hkpos
      have h' : k * (1 - k⁻¹) ≤ k * Real.log k := mul_le_mul_of_nonneg_left h hkpos.le
      have h'' : k * (1 - k⁻¹) = k - 1 := by field_simp
      linarith
    have hA : polyA k ≤ 1 / 2 := polyA_le_half hkpos.le h1
    have s1 : (1 - k) * (Real.exp (-k) * (1 + k)) ≤ (1 - k) * 1 :=
      mul_le_mul_of_nonneg_left hE (by linarith)
    have s2 : (1 + k) * k * (-(k * Real.log k)) ≤ (1 + k) * k * (1 - k) :=
      mul_le_mul_of_nonneg_left hL (by positivity)
    have s3 : (1 + k) * (k * k) * polyA k ≤ (1 + k) * (k * k) * (1 / 2) :=
      mul_le_mul_of_nonneg_left hA (by positivity)
    have hkk : k * k ≤ k := by nlinarith
    have hk3 : 0 ≤ k * k * k := by positivity
    have hmain : ((1 - k) * Real.exp (-k) + k * k * (-Real.log k + polyA k)) * (1 + k) ≤ 1 * (1 + k) := by
      nlinarith
    exact le_of_mul_le_mul_right hmain (by linarith)
  · -- large branch: `e^{-k} ≤ 1` and `0 ≤ (D - k (D - N)) / D ≤ 1`
    rw [tau_big_eq h1]
    have hD : 0 < polyD k := polyD_pos hkpos.le
    have hP : 0 < polyD k - k * (polyD k - polyN k) := polyD_sub_mul_pos hkpos.le
    have hDN : 0 ≤ polyD k - polyN k := polyD_sub_polyN_nonneg hkpos.le
    have hr1 : (polyD k - k * (polyD k - polyN k)) / polyD k ≤ 1 := by
      rw [div_le_one hD]
      nlinarith [mul_nonneg hkpos.le hDN]
    have hr0 : 0 ≤ (polyD k - k * (polyD k - polyN k)) / polyD k := (div_pos hP hD).le
    have hE1 : Real.exp (-k) ≤ 1 := by
      rw [Real.exp_le_one_iff]; linarith
    calc Real.exp (-k) * ((polyD k - k * (polyD k - polyN k)) / polyD k)
        ≤ 1 * ((polyD k - k * (polyD k - polyN k)) / polyD k) :=
          mul_le_mul_of_nonneg_right hE1 hr0
      _ ≤ 1 := by linarith

end

end Cert.Analysis
-- ==== Proof.Lits.lean ====
/-
  The 32-bit constants of the model as the extended reals they denote: each pattern is a normal number
  `± (2²³ + T) · 2^(E - 150)`, an exact rational, and these are the rationals of the real-valued analysis.
  All constants are stated in this one module, which alone unfolds the pattern decoding.
-/
import proofs.«406795_j81097572483403_3_alg».proof.Proof.HostVals
import proofs.«406795_j81097572483403_3_alg».proof.Proof.TauBound
import Mathlib.Tactic.NormNum

namespace Cert.Cell

open Idealize.ShloMosaic

noncomputable section

theorem c0_val : c0 = ((0 : ℝ) : EReal) := by
  simp [Ideal.ofBits, Ideal.ieee]
theorem c1_val : c1 = ((1 : ℝ) : EReal) := by
  simp [Ideal.ofBits, Ideal.ieee, -EReal.coe_mul]; norm_num
theorem c2_val : c2 = ((2 : ℝ) : EReal) := by
  simp [Ideal.ofBits, Ideal.ieee, -EReal.coe_mul]; norm_num
theorem c4_val : c4 = ((4 : ℝ) : EReal) := by
  simp [Ideal.ofBits, Ideal.ieee, -EReal.coe_mul]; norm_num
theorem c6_val : c6 = ((6 : ℝ) : EReal) := by
  simp [Ideal.ofBits, Ideal.ieee, -EReal.coe_mul]; norm_num
theorem c16_val : c16 = ((16 : ℝ) : EReal) := by
  simp [Ideal.ofBits, Ideal.ieee, -EReal.coe_mul]; norm_num
theorem cm2_val : cm2 = ((-2 : ℝ) : EReal) := by
  simp [Ideal.ofBits, Ideal.ieee, -EReal.coe_mul]; norm_num
/-- The clamp value, as a quotient of integers. -/
theorem ck0_val' : ck0 = ((13743895 / 137438953472 : ℝ) : EReal) := by
  simp [Ideal.ofBits, Ideal.ieee, -EReal.coe_mul]; norm_num
theorem ck0_val : ck0 = ((Cert.Analysis.k0 : ℝ) : EReal) := by
  rw [ck0_val', Cert.Analysis.k0]
theorem cA0_val : cA0 = ((Cert.Analysis.cA0 : ℝ) : EReal) := by
  simp [Ideal.ofBits, Ideal.ieee, Cert.Analysis.cA0, -EReal.coe_mul]; norm_num
theorem cA1_val : cA1 = ((Cert.Analysis.cA1 : ℝ) : EReal) := by
  simp [Ideal.ofBits, Ideal.ieee, Cert.Analysis.cA1, -EReal.coe_mul]; norm_num
theorem cA2_val : cA2 = ((Cert.Analysis.cA2 : ℝ) : EReal) := by
  simp [Ideal.ofBits, Ideal.ieee, Cert.Analysis.cA2, -EReal.coe_mul]; norm_num
theorem cA3_val : cA3 = ((Cert.Analysis.cA3 : ℝ) : EReal) := by
  simp [Ideal.ofBits, Ideal.ieee, Cert.Analysis.cA3, -EReal.coe_mul]; norm_num
theorem cA4_val : cA4 = ((Cert.Analysis.cA4 : ℝ) : EReal) := by
  simp [Ideal.ofBits, Ideal.ieee, Cert.Analysis.cA4, -EReal.coe_mul]; norm_num
theorem cA5_val : cA5 = ((Cert.Analysis.cA5 : ℝ) : EReal) := by
  simp [Ideal.ofBits, Ideal.ieee, Cert.Analysis.cA5, -EReal.coe_mul]; norm_num
theorem cN1_val : cN1 = ((Cert.Analysis.cN1 : ℝ) : EReal) := by
  simp [Ideal.ofBits, Ideal.ieee, Cert.Analysis.cN1, -EReal.coe_mul]; norm_num
theorem cN2_val : cN2 = ((Cert.Analysis.cN2 : ℝ) : EReal) := by
  simp [Ideal.ofBits, Ideal.ieee, Cert.Analysis.cN2, -EReal.coe_mul]; norm_num
theorem cN3_val : cN3 = ((Cert.Analysis.cN3 : ℝ) : EReal) := by
  simp [Ideal.ofBits, Ideal.ieee, Cert.Analysis.cN3, -EReal.coe_mul]; norm_num
theorem cN4_val : cN4 = ((Cert.Analysis.cN4 : ℝ) : EReal) := by
  simp [Ideal.ofBits, Ideal.ieee, Cert.Analysis.cN4, -EReal.coe_mul]; norm_num
theorem cD1_val : cD1 = ((Cert.Analysis.cD1 : ℝ) : EReal) := by
  simp [Ideal.ofBits, Ideal.ieee, Cert.Analysis.cD1, -EReal.coe_mul]; norm_num
theorem cD2_val : cD2 = ((Cert.Analysis.cD2 : ℝ) : EReal) := by
  simp [Ideal.ofBits, Ideal.ieee, Cert.Analysis.cD2, -EReal.coe_mul]; norm_num
theorem cD3_val : cD3 = ((Cert.Analysis.cD3 : ℝ) : EReal) := by
  simp [Ideal.ofBits, Ideal.ieee, Cert.Analysis.cD3, -EReal.coe_mul]; norm_num
theorem cD4_val : cD4 = ((Cert.Analysis.cD4 : ℝ) : EReal) := by
  simp [Ideal.ofBits, Ideal.ieee, Cert.Analysis.cD4, -EReal.coe_mul]; norm_num

end

end Cert.Cell
-- ==== Proof.CellBasics.lean ====
/-
  First facts about a cell on the extended reals: that a quotient of two reals with
  nonzero divisor is the real quotient, that the kernel's product with a reciprocal is the reference's quotient whenever the
  divisor is not zero (at an infinite divisor both are zero) and also at a zero divisor when the dividend is a nonzero
  real, how the thick-layer test reads on reals, and that the clamped absorption of a cell with real traits and
  coefficients and a nonzero structure parameter is a real at or above the clamp.
-/
import proofs.«406795_j81097572483403_3_alg».proof.Proof.Lits
import Idealize.ShloMosaic.PureOps.Ideal.Laws
import Mathlib.Tactic.Linarith
import Mathlib.Tactic.NormNum
import Mathlib.Tactic.Ring

namespace Cert.Cell

open Idealize.ShloMosaic

noncomputable section

theorem c0_eq : c0 = ((0 : ℝ) : EReal) := c0_val

theorem c1_eq : c1 = ((1 : ℝ) : EReal) := c1_val

theorem c2_eq : c2 = ((2 : ℝ) : EReal) := c2_val

/-- The clamp value as a real. -/
abbrev k0r : ℝ := 13743895 / 137438953472

theorem ck0_eq : ck0 = ((k0r : ℝ) : EReal) := ck0_val'

/-- A quotient of reals by a nonzero real. -/
theorem div_real (a b : ℝ) (hb : b ≠ 0) : Ideal.div (a : EReal) (b : EReal) = ((a / b : ℝ) : EReal) := by
  rw [Ideal.div_coe hb, ← EReal.coe_mul]
  congr 1
  ring

/-- Off a zero divisor the product with the reciprocal is the quotient, whatever the dividend. -/
theorem q_eq (x d : EReal) (hd : d ≠ 0) : qK x d = qR x d := by
  unfold qK qR
  rw [c1_eq]
  simp [Ideal.div, hd]

/-- At a zero divisor they still agree when the dividend is a nonzero real: both are the infinity of its sign. -/
theorem q_eq_zero (v : ℝ) (hv : v ≠ 0) : qK (v : EReal) 0 = qR (v : EReal) 0 := by
  unfold qK qR
  rw [c1_eq]
  have h1 : Ideal.div ((1 : ℝ) : EReal) 0 = ⊤ := by simp [Ideal.div]
  rw [h1]
  rcases lt_or_gt_of_ne hv with h | h
  · have hn : ¬ (0 : EReal) < (v : EReal) := by exact_mod_cast not_lt.mpr h.le
    simp [Ideal.div, hn, EReal.coe_mul_top_of_neg h]
  · have hp : (0 : EReal) < (v : EReal) := by exact_mod_cast h
    simp [Ideal.div, hp, EReal.coe_mul_top_of_pos h]

/-- The thick-layer test on reals. -/
theorem mask_real (r t : ℝ) : mask (r : EReal) (t : EReal) = if 1 ≤ r + t then 1#1 else 0#1 := by
  unfold mask
  rw [c1_eq, ← EReal.coe_add]
  by_cases h : 1 ≤ r + t
  · have : (1 : EReal) ≤ (r : EReal) + (t : EReal) := by exact_mod_cast h
    simp [Ideal.cmp, this, h]
  · have : ¬ (1 : EReal) ≤ (r : EReal) + (t : EReal) := by exact_mod_cast h
    simp [Ideal.cmp, this, h]

/-- The clamped absorption of a cell whose traits and coefficients are reals and whose structure parameter is a nonzero
    real is a real at or above the clamp. -/
theorem kall_real (x : In) {Nr a1 a2 a3 a4 a5 b1 b2 b3 b4 b5 : ℝ} (hNr : Nr ≠ 0) (hN : x.N = (Nr : EReal))
    (h1 : x.cab = (a1 : EReal)) (h2 : x.car = (a2 : EReal)) (h3 : x.cant = (a3 : EReal)) (h4 : x.water = (a4 : EReal))
    (h5 : x.lma = (a5 : EReal)) (g1 : x.kab = (b1 : EReal)) (g2 : x.kcar = (b2 : EReal)) (g3 : x.kant = (b3 : EReal))
    (g4 : x.kw = (b4 : EReal)) (g5 : x.km = (b5 : EReal)) :
    ∃ k : ℝ, k0r ≤ k ∧ kall x = (k : EReal) := by
  refine ⟨max ((a1 * b1 + a2 * b2 + a3 * b3 + a4 * b4 + a5 * b5) / Nr) k0r, le_max_right _ _, ?_⟩
  unfold kall
  rw [hN, h1, h2, h3, h4, h5, g1, g2, g3, g4, g5, ck0_eq]
  simp only [← EReal.coe_mul, ← EReal.coe_add]
  rw [div_real _ _ hNr]
  exact (EReal.coe_strictMono.monotone.map_max).symm

end

end Cert.Cell
-- ==== Proof.CellTail.lean ====
/-
  The two programs agree at a cell. With a real positive transmissivity `S ≤ 1` of the surface and a refractive index `n > 1`
  the layer's `t` and `r` are positive reals; in a thin-layer cell (`r + t < 1`) the quantity under the square root is
  positive, `a > 1` and `b > 0`, so the power `b ^ (N - 1)` is `exp ((N - 1) log b)` and the two quotients by
  `a² b^{2(N-1)} - 1` have nonzero dividends where that divisor vanishes; in a thick-layer cell the base is the constant 1 and those
  two quotients are not used; the last divisor is not zero by hypothesis, and off zero a product with the reciprocal is the quotient.
-/
import proofs.«406795_j81097572483403_3_alg».proof.Proof.CellBasics
import Mathlib.Analysis.SpecialFunctions.Pow.Real
import Mathlib.Analysis.SpecialFunctions.Sqrt
import Mathlib.Tactic.Positivity

namespace Cert.Cell

open Idealize.ShloMosaic

noncomputable section

theorem sel_one (a b : EReal) : Scalar.select 1#1 a b = a := if_pos rfl
theorem sel_zero (a b : EReal) : Scalar.select 0#1 a b = b := if_neg (by decide)

/-- For a positive real base the power is the exponential of the exponent times the logarithm. -/
theorem exp_log_eq_pow (b y : ℝ) (hb : 0 < b) :
    Ideal.exp ((y : EReal) * Ideal.log (b : EReal)) = Ideal.pow (b : EReal) (y : EReal) := by
  rw [Ideal.log_coe, if_neg (not_le.mpr hb), ← EReal.coe_mul, Ideal.exp_coe, Ideal.pow_coe_coe]
  congr 1
  show Real.exp (y * Real.log b) = b ^ y
  rw [Real.rpow_def_of_pos hb, mul_comm]

/-- The quantity under the square root, the square root, `a` and `b` of a thin-layer cell with positive `r`, `t`. -/
theorem thin (r t : ℝ) (hr : 0 < r) (ht : 0 < t) (hm : r + t < 1) :
    ∃ a b : ℝ, 1 < a ∧ 0 < b ∧ aa (r : EReal) (t : EReal) = (a : EReal) ∧ bb (r : EReal) (t : EReal) = (b : EReal) := by
  have hQ : 0 < (1 + (r + t)) * (1 + (r - t)) * (1 - (r - t)) * (1 - (r + t)) := by
    have h1 : 0 < 1 + (r + t) := by linarith
    have h2 : 0 < 1 + (r - t) := by linarith
    have h3 : 0 < 1 - (r - t) := by linarith
    have h4 : 0 < 1 - (r + t) := by linarith
    exact mul_pos (mul_pos (mul_pos h1 h2) h3) h4
  set Q := (1 + (r + t)) * (1 + (r - t)) * (1 - (r - t)) * (1 - (r + t)) with hQdef
  have hDsq : Dsq (r : EReal) (t : EReal) = (Q : EReal) := by
    unfold Dsq
    rw [c1_eq]
    simp only [← EReal.coe_add, ← EReal.coe_sub, ← EReal.coe_mul]
    rfl
  have hDD : DD (r : EReal) (t : EReal) = ((Real.sqrt Q : ℝ) : EReal) := by
    unfold DD
    rw [mask_real, if_neg (not_le.mpr hm), sel_zero, hDsq, Ideal.sqrt_coe, if_neg (not_lt.mpr hQ.le)]
  have hrq : rq (r : EReal) (t : EReal) = ((r * r - t * t : ℝ) : EReal) := by
    unfold rq
    simp only [← EReal.coe_sub, ← EReal.coe_mul]
  have hsq : 0 ≤ Real.sqrt Q := Real.sqrt_nonneg Q
  refine ⟨(1 + (r * r - t * t) + Real.sqrt Q) / (2 * r), (1 - (r * r - t * t) + Real.sqrt Q) / (2 * t), ?_, ?_, ?_, ?_⟩
  · rw [lt_div_iff₀ (by positivity)]
    nlinarith [mul_pos (show 0 < 1 - r - t by linarith) (show 0 < 1 - r + t by linarith)]
  · apply div_pos _ (by positivity)
    nlinarith [mul_pos hr hr, mul_pos ht ht, mul_pos (show 0 < 1 - r by linarith) hr]
  · unfold aa
    rw [hrq, hDD, c1_eq, c2_eq]
    simp only [← EReal.coe_add, ← EReal.coe_mul]
    rw [div_real _ _ (by positivity)]
  · unfold bb
    rw [hrq, hDD, c1_eq, c2_eq]
    simp only [← EReal.coe_add, ← EReal.coe_sub, ← EReal.coe_mul]
    rw [div_real _ _ (by positivity)]

/-- The two programs' tails agree: from the same real positive `t`, `r`, any `Ta`, and a nonzero last divisor of the reference. -/
theorem finish_eq (x : In) (τ Ta : EReal) (r t Nr : ℝ) (hr0 : 0 < r) (ht0 : 0 < t) (hN : x.N = (Nr : EReal))
    (hr : rr x.r12 x.r21 τ (t : EReal) = (r : EReal))
    (hd3 : den3 (Scalar.select (mask (r : EReal) (t : EReal)) (c1 - Talt (t : EReal) x.N)
        (qR (aa (r : EReal) (t : EReal) * (Ideal.pow (bsafe (r : EReal) (t : EReal)) (x.N - c1) * Ideal.pow (bsafe (r : EReal) (t : EReal)) (x.N - c1) - c1))
          (den2 (aa (r : EReal) (t : EReal)) (Ideal.pow (bsafe (r : EReal) (t : EReal)) (x.N - c1))))) (r : EReal) ≠ 0) :
    finish qK x τ Ta (t : EReal) (Ideal.exp ((x.N - c1) * Ideal.log (bsafe (r : EReal) (t : EReal))))
      = finish qR x τ Ta (t : EReal) (Ideal.pow (bsafe (r : EReal) (t : EReal)) (x.N - c1)) := by
  have hy : x.N - c1 = ((Nr - 1 : ℝ) : EReal) := by rw [hN, c1_eq, ← EReal.coe_sub]
  have hm := mask_real r t
  by_cases hmask : 1 ≤ r + t
  · -- a thick layer: the base is 1, and the quotients by den2 are not used
    rw [if_pos hmask] at hm
    have hbs : bsafe (r : EReal) (t : EReal) = ((1 : ℝ) : EReal) := by
      unfold bsafe; rw [hm, sel_one, c1_eq]
    have hpw : Ideal.exp ((x.N - c1) * Ideal.log (bsafe (r : EReal) (t : EReal)))
        = Ideal.pow (bsafe (r : EReal) (t : EReal)) (x.N - c1) := by
      rw [hbs, hy]; exact exp_log_eq_pow 1 (Nr - 1) one_pos
    rw [hpw]
    rw [hm, sel_one] at hd3
    unfold finish
    simp only [hr, hm, sel_one]
    rw [q_eq _ _ hd3, q_eq _ _ hd3]
  · -- a thin layer
    have hlt : r + t < 1 := not_le.mp hmask
    rw [if_neg hmask] at hm
    obtain ⟨a, b, ha, hb, haa, hbb⟩ := thin r t hr0 ht0 hlt
    have hbs : bsafe (r : EReal) (t : EReal) = (b : EReal) := by
      unfold bsafe; rw [hm, sel_zero, hbb]
    have hpw : Ideal.exp ((x.N - c1) * Ideal.log (bsafe (r : EReal) (t : EReal)))
        = Ideal.pow (bsafe (r : EReal) (t : EReal)) (x.N - c1) := by
      rw [hbs, hy]; exact exp_log_eq_pow b (Nr - 1) hb
    rw [hpw]
    -- the power is a positive real
    have hβ : ∃ β : ℝ, 0 < β ∧ Ideal.pow (bsafe (r : EReal) (t : EReal)) (x.N - c1) = (β : EReal) := by
      refine ⟨b ^ (Nr - 1), Real.rpow_pos_of_pos hb _, ?_⟩
      rw [hbs, hy, Ideal.pow_coe_coe]; rfl
    obtain ⟨β, hβ0, hβ⟩ := hβ
    rw [hβ] at hd3 ⊢
    rw [hm, sel_zero, haa] at hd3
    have hd2 : den2 (a : EReal) (β : EReal) = ((a * a * (β * β) - 1 : ℝ) : EReal) := by
      unfold den2; rw [c1_eq]; simp only [← EReal.coe_sub, ← EReal.coe_mul]
    have hn1 : (a : EReal) * ((β : EReal) * (β : EReal) - c1) = ((a * (β * β - 1) : ℝ) : EReal) := by
      rw [c1_eq]; simp only [← EReal.coe_sub, ← EReal.coe_mul]
    have hn2 : (β : EReal) * ((a : EReal) * (a : EReal) - c1) = ((β * (a * a - 1) : ℝ) : EReal) := by
      rw [c1_eq]; simp only [← EReal.coe_sub, ← EReal.coe_mul]
    have ha0 : 0 < a := by linarith
    have ha2 : 0 < a * a - 1 := by nlinarith
    have e1 : qK ((a : EReal) * ((β : EReal) * (β : EReal) - c1)) (den2 (a : EReal) (β : EReal))
        = qR ((a : EReal) * ((β : EReal) * (β : EReal) - c1)) (den2 (a : EReal) (β : EReal)) := by
      rw [hn1, hd2]
      by_cases hz : a * a * (β * β) - 1 = 0
      · rw [hz]
        have hne : a * (β * β - 1) ≠ 0 := by
          intro h0
          rcases mul_eq_zero.mp h0 with h | h
          · exact ha0.ne' h
          · have : β * β = 1 := by linarith
            rw [this] at hz; nlinarith
        exact q_eq_zero _ hne
      · exact q_eq _ _ (by exact_mod_cast hz)
    have e2 : qK ((β : EReal) * ((a : EReal) * (a : EReal) - c1)) (den2 (a : EReal) (β : EReal))
        = qR ((β : EReal) * ((a : EReal) * (a : EReal) - c1)) (den2 (a : EReal) (β : EReal)) := by
      rw [hn2, hd2]
      by_cases hz : a * a * (β * β) - 1 = 0
      · rw [hz]; exact q_eq_zero _ (mul_pos hβ0 ha2).ne'
      · exact q_eq _ _ (by exact_mod_cast hz)
    unfold finish
    simp only [hr, hm, sel_zero, haa, e1, e2]
    rw [q_eq _ _ hd3, q_eq _ _ hd3]

end

end Cert.Cell
-- ==== Proof.CellEq.lean ====
/-
  The two programs agree at a cell (the head of the chain). From the hypotheses on a cell the clamped absorption is a real
  `k` at or above the clamp, so the layer factor is a real `T ∈ (0, 1]`; the surface quantities are the reals `S`,
  `1 - S`, `s = S / n² ∈ (0, 1)` and `ρ = 1 - s ∈ (0, 1)`; the first divisor `1 - ρ² T²` is a positive real, so the kernel's
  two products with its reciprocal are the reference's quotients, `t = S T s / (1 - ρ² T²)` and `r = (1 - S) + ρ T t`
  are positive reals, and the rest is the tail's agreement.
-/
import proofs.«406795_j81097572483403_3_alg».proof.Proof.CellTail

namespace Cert.Cell

open Idealize.ShloMosaic

noncomputable section

/-- Agreement at a cell, given that the layer factor of a real absorption at or above the clamp is a real in `(0, 1]`. -/
theorem cell_eq_of (x : In) (h : Ok x)
    (htau : ∀ k : ℝ, k0r ≤ k → ∃ T : ℝ, 0 < T ∧ T ≤ 1 ∧ tau (k : EReal) = (T : EReal)) :
    cellK x = cellR x := by
  obtain ⟨Nr, hNr, hN⟩ := h.N_real
  obtain ⟨a1, h1⟩ := h.cab_real
  obtain ⟨a2, h2⟩ := h.car_real
  obtain ⟨a4, h4⟩ := h.water_real
  obtain ⟨a5, h5⟩ := h.lma_real
  obtain ⟨a3, h3⟩ := h.cant_real
  obtain ⟨b1, g1⟩ := h.kab_real
  obtain ⟨b2, g2⟩ := h.kcar_real
  obtain ⟨b3, g3⟩ := h.kant_real
  obtain ⟨b4, g4⟩ := h.kw_real
  obtain ⟨b5, g5⟩ := h.km_real
  obtain ⟨k, hk0, hk⟩ := kall_real x hNr hN h1 h2 h3 h4 h5 g1 g2 g3 g4 g5
  obtain ⟨T, hT0, hT1, hT⟩ := htau k hk0
  obtain ⟨n, S, hn, hS0, hS1, ht12, hr12, ht21, hr21⟩ := h.surface
  have hnn : 0 < n * n := by positivity
  have hnn1 : 1 < n * n := by nlinarith
  have hs0 : 0 < S / (n * n) := div_pos hS0 hnn
  have hs1 : S / (n * n) < 1 := by rw [div_lt_one hnn]; linarith
  have ht21' : x.t21 = ((S / (n * n) : ℝ) : EReal) := by
    rw [ht21, ht12, ← EReal.coe_mul, div_real _ _ hnn.ne']
  have hr21' : x.r21 = ((1 - S / (n * n) : ℝ) : EReal) := by rw [hr21, ht21', c1_eq, ← EReal.coe_sub]
  have hr12' : x.r12 = ((1 - S : ℝ) : EReal) := by rw [hr12, ht12, c1_eq, ← EReal.coe_sub]
  have hρ0 : 0 < 1 - S / (n * n) := by linarith
  have hρ1 : 1 - S / (n * n) < 1 := by linarith
  have hτ : tau (kall x) = (T : EReal) := by rw [hk, hT]
  have hρρ : (1 - S / (n * n)) * (1 - S / (n * n)) < 1 := by nlinarith
  have hTT : T * T ≤ 1 := by nlinarith
  have hd0 : 0 < 1 - (1 - S / (n * n)) * (1 - S / (n * n)) * T * T := by
    nlinarith [mul_nonneg (mul_nonneg hρ0.le hρ0.le) (sub_nonneg.mpr hTT)]
  have hden : denom x.r21 (T : EReal)
      = ((1 - (1 - S / (n * n)) * (1 - S / (n * n)) * T * T : ℝ) : EReal) := by
    unfold denom
    rw [hr21', c1_eq]
    simp only [← EReal.coe_sub, ← EReal.coe_mul]
  have hdne : ((1 - (1 - S / (n * n)) * (1 - S / (n * n)) * T * T : ℝ) : EReal) ≠ 0 := by
    exact_mod_cast hd0.ne'
  have htt0 : 0 < S * T * (S / (n * n)) / (1 - (1 - S / (n * n)) * (1 - S / (n * n)) * T * T) :=
    div_pos (mul_pos (mul_pos hS0 hT0) hs0) hd0
  have htR : qR (x.t12 * (T : EReal) * x.t21) ((1 - (1 - S / (n * n)) * (1 - S / (n * n)) * T * T : ℝ) : EReal)
      = ((S * T * (S / (n * n)) / (1 - (1 - S / (n * n)) * (1 - S / (n * n)) * T * T) : ℝ) : EReal) := by
    unfold qR
    rw [ht12, ht21']
    simp only [← EReal.coe_mul]
    rw [div_real _ _ hd0.ne']
  have hrv0 : 0 < (1 - S) + (1 - S / (n * n)) * T
      * (S * T * (S / (n * n)) / (1 - (1 - S / (n * n)) * (1 - S / (n * n)) * T * T)) := by
    have := mul_pos (mul_pos hρ0 hT0) htt0
    linarith
  have hr : rr x.r12 x.r21 (T : EReal)
      ((S * T * (S / (n * n)) / (1 - (1 - S / (n * n)) * (1 - S / (n * n)) * T * T) : ℝ) : EReal)
      = (((1 - S) + (1 - S / (n * n)) * T
        * (S * T * (S / (n * n)) / (1 - (1 - S / (n * n)) * (1 - S / (n * n)) * T * T)) : ℝ) : EReal) := by
    unfold rr
    rw [hr12', hr21']
    simp only [← EReal.coe_mul, ← EReal.coe_add]
  have hd3 := h.den3_ne
  unfold den3R at hd3
  simp only [hτ, hden, htR, hr] at hd3
  unfold cellK cellR
  simp only [hτ, hden, q_eq _ _ hdne, htR, hr]
  exact finish_eq x (T : EReal) _ _ _ Nr hrv0 htt0 hN hr hd3

end

end Cert.Cell
-- ==== Proof.SternDefs.lean ====
/-
  The transmissivity of a plane dielectric surface for light averaged over all angles of incidence
  (Stern's closed form, at the full opening angle of 90 degrees), as a function of the refractive index `n`,
  written two ways over the reals: operation by operation as both programs compute it, and collected
  into one rational part and two logarithms.
-/
import Mathlib.Analysis.SpecialFunctions.Log.Basic

namespace Cert.Analysis

noncomputable section

/-- The all-angle transmissivity, operation by operation. -/
def sternAt90 (n : ℝ) : ℝ :=
  let n2 := n * n
  let npx := n2 + 1
  let nm := n2 - 1
  let a := (n + 1) * (n + 1) / 2
  let k := -(n2 - 1) * (n2 - 1) / 4
  let b2 := 1 - npx / 2
  let b := 0 - b2
  let k2 := k * k
  let b3 := b * b * b
  let a3 := a * a * a
  let ts := k2 / (6 * b3) + k / b - b / 2 - (k2 / (6 * a3) + k / a - a / 2)
  let npx2 := npx * npx
  let tp1 := -2 * n2 * (b - a) / npx2
  let nm2 := nm * nm
  let tp2 := -2 * n2 * npx * Real.log (b / a) / nm2
  let tp3 := n2 * (1 / b - 1 / a) / 2
  let n22 := n2 * n2
  let npx3 := npx * npx * npx
  let npaxa := 2 * npx * a - nm2
  let npxb := 2 * npx * b - nm2
  let tp4 := 16 * n22 * (n22 + 1) * Real.log (npxb / npaxa) / (npx3 * nm2)
  let n23 := n2 * n2 * n2
  let tp5 := 16 * n23 * (1 / npxb - 1 / npaxa) / npx3
  let tp := tp1 + tp2 + tp3 + tp4 + tp5
  (ts + tp) / 2

/-- The rational part of the collected form; `q = (n - 1) / (n + 1)`. -/
def sternR0 (n : ℝ) : ℝ :=
  let q := (n - 1) / (n + 1)
  ((n + 1) ^ 2 / 2 * (1 / 2 + q ^ 2 - 4 * q / 3 - q ^ 4 / 6)
    + 2 * n ^ 2 * (n + 1) / (n ^ 2 + 1) ^ 2
    + 2 * n ^ 2 / ((n + 1) ^ 2 * (n - 1))
    + 8 * n ^ 5 / ((n ^ 2 + 1) ^ 2 * (n - 1) * (n + 1) ^ 2)) / 2

/-- The coefficient of `-log ((n - 1) / (n + 1))` in the collected form. -/
def sternC (n : ℝ) : ℝ := n ^ 2 * (n ^ 2 - 1) ^ 2 / (n ^ 2 + 1) ^ 3

/-- The coefficient of `-log n` in the collected form. -/
def sternC2 (n : ℝ) : ℝ := 8 * n ^ 4 * (n ^ 4 + 1) / ((n ^ 2 + 1) ^ 3 * (n ^ 2 - 1) ^ 2)

end

end Cert.Analysis
-- ==== Proof.SternClosed.lean ====
/-
  The all-angle transmissivity collected: for a refractive index `n > 1` the operation-by-operation form is
  a rational function of `n` minus positive rational multiples of `log ((n-1)/(n+1))` and of `log n`.
-/
import proofs.«406795_j81097572483403_3_alg».proof.Proof.SternDefs
import Mathlib.Analysis.SpecialFunctions.Log.Basic
import Mathlib.Tactic.FieldSimp
import Mathlib.Tactic.Ring
import Mathlib.Tactic.Linarith
import Mathlib.Tactic.Positivity

namespace Cert.Analysis

/-- The two logarithms' arguments simplify (`b/a = (n-1)/(n+1)`, the second ratio is `(n-1)/(n(n+1))`), their
    coefficients over `(n²-1)²` combine, and what is left is rational. -/
theorem stern_closed {n : ℝ} (hn : 1 < n) :
    sternAt90 n = sternR0 n - sternC n * Real.log ((n - 1) / (n + 1)) - sternC2 n * Real.log n := by
  have h1 : 0 < n - 1 := by linarith
  have h2 : 0 < n + 1 := by linarith
  have h0 : 0 < n := by linarith
  have hn1 : n - 1 ≠ 0 := ne_of_gt h1
  have hn2 : n + 1 ≠ 0 := ne_of_gt h2
  have hn0 : n ≠ 0 := ne_of_gt h0
  have hsq : n * n + 1 ≠ 0 := by positivity
  have hsq' : n ^ 2 + 1 ≠ 0 := by positivity
  have hm : n * n - 1 ≠ 0 := by
    have : n * n - 1 = (n - 1) * (n + 1) := by ring
    rw [this]; exact mul_ne_zero hn1 hn2
  have hm' : n ^ 2 - 1 ≠ 0 := by
    have : n ^ 2 - 1 = (n - 1) * (n + 1) := by ring
    rw [this]; exact mul_ne_zero hn1 hn2
  -- log ((n-1)/(n(n+1))) = log ((n-1)/(n+1)) - log n
  have hl : Real.log ((n - 1) / (n * (n + 1))) = Real.log ((n - 1) / (n + 1)) - Real.log n := by
    rw [Real.log_div hn1 (mul_ne_zero hn0 hn2), Real.log_mul hn0 hn2, Real.log_div hn1 hn2]; ring
  unfold sternAt90 sternR0 sternC sternC2
  dsimp only
  -- b = (n² - 1)/2
  have hb : (0 - (1 - (n * n + 1) / 2)) = (n * n - 1) / 2 := by ring
  rw [hb]
  -- 2(n²+1)b - (n²-1)² = 2(n²-1) and 2(n²+1)a - (n²-1)² = 2n(n+1)²
  have hpb : 2 * (n * n + 1) * ((n * n - 1) / 2) - (n * n - 1) * (n * n - 1) = 2 * (n * n - 1) := by ring
  have hpa : 2 * (n * n + 1) * ((n + 1) * (n + 1) / 2) - (n * n - 1) * (n * n - 1)
      = 2 * n * ((n + 1) * (n + 1)) := by ring
  rw [hpb, hpa]
  -- the two logarithms' arguments
  have hba : (n * n - 1) / 2 / ((n + 1) * (n + 1) / 2) = (n - 1) / (n + 1) := by
    field_simp; ring
  have hr : 2 * (n * n - 1) / (2 * n * ((n + 1) * (n + 1))) = (n - 1) / (n * (n + 1)) := by
    field_simp; ring
  rw [hba, hr, hl]
  -- what is left is an identity of rational functions, linear in the two logarithms
  generalize Real.log ((n - 1) / (n + 1)) = L1
  generalize Real.log n = L2
  field_simp
  ring

end Cert.Analysis
-- ==== Proof.SternLower.lean ====
/-
  The all-angle transmissivity of a surface of refractive index `n > 1` is positive.

  In the collected form `S = R₀ - C · log q - C₂ · log n` with `q = (n-1)/(n+1)` the coefficients `C`, `C₂`
  are nonnegative, so two elementary bounds on the logarithms suffice:
  `log q ≤ q - 1 = -2/(n+1)` and `log n ≤ (n - 1/n)/2`.  The second has the right first two orders at `n = 1`
  (so the simple pole of `R₀` at `n = 1` is cancelled exactly) and grows like `n/2` (so that
  `C₂ · log n ≤ 4/n + …` stays below `R₀ + 2C/(n+1) = 16/(3n) + …` at infinity).  What is left is
  `(4n⁷ + 8n⁶ + 12n⁵ + 18n⁴ + 36n³ + 12n² + 4n + 2) / (3 (n+1)² (n²+1)³)`, which is positive term by term.
-/
import proofs.«406795_j81097572483403_3_alg».proof.Proof.SternClosed
import Mathlib.Analysis.SpecialFunctions.Log.Basic
import Mathlib.Analysis.SpecialFunctions.Trigonometric.DerivHyp
import Mathlib.Tactic.FieldSimp
import Mathlib.Tactic.Ring
import Mathlib.Tactic.Linarith
import Mathlib.Tactic.Positivity

namespace Cert.Analysis

/-- `log x ≤ (x - 1/x)/2` for `x ≥ 1`: with `u = log x ≥ 0` this is `u ≤ sinh u`. -/
theorem log_le_half_sub_inv {x : ℝ} (hx : 1 ≤ x) : Real.log x ≤ (x - x⁻¹) / 2 := by
  have h0 : 0 < x := by linarith
  have hu : 0 ≤ Real.log x := Real.log_nonneg hx
  have h := Real.self_le_sinh_iff.mpr hu
  rwa [Real.sinh_log h0] at h

/-- The collected form with the two logarithms replaced by their bounds is a quotient of a polynomial with
    positive coefficients by `3 (n+1)² (n²+1)³`. -/
theorem stern_lower_rational {n : ℝ} (hn : 1 < n) :
    sternR0 n - sternC n * ((n - 1) / (n + 1) - 1) - sternC2 n * ((n - n⁻¹) / 2)
      = (4 * n ^ 7 + 8 * n ^ 6 + 12 * n ^ 5 + 18 * n ^ 4 + 36 * n ^ 3 + 12 * n ^ 2 + 4 * n + 2)
          / (3 * (n + 1) ^ 2 * (n ^ 2 + 1) ^ 3) := by
  have hn0 : n ≠ 0 := by linarith
  have hm : n - 1 ≠ 0 := by linarith
  have hp : n + 1 ≠ 0 := by linarith
  have hs : n ^ 2 + 1 ≠ 0 := by positivity
  have hd : n ^ 2 - 1 ≠ 0 := by
    have : n ^ 2 - 1 = (n - 1) * (n + 1) := by ring
    rw [this]; exact mul_ne_zero hm hp
  simp only [sternR0, sternC, sternC2]
  field_simp
  ring

theorem stern_pos {n : ℝ} (hn : 1 < n) : 0 < sternAt90 n := by
  rw [stern_closed hn]
  have hm : 0 < n - 1 := by linarith
  have hp : 0 < n + 1 := by linarith
  have hq : 0 < (n - 1) / (n + 1) := div_pos hm hp
  have hC : 0 ≤ sternC n := by unfold sternC; positivity
  have hC2 : 0 ≤ sternC2 n := by unfold sternC2; positivity
  have h1 : Real.log ((n - 1) / (n + 1)) ≤ (n - 1) / (n + 1) - 1 := Real.log_le_sub_one_of_pos hq
  have h2 : Real.log n ≤ (n - n⁻¹) / 2 := log_le_half_sub_inv hn.le
  have key : 0 < sternR0 n - sternC n * ((n - 1) / (n + 1) - 1) - sternC2 n * ((n - n⁻¹) / 2) := by
    have hn0 : 0 < n := by linarith
    rw [stern_lower_rational hn]; positivity
  have m1 := mul_le_mul_of_nonneg_left h1 hC
  have m2 := mul_le_mul_of_nonneg_left h2 hC2
  linarith

end Cert.Analysis
-- ==== Proof.SternUpper.lean ====
/-
  The all-angle transmissivity of a surface of refractive index `n > 1` is at most 1.

  In the collected form `S = R₀ + C · log ((n+1)/(n-1)) - C₂ · log n` both coefficients are positive, so an upper
  bound of the first logarithm and a lower bound of the second bound `S` from above by a rational function:
  * `log ((1+x)/(1-x)) ≤ 2x + (2/3) x³/(1-x²)` for `0 < x < 1` (the odd series, its tail from the cubic term on
    bounded by a geometric series), used at `x = 1/n`;
  * `2(n-1)/(n+1) ≤ log n`.
  With these, `1 - S ≥ (n-1) Q(n) / (3 (n+1)³ (n²+1)³)`, where
  `Q(n) = 3n⁸ - 4n⁷ + 8n⁶ + 4n⁵ + 10n⁴ + 4n² - 1` has only positive coefficients in powers of `n - 1`.
-/
import proofs.«406795_j81097572483403_3_alg».proof.Proof.SternClosed
import Mathlib.Analysis.SpecialFunctions.Log.Deriv
import Mathlib.Analysis.SpecificLimits.Basic
import Mathlib.Topology.Algebra.InfiniteSum.Order
import Mathlib.Topology.Algebra.InfiniteSum.NatInt
import Mathlib.Tactic.FieldSimp
import Mathlib.Tactic.Ring
import Mathlib.Tactic.Linarith
import Mathlib.Tactic.Positivity
import Mathlib.Tactic.NormNum

namespace Cert.Analysis

/-- `log (1+x) - log (1-x) = 2 Σ x^(2k+1)/(2k+1)`; every term after the first is at most `(2/3) x³ (x²)^(k-1)`. -/
theorem log_ratio_le {x : ℝ} (h0 : 0 < x) (h1 : x < 1) :
    Real.log (1 + x) - Real.log (1 - x) ≤ 2 * x + 2 / 3 * x ^ 3 * (1 - x ^ 2)⁻¹ := by
  have habs : |x| < 1 := by rw [abs_of_pos h0]; exact h1
  have hs := Real.hasSum_log_sub_log_of_abs_lt_one habs
  have hs1 := (hasSum_nat_add_iff' 1).mpr hs
  have hx2 : x ^ 2 < 1 := by nlinarith
  have hg := (hasSum_geometric_of_lt_one (sq_nonneg x) hx2).mul_left (2 / 3 * x ^ 3)
  have hle := hasSum_le (fun k => ?_) hs1 hg
  · simp only [Finset.sum_range_one] at hle
    norm_num at hle
    linarith
  · have hk : (0 : ℝ) ≤ (k : ℝ) := Nat.cast_nonneg k
    have hpow : x ^ (2 * (k + 1) + 1) = x ^ 3 * (x ^ 2) ^ k := by ring
    have hp : 0 ≤ x ^ 3 * (x ^ 2) ^ k := by positivity
    have hc : (1 : ℝ) / (2 * ((k + 1 : ℕ) : ℝ) + 1) ≤ 1 / 3 := by
      apply one_div_le_one_div_of_le (by norm_num)
      push_cast; linarith
    rw [hpow]
    calc 2 * (1 / (2 * ((k + 1 : ℕ) : ℝ) + 1)) * (x ^ 3 * (x ^ 2) ^ k)
        ≤ 2 * (1 / 3) * (x ^ 3 * (x ^ 2) ^ k) := by
          apply mul_le_mul_of_nonneg_right _ hp
          linarith
      _ = 2 / 3 * x ^ 3 * (x ^ 2) ^ k := by ring

/-- The first logarithm: `log ((n+1)/(n-1)) ≤ 2/n + 2/(3 n (n²-1))`. -/
theorem neg_log_le {n : ℝ} (hn : 1 < n) :
    -Real.log ((n - 1) / (n + 1)) ≤ 2 / n + 2 / (3 * n * (n ^ 2 - 1)) := by
  have h0 : 0 < n := by linarith
  have hn0 : n ≠ 0 := ne_of_gt h0
  have hn1 : n - 1 ≠ 0 := by linarith
  have hn2 : n + 1 ≠ 0 := by linarith
  have hm : n ^ 2 - 1 ≠ 0 := by
    have : n ^ 2 - 1 = (n - 1) * (n + 1) := by ring
    rw [this]; exact mul_ne_zero hn1 hn2
  have hx0 : 0 < 1 / n := by positivity
  have hx1 : 1 / n < 1 := by rw [div_lt_one h0]; exact hn
  have h := log_ratio_le hx0 hx1
  have hp : (1 + 1 / n) ≠ 0 := by positivity
  have hq : (1 - 1 / n) ≠ 0 := by
    have : 1 - 1 / n = (n - 1) / n := by field_simp
    rw [this]; exact div_ne_zero hn1 hn0
  have e1 : Real.log (1 + 1 / n) - Real.log (1 - 1 / n) = -Real.log ((n - 1) / (n + 1)) := by
    rw [← Real.log_div hp hq, ← Real.log_inv]
    congr 1
    field_simp
  have e2 : 2 * (1 / n) + 2 / 3 * (1 / n) ^ 3 * (1 - (1 / n) ^ 2)⁻¹ = 2 / n + 2 / (3 * n * (n ^ 2 - 1)) := by
    have : 1 - (1 / n) ^ 2 = (n ^ 2 - 1) / n ^ 2 := by field_simp
    rw [this, inv_div]
    field_simp
  rw [e1, e2] at h
  exact h

theorem stern_le_one {n : ℝ} (hn : 1 < n) : sternAt90 n ≤ 1 := by
  have h0 : 0 < n := by linarith
  have h1 : 0 < n - 1 := by linarith
  have hn0 : n ≠ 0 := ne_of_gt h0
  have hn1 : n - 1 ≠ 0 := ne_of_gt h1
  have hn2 : n + 1 ≠ 0 := by linarith
  have hsq : n ^ 2 + 1 ≠ 0 := by positivity
  have hm : n ^ 2 - 1 ≠ 0 := by
    have : n ^ 2 - 1 = (n - 1) * (n + 1) := by ring
    rw [this]; exact mul_ne_zero hn1 hn2
  have hmpos : 0 < n ^ 2 - 1 := by nlinarith
  rw [stern_closed hn]
  have hL1 := neg_log_le hn
  have hL2 : 2 * (n - 1) / (n + 1) ≤ Real.log n := by
    have h := Real.le_log_one_add_of_nonneg (x := n - 1) h1.le
    have e : 1 + (n - 1) = n := by ring
    have e' : n - 1 + 2 = n + 1 := by ring
    rw [e, e'] at h
    exact h
  have hC : 0 ≤ sternC n := by unfold sternC; positivity
  have hC2 : 0 ≤ sternC2 n := by unfold sternC2; positivity
  -- the rational bound
  have key : 1 - (sternR0 n + sternC n * (2 / n + 2 / (3 * n * (n ^ 2 - 1)))
        - sternC2 n * (2 * (n - 1) / (n + 1)))
      = (n - 1) * (3 * n ^ 8 - 4 * n ^ 7 + 8 * n ^ 6 + 4 * n ^ 5 + 10 * n ^ 4 + 4 * n ^ 2 - 1)
        / (3 * (n + 1) ^ 3 * (n ^ 2 + 1) ^ 3) := by
    unfold sternR0 sternC sternC2
    dsimp only
    field_simp
    ring
  have hQ : 3 * n ^ 8 - 4 * n ^ 7 + 8 * n ^ 6 + 4 * n ^ 5 + 10 * n ^ 4 + 4 * n ^ 2 - 1
      = 3 * (n - 1) ^ 8 + 20 * (n - 1) ^ 7 + 64 * (n - 1) ^ 6 + 136 * (n - 1) ^ 5 + 220 * (n - 1) ^ 4
        + 268 * (n - 1) ^ 3 + 224 * (n - 1) ^ 2 + 112 * (n - 1) + 24 := by ring
  have hpos : 0 ≤ (n - 1) * (3 * n ^ 8 - 4 * n ^ 7 + 8 * n ^ 6 + 4 * n ^ 5 + 10 * n ^ 4 + 4 * n ^ 2 - 1)
        / (3 * (n + 1) ^ 3 * (n ^ 2 + 1) ^ 3) := by
    rw [hQ]; positivity
  have m1 := mul_le_mul_of_nonneg_left hL1 hC
  have m2 := mul_le_mul_of_nonneg_left hL2 hC2
  linarith

end Cert.Analysis
-- ==== Proof.HostBridge.lean ====
/-
  From the extended reals to the reals.  With the 32-bit constants read as the exact rationals they denote, for a
  refractive index `n > 1` every division in the all-angle surface transmissivity is by a nonzero
  real and both logarithms have positive arguments, so the operation-by-operation chain on the extended reals is the
  coercion of its real twin; the same holds for the layer transmission factor from the clamp value up.  Hence the
  four surface quantities of a cell built from `n > 1` have the form the cell lemma asks for.
-/
import proofs.«406795_j81097572483403_3_alg».proof.Proof.Lits
import proofs.«406795_j81097572483403_3_alg».proof.Proof.SternLower
import proofs.«406795_j81097572483403_3_alg».proof.Proof.SternUpper
import proofs.«406795_j81097572483403_3_alg».proof.Proof.TauBound
import Mathlib.Tactic.NormNum
import Mathlib.Tactic.Ring
import Mathlib.Tactic.Linarith
import Mathlib.Tactic.Positivity

namespace Cert.Cell

open Idealize.ShloMosaic

noncomputable section

/-! ### Division and logarithm of reals -/

/-- Division of a real by a nonzero real stays real. -/
theorem div_coe_real (a b : ℝ) (hb : b ≠ 0) : Ideal.div (a : EReal) (b : EReal) = ((a / b : ℝ) : EReal) := by
  rw [Ideal.div_coe hb, ← EReal.coe_mul, mul_one_div]

/-- The logarithm of a positive real stays real. -/
theorem log_real {x : ℝ} (hx : 0 < x) : Ideal.log (x : EReal) = ((Real.log x : ℝ) : EReal) := by
  rw [Ideal.log_coe, if_neg (not_le.mpr hx)]

/-- The exponential of a real is real. -/
theorem exp_real (x : ℝ) : Ideal.exp (x : EReal) = ((Real.exp x : ℝ) : EReal) := Ideal.exp_coe x

/-! ### The all-angle surface transmissivity -/

/-- The real twin of `gavRest`. -/
def gavRestR (n2 npx nm a k b den : ℝ) : ℝ :=
  let k2 := k * k
  let ts := k2 / (6 * (b * b * b)) + k / b - b / 2 - (k2 / (6 * (a * a * a)) + k / a - a / 2)
  let tp1 := -2 * n2 * (b - a) / (npx * npx)
  let nm2 := nm * nm
  let tp2 := -2 * n2 * npx * Real.log (b / a) / nm2
  let tp3 := n2 * (1 / b - 1 / a) / 2
  let n22 := n2 * n2
  let npx3 := npx * npx * npx
  let npaxa := 2 * npx * a - nm2
  let npxb := 2 * npx * b - nm2
  let tp4 := 16 * n22 * (n22 + 1) * Real.log (npxb / npaxa) / (npx3 * nm2)
  let tp5 := 16 * (n2 * n2 * n2) * (1 / npxb - 1 / npaxa) / npx3
  (ts + (tp1 + tp2 + tp3 + tp4 + tp5)) / den

/-- On real arguments with nonzero denominators and positive logarithm arguments, `gavRest` is real. -/
theorem gavRest_real {n2 npx nm a k b den : ℝ} (ha : a ≠ 0) (hb : b ≠ 0) (hnpx : npx ≠ 0) (hnm : nm ≠ 0)
    (hden : den ≠ 0) (hba : 0 < b / a) (hA : 2 * npx * a - nm * nm ≠ 0) (hB : 2 * npx * b - nm * nm ≠ 0)
    (hBA : 0 < (2 * npx * b - nm * nm) / (2 * npx * a - nm * nm)) :
    gavRest (n2 : EReal) (npx : EReal) (nm : EReal) (a : EReal) (k : EReal) (b : EReal) (den : EReal)
      = ((gavRestR n2 npx nm a k b den : ℝ) : EReal) := by
  have h2 : (2 : ℝ) ≠ 0 := two_ne_zero
  have hbbb : b * b * b ≠ 0 := mul_ne_zero (mul_ne_zero hb hb) hb
  have haaa : a * a * a ≠ 0 := mul_ne_zero (mul_ne_zero ha ha) ha
  have h6b : 6 * (b * b * b) ≠ 0 := mul_ne_zero (by norm_num) hbbb
  have h6a : 6 * (a * a * a) ≠ 0 := mul_ne_zero (by norm_num) haaa
  have hpp : npx * npx ≠ 0 := mul_ne_zero hnpx hnpx
  have hmm : nm * nm ≠ 0 := mul_ne_zero hnm hnm
  have hp3 : npx * npx * npx ≠ 0 := mul_ne_zero hpp hnpx
  have hp3m : npx * npx * npx * (nm * nm) ≠ 0 := mul_ne_zero hp3 hmm
  simp only [gavRest, gavRestR, c1_val, c2_val, c6_val, c16_val, cm2_val, ← EReal.coe_mul, ← EReal.coe_add,
    ← EReal.coe_sub, ← EReal.coe_neg, div_coe_real _ _ h2, div_coe_real _ _ h6b, div_coe_real _ _ h6a, div_coe_real _ _ hb, div_coe_real _ _ ha,
    div_coe_real _ _ hpp, div_coe_real _ _ hmm, div_coe_real _ _ hA, div_coe_real _ _ hB, div_coe_real _ _ hp3m, div_coe_real _ _ hp3, div_coe_real _ _ hden,
    log_real hba, log_real hBA]

/-- For `n > 1` the all-angle transmissivity chain on the extended reals is the coercion of the real one: its
    denominators are `2`, `4`, `b = (n²-1)/2`, `a = (n+1)²/2`, `n²+1`, `n²-1`, `2(n²+1)a - (n²-1)² = 2n(n+1)²` and
    `2(n²+1)b - (n²-1)² = 2(n²-1)`, all positive. -/
theorem gav90_real {n : ℝ} (hn : 1 < n) : gav90 (n : EReal) = ((Cert.Analysis.sternAt90 n : ℝ) : EReal) := by
  have hn0 : 0 < n := by linarith
  have h2 : (2 : ℝ) ≠ 0 := two_ne_zero
  have h4 : (4 : ℝ) ≠ 0 := four_ne_zero
  have hnm : 0 < n * n - 1 := by nlinarith
  have hnpx : 0 < n * n + 1 := by positivity
  have ha : 0 < (n + 1) * (n + 1) / 2 := by positivity
  have hbe : (0 : ℝ) - (1 - (n * n + 1) / 2) = (n * n - 1) / 2 := by ring
  have hb : (0 : ℝ) < 0 - (1 - (n * n + 1) / 2) := by rw [hbe]; linarith
  have hAe : 2 * (n * n + 1) * ((n + 1) * (n + 1) / 2) - (n * n - 1) * (n * n - 1) = (n + 1) * (n + 1) * (2 * n) := by
    ring
  have hBe : 2 * (n * n + 1) * (0 - (1 - (n * n + 1) / 2)) - (n * n - 1) * (n * n - 1) = 2 * (n * n - 1) := by
    ring
  have hA : 0 < 2 * (n * n + 1) * ((n + 1) * (n + 1) / 2) - (n * n - 1) * (n * n - 1) := by
    rw [hAe]; positivity
  have hB : 0 < 2 * (n * n + 1) * (0 - (1 - (n * n + 1) / 2)) - (n * n - 1) * (n * n - 1) := by
    rw [hBe]; linarith
  simp only [gav90, c0_val, c1_val, c2_val, c4_val, ← EReal.coe_mul, ← EReal.coe_add, ← EReal.coe_sub,
    ← EReal.coe_neg, div_coe_real _ _ h2, div_coe_real _ _ h4]
  rw [gavRest_real ha.ne' hb.ne' hnpx.ne' hnm.ne' h2 (div_pos hb ha) hA.ne' hB.ne' (div_pos hB hA)]
  simp only [gavRestR, Cert.Analysis.sternAt90]

/-! ### The layer transmission factor -/

theorem polyA_real (k : ℝ) : polyA (k : EReal) = ((Cert.Analysis.polyA k : ℝ) : EReal) := by
  simp only [polyA, Cert.Analysis.polyA, cA0_val, cA1_val, cA2_val, cA3_val, cA4_val, cA5_val, ← EReal.coe_mul,
    ← EReal.coe_add]

theorem polyN_real (k : ℝ) : polyN (k : EReal) = ((Cert.Analysis.polyN k : ℝ) : EReal) := by
  simp only [polyN, Cert.Analysis.polyN, c1_val, cN1_val, cN2_val, cN3_val, cN4_val, ← EReal.coe_mul, ← EReal.coe_add]

theorem polyD_real (k : ℝ) : polyD (k : EReal) = ((Cert.Analysis.polyD k : ℝ) : EReal) := by
  simp only [polyD, Cert.Analysis.polyD, c1_val, cD1_val, cD2_val, cD3_val, cD4_val, ← EReal.coe_mul, ← EReal.coe_add]

/-- A selection on the comparison `k ≤ 1` of a real `k` is the case distinction on the reals. -/
theorem select_ole_one (k : ℝ) (a b : EReal) :
    Scalar.select (Ideal.cmp .ole (k : EReal) c1) a b = if k ≤ 1 then a else b := by
  rw [c1_val]
  by_cases h : k ≤ 1
  · have h' : (k : EReal) ≤ ((1 : ℝ) : EReal) := EReal.coe_le_coe_iff.mpr h
    have hc : Ideal.cmp .ole (k : EReal) ((1 : ℝ) : EReal) = 1#1 := by
      simp only [Ideal.cmp, decide_eq_true h']; rfl
    rw [hc, if_pos h]
    exact if_pos rfl
  · have h' : ¬ (k : EReal) ≤ ((1 : ℝ) : EReal) := fun hh => h (EReal.coe_le_coe_iff.mp hh)
    have hc : Ideal.cmp .ole (k : EReal) ((1 : ℝ) : EReal) = 0#1 := by
      simp only [Ideal.cmp, decide_eq_false h']; rfl
    rw [hc, if_neg h]
    exact if_neg (by decide)

/-- The exponential-integral approximation at a positive real: the comparison picks the branch, the small branch
    takes the logarithm of a positive real, the large one divides by `k > 0` and by the positive quartic. -/
theorem e1_real {k : ℝ} (hk : 0 < k) : e1 (k : EReal) = ((Cert.Analysis.e1 k : ℝ) : EReal) := by
  unfold e1 Cert.Analysis.e1
  rw [select_ole_one]
  by_cases h1 : k ≤ 1
  · rw [if_pos h1, if_pos h1]
    simp only [Cert.Analysis.e1Small, log_real hk, polyA_real, ← EReal.coe_neg, ← EReal.coe_add]
  · have hD : Cert.Analysis.polyD k ≠ 0 := (Cert.Analysis.polyD_pos hk.le).ne'
    rw [if_neg h1, if_neg h1]
    simp only [Cert.Analysis.e1Big, exp_real, polyN_real, polyD_real, div_coe_real _ _ hk.ne', div_coe_real _ _ hD,
      ← EReal.coe_neg, ← EReal.coe_mul]

theorem tau_real {k : ℝ} (hk : Cert.Analysis.k0 ≤ k) :
    Cert.Cell.tau (k : EReal) = ((Cert.Analysis.tau k : ℝ) : EReal) := by
  have hk0 : 0 < k := lt_of_lt_of_le Cert.Analysis.k0_pos hk
  simp only [tau, Cert.Analysis.tau, e1_real hk0, c1_val, exp_real, ← EReal.coe_sub, ← EReal.coe_neg, ← EReal.coe_mul,
    ← EReal.coe_add]

/-! ### The surface quantities of a cell -/

/-- A cell built from a refractive index `n > 1` has an all-angle transmissivity `S ∈ (0, 1]`, and its other three
    surface quantities are derived from it as the cell lemma expects. -/
theorem surface_of_nr {n : ℝ} (hn : 1 < n) (N cab car water lma cant kab kcar kant kw km : EReal) :
    ∃ n' S : ℝ, 1 < n' ∧ 0 < S ∧ S ≤ 1
      ∧ (mkIn N cab car water lma cant (n : EReal) kab kcar kant kw km).t12 = (S : EReal)
      ∧ (mkIn N cab car water lma cant (n : EReal) kab kcar kant kw km).r12 = c1 - (mkIn N cab car water lma cant (n : EReal) kab kcar kant kw km).t12
      ∧ (mkIn N cab car water lma cant (n : EReal) kab kcar kant kw km).t21 = Ideal.div (mkIn N cab car water lma cant (n : EReal) kab kcar kant kw km).t12 ((n' : EReal) * (n' : EReal))
      ∧ (mkIn N cab car water lma cant (n : EReal) kab kcar kant kw km).r21 = c1 - (mkIn N cab car water lma cant (n : EReal) kab kcar kant kw km).t21 :=
  ⟨n, Cert.Analysis.sternAt90 n, hn, Cert.Analysis.stern_pos hn, Cert.Analysis.stern_le_one hn, gav90_real hn,
    rfl, rfl, rfl⟩

end

end Cert.Cell
-- ==== Proof.CellFinal.lean ====
/-
  The two programs agree at every cell the precondition admits: the layer factor of a real absorption at or above the clamp
  is the real function whose values lie in `(0, 1]`.
-/
import proofs.«406795_j81097572483403_3_alg».proof.Proof.CellEq
import proofs.«406795_j81097572483403_3_alg».proof.Proof.HostBridge

namespace Cert.Cell

open Idealize.ShloMosaic

noncomputable section

theorem cell_eq' (x : In) (h : Ok x) : cellK x = cellR x :=
  cell_eq_of x h fun k hk =>
    ⟨Cert.Analysis.tau k, Cert.Analysis.tau_pos hk, Cert.Analysis.tau_le_one hk, tau_real hk⟩

end

end Cert.Cell
-- ==== Proof.Bridge.lean ====
/-
  From cells to arrays: when every cell of the twelve argument arrays has real traits and coefficients, a nonzero structure
  parameter, a refractive index above 1 and a nonzero last divisor of the reference, the kernel's two result arrays are the
  reference's, entry by entry.
-/
import proofs.«406795_j81097572483403_3_alg».proof.Proof.CellFinal
import proofs.«406795_j81097572483403_3_alg».proof.Proof.Spec

namespace Cert.Spec

open Idealize.ShloMosaic Idealize.ShloMosaic.ValueIdx Cert.Cell

noncomputable section

/-- What the precondition says of cell (i, j). -/
structure CellFacts (N cab car water lma cant : FVec Ideal SL1 .f32) (nr kab kcar kant kw km : FVec Ideal SW .f32)
    (i : Fin 8192) (j : Fin 2101) : Prop where
  hN : ∃ v : ℝ, v ≠ 0 ∧ atL N i = (v : EReal)
  hcab : ∃ v : ℝ, atL cab i = (v : EReal)
  hcar : ∃ v : ℝ, atL car i = (v : EReal)
  hwater : ∃ v : ℝ, atL water i = (v : EReal)
  hlma : ∃ v : ℝ, atL lma i = (v : EReal)
  hcant : ∃ v : ℝ, atL cant i = (v : EReal)
  hnr : ∃ v : ℝ, 1 < v ∧ atW nr j = (v : EReal)
  hkab : ∃ v : ℝ, atW kab j = (v : EReal)
  hkcar : ∃ v : ℝ, atW kcar j = (v : EReal)
  hkant : ∃ v : ℝ, atW kant j = (v : EReal)
  hkw : ∃ v : ℝ, atW kw j = (v : EReal)
  hkm : ∃ v : ℝ, atW km j = (v : EReal)
  hden3 : den3R (cellIn N cab car water lma cant nr kab kcar kant kw km i j) ≠ 0

/-- Those facts are the hypotheses of the cell's agreement; the surface quantities come from the refractive index. -/
theorem ok_of_facts (N cab car water lma cant : FVec Ideal SL1 .f32) (nr kab kcar kant kw km : FVec Ideal SW .f32)
    (i : Fin 8192) (j : Fin 2101) (h : CellFacts N cab car water lma cant nr kab kcar kant kw km i j) :
    Cell.Ok (cellIn N cab car water lma cant nr kab kcar kant kw km i j) := by
  obtain ⟨n, hn, hnr⟩ := h.hnr
  have hs := surface_of_nr hn (atL N i) (atL cab i) (atL car i) (atL water i) (atL lma i) (atL cant i)
    (atW kab j) (atW kcar j) (atW kant j) (atW kw j) (atW km j)
  rw [← hnr] at hs
  exact { N_real := h.hN, cab_real := h.hcab, car_real := h.hcar, water_real := h.hwater, lma_real := h.hlma,
          cant_real := h.hcant, kab_real := h.hkab, kcar_real := h.hkcar, kant_real := h.hkant, kw_real := h.hkw,
          km_real := h.hkm, surface := hs, den3_ne := h.hden3 }

/-- The kernel's arrays are the reference's. -/
theorem arrays_eq (N cab car water lma cant : FVec Ideal SL1 .f32) (nr kab kcar kant kw km : FVec Ideal SW .f32)
    (h : ∀ i j, CellFacts N cab car water lma cant nr kab kcar kant kw km i j) :
    reflK N cab car water lma cant nr kab kcar kant kw km = reflR N cab car water lma cant nr kab kcar kant kw km
    ∧ tranK N cab car water lma cant nr kab kcar kant kw km = tranR N cab car water lma cant nr kab kcar kant kw km :=
  ⟨funext fun idx => congrArg Prod.fst (cell_eq' _ (ok_of_facts _ _ _ _ _ _ _ _ _ _ _ _ _ _ (h (idx 0) (idx 1)))),
   funext fun idx => congrArg Prod.snd (cell_eq' _ (ok_of_facts _ _ _ _ _ _ _ _ _ _ _ _ _ _ (h (idx 0) (idx 1))))⟩

end

end Cert.Spec
-- ==== Proof.KerHostDefs.lean ====
/-
  The kernel program's host stretch, shared vocabulary: Stern's averaged transmissivity cut into the pieces the
  host operations compute one after the other (as scalar functions on the extended reals), and the two statements
  the stretch is proved through: what the buffers hold once the 40-degree average is done and the 90-degree one
  is begun, and what the eleven staged [1,2101] arrays hold when the kernel is launched.
-/
import proofs.«406795_j81097572483403_3_alg».proof.Proof.Gen.KernelIdeal.Frame
import proofs.«406795_j81097572483403_3_alg».proof.Proof.HostVals
import Idealize.ShloMosaic.Lib.ValueIdx

noncomputable section

namespace Cert.KerHost

open Cert.KernelIdeal Cert.KernelIdeal.Gen Idealize.ShloMosaic Idealize.ShloMosaic.TcCoe Idealize.SL.Sem
open Idealize.ShloMosaic.ValueIdx Cert.Cell

/-! ### Stern's form in pieces -/

/-- What both averages share: the square of the index, that plus one, that minus one, `(n+1)²/2`, `-(n²-1)²/4`. -/
def n2 (x : EReal) : EReal := x * x
def npx (x : EReal) : EReal := x * x + c1
def nm (x : EReal) : EReal := x * x - c1
def sa (x : EReal) : EReal := Ideal.div ((x + c1) * (x + c1)) c2
def sk (x : EReal) : EReal := Ideal.div (-(x * x - c1) * (x * x - c1)) c4
/-- The upper limit `b` at 40 degrees and at 90 degrees. -/
def b40 (x : EReal) : EReal :=
  Ideal.sqrt ((cS40 - Ideal.div (npx x) c2) * (cS40 - Ideal.div (npx x) c2) + sk x) - (cS40 - Ideal.div (npx x) c2)
def b90 (x : EReal) : EReal := c0 - (c1 - Ideal.div (npx x) c2)

/-- The s-polarized part at one limit, and between the two limits. -/
def ts1 (k q : EReal) : EReal := Ideal.div (k * k) (c6 * (q * q * q)) + Ideal.div k q - Ideal.div q c2
def ts (a k b : EReal) : EReal := ts1 k b - ts1 k a
/-- The five terms of the p-polarized part. -/
def tp1 (n2 npx a b : EReal) : EReal := Ideal.div (cm2 * n2 * (b - a)) (npx * npx)
def tp2 (n2 npx nm a b : EReal) : EReal := Ideal.div (cm2 * n2 * npx * Ideal.log (Ideal.div b a)) (nm * nm)
def tp3 (n2 a b : EReal) : EReal := Ideal.div (n2 * (Ideal.div c1 b - Ideal.div c1 a)) c2
def npq (npx nm q : EReal) : EReal := c2 * npx * q - nm * nm
def tp4 (n2 npx nm a b : EReal) : EReal :=
  Ideal.div (c16 * (n2 * n2) * (n2 * n2 + c1) * Ideal.log (Ideal.div (npq npx nm b) (npq npx nm a))) (npx * npx * npx * (nm * nm))
def tp5 (n2 npx nm a b : EReal) : EReal :=
  Ideal.div (c16 * (n2 * n2 * n2) * (Ideal.div c1 (npq npx nm b) - Ideal.div c1 (npq npx nm a))) (npx * npx * npx)

theorem gavRest_eq (n2 npx nm a k b den : EReal) :
    gavRest n2 npx nm a k b den
      = Ideal.div (ts a k b + (tp1 n2 npx a b + tp2 n2 npx nm a b + tp3 n2 a b + tp4 n2 npx nm a b + tp5 n2 npx nm a b)) den := rfl
theorem gav40_eq (x : EReal) : gav40 x = gavRest (n2 x) (npx x) (nm x) (sa x) (sk x) (b40 x) c2S40 := rfl
theorem gav90_eq (x : EReal) : gav90 x = gavRest (n2 x) (npx x) (nm x) (sa x) (sk x) (b90 x) c2 := rfl

/-! ### The two statements -/

/-- The buffers after the first 180 host operations, as far as the rest reads them: the 40-degree average and one minus
    it; the 90-degree chain's first values; the six spectra as launched. -/
structure Mid (W : Valuation τ sig (Elt Ideal)) (nr kab kcar kant kw km : S2101.Idx → EReal) : Prop where
  v118 : (W (Proc.devRef .tc main_v118) : S2101.Idx → EReal) = fun i => gav40 (nr i)
  v120 : (W (Proc.devRef .tc main_v120) : S2101.Idx → EReal) = fun i => c1 - gav40 (nr i)
  v121 : (W (Proc.devRef .tc main_v121) : S2101.Idx → EReal) = fun i => n2 (nr i)
  v123 : (W (Proc.devRef .tc main_v123) : S2101.Idx → EReal) = fun i => npx (nr i)
  v125 : (W (Proc.devRef .tc main_v125) : S2101.Idx → EReal) = fun i => nm (nr i)
  v132 : (W (Proc.devRef .tc main_v132) : S2101.Idx → EReal) = fun i => sa (nr i)
  v138 : (W (Proc.devRef .tc main_v138) : S2101.Idx → EReal) = fun i => -(nr i * nr i - c1) * (nr i * nr i - c1)
  v139 : (W (Proc.devRef .tc main_v139) : S2101.Idx → EReal) = fun _ => c4
  a6 : (W (Proc.devRef .tc main_arg6) : S2101.Idx → EReal) = nr
  a7 : (W (Proc.devRef .tc main_arg7) : S2101.Idx → EReal) = kab
  a8 : (W (Proc.devRef .tc main_arg8) : S2101.Idx → EReal) = kcar
  a9 : (W (Proc.devRef .tc main_arg9) : S2101.Idx → EReal) = kant
  a10 : (W (Proc.devRef .tc main_arg10) : S2101.Idx → EReal) = kw
  a11 : (W (Proc.devRef .tc main_arg11) : S2101.Idx → EReal) = km

/-- The eleven staged arrays at launch: the five coefficient spectra as rows, and the six surface quantities of the
    refractive index, wavelength by wavelength. -/
structure Staged (W : Valuation τ sig (Elt Ideal)) (nr kab kcar kant kw km : S2101.Idx → EReal) : Prop where
  v236 : (W (Proc.devRef .tc main_v236) : S1x2101.Idx → EReal) = fun idx => kab (ix1 (idx 1))
  v237 : (W (Proc.devRef .tc main_v237) : S1x2101.Idx → EReal) = fun idx => kcar (ix1 (idx 1))
  v238 : (W (Proc.devRef .tc main_v238) : S1x2101.Idx → EReal) = fun idx => kant (ix1 (idx 1))
  v239 : (W (Proc.devRef .tc main_v239) : S1x2101.Idx → EReal) = fun idx => kw (ix1 (idx 1))
  v240 : (W (Proc.devRef .tc main_v240) : S1x2101.Idx → EReal) = fun idx => km (ix1 (idx 1))
  v241 : (W (Proc.devRef .tc main_v241) : S1x2101.Idx → EReal) = fun idx => gav40 (nr (ix1 (idx 1)))
  v242 : (W (Proc.devRef .tc main_v242) : S1x2101.Idx → EReal) = fun idx => c1 - gav40 (nr (ix1 (idx 1)))
  v243 : (W (Proc.devRef .tc main_v243) : S1x2101.Idx → EReal) = fun idx => gav90 (nr (ix1 (idx 1)))
  v244 : (W (Proc.devRef .tc main_v244) : S1x2101.Idx → EReal) = fun idx => c1 - gav90 (nr (ix1 (idx 1)))
  v245 : (W (Proc.devRef .tc main_v245) : S1x2101.Idx → EReal)
    = fun idx => Ideal.div (gav90 (nr (ix1 (idx 1)))) (nr (ix1 (idx 1)) * nr (ix1 (idx 1)))
  v246 : (W (Proc.devRef .tc main_v246) : S1x2101.Idx → EReal)
    = fun idx => c1 - Ideal.div (gav90 (nr (ix1 (idx 1)))) (nr (ix1 (idx 1)) * nr (ix1 (idx 1)))

end Cert.KerHost

end
-- ==== Proof.KerHostA.lean ====
/-
  The kernel program's host stretch, operations 1 to 180: Stern's averaged transmissivity at 40 degrees, computed on
  the [2101] refractive-index spectrum one operation at a time, is at every wavelength the scalar function of the
  index; so is one minus it; and the 90-degree chain's first values are the shared pieces of the form.
-/
import proofs.«406795_j81097572483403_3_alg».proof.Proof.KerHostDefs
import Idealize.ShloMosaic.Lib.StableHlo.Run

set_option maxRecDepth 16384

noncomputable section

namespace Cert.KerHost

open Cert.KernelIdeal Cert.KernelIdeal.Gen Idealize.ShloMosaic Idealize.ShloMosaic.TcCoe Idealize.SL.Sem
open Idealize.ShloMosaic.ValueIdx Cert.Cell

/-- After operations 1 to 60: the shared pieces, the 40-degree upper limit, and the first quotients of the s-polarized part. -/
structure Inv1 (W : Valuation τ sig (Elt Ideal)) (nr : S2101.Idx → EReal) : Prop where
  v0 : (W (Proc.devRef .tc main_v0) : S2101.Idx → EReal) = fun i => n2 (nr i)
  v2 : (W (Proc.devRef .tc main_v2) : S2101.Idx → EReal) = fun i => npx (nr i)
  v4 : (W (Proc.devRef .tc main_v4) : S2101.Idx → EReal) = fun i => nm (nr i)
  v11 : (W (Proc.devRef .tc main_v11) : S2101.Idx → EReal) = fun i => sa (nr i)
  v19 : (W (Proc.devRef .tc main_v19) : S2101.Idx → EReal) = fun i => sk (nr i)
  v35 : (W (Proc.devRef .tc main_v35) : S2101.Idx → EReal) = fun i => b40 (nr i)
  v36 : (W (Proc.devRef .tc main_v36) : S2101.Idx → EReal) = fun i => sk (nr i) * sk (nr i)
  v40 : (W (Proc.devRef .tc main_v40) : S2101.Idx → EReal) = fun i => sa (nr i) * sa (nr i) * sa (nr i)
  v43 : (W (Proc.devRef .tc main_v43) : S2101.Idx → EReal) = fun i => Ideal.div (sk (nr i) * sk (nr i)) (c6 * (b40 (nr i) * b40 (nr i) * b40 (nr i)))
  v44 : (W (Proc.devRef .tc main_v44) : S2101.Idx → EReal) = fun i => Ideal.div (sk (nr i)) (b40 (nr i))
  a6 : (W (Proc.devRef .tc main_arg6) : S2101.Idx → EReal) = nr

set_option maxHeartbeats 16000000 in
theorem part0 (W : Valuation τ sig (Elt Ideal)) (nr : S2101.Idx → EReal)
    (h6 : (W (Proc.devRef .tc main_arg6) : S2101.Idx → EReal) = nr) :
    Inv1 (StableHlo.after main_part0_ops0 W) nr := by
  have H : ((StableHlo.after main_part0_ops0 W (Proc.devRef .tc main_v0) : S2101.Idx → EReal) = fun i => n2 (nr i))
      ∧ ((StableHlo.after main_part0_ops0 W (Proc.devRef .tc main_v2) : S2101.Idx → EReal) = fun i => npx (nr i))
      ∧ ((StableHlo.after main_part0_ops0 W (Proc.devRef .tc main_v4) : S2101.Idx → EReal) = fun i => nm (nr i))
      ∧ ((StableHlo.after main_part0_ops0 W (Proc.devRef .tc main_v11) : S2101.Idx → EReal) = fun i => sa (nr i))
      ∧ ((StableHlo.after main_part0_ops0 W (Proc.devRef .tc main_v19) : S2101.Idx → EReal) = fun i => sk (nr i))
      ∧ ((StableHlo.after main_part0_ops0 W (Proc.devRef .tc main_v35) : S2101.Idx → EReal) = fun i => b40 (nr i))
      ∧ ((StableHlo.after main_part0_ops0 W (Proc.devRef .tc main_v36) : S2101.Idx → EReal) = fun i => sk (nr i) * sk (nr i))
      ∧ ((StableHlo.after main_part0_ops0 W (Proc.devRef .tc main_v40) : S2101.Idx → EReal) = fun i => sa (nr i) * sa (nr i) * sa (nr i))
      ∧ ((StableHlo.after main_part0_ops0 W (Proc.devRef .tc main_v43) : S2101.Idx → EReal) = fun i => Ideal.div (sk (nr i) * sk (nr i)) (c6 * (b40 (nr i) * b40 (nr i) * b40 (nr i))))
      ∧ ((StableHlo.after main_part0_ops0 W (Proc.devRef .tc main_v44) : S2101.Idx → EReal) = fun i => Ideal.div (sk (nr i)) (b40 (nr i)))
      ∧ ((StableHlo.after main_part0_ops0 W (Proc.devRef .tc main_arg6) : S2101.Idx → EReal) = nr) := by
    after_results_simp
    rw [h6]
    repeat' apply And.intro
    all_goals first | rfl | trivial
  exact ⟨H.1, H.2.1, H.2.2.1, H.2.2.2.1, H.2.2.2.2.1, H.2.2.2.2.2.1, H.2.2.2.2.2.2.1, H.2.2.2.2.2.2.2.1, H.2.2.2.2.2.2.2.2.1, H.2.2.2.2.2.2.2.2.2.1, H.2.2.2.2.2.2.2.2.2.2⟩

/-- After operations 61 to 120: the s-polarized part, three of the p-polarized terms, and what the last two are made of. -/
structure Inv2 (W : Valuation τ sig (Elt Ideal)) (nr : S2101.Idx → EReal) : Prop where
  v57 : (W (Proc.devRef .tc main_v57) : S2101.Idx → EReal) = fun i => ts (sa (nr i)) (sk (nr i)) (b40 (nr i))
  v63 : (W (Proc.devRef .tc main_v63) : S2101.Idx → EReal) = fun i => tp1 (n2 (nr i)) (npx (nr i)) (sa (nr i)) (b40 (nr i))
  v64 : (W (Proc.devRef .tc main_v64) : S2101.Idx → EReal) = fun i => nm (nr i) * nm (nr i)
  v71 : (W (Proc.devRef .tc main_v71) : S2101.Idx → EReal) = fun i => tp2 (n2 (nr i)) (npx (nr i)) (nm (nr i)) (sa (nr i)) (b40 (nr i))
  v79 : (W (Proc.devRef .tc main_v79) : S2101.Idx → EReal) = fun i => tp3 (n2 (nr i)) (sa (nr i)) (b40 (nr i))
  v80 : (W (Proc.devRef .tc main_v80) : S2101.Idx → EReal) = fun i => n2 (nr i) * n2 (nr i)
  v82 : (W (Proc.devRef .tc main_v82) : S2101.Idx → EReal) = fun i => npx (nr i) * npx (nr i) * npx (nr i)
  v86 : (W (Proc.devRef .tc main_v86) : S2101.Idx → EReal) = fun i => npq (npx (nr i)) (nm (nr i)) (sa (nr i))
  v90 : (W (Proc.devRef .tc main_v90) : S2101.Idx → EReal) = fun i => npq (npx (nr i)) (nm (nr i)) (b40 (nr i))
  v92 : (W (Proc.devRef .tc main_v92) : S2101.Idx → EReal) = fun i => c16 * (n2 (nr i) * n2 (nr i))
  cst25 : (W (Proc.devRef .tc main_cst_25) : S_.Idx → EReal) = constant (F := Ideal) S_ .f32 0x3F800000#32
  v0 : (W (Proc.devRef .tc main_v0) : S2101.Idx → EReal) = fun i => n2 (nr i)
  a6 : (W (Proc.devRef .tc main_arg6) : S2101.Idx → EReal) = nr

set_option maxHeartbeats 16000000 in
theorem part1 (W : Valuation τ sig (Elt Ideal)) (nr : S2101.Idx → EReal) (h : Inv1 W nr) :
    Inv2 (StableHlo.after main_part1_ops0 W) nr := by
  have H : ((StableHlo.after main_part1_ops0 W (Proc.devRef .tc main_v57) : S2101.Idx → EReal) = fun i => ts (sa (nr i)) (sk (nr i)) (b40 (nr i)))
      ∧ ((StableHlo.after main_part1_ops0 W (Proc.devRef .tc main_v63) : S2101.Idx → EReal) = fun i => tp1 (n2 (nr i)) (npx (nr i)) (sa (nr i)) (b40 (nr i)))
      ∧ ((StableHlo.after main_part1_ops0 W (Proc.devRef .tc main_v64) : S2101.Idx → EReal) = fun i => nm (nr i) * nm (nr i))
      ∧ ((StableHlo.after main_part1_ops0 W (Proc.devRef .tc main_v71) : S2101.Idx → EReal) = fun i => tp2 (n2 (nr i)) (npx (nr i)) (nm (nr i)) (sa (nr i)) (b40 (nr i)))
      ∧ ((StableHlo.after main_part1_ops0 W (Proc.devRef .tc main_v79) : S2101.Idx → EReal) = fun i => tp3 (n2 (nr i)) (sa (nr i)) (b40 (nr i)))
      ∧ ((StableHlo.after main_part1_ops0 W (Proc.devRef .tc main_v80) : S2101.Idx → EReal) = fun i => n2 (nr i) * n2 (nr i))
      ∧ ((StableHlo.after main_part1_ops0 W (Proc.devRef .tc main_v82) : S2101.Idx → EReal) = fun i => npx (nr i) * npx (nr i) * npx (nr i))
      ∧ ((StableHlo.after main_part1_ops0 W (Proc.devRef .tc main_v86) : S2101.Idx → EReal) = fun i => npq (npx (nr i)) (nm (nr i)) (sa (nr i)))
      ∧ ((StableHlo.after main_part1_ops0 W (Proc.devRef .tc main_v90) : S2101.Idx → EReal) = fun i => npq (npx (nr i)) (nm (nr i)) (b40 (nr i)))
      ∧ ((StableHlo.after main_part1_ops0 W (Proc.devRef .tc main_v92) : S2101.Idx → EReal) = fun i => c16 * (n2 (nr i) * n2 (nr i)))
      ∧ ((StableHlo.after main_part1_ops0 W (Proc.devRef .tc main_cst_25) : S_.Idx → EReal) = constant (F := Ideal) S_ .f32 0x3F800000#32)
      ∧ ((StableHlo.after main_part1_ops0 W (Proc.devRef .tc main_v0) : S2101.Idx → EReal) = fun i => n2 (nr i))
      ∧ ((StableHlo.after main_part1_ops0 W (Proc.devRef .tc main_arg6) : S2101.Idx → EReal) = nr) := by
    after_results_simp
    rw [h.v0, h.v2, h.v4, h.v11, h.v19, h.v35, h.v36, h.v40, h.v43, h.v44, h.a6]
    repeat' apply And.intro
    all_goals first | rfl | trivial
  exact ⟨H.1, H.2.1, H.2.2.1, H.2.2.2.1, H.2.2.2.2.1, H.2.2.2.2.2.1, H.2.2.2.2.2.2.1, H.2.2.2.2.2.2.2.1, H.2.2.2.2.2.2.2.2.1, H.2.2.2.2.2.2.2.2.2.1, H.2.2.2.2.2.2.2.2.2.2.1, H.2.2.2.2.2.2.2.2.2.2.2.1, H.2.2.2.2.2.2.2.2.2.2.2.2⟩

/-- After operations 121 to 180: the 40-degree average and one minus it; the 90-degree chain begun. -/
structure Inv3 (W : Valuation τ sig (Elt Ideal)) (nr : S2101.Idx → EReal) : Prop where
  v118 : (W (Proc.devRef .tc main_v118) : S2101.Idx → EReal) = fun i => gav40 (nr i)
  v120 : (W (Proc.devRef .tc main_v120) : S2101.Idx → EReal) = fun i => c1 - gav40 (nr i)
  v121 : (W (Proc.devRef .tc main_v121) : S2101.Idx → EReal) = fun i => n2 (nr i)
  v123 : (W (Proc.devRef .tc main_v123) : S2101.Idx → EReal) = fun i => npx (nr i)
  v125 : (W (Proc.devRef .tc main_v125) : S2101.Idx → EReal) = fun i => nm (nr i)
  v132 : (W (Proc.devRef .tc main_v132) : S2101.Idx → EReal) = fun i => sa (nr i)
  v138 : (W (Proc.devRef .tc main_v138) : S2101.Idx → EReal) = fun i => -(nr i * nr i - c1) * (nr i * nr i - c1)
  v139 : (W (Proc.devRef .tc main_v139) : S2101.Idx → EReal) = fun _ => c4
  a6 : (W (Proc.devRef .tc main_arg6) : S2101.Idx → EReal) = nr

set_option maxHeartbeats 16000000 in
theorem part2 (W : Valuation τ sig (Elt Ideal)) (nr : S2101.Idx → EReal) (h : Inv2 W nr) :
    Inv3 (StableHlo.after main_part2_ops0 W) nr := by
  have H : ((StableHlo.after main_part2_ops0 W (Proc.devRef .tc main_v118) : S2101.Idx → EReal) = fun i => gav40 (nr i))
      ∧ ((StableHlo.after main_part2_ops0 W (Proc.devRef .tc main_v120) : S2101.Idx → EReal) = fun i => c1 - gav40 (nr i))
      ∧ ((StableHlo.after main_part2_ops0 W (Proc.devRef .tc main_v121) : S2101.Idx → EReal) = fun i => n2 (nr i))
      ∧ ((StableHlo.after main_part2_ops0 W (Proc.devRef .tc main_v123) : S2101.Idx → EReal) = fun i => npx (nr i))
      ∧ ((StableHlo.after main_part2_ops0 W (Proc.devRef .tc main_v125) : S2101.Idx → EReal) = fun i => nm (nr i))
      ∧ ((StableHlo.after main_part2_ops0 W (Proc.devRef .tc main_v132) : S2101.Idx → EReal) = fun i => sa (nr i))
      ∧ ((StableHlo.after main_part2_ops0 W (Proc.devRef .tc main_v138) : S2101.Idx → EReal) = fun i => -(nr i * nr i - c1) * (nr i * nr i - c1))
      ∧ ((StableHlo.after main_part2_ops0 W (Proc.devRef .tc main_v139) : S2101.Idx → EReal) = fun _ => c4)
      ∧ ((StableHlo.after main_part2_ops0 W (Proc.devRef .tc main_arg6) : S2101.Idx → EReal) = nr) := by
    after_results_simp
    rw [h.v57, h.v63, h.v64, h.v71, h.v79, h.v80, h.v82, h.v86, h.v90, h.v92, h.cst25, h.v0, h.a6]
    repeat' apply And.intro
    all_goals first | rfl | trivial
  exact ⟨H.1, H.2.1, H.2.2.1, H.2.2.2.1, H.2.2.2.2.1, H.2.2.2.2.2.1, H.2.2.2.2.2.2.1, H.2.2.2.2.2.2.2.1, H.2.2.2.2.2.2.2.2⟩

set_option maxHeartbeats 16000000 in
/-- The first 180 operations write none of the five absorption spectra. -/
theorem spectra_kept (W : Valuation τ sig (Elt Ideal)) :
    (((StableHlo.after main_part2_ops0 (StableHlo.after main_part1_ops0 (StableHlo.after main_part0_ops0 W))) (Proc.devRef .tc main_arg7) : S2101.Idx → EReal) = W (Proc.devRef .tc main_arg7))
      ∧ (((StableHlo.after main_part2_ops0 (StableHlo.after main_part1_ops0 (StableHlo.after main_part0_ops0 W))) (Proc.devRef .tc main_arg8) : S2101.Idx → EReal) = W (Proc.devRef .tc main_arg8))
      ∧ (((StableHlo.after main_part2_ops0 (StableHlo.after main_part1_ops0 (StableHlo.after main_part0_ops0 W))) (Proc.devRef .tc main_arg9) : S2101.Idx → EReal) = W (Proc.devRef .tc main_arg9))
      ∧ (((StableHlo.after main_part2_ops0 (StableHlo.after main_part1_ops0 (StableHlo.after main_part0_ops0 W))) (Proc.devRef .tc main_arg10) : S2101.Idx → EReal) = W (Proc.devRef .tc main_arg10))
      ∧ (((StableHlo.after main_part2_ops0 (StableHlo.after main_part1_ops0 (StableHlo.after main_part0_ops0 W))) (Proc.devRef .tc main_arg11) : S2101.Idx → EReal) = W (Proc.devRef .tc main_arg11)) := by
  after_results_simp
  repeat' apply And.intro
  all_goals first | rfl | trivial

/-- After the first 180 host operations, from any memory: the 40-degree average, one minus it, the 90-degree chain's
    first values, and the six spectra untouched. -/
theorem mid (W : Valuation τ sig (Elt Ideal)) :
    Mid (StableHlo.after main_part2_ops0 (StableHlo.after main_part1_ops0 (StableHlo.after main_part0_ops0 W)))
      (W (Proc.devRef .tc main_arg6)) (W (Proc.devRef .tc main_arg7)) (W (Proc.devRef .tc main_arg8))
      (W (Proc.devRef .tc main_arg9)) (W (Proc.devRef .tc main_arg10)) (W (Proc.devRef .tc main_arg11)) := by
  have h3 := part2 _ _ (part1 _ _ (part0 W _ rfl))
  have hs := spectra_kept W
  exact ⟨h3.v118, h3.v120, h3.v121, h3.v123, h3.v125, h3.v132, h3.v138, h3.v139, h3.a6,
    hs.1, hs.2.1, hs.2.2.1, hs.2.2.2.1, hs.2.2.2.2⟩

end Cert.KerHost

end
-- ==== Proof.KerHostB.lean ====
/-
  The kernel program's host stretch from its 181st operation on: the rest of the all-angle averaged transmissivity
  (the upper limit at 90 degrees, the s-polarized part, the five terms of the p-polarized part, their sum halved),
  the three quantities derived from it (one minus it; it over the squared index; one minus that), and the eleven
  reshapes of [2101] spectra into [1,2101] rows. Given what the buffers hold after the first 180 operations, the
  eleven staged rows hold the coefficient spectra and the six surface quantities, wavelength by wavelength.
-/
import proofs.«406795_j81097572483403_3_alg».proof.Proof.KerHostDefs
import Idealize.ShloMosaic.Lib.Pipeline.Value
import Idealize.ShloMosaic.Lib.ValueLayout

set_option maxRecDepth 16384

noncomputable section

namespace Cert.KerHost

open Cert.KernelIdeal Cert.KernelIdeal.Gen Idealize.ShloMosaic Idealize.ShloMosaic.TcCoe Idealize.SL.Sem
open Idealize.ShloMosaic.ValueIdx Cert.Cell

/-- The buffers after 240 host operations, as far as the rest reads them: the 40-degree average and one minus it; of the 90-degree chain the squared index, that plus one, the lower limit, the upper limit, the s-polarized part, the first two terms of the p-polarized part, the squared `n² - 1`, and the numerator of the third term; the six spectra. -/
structure Mid3 (W : Valuation τ sig (Elt Ideal)) (nr kab kcar kant kw km : S2101.Idx → EReal) : Prop where
  v118 : (W (Proc.devRef .tc main_v118) : S2101.Idx → EReal) = fun i => gav40 (nr i)
  v120 : (W (Proc.devRef .tc main_v120) : S2101.Idx → EReal) = fun i => c1 - gav40 (nr i)
  v121 : (W (Proc.devRef .tc main_v121) : S2101.Idx → EReal) = fun i => n2 (nr i)
  v123 : (W (Proc.devRef .tc main_v123) : S2101.Idx → EReal) = fun i => npx (nr i)
  v132 : (W (Proc.devRef .tc main_v132) : S2101.Idx → EReal) = fun i => sa (nr i)
  v146 : (W (Proc.devRef .tc main_v146) : S2101.Idx → EReal) = fun i => b90 (nr i)
  v168 : (W (Proc.devRef .tc main_v168) : S2101.Idx → EReal) = fun i => ts (sa (nr i)) (sk (nr i)) (b90 (nr i))
  v174 : (W (Proc.devRef .tc main_v174) : S2101.Idx → EReal) = fun i => tp1 (n2 (nr i)) (npx (nr i)) (sa (nr i)) (b90 (nr i))
  v175 : (W (Proc.devRef .tc main_v175) : S2101.Idx → EReal) = fun i => nm (nr i) * nm (nr i)
  v182 : (W (Proc.devRef .tc main_v182) : S2101.Idx → EReal) = fun i => tp2 (n2 (nr i)) (npx (nr i)) (nm (nr i)) (sa (nr i)) (b90 (nr i))
  v188 : (W (Proc.devRef .tc main_v188) : S2101.Idx → EReal) = fun i => n2 (nr i) * (Ideal.div c1 (b90 (nr i)) - Ideal.div c1 (sa (nr i)))
  a6 : (W (Proc.devRef .tc main_arg6) : S2101.Idx → EReal) = nr
  a7 : (W (Proc.devRef .tc main_arg7) : S2101.Idx → EReal) = kab
  a8 : (W (Proc.devRef .tc main_arg8) : S2101.Idx → EReal) = kcar
  a9 : (W (Proc.devRef .tc main_arg9) : S2101.Idx → EReal) = kant
  a10 : (W (Proc.devRef .tc main_arg10) : S2101.Idx → EReal) = kw
  a11 : (W (Proc.devRef .tc main_arg11) : S2101.Idx → EReal) = km

set_option maxHeartbeats 40000000 in
/-- Operations 181 to 240: from the shared first values, the upper limit at 90 degrees, the s-polarized part between the
    two limits, the first two terms of the p-polarized part and the numerator of the third. -/
theorem part3 (W : Valuation τ sig (Elt Ideal)) (nr kab kcar kant kw km : S2101.Idx → EReal)
    (h : Mid W nr kab kcar kant kw km) : Mid3 (StableHlo.after main_part3_ops0 W) nr kab kcar kant kw km := by
  have H : ((StableHlo.after main_part3_ops0 W (Proc.devRef .tc main_v118) : S2101.Idx → EReal) = fun i => gav40 (nr i))
      ∧ ((StableHlo.after main_part3_ops0 W (Proc.devRef .tc main_v120) : S2101.Idx → EReal) = fun i => c1 - gav40 (nr i))
      ∧ ((StableHlo.after main_part3_ops0 W (Proc.devRef .tc main_v121) : S2101.Idx → EReal) = fun i => n2 (nr i))
      ∧ ((StableHlo.after main_part3_ops0 W (Proc.devRef .tc main_v123) : S2101.Idx → EReal) = fun i => npx (nr i))
      ∧ ((StableHlo.after main_part3_ops0 W (Proc.devRef .tc main_v132) : S2101.Idx → EReal) = fun i => sa (nr i))
      ∧ ((StableHlo.after main_part3_ops0 W (Proc.devRef .tc main_v146) : S2101.Idx → EReal) = fun i => b90 (nr i))
      ∧ ((StableHlo.after main_part3_ops0 W (Proc.devRef .tc main_v168) : S2101.Idx → EReal) = fun i => ts (sa (nr i)) (sk (nr i)) (b90 (nr i)))
      ∧ ((StableHlo.after main_part3_ops0 W (Proc.devRef .tc main_v174) : S2101.Idx → EReal) = fun i => tp1 (n2 (nr i)) (npx (nr i)) (sa (nr i)) (b90 (nr i)))
      ∧ ((StableHlo.after main_part3_ops0 W (Proc.devRef .tc main_v175) : S2101.Idx → EReal) = fun i => nm (nr i) * nm (nr i))
      ∧ ((StableHlo.after main_part3_ops0 W (Proc.devRef .tc main_v182) : S2101.Idx → EReal) = fun i => tp2 (n2 (nr i)) (npx (nr i)) (nm (nr i)) (sa (nr i)) (b90 (nr i)))
      ∧ ((StableHlo.after main_part3_ops0 W (Proc.devRef .tc main_v188) : S2101.Idx → EReal) = fun i => n2 (nr i) * (Ideal.div c1 (b90 (nr i)) - Ideal.div c1 (sa (nr i))))
      ∧ ((StableHlo.after main_part3_ops0 W (Proc.devRef .tc main_arg6) : S2101.Idx → EReal) = nr)
      ∧ ((StableHlo.after main_part3_ops0 W (Proc.devRef .tc main_arg7) : S2101.Idx → EReal) = kab)
      ∧ ((StableHlo.after main_part3_ops0 W (Proc.devRef .tc main_arg8) : S2101.Idx → EReal) = kcar)
      ∧ ((StableHlo.after main_part3_ops0 W (Proc.devRef .tc main_arg9) : S2101.Idx → EReal) = kant)
      ∧ ((StableHlo.after main_part3_ops0 W (Proc.devRef .tc main_arg10) : S2101.Idx → EReal) = kw)
      ∧ ((StableHlo.after main_part3_ops0 W (Proc.devRef .tc main_arg11) : S2101.Idx → EReal) = km) := by
    after_results_simp
    rw [h.v118, h.v120, h.v121, h.v123, h.v125, h.v132, h.v138, h.v139, h.a6, h.a7, h.a8, h.a9, h.a10, h.a11]
    exact ⟨rfl, rfl, rfl, rfl, rfl, rfl, rfl, rfl, rfl, rfl, rfl, rfl, rfl, rfl, rfl, rfl, rfl⟩
  exact ⟨H.1, H.2.1, H.2.2.1, H.2.2.2.1, H.2.2.2.2.1, H.2.2.2.2.2.1, H.2.2.2.2.2.2.1, H.2.2.2.2.2.2.2.1, H.2.2.2.2.2.2.2.2.1, H.2.2.2.2.2.2.2.2.2.1, H.2.2.2.2.2.2.2.2.2.2.1, H.2.2.2.2.2.2.2.2.2.2.2.1, H.2.2.2.2.2.2.2.2.2.2.2.2.1, H.2.2.2.2.2.2.2.2.2.2.2.2.2.1, H.2.2.2.2.2.2.2.2.2.2.2.2.2.2.1, H.2.2.2.2.2.2.2.2.2.2.2.2.2.2.2.1, H.2.2.2.2.2.2.2.2.2.2.2.2.2.2.2.2⟩

/-- The buffers after 300 host operations, as far as the last nine read them: the two averages, one minus each, the 90-degree average over the squared index and one minus that; the first two coefficient spectra already as rows; the other three spectra. -/
structure Mid4 (W : Valuation τ sig (Elt Ideal)) (nr kab kcar kant kw km : S2101.Idx → EReal) : Prop where
  v118 : (W (Proc.devRef .tc main_v118) : S2101.Idx → EReal) = fun i => gav40 (nr i)
  v120 : (W (Proc.devRef .tc main_v120) : S2101.Idx → EReal) = fun i => c1 - gav40 (nr i)
  v229 : (W (Proc.devRef .tc main_v229) : S2101.Idx → EReal) = fun i => gav90 (nr i)
  v231 : (W (Proc.devRef .tc main_v231) : S2101.Idx → EReal) = fun i => c1 - gav90 (nr i)
  v233 : (W (Proc.devRef .tc main_v233) : S2101.Idx → EReal) = fun i => Ideal.div (gav90 (nr i)) (nr i * nr i)
  v235 : (W (Proc.devRef .tc main_v235) : S2101.Idx → EReal) = fun i => c1 - Ideal.div (gav90 (nr i)) (nr i * nr i)
  v236 : (W (Proc.devRef .tc main_v236) : S1x2101.Idx → EReal) = fun idx => kab (ix1 (idx 1))
  v237 : (W (Proc.devRef .tc main_v237) : S1x2101.Idx → EReal) = fun idx => kcar (ix1 (idx 1))
  a9 : (W (Proc.devRef .tc main_arg9) : S2101.Idx → EReal) = kant
  a10 : (W (Proc.devRef .tc main_arg10) : S2101.Idx → EReal) = kw
  a11 : (W (Proc.devRef .tc main_arg11) : S2101.Idx → EReal) = km

set_option maxHeartbeats 40000000 in
/-- Operations 241 to 300: the third, fourth and fifth terms of the p-polarized part, the sum halved (the all-angle
    average), the three quantities derived from it, and the first two reshapes. -/
theorem part4 (W : Valuation τ sig (Elt Ideal)) (nr kab kcar kant kw km : S2101.Idx → EReal)
    (h : Mid3 W nr kab kcar kant kw km) : Mid4 (StableHlo.after main_part4_ops0 W) nr kab kcar kant kw km := by
  have H : ((StableHlo.after main_part4_ops0 W (Proc.devRef .tc main_v118) : S2101.Idx → EReal) = fun i => gav40 (nr i))
      ∧ ((StableHlo.after main_part4_ops0 W (Proc.devRef .tc main_v120) : S2101.Idx → EReal) = fun i => c1 - gav40 (nr i))
      ∧ ((StableHlo.after main_part4_ops0 W (Proc.devRef .tc main_v229) : S2101.Idx → EReal) = fun i => gav90 (nr i))
      ∧ ((StableHlo.after main_part4_ops0 W (Proc.devRef .tc main_v231) : S2101.Idx → EReal) = fun i => c1 - gav90 (nr i))
      ∧ ((StableHlo.after main_part4_ops0 W (Proc.devRef .tc main_v233) : S2101.Idx → EReal) = fun i => Ideal.div (gav90 (nr i)) (nr i * nr i))
      ∧ ((StableHlo.after main_part4_ops0 W (Proc.devRef .tc main_v235) : S2101.Idx → EReal) = fun i => c1 - Ideal.div (gav90 (nr i)) (nr i * nr i))
      ∧ ((StableHlo.after main_part4_ops0 W (Proc.devRef .tc main_v236) : S1x2101.Idx → EReal) = fun idx => kab (ix1 (idx 1)))
      ∧ ((StableHlo.after main_part4_ops0 W (Proc.devRef .tc main_v237) : S1x2101.Idx → EReal) = fun idx => kcar (ix1 (idx 1)))
      ∧ ((StableHlo.after main_part4_ops0 W (Proc.devRef .tc main_arg9) : S2101.Idx → EReal) = kant)
      ∧ ((StableHlo.after main_part4_ops0 W (Proc.devRef .tc main_arg10) : S2101.Idx → EReal) = kw)
      ∧ ((StableHlo.after main_part4_ops0 W (Proc.devRef .tc main_arg11) : S2101.Idx → EReal) = km) := by
    after_results_simp
    rw [h.v118, h.v120, h.v121, h.v123, h.v132, h.v146, h.v168, h.v174, h.v175, h.v182, h.v188, h.a6, h.a7, h.a8, h.a9, h.a10, h.a11]
    refine ⟨rfl, rfl, rfl, rfl, rfl, rfl, ?_, ?_, rfl, rfl, rfl⟩
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
  exact ⟨H.1, H.2.1, H.2.2.1, H.2.2.2.1, H.2.2.2.2.1, H.2.2.2.2.2.1, H.2.2.2.2.2.2.1, H.2.2.2.2.2.2.2.1, H.2.2.2.2.2.2.2.2.1, H.2.2.2.2.2.2.2.2.2.1, H.2.2.2.2.2.2.2.2.2.2⟩

set_option maxHeartbeats 40000000 in
/-- The last nine operations: a [2101] spectrum reshaped to a [1,2101] row reads, at (0, j), the spectrum at j. -/
theorem part5 (W : Valuation τ sig (Elt Ideal)) (nr kab kcar kant kw km : S2101.Idx → EReal)
    (h : Mid4 W nr kab kcar kant kw km) : Staged (StableHlo.after main_part5_ops0 W) nr kab kcar kant kw km := by
  have H : ((StableHlo.after main_part5_ops0 W (Proc.devRef .tc main_v236) : S1x2101.Idx → EReal) = fun idx => kab (ix1 (idx 1)))
      ∧ ((StableHlo.after main_part5_ops0 W (Proc.devRef .tc main_v237) : S1x2101.Idx → EReal) = fun idx => kcar (ix1 (idx 1)))
      ∧ ((StableHlo.after main_part5_ops0 W (Proc.devRef .tc main_v238) : S1x2101.Idx → EReal) = fun idx => kant (ix1 (idx 1)))
      ∧ ((StableHlo.after main_part5_ops0 W (Proc.devRef .tc main_v239) : S1x2101.Idx → EReal) = fun idx => kw (ix1 (idx 1)))
      ∧ ((StableHlo.after main_part5_ops0 W (Proc.devRef .tc main_v240) : S1x2101.Idx → EReal) = fun idx => km (ix1 (idx 1)))
      ∧ ((StableHlo.after main_part5_ops0 W (Proc.devRef .tc main_v241) : S1x2101.Idx → EReal) = fun idx => gav40 (nr (ix1 (idx 1))))
      ∧ ((StableHlo.after main_part5_ops0 W (Proc.devRef .tc main_v242) : S1x2101.Idx → EReal) = fun idx => c1 - gav40 (nr (ix1 (idx 1))))
      ∧ ((StableHlo.after main_part5_ops0 W (Proc.devRef .tc main_v243) : S1x2101.Idx → EReal) = fun idx => gav90 (nr (ix1 (idx 1))))
      ∧ ((StableHlo.after main_part5_ops0 W (Proc.devRef .tc main_v244) : S1x2101.Idx → EReal) = fun idx => c1 - gav90 (nr (ix1 (idx 1))))
      ∧ ((StableHlo.after main_part5_ops0 W (Proc.devRef .tc main_v245) : S1x2101.Idx → EReal) = fun idx => Ideal.div (gav90 (nr (ix1 (idx 1)))) (nr (ix1 (idx 1)) * nr (ix1 (idx 1))))
      ∧ ((StableHlo.after main_part5_ops0 W (Proc.devRef .tc main_v246) : S1x2101.Idx → EReal) = fun idx => c1 - Ideal.div (gav90 (nr (ix1 (idx 1)))) (nr (ix1 (idx 1)) * nr (ix1 (idx 1)))) := by
    after_results_simp
    rw [h.v118, h.v120, h.v229, h.v231, h.v233, h.v235, h.v236, h.v237, h.a9, h.a10, h.a11]
    refine ⟨rfl, rfl, ?_, ?_, ?_, ?_, ?_, ?_, ?_, ?_, ?_⟩
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
    · funext idx
      obtain ⟨u, j, rfl⟩ : ∃ (u : Fin 1) (j : Fin 2101), idx = ix2 u j := ⟨idx 0, idx 1, eq_ix2 idx⟩
      exact shapeCast_a_1a_apply _ _ u j
  exact ⟨H.1, H.2.1, H.2.2.1, H.2.2.2.1, H.2.2.2.2.1, H.2.2.2.2.2.1, H.2.2.2.2.2.2.1, H.2.2.2.2.2.2.2.1, H.2.2.2.2.2.2.2.2.1, H.2.2.2.2.2.2.2.2.2.1, H.2.2.2.2.2.2.2.2.2.2⟩

/-- From the buffers after the first 180 host operations to the eleven staged rows. -/
theorem tail (W : Valuation τ sig (Elt Ideal)) (nr kab kcar kant kw km : S2101.Idx → EReal)
    (h : Mid W nr kab kcar kant kw km) :
    Staged (StableHlo.after main_part5_ops0 (StableHlo.after main_part4_ops0 (StableHlo.after main_part3_ops0 W)))
      nr kab kcar kant kw km :=
  part5 _ nr kab kcar kant kw km (part4 _ nr kab kcar kant kw km (part3 W nr kab kcar kant kw km h))

end Cert.KerHost

end
-- ==== Proof.KerHost.lean ====
/-
  The kernel program's host stretch before its launch: what the eleven staged [1,2101] arrays hold when the kernel
  starts. The five absorption spectra are staged as rows unchanged; the other six rows are, wavelength by wavelength,
  the surface quantities of the refractive index: Stern's averaged transmissivity at 40 degrees and over all angles,
  one minus each, the all-angle value divided by the squared index, and one minus that.
-/
import proofs.«406795_j81097572483403_3_alg».proof.Proof.KerHostDefs
import proofs.«406795_j81097572483403_3_alg».proof.Proof.KerHostA
import proofs.«406795_j81097572483403_3_alg».proof.Proof.KerHostB

set_option maxRecDepth 16384

noncomputable section

namespace Cert.KerHost

open Cert.KernelIdeal Cert.KernelIdeal.Gen Idealize.ShloMosaic Idealize.ShloMosaic.TcCoe Idealize.SL.Sem
open Idealize.ShloMosaic.ValueIdx Cert.Cell

variable (m : (ℓ : Loc nD τ sig) → Buf (Elt Ideal) ℓ)

/-- Core `c`'s refractive-index spectrum as launched. -/
abbrev nrOf (c : Dev nD) : S2101.Idx → EReal := m ((c : Thread nD τ).loc main_arg6)

/-- The host operations before the launch are the six printed parts in a row (at any float instance). -/
theorem hostOps0_parts {F : FTy → Type} [FloatOps F] :
    (hostOps0 : List (HloOp τ sig (Elt F)))
      = main_part0_ops0 ++ (main_part1_ops0 ++ (main_part2_ops0 ++ (main_part3_ops0 ++ (main_part4_ops0 ++ main_part5_ops0)))) :=
  rfl

/-- The eleven staged arrays when the kernel is launched, over core `c`'s launch memory. -/
theorem staged (c : Dev nD) :
    Staged (StableHlo.after hostOps0 (fun b => m (c, b)))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) := by
  rw [hostOps0_parts]
  simp only [StableHlo.after_append]
  exact tail _ _ _ _ _ _ _ (mid (fun b => m (c, b)))

/-- Window 6: the absorption spectrum `kab` (the one the trait `cab` multiplies), staged as a row. -/
theorem V_kab (c : Dev nD) : (V m c main_v236 : S1x2101.Idx → EReal)
    = fun idx => (m ((c : Thread nD τ).loc main_arg7) : S2101.Idx → EReal) (ix1 (idx 1)) := (staged m c).v236
/-- Window 7: the spectrum `kcar` (the one `car` multiplies). -/
theorem V_kcar (c : Dev nD) : (V m c main_v237 : S1x2101.Idx → EReal)
    = fun idx => (m ((c : Thread nD τ).loc main_arg8) : S2101.Idx → EReal) (ix1 (idx 1)) := (staged m c).v237
/-- Window 8: the spectrum `kant` (the one `cant` multiplies). -/
theorem V_kant (c : Dev nD) : (V m c main_v238 : S1x2101.Idx → EReal)
    = fun idx => (m ((c : Thread nD τ).loc main_arg9) : S2101.Idx → EReal) (ix1 (idx 1)) := (staged m c).v238
/-- Window 9: the spectrum `kw` (the one `water` multiplies). -/
theorem V_kw (c : Dev nD) : (V m c main_v239 : S1x2101.Idx → EReal)
    = fun idx => (m ((c : Thread nD τ).loc main_arg10) : S2101.Idx → EReal) (ix1 (idx 1)) := (staged m c).v239
/-- Window 10: the spectrum `km` (the one `lma` multiplies). -/
theorem V_km (c : Dev nD) : (V m c main_v240 : S1x2101.Idx → EReal)
    = fun idx => (m ((c : Thread nD τ).loc main_arg11) : S2101.Idx → EReal) (ix1 (idx 1)) := (staged m c).v240
/-- Window 11: the averaged transmissivity up to 40 degrees. -/
theorem V_talf (c : Dev nD) : (V m c main_v241 : S1x2101.Idx → EReal)
    = fun idx => gav40 (nrOf m c (ix1 (idx 1))) := (staged m c).v241
/-- Window 12: one minus it. -/
theorem V_ralf (c : Dev nD) : (V m c main_v242 : S1x2101.Idx → EReal)
    = fun idx => c1 - gav40 (nrOf m c (ix1 (idx 1))) := (staged m c).v242
/-- Window 13: the averaged transmissivity over all angles. -/
theorem V_t12 (c : Dev nD) : (V m c main_v243 : S1x2101.Idx → EReal)
    = fun idx => gav90 (nrOf m c (ix1 (idx 1))) := (staged m c).v243
/-- Window 14: one minus it. -/
theorem V_r12 (c : Dev nD) : (V m c main_v244 : S1x2101.Idx → EReal)
    = fun idx => c1 - gav90 (nrOf m c (ix1 (idx 1))) := (staged m c).v244
/-- Window 15: the all-angle value over the squared index. -/
theorem V_t21 (c : Dev nD) : (V m c main_v245 : S1x2101.Idx → EReal)
    = fun idx => Ideal.div (gav90 (nrOf m c (ix1 (idx 1)))) (nrOf m c (ix1 (idx 1)) * nrOf m c (ix1 (idx 1))) := (staged m c).v245
/-- Window 16: one minus that. -/
theorem V_r21 (c : Dev nD) : (V m c main_v246 : S1x2101.Idx → EReal)
    = fun idx => c1 - Ideal.div (gav90 (nrOf m c (ix1 (idx 1)))) (nrOf m c (ix1 (idx 1)) * nrOf m c (ix1 (idx 1))) := (staged m c).v246

end Cert.KerHost

end
-- ==== Proof.KerBody.lean ====
/-
  The kernel body's two stored blocks read at an index: entry (p, q) of the [256, 2101] block the body stores for the
  reflectance, and of the one it stores for the transmittance, is the kernel's cell function of the seventeen loaded
  blocks' entries at leaf p and wavelength q. Stage by stage: each named array of the body is the corresponding stage
  of the cell function at every index.
-/
import proofs.«406795_j81097572483403_3_alg».proof.Proof.Gen.KernelIdeal.Skeleton
import proofs.«406795_j81097572483403_3_alg».proof.Proof.Cell
import Idealize.ShloMosaic.PureOps.Ideal.Laws
import Idealize.ShloMosaic.Lib.ValueLayout

noncomputable section

namespace Cert.KerBody

open Idealize.ShloMosaic Idealize.ShloMosaic.ValueIdx Cert.KernelIdeal Cert.KernelIdeal.Gen Cert.Cell

/-! ## Two small facts -/

/-- A column [a, 1] broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Zero minus k is the negation of k, for every extended real k. -/
theorem c0_sub (k : EReal) : c0 - k = -k := by
  show Ideal.ofBits .f32 0x00000000#32 - k = -k
  rw [Ideal.ofBits_zero_f32, zero_sub]

/-- The exponential, the logarithm and the square root of an array, read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem sqrt_apply {s : Shape} {φ : FTy} (a : FVec Ideal s φ) (i : s.Idx) : sqrt a i = Ideal.sqrt (a i) := rfl

/-! ## Each named array of the body, read at an index, from the arrays it is computed from -/

section Payloads

variable (v0 v1 v2 v3 v4 v5 : Vec Ideal S256x1 .f32) (v7 v9 v11 v13 v15 v17 v19 v21 v23 v25 v27 : FVec Ideal S1x2101 .f32)
variable (v50 v56 v57 v73 v74 v114 v120 v127 v132 v137 v142 v160 v169 v171 v215 v219 : FVec Ideal S256x2101 .f32)
variable (v146 : IVec S256x2101 1) (c : Ideal .f32) (i : S256x2101.Idx) (p : Fin 256) (q : Fin 2101)

/-- The staged rows are the loaded rows. -/
theorem pay2_eq (v : Vec Ideal S1x2101 .f32) : k0_pay2 v = v := shapeCast_self v _
theorem pay3_eq (v : Vec Ideal S1x2101 .f32) : k0_pay3 v = v := shapeCast_self v _
theorem pay4_eq (v : Vec Ideal S1x2101 .f32) : k0_pay4 v = v := shapeCast_self v _
theorem pay5_eq (v : Vec Ideal S1x2101 .f32) : k0_pay5 v = v := shapeCast_self v _
theorem pay6_eq (v : Vec Ideal S1x2101 .f32) : k0_pay6 v = v := shapeCast_self v _
theorem pay7_eq (v : Vec Ideal S1x2101 .f32) : k0_pay7 v = v := shapeCast_self v _
theorem pay8_eq (v : Vec Ideal S1x2101 .f32) : k0_pay8 v = v := shapeCast_self v _
theorem pay9_eq (v : Vec Ideal S1x2101 .f32) : k0_pay9 v = v := shapeCast_self v _
theorem pay10_eq (v : Vec Ideal S1x2101 .f32) : k0_pay10 v = v := shapeCast_self v _
theorem pay11_eq (v : Vec Ideal S1x2101 .f32) : k0_pay11 v = v := shapeCast_self v _
theorem pay12_eq (v : Vec Ideal S1x2101 .f32) : k0_pay12 v = v := shapeCast_self v _

/-- The clamped specific absorption. -/
theorem pay13_at : k0_pay13 v0 v1 v2 v3 v4 v5 v7 v9 v11 v13 v15 (ix2 p q) =
    max (Ideal.div (v1 (ix2 p 0) * v7 (ix2 0 q) + v2 (ix2 p 0) * v9 (ix2 0 q) + v5 (ix2 p 0) * v11 (ix2 0 q)
      + v3 (ix2 p 0) * v13 (ix2 0 q) + v4 (ix2 p 0) * v15 (ix2 0 q)) (v0 (ix2 p 0))) ck0 := by
  unfold k0_pay13
  simp only [maximumf_apply, divf_apply, addf_apply, mulf_apply, broadcast_apply]
  rw [broadcastTo_a1_ab_apply, broadcastTo_a1_ab_apply, broadcastTo_a1_ab_apply, broadcastTo_a1_ab_apply,
    broadcastTo_a1_ab_apply, broadcastTo_a1_ab_apply, broadcastTo_1b_ab_apply, broadcastTo_1b_ab_apply,
    broadcastTo_1b_ab_apply, broadcastTo_1b_ab_apply, broadcastTo_1b_ab_apply]
  rfl

theorem pay14_at : k0_pay14 v0 v1 v2 v3 v4 v5 v7 v9 v11 v13 v15 i =
    (c1 - k0_pay13 v0 v1 v2 v3 v4 v5 v7 v9 v11 v13 v15 i) * Ideal.exp (c0 - k0_pay13 v0 v1 v2 v3 v4 v5 v7 v9 v11 v13 v15 i) := rfl

theorem pay15_at : k0_pay15 v0 v1 v2 v3 v4 v5 v7 v9 v11 v13 v15 i =
    k0_pay13 v0 v1 v2 v3 v4 v5 v7 v9 v11 v13 v15 i * k0_pay13 v0 v1 v2 v3 v4 v5 v7 v9 v11 v13 v15 i := rfl

theorem pay16_at : k0_pay16 v0 v1 v2 v3 v4 v5 v7 v9 v11 v13 v15 i = polyA (k0_pay13 v0 v1 v2 v3 v4 v5 v7 v9 v11 v13 v15 i) := rfl

theorem pay17_at : k0_pay17 v0 v1 v2 v3 v4 v5 v7 v9 v11 v13 v15 i = Ideal.log (k0_pay13 v0 v1 v2 v3 v4 v5 v7 v9 v11 v13 v15 i) := rfl

/-- The layer's transmission factor from the absorption and the four arrays staged before it. -/
theorem pay18_at : k0_pay18 v50 v56 v57 v73 v74 c i = v56 i + v57 i * Scalar.select (Ideal.cmp .ole (v50 i) c1) ((c - v74 i) + v73 i)
    (Ideal.div (Ideal.exp (c0 - v50 i)) (v50 i) * Ideal.div (polyN (v50 i)) (polyD (v50 i))) := rfl

theorem pay19_at : k0_pay19 v27 v50 v56 v57 v73 v74 c (ix2 p q) =
    c1 - v27 (ix2 0 q) * v27 (ix2 0 q) * k0_pay18 v50 v56 v57 v73 v74 c (ix2 p q) * k0_pay18 v50 v56 v57 v73 v74 c (ix2 p q) := by
  unfold k0_pay19
  simp only [subf_apply, mulf_apply, broadcast_apply]
  rw [broadcastTo_1b_ab_apply]
  rfl

theorem pay20_at : k0_pay20 v120 c i = Ideal.div c (v120 i) := rfl

theorem pay21_at : k0_pay21 v17 v25 v114 v120 c (ix2 p q) =
    v17 (ix2 0 q) * v114 (ix2 p q) * v25 (ix2 0 q) * Ideal.div c (v120 (ix2 p q)) := by
  unfold k0_pay21
  simp only [mulf_apply]
  rw [broadcastTo_1b_ab_apply, broadcastTo_1b_ab_apply]
  rfl

theorem pay22_at : k0_pay22 v17 v19 v25 v27 v114 v120 c (ix2 p q) =
    v19 (ix2 0 q) + v27 (ix2 0 q) * v114 (ix2 p q) * k0_pay21 v17 v25 v114 v120 c (ix2 p q) := by
  unfold k0_pay22
  simp only [addf_apply, mulf_apply]
  rw [broadcastTo_1b_ab_apply, broadcastTo_1b_ab_apply]

theorem pay23_at : k0_pay23 v21 v25 v114 v120 c (ix2 p q) =
    v21 (ix2 0 q) * v114 (ix2 p q) * v25 (ix2 0 q) * Ideal.div c (v120 (ix2 p q)) := by
  unfold k0_pay23
  simp only [mulf_apply]
  rw [broadcastTo_1b_ab_apply, broadcastTo_1b_ab_apply]
  rfl

theorem pay24_at : k0_pay24 v21 v23 v25 v27 v114 v120 c (ix2 p q) =
    v23 (ix2 0 q) + v27 (ix2 0 q) * v114 (ix2 p q) * k0_pay23 v21 v25 v114 v120 c (ix2 p q) := by
  unfold k0_pay24
  simp only [addf_apply, mulf_apply]
  rw [broadcastTo_1b_ab_apply, broadcastTo_1b_ab_apply]

/-- The thick-layer mask, the square root, the quotient a and one minus the difference of squares, from r and t. -/
theorem pay26_at : k0_pay26 v21 v23 v25 v27 v114 v120 c i =
    mask (k0_pay24 v21 v23 v25 v27 v114 v120 c i) (k0_pay23 v21 v25 v114 v120 c i) := rfl

theorem pay27_at : k0_pay27 v21 v23 v25 v27 v114 v120 c i =
    DD (k0_pay24 v21 v23 v25 v27 v114 v120 c i) (k0_pay23 v21 v25 v114 v120 c i) := rfl

theorem pay29_at : k0_pay29 v21 v23 v25 v27 v114 v120 c i =
    aa (k0_pay24 v21 v23 v25 v27 v114 v120 c i) (k0_pay23 v21 v25 v114 v120 c i) := rfl

theorem pay30_at : k0_pay30 v21 v23 v25 v27 v114 v120 c i =
    c1 - rq (k0_pay24 v21 v23 v25 v27 v114 v120 c i) (k0_pay23 v21 v25 v114 v120 c i) := rfl

/-- The power, written as an exponential of a logarithm. -/
theorem pay31_at : k0_pay31 v0 v137 v146 v160 v171 (ix2 p q) =
    Ideal.exp ((v0 (ix2 p 0) - c1) * Ideal.log (Scalar.select (v146 (ix2 p q)) c1
      (Ideal.div (v171 (ix2 p q) + v160 (ix2 p q)) (c2 * v137 (ix2 p q))))) := by
  unfold k0_pay31
  simp only [exp_apply, mulf_apply]
  rw [broadcastTo_a1_ab_apply]
  rfl

theorem pay32_at : k0_pay32 v0 v137 v146 v160 v171 i = k0_pay31 v0 v137 v146 v160 v171 i * k0_pay31 v0 v137 v146 v160 v171 i := rfl

theorem pay33_at : k0_pay33 v169 i = v169 i * v169 i := rfl

theorem pay34_at : k0_pay34 v0 v137 v146 v160 v169 v171 i =
    Ideal.div c1 (den2 (v169 i) (k0_pay31 v0 v137 v146 v160 v171 i)) := rfl

theorem pay35_at : k0_pay35 v0 v137 (ix2 p q) = Talt (v137 (ix2 p q)) (v0 (ix2 p 0)) := by
  unfold k0_pay35
  simp only [divf_apply, addf_apply, mulf_apply, subf_apply, broadcast_apply]
  rw [broadcastTo_a1_ab_apply]
  rfl

theorem pay36_at : k0_pay36 v0 v137 v146 v160 v169 v171 i =
    Scalar.select (v146 i) (c1 - k0_pay35 v0 v137 i)
      (qK (v169 i * (k0_pay31 v0 v137 v146 v160 v171 i * k0_pay31 v0 v137 v146 v160 v171 i - c1))
        (den2 (v169 i) (k0_pay31 v0 v137 v146 v160 v171 i))) := rfl

theorem pay37_at : k0_pay37 v0 v137 v142 v146 v160 v169 v171 i =
    Ideal.div c1 (den3 (k0_pay36 v0 v137 v146 v160 v169 v171 i) (v142 i)) := rfl

theorem pay38_at : k0_pay38 v0 v127 v137 v142 v146 v160 v169 v171 i =
    qK (v127 i * Scalar.select (v146 i) (k0_pay35 v0 v137 i)
        (qK (k0_pay31 v0 v137 v146 v160 v171 i * (v169 i * v169 i - c1)) (den2 (v169 i) (k0_pay31 v0 v137 v146 v160 v171 i))))
      (den3 (k0_pay36 v0 v137 v146 v160 v169 v171 i) (v142 i)) := rfl

theorem pay39_at : k0_pay39 v0 v127 v137 v146 v160 v169 v171 i = v127 i * k0_pay36 v0 v137 v146 v160 v169 v171 i * v137 i := rfl

theorem pay1_at : k0_pay1 v132 v215 v219 i = v132 i + v219 i * v215 i := rfl

end Payloads

/-! ## The cell's scalars and stages at an index of the block -/

/-- The kernel's cell function, with its stages named. -/
def sTau (X : In) : EReal := tau (kall X)
def sDen (X : In) : EReal := denom X.r21 (sTau X)
def sTa (X : In) : EReal := qK (X.talf * sTau X * X.t21) (sDen X)
def sT (X : In) : EReal := qK (X.t12 * sTau X * X.t21) (sDen X)
def sR (X : In) : EReal := rr X.r12 X.r21 (sTau X) (sT X)
def sBn (X : In) : EReal := Ideal.exp ((X.N - c1) * Ideal.log (bsafe (sR X) (sT X)))
def sRs (X : In) : EReal :=
  Scalar.select (mask (sR X) (sT X)) (c1 - Talt (sT X) X.N)
    (qK (aa (sR X) (sT X) * (sBn X * sBn X - c1)) (den2 (aa (sR X) (sT X)) (sBn X)))
def sTs (X : In) : EReal :=
  Scalar.select (mask (sR X) (sT X)) (Talt (sT X) X.N)
    (qK (sBn X * (aa (sR X) (sT X) * aa (sR X) (sT X) - c1)) (den2 (aa (sR X) (sT X)) (sBn X)))

theorem cellK_fst (X : In) : (cellK X).1 =
    Ra X.ralf X.r21 (sTau X) (sTa X) + qK (sTa X * sRs X * sT X) (den3 (sRs X) (sR X)) := rfl
theorem cellK_snd (X : In) : (cellK X).2 = qK (sTa X * sTs X) (den3 (sRs X) (sR X)) := rfl

section Stages

variable (x0 x1 x2 x3 x4 x5 : Vec Ideal S256x1 .f32) (x6 x7 x8 x9 x10 x11 x12 x13 x14 x15 x16 : Vec Ideal S1x2101 .f32)
variable (p : Fin 256) (q : Fin 2101)

/-- The seventeen scalars of cell (p, q) of the block: the six trait columns at row p, the eleven rows at column q. -/
abbrev inAt : In :=
  { N := x0 (ix2 p 0), cab := x1 (ix2 p 0), car := x2 (ix2 p 0), water := x3 (ix2 p 0), lma := x4 (ix2 p 0), cant := x5 (ix2 p 0),
    kab := x6 (ix2 0 q), kcar := x7 (ix2 0 q), kant := x8 (ix2 0 q), kw := x9 (ix2 0 q), km := x10 (ix2 0 q),
    talf := x11 (ix2 0 q), ralf := x12 (ix2 0 q), t12 := x13 (ix2 0 q), r12 := x14 (ix2 0 q), t21 := x15 (ix2 0 q), r21 := x16 (ix2 0 q) }

/-- The body's named arrays, each from the ones before it (the body's operations form a directed graph, not a tree). -/
def aK : FVec Ideal S256x2101 .f32 := k0_pay13 x0 x1 x2 x3 x4 x5 (k0_pay2 x6) (k0_pay3 x7) (k0_pay4 x8) (k0_pay5 x9) (k0_pay6 x10)
def a56 : FVec Ideal S256x2101 .f32 := k0_pay14 x0 x1 x2 x3 x4 x5 (k0_pay2 x6) (k0_pay3 x7) (k0_pay4 x8) (k0_pay5 x9) (k0_pay6 x10)
def a57 : FVec Ideal S256x2101 .f32 := k0_pay15 x0 x1 x2 x3 x4 x5 (k0_pay2 x6) (k0_pay3 x7) (k0_pay4 x8) (k0_pay5 x9) (k0_pay6 x10)
def a73 : FVec Ideal S256x2101 .f32 := k0_pay16 x0 x1 x2 x3 x4 x5 (k0_pay2 x6) (k0_pay3 x7) (k0_pay4 x8) (k0_pay5 x9) (k0_pay6 x10)
def a74 : FVec Ideal S256x2101 .f32 := k0_pay17 x0 x1 x2 x3 x4 x5 (k0_pay2 x6) (k0_pay3 x7) (k0_pay4 x8) (k0_pay5 x9) (k0_pay6 x10)
def aTau : FVec Ideal S256x2101 .f32 := k0_pay18 (aK x0 x1 x2 x3 x4 x5 x6 x7 x8 x9 x10) (a56 x0 x1 x2 x3 x4 x5 x6 x7 x8 x9 x10) (a57 x0 x1 x2 x3 x4 x5 x6 x7 x8 x9 x10) (a73 x0 x1 x2 x3 x4 x5 x6 x7 x8 x9 x10) (a74 x0 x1 x2 x3 x4 x5 x6 x7 x8 x9 x10) (Scalar.ofBits .f32 0x00000000#32)
def aDen : FVec Ideal S256x2101 .f32 := k0_pay19 (k0_pay12 x16) (aK x0 x1 x2 x3 x4 x5 x6 x7 x8 x9 x10) (a56 x0 x1 x2 x3 x4 x5 x6 x7 x8 x9 x10) (a57 x0 x1 x2 x3 x4 x5 x6 x7 x8 x9 x10) (a73 x0 x1 x2 x3 x4 x5 x6 x7 x8 x9 x10) (a74 x0 x1 x2 x3 x4 x5 x6 x7 x8 x9 x10) (Scalar.ofBits .f32 0x00000000#32)
def aTa : FVec Ideal S256x2101 .f32 := k0_pay21 (k0_pay7 x11) (k0_pay11 x15) (aTau x0 x1 x2 x3 x4 x5 x6 x7 x8 x9 x10) (aDen x0 x1 x2 x3 x4 x5 x6 x7 x8 x9 x10 x16) (Scalar.ofBits .f32 0x3F800000#32)
def aRa : FVec Ideal S256x2101 .f32 := k0_pay22 (k0_pay7 x11) (k0_pay8 x12) (k0_pay11 x15) (k0_pay12 x16) (aTau x0 x1 x2 x3 x4 x5 x6 x7 x8 x9 x10) (aDen x0 x1 x2 x3 x4 x5 x6 x7 x8 x9 x10 x16) (Scalar.ofBits .f32 0x3F800000#32)
def aT : FVec Ideal S256x2101 .f32 := k0_pay23 (k0_pay9 x13) (k0_pay11 x15) (aTau x0 x1 x2 x3 x4 x5 x6 x7 x8 x9 x10) (aDen x0 x1 x2 x3 x4 x5 x6 x7 x8 x9 x10 x16) (Scalar.ofBits .f32 0x3F800000#32)
def aR : FVec Ideal S256x2101 .f32 := k0_pay24 (k0_pay9 x13) (k0_pay10 x14) (k0_pay11 x15) (k0_pay12 x16) (aTau x0 x1 x2 x3 x4 x5 x6 x7 x8 x9 x10) (aDen x0 x1 x2 x3 x4 x5 x6 x7 x8 x9 x10 x16) (Scalar.ofBits .f32 0x3F800000#32)
def aM : IVec S256x2101 1 := k0_pay26 (k0_pay9 x13) (k0_pay10 x14) (k0_pay11 x15) (k0_pay12 x16) (aTau x0 x1 x2 x3 x4 x5 x6 x7 x8 x9 x10) (aDen x0 x1 x2 x3 x4 x5 x6 x7 x8 x9 x10 x16) (Scalar.ofBits .f32 0x3F800000#32)
def aDD : FVec Ideal S256x2101 .f32 := k0_pay27 (k0_pay9 x13) (k0_pay10 x14) (k0_pay11 x15) (k0_pay12 x16) (aTau x0 x1 x2 x3 x4 x5 x6 x7 x8 x9 x10) (aDen x0 x1 x2 x3 x4 x5 x6 x7 x8 x9 x10 x16) (Scalar.ofBits .f32 0x3F800000#32)
def aA : FVec Ideal S256x2101 .f32 := k0_pay29 (k0_pay9 x13) (k0_pay10 x14) (k0_pay11 x15) (k0_pay12 x16) (aTau x0 x1 x2 x3 x4 x5 x6 x7 x8 x9 x10) (aDen x0 x1 x2 x3 x4 x5 x6 x7 x8 x9 x10 x16) (Scalar.ofBits .f32 0x3F800000#32)
def aE : FVec Ideal S256x2101 .f32 := k0_pay30 (k0_pay9 x13) (k0_pay10 x14) (k0_pay11 x15) (k0_pay12 x16) (aTau x0 x1 x2 x3 x4 x5 x6 x7 x8 x9 x10) (aDen x0 x1 x2 x3 x4 x5 x6 x7 x8 x9 x10 x16) (Scalar.ofBits .f32 0x3F800000#32)
/-- The two stored blocks. -/
def bodyRefl (x0 x1 x2 x3 x4 x5 : Vec Ideal S256x1 .f32) (x6 x7 x8 x9 x10 x11 x12 x13 x14 x15 x16 : Vec Ideal S1x2101 .f32) : FVec Ideal S256x2101 .f32 :=
  k0_pay1 (aRa x0 x1 x2 x3 x4 x5 x6 x7 x8 x9 x10 x11 x12 x15 x16) (k0_pay37 x0 (aT x0 x1 x2 x3 x4 x5 x6 x7 x8 x9 x10 x13 x15 x16) (aR x0 x1 x2 x3 x4 x5 x6 x7 x8 x9 x10 x13 x14 x15 x16) (aM x0 x1 x2 x3 x4 x5 x6 x7 x8 x9 x10 x13 x14 x15 x16) (aDD x0 x1 x2 x3 x4 x5 x6 x7 x8 x9 x10 x13 x14 x15 x16) (aA x0 x1 x2 x3 x4 x5 x6 x7 x8 x9 x10 x13 x14 x15 x16) (aE x0 x1 x2 x3 x4 x5 x6 x7 x8 x9 x10 x13 x14 x15 x16))
    (k0_pay39 x0 (aTa x0 x1 x2 x3 x4 x5 x6 x7 x8 x9 x10 x11 x15 x16) (aT x0 x1 x2 x3 x4 x5 x6 x7 x8 x9 x10 x13 x15 x16) (aM x0 x1 x2 x3 x4 x5 x6 x7 x8 x9 x10 x13 x14 x15 x16) (aDD x0 x1 x2 x3 x4 x5 x6 x7 x8 x9 x10 x13 x14 x15 x16) (aA x0 x1 x2 x3 x4 x5 x6 x7 x8 x9 x10 x13 x14 x15 x16) (aE x0 x1 x2 x3 x4 x5 x6 x7 x8 x9 x10 x13 x14 x15 x16))
def bodyTran (x0 x1 x2 x3 x4 x5 : Vec Ideal S256x1 .f32) (x6 x7 x8 x9 x10 x11 x12 x13 x14 x15 x16 : Vec Ideal S1x2101 .f32) : FVec Ideal S256x2101 .f32 :=
  k0_pay38 x0 (aTa x0 x1 x2 x3 x4 x5 x6 x7 x8 x9 x10 x11 x15 x16) (aT x0 x1 x2 x3 x4 x5 x6 x7 x8 x9 x10 x13 x15 x16) (aR x0 x1 x2 x3 x4 x5 x6 x7 x8 x9 x10 x13 x14 x15 x16) (aM x0 x1 x2 x3 x4 x5 x6 x7 x8 x9 x10 x13 x14 x15 x16) (aDD x0 x1 x2 x3 x4 x5 x6 x7 x8 x9 x10 x13 x14 x15 x16) (aA x0 x1 x2 x3 x4 x5 x6 x7 x8 x9 x10 x13 x14 x15 x16) (aE x0 x1 x2 x3 x4 x5 x6 x7 x8 x9 x10 x13 x14 x15 x16)

theorem aK_at : (aK x0 x1 x2 x3 x4 x5 x6 x7 x8 x9 x10) (ix2 p q) = kall (inAt x0 x1 x2 x3 x4 x5 x6 x7 x8 x9 x10 x11 x12 x13 x14 x15 x16 p q) := by
  unfold aK
  rw [pay13_at, pay2_eq, pay3_eq, pay4_eq, pay5_eq, pay6_eq]
  rfl

theorem aTau_at : (aTau x0 x1 x2 x3 x4 x5 x6 x7 x8 x9 x10) (ix2 p q) = sTau (inAt x0 x1 x2 x3 x4 x5 x6 x7 x8 x9 x10 x11 x12 x13 x14 x15 x16 p q) := by
  unfold aTau a56 a57 a73 a74
  rw [pay18_at, pay14_at, pay15_at, pay16_at, pay17_at]
  show (c1 - (aK x0 x1 x2 x3 x4 x5 x6 x7 x8 x9 x10) (ix2 p q)) * Ideal.exp (c0 - (aK x0 x1 x2 x3 x4 x5 x6 x7 x8 x9 x10) (ix2 p q)) + (aK x0 x1 x2 x3 x4 x5 x6 x7 x8 x9 x10) (ix2 p q) * (aK x0 x1 x2 x3 x4 x5 x6 x7 x8 x9 x10) (ix2 p q) *
    Scalar.select (Ideal.cmp .ole ((aK x0 x1 x2 x3 x4 x5 x6 x7 x8 x9 x10) (ix2 p q)) c1) ((c0 - Ideal.log ((aK x0 x1 x2 x3 x4 x5 x6 x7 x8 x9 x10) (ix2 p q))) + polyA ((aK x0 x1 x2 x3 x4 x5 x6 x7 x8 x9 x10) (ix2 p q)))
      (Ideal.div (Ideal.exp (c0 - (aK x0 x1 x2 x3 x4 x5 x6 x7 x8 x9 x10) (ix2 p q))) ((aK x0 x1 x2 x3 x4 x5 x6 x7 x8 x9 x10) (ix2 p q)) * Ideal.div (polyN ((aK x0 x1 x2 x3 x4 x5 x6 x7 x8 x9 x10) (ix2 p q))) (polyD ((aK x0 x1 x2 x3 x4 x5 x6 x7 x8 x9 x10) (ix2 p q)))) = _
  rw [aK_at, c0_sub, c0_sub]
  rfl

theorem aDen_at : (aDen x0 x1 x2 x3 x4 x5 x6 x7 x8 x9 x10 x16) (ix2 p q) = sDen (inAt x0 x1 x2 x3 x4 x5 x6 x7 x8 x9 x10 x11 x12 x13 x14 x15 x16 p q) := by
  unfold aDen
  rw [pay19_at, pay12_eq]
  show c1 - x16 (ix2 0 q) * x16 (ix2 0 q) * (aTau x0 x1 x2 x3 x4 x5 x6 x7 x8 x9 x10) (ix2 p q) * (aTau x0 x1 x2 x3 x4 x5 x6 x7 x8 x9 x10) (ix2 p q) = _
  rw [aTau_at]
  rfl

theorem aTa_at : (aTa x0 x1 x2 x3 x4 x5 x6 x7 x8 x9 x10 x11 x15 x16) (ix2 p q) = sTa (inAt x0 x1 x2 x3 x4 x5 x6 x7 x8 x9 x10 x11 x12 x13 x14 x15 x16 p q) := by
  unfold aTa
  rw [pay21_at, pay7_eq, pay11_eq, aTau_at, aDen_at]
  rfl

theorem aRa_at : (aRa x0 x1 x2 x3 x4 x5 x6 x7 x8 x9 x10 x11 x12 x15 x16) (ix2 p q) = Ra (inAt x0 x1 x2 x3 x4 x5 x6 x7 x8 x9 x10 x11 x12 x13 x14 x15 x16 p q).ralf (inAt x0 x1 x2 x3 x4 x5 x6 x7 x8 x9 x10 x11 x12 x13 x14 x15 x16 p q).r21 (sTau (inAt x0 x1 x2 x3 x4 x5 x6 x7 x8 x9 x10 x11 x12 x13 x14 x15 x16 p q)) (sTa (inAt x0 x1 x2 x3 x4 x5 x6 x7 x8 x9 x10 x11 x12 x13 x14 x15 x16 p q)) := by
  unfold aRa
  rw [pay22_at, pay21_at, pay7_eq, pay8_eq, pay11_eq, pay12_eq, aTau_at, aDen_at]
  rfl

theorem aT_at : (aT x0 x1 x2 x3 x4 x5 x6 x7 x8 x9 x10 x13 x15 x16) (ix2 p q) = sT (inAt x0 x1 x2 x3 x4 x5 x6 x7 x8 x9 x10 x11 x12 x13 x14 x15 x16 p q) := by
  unfold aT
  rw [pay23_at, pay9_eq, pay11_eq, aTau_at, aDen_at]
  rfl

theorem aR_at : (aR x0 x1 x2 x3 x4 x5 x6 x7 x8 x9 x10 x13 x14 x15 x16) (ix2 p q) = sR (inAt x0 x1 x2 x3 x4 x5 x6 x7 x8 x9 x10 x11 x12 x13 x14 x15 x16 p q) := by
  unfold aR
  rw [pay24_at, pay23_at, pay9_eq, pay10_eq, pay11_eq, pay12_eq, aTau_at, aDen_at]
  rfl

theorem aM_at : (aM x0 x1 x2 x3 x4 x5 x6 x7 x8 x9 x10 x13 x14 x15 x16) (ix2 p q) = mask (sR (inAt x0 x1 x2 x3 x4 x5 x6 x7 x8 x9 x10 x11 x12 x13 x14 x15 x16 p q)) (sT (inAt x0 x1 x2 x3 x4 x5 x6 x7 x8 x9 x10 x11 x12 x13 x14 x15 x16 p q)) := by
  rw [← aR_at, ← aT_at]; rfl

theorem aDD_at : (aDD x0 x1 x2 x3 x4 x5 x6 x7 x8 x9 x10 x13 x14 x15 x16) (ix2 p q) = DD (sR (inAt x0 x1 x2 x3 x4 x5 x6 x7 x8 x9 x10 x11 x12 x13 x14 x15 x16 p q)) (sT (inAt x0 x1 x2 x3 x4 x5 x6 x7 x8 x9 x10 x11 x12 x13 x14 x15 x16 p q)) := by
  rw [← aR_at, ← aT_at]; rfl

theorem aA_at : (aA x0 x1 x2 x3 x4 x5 x6 x7 x8 x9 x10 x13 x14 x15 x16) (ix2 p q) = aa (sR (inAt x0 x1 x2 x3 x4 x5 x6 x7 x8 x9 x10 x11 x12 x13 x14 x15 x16 p q)) (sT (inAt x0 x1 x2 x3 x4 x5 x6 x7 x8 x9 x10 x11 x12 x13 x14 x15 x16 p q)) := by
  rw [← aR_at, ← aT_at]; rfl

theorem aE_at : (aE x0 x1 x2 x3 x4 x5 x6 x7 x8 x9 x10 x13 x14 x15 x16) (ix2 p q) = c1 - rq (sR (inAt x0 x1 x2 x3 x4 x5 x6 x7 x8 x9 x10 x11 x12 x13 x14 x15 x16 p q)) (sT (inAt x0 x1 x2 x3 x4 x5 x6 x7 x8 x9 x10 x11 x12 x13 x14 x15 x16 p q)) := by
  rw [← aR_at, ← aT_at]; rfl

end Stages

/-! ## The two stored blocks at an index -/

section Stored

variable (x0 x1 x2 x3 x4 x5 : Vec Ideal S256x1 .f32) (x6 x7 x8 x9 x10 x11 x12 x13 x14 x15 x16 : Vec Ideal S1x2101 .f32)
variable (p : Fin 256) (q : Fin 2101)

/-- Entry (p, q) of the block stored for the reflectance is the first component of the kernel's cell function. -/
theorem bodyRefl_at : bodyRefl x0 x1 x2 x3 x4 x5 x6 x7 x8 x9 x10 x11 x12 x13 x14 x15 x16 (ix2 p q) = (cellK (inAt x0 x1 x2 x3 x4 x5 x6 x7 x8 x9 x10 x11 x12 x13 x14 x15 x16 p q)).1 := by
  rw [cellK_fst]
  unfold bodyRefl
  rw [pay1_at, pay39_at, pay37_at, pay36_at, pay35_at, pay31_at, aRa_at, aTa_at, aT_at, aR_at, aM_at, aDD_at, aA_at, aE_at]
  rfl

/-- Entry (p, q) of the block stored for the transmittance is its second component. -/
theorem bodyTran_at : bodyTran x0 x1 x2 x3 x4 x5 x6 x7 x8 x9 x10 x11 x12 x13 x14 x15 x16 (ix2 p q) = (cellK (inAt x0 x1 x2 x3 x4 x5 x6 x7 x8 x9 x10 x11 x12 x13 x14 x15 x16 p q)).2 := by
  rw [cellK_snd]
  unfold bodyTran
  rw [pay38_at, pay36_at, pay35_at, pay31_at, aTa_at, aT_at, aR_at, aM_at, aDD_at, aA_at, aE_at]
  rfl

end Stored

end Cert.KerBody
-- ==== Proof.KerOut.lean ====
/-
  What the body leaves in each output window's buffer, from the seventeen input blocks: the buffer for the reflectance
  holds the block whose entry (p, q) is the first component of the kernel's cell function at the blocks' entries at
  leaf p and wavelength q, the buffer for the transmittance the block of its second components.
-/
import proofs.«406795_j81097572483403_3_alg».proof.Proof.KerBody
import proofs.«406795_j81097572483403_3_alg».proof.Proof.Gen.KernelIdeal.Frame

noncomputable section

namespace Cert.KerOut

open Idealize.ShloMosaic Idealize.ShloMosaic.ValueIdx Cert.KernelIdeal Cert.KernelIdeal.Gen Cert.Cell Cert.KerBody

variable (x0 x1 x2 x3 x4 x5 : Vec Ideal S256x1 .f32) (x6 x7 x8 x9 x10 x11 x12 x13 x14 x15 x16 : Vec Ideal S1x2101 .f32)

/-- The zero offsets of a whole-block access. -/
theorem hz : (![0, 0] : Fin 2 → Nat) = fun _ => 0 := funext fun a => by fin_cases a <;> rfl

/-- The one store into the reflectance window covers its buffer: the buffer holds the stored block. -/
theorem out17_eq : out0_17 x0 x1 x2 x3 x4 x5 x6 x7 x8 x9 x10 x11 x12 x13 x14 x15 x16 = bodyRefl x0 x1 x2 x3 x4 x5 x6 x7 x8 x9 x10 x11 x12 x13 x14 x15 x16 := by
  unfold out0_17
  rw [View.canon_unit_zero hz]
  simp only [View.ld_unit_zero (S := S256x1) hz, View.ld_unit_zero (S := S1x2101) hz]
  rfl

/-- The same for the transmittance window. -/
theorem out18_eq : out0_18 x0 x1 x2 x3 x4 x5 x6 x7 x8 x9 x10 x11 x12 x13 x14 x15 x16 = bodyTran x0 x1 x2 x3 x4 x5 x6 x7 x8 x9 x10 x11 x12 x13 x14 x15 x16 := by
  unfold out0_18
  rw [View.canon_unit_zero hz]
  simp only [View.ld_unit_zero (S := S256x1) hz, View.ld_unit_zero (S := S1x2101) hz]
  rfl

/-- Entry (p, q) of the reflectance window's buffer after the body. -/
theorem out17_at (p : Fin 256) (q : Fin 2101) :
    out0_17 x0 x1 x2 x3 x4 x5 x6 x7 x8 x9 x10 x11 x12 x13 x14 x15 x16 (ix2 p q) = (cellK (inAt x0 x1 x2 x3 x4 x5 x6 x7 x8 x9 x10 x11 x12 x13 x14 x15 x16 p q)).1 := by
  rw [out17_eq, bodyRefl_at]

/-- Entry (p, q) of the transmittance window's buffer after the body. -/
theorem out18_at (p : Fin 256) (q : Fin 2101) :
    out0_18 x0 x1 x2 x3 x4 x5 x6 x7 x8 x9 x10 x11 x12 x13 x14 x15 x16 (ix2 p q) = (cellK (inAt x0 x1 x2 x3 x4 x5 x6 x7 x8 x9 x10 x11 x12 x13 x14 x15 x16 p q)).2 := by
  rw [out18_eq, bodyTran_at]

end Cert.KerOut
-- ==== Proof.KerCover.lean ====
/-
  Every index of the two [8192, 2101] result arrays lies in the block some grid point writes back: row r belongs to
  point r / 256, whose block is rows 256 (r / 256) to 256 (r / 256) + 255 and all 2101 columns.
-/
import proofs.«406795_j81097572483403_3_alg».proof.Proof.Gen.KernelIdeal.Value
import Idealize.ShloMosaic.Lib.Pipeline.Value

noncomputable section

namespace Cert.KerCover

open Cert.KernelIdeal Cert.KernelIdeal.Gen Idealize.ShloMosaic Idealize.SL.Sem Idealize.ShloMosaic.TcCoe

/-- The two output windows' block indices at point t: (t, 0). -/
theorem idx17 : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)

theorem idx18 : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)

/-- An index of the array is in point t's block iff each coordinate is in the block's range on its axis. -/
theorem mem_blk17 (t : Fin cfg0.N) (i : S8192x2101.Idx) :
    i ∈ ((cfg0.win 17).blk t).view.set ↔ ∀ a : Fin 2, win0_17.index t a * S256x2101.size a ≤ (i a).val
      ∧ (i a).val < win0_17.index t a * S256x2101.size a + S256x2101.size a := by
  show i ∈ ((View.whole main_v247_0).slice (win0_17.rect t)).set ↔ _
  rw [View.set_slice_whole, Rect.mem_set_unit]
  exact Iff.rfl

theorem mem_blk18 (t : Fin cfg0.N) (i : S8192x2101.Idx) :
    i ∈ ((cfg0.win 18).blk t).view.set ↔ ∀ a : Fin 2, win0_18.index t a * S256x2101.size a ≤ (i a).val
      ∧ (i a).val < win0_18.index t a * S256x2101.size a + S256x2101.size a := by
  show i ∈ ((View.whole main_v247_1).slice (win0_18.rect t)).set ↔ _
  rw [View.set_slice_whole, Rect.mem_set_unit]
  exact Iff.rfl

/-- The reflectance array is covered. -/
theorem cover17 : ∀ i : S8192x2101.Idx, ∃ t : Fin cfg0.N, (cfg0.win 17).flush t = true ∧ i ∈ ((cfg0.win 17).blk t).view.set := by
  intro i
  have hi0 : (i 0).val < 8192 := (i 0).isLt
  have hi1 : (i 1).val < 2101 := (i 1).isLt
  have ht : (i 0).val / 256 < cfg0.N := by rw [show cfg0.N = 32 from N_0]; omega
  obtain ⟨e0, e1⟩ := idx17 ⟨(i 0).val / 256, ht⟩
  have e0' : win0_17.index ⟨(i 0).val / 256, ht⟩ (0 : Fin 2) = (i 0).val / 256 := e0
  refine ⟨⟨(i 0).val / 256, ht⟩, flush0_17 _, ?_⟩
  rw [mem_blk17]
  intro a
  match a with
  | ⟨0, _⟩ =>
    show win0_17.index ⟨(i 0).val / 256, ht⟩ (0 : Fin 2) * 256 ≤ (i 0).val
      ∧ (i 0).val < win0_17.index ⟨(i 0).val / 256, ht⟩ (0 : Fin 2) * 256 + 256
    rw [e0']; omega
  | ⟨1, _⟩ =>
    show win0_17.index ⟨(i 0).val / 256, ht⟩ (1 : Fin 2) * 2101 ≤ (i 1).val
      ∧ (i 1).val < win0_17.index ⟨(i 0).val / 256, ht⟩ (1 : Fin 2) * 2101 + 2101
    rw [e1]; omega

/-- The transmittance array is covered. -/
theorem cover18 : ∀ i : S8192x2101.Idx, ∃ t : Fin cfg0.N, (cfg0.win 18).flush t = true ∧ i ∈ ((cfg0.win 18).blk t).view.set := by
  intro i
  have hi0 : (i 0).val < 8192 := (i 0).isLt
  have hi1 : (i 1).val < 2101 := (i 1).isLt
  have ht : (i 0).val / 256 < cfg0.N := by rw [show cfg0.N = 32 from N_0]; omega
  obtain ⟨e0, e1⟩ := idx18 ⟨(i 0).val / 256, ht⟩
  have e0' : win0_18.index ⟨(i 0).val / 256, ht⟩ (0 : Fin 2) = (i 0).val / 256 := e0
  refine ⟨⟨(i 0).val / 256, ht⟩, flush0_18 _, ?_⟩
  rw [mem_blk18]
  intro a
  match a with
  | ⟨0, _⟩ =>
    show win0_18.index ⟨(i 0).val / 256, ht⟩ (0 : Fin 2) * 256 ≤ (i 0).val
      ∧ (i 0).val < win0_18.index ⟨(i 0).val / 256, ht⟩ (0 : Fin 2) * 256 + 256
    rw [e0']; omega
  | ⟨1, _⟩ =>
    show win0_18.index ⟨(i 0).val / 256, ht⟩ (1 : Fin 2) * 2101 ≤ (i 1).val
      ∧ (i 1).val < win0_18.index ⟨(i 0).val / 256, ht⟩ (1 : Fin 2) * 2101 + 2101
    rw [e1]; omega

end Cert.KerCover
-- ==== Proof.KerValue.lean ====
/-
  The kernel program's two result arrays after its run, as functions of the twelve argument arrays: entry (i, j) of the
  reflectance array is the first component of the kernel's cell function at leaf i's six traits and wavelength j's
  coefficients and surface quantities, entry (i, j) of the transmittance array its second component.

  The grid has 32 points; point t stages rows 256 t … 256 t + 255 of the six trait columns, the eleven staged spectra
  whole, and writes back rows 256 t … 256 t + 255 of the two result arrays. So an entry of a staged block is an entry of
  the argument it is cut from (row 256 t + p of a trait column, wavelength q of a spectrum — the six surface spectra being
  what the host stretch before the launch computed from the refractive index), what point t writes back is block t of the
  cell function's array, and the 32 blocks cover the array.
-/
import proofs.«406795_j81097572483403_3_alg».proof.Proof.Gen.KernelIdeal.Value
import proofs.«406795_j81097572483403_3_alg».proof.Proof.KerHost
import proofs.«406795_j81097572483403_3_alg».proof.Proof.KerOut
import proofs.«406795_j81097572483403_3_alg».proof.Proof.KerCover
import proofs.«406795_j81097572483403_3_alg».proof.Proof.Spec
import Idealize.ShloMosaic.Lib.Pipeline.Value

set_option maxRecDepth 16384
set_option Elab.async false

noncomputable section

namespace Cert.KerValue

open Cert.KernelIdeal Cert.KernelIdeal.Gen Idealize.ShloMosaic Idealize.SL.Sem
open Idealize.ShloMosaic.TcCoe Idealize.ShloMosaic.ValueIdx Cert.Cell Cert.KerHost
open Idealize.ShloMosaic.Pipeline (Dat)

variable (m : (ℓ : Loc nD τ sig) → Buf (Elt Ideal) ℓ) (ρ : Dev nD → PrngReg)

/-! ## The printed index maps, decided over the grid

A trait window's and a result window's block index at point `t` is `(t, 0)`; a spectrum window's is `(0, 0)`. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx18 : ∀ t : Fin cfg0.N, win0_18.index t (0 : Fin 2) = t.val ∧ win0_18.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)

/-! ## A staged block's entry is an entry of the array it is cut from

A block's coordinate in its array is block index × block size + the coordinate inside the block. -/

/-- Row `p` of point `t`'s block of trait column 0 is row `256 t + p` of the column. -/
theorem col0_read (t : Fin cfg0.N) (p : Fin 256) (i : Fin 8192) (hi : i.val = 256 * t.val + p.val) (X : S8192x1.Idx → EReal) :
    (((cfg0.win 0).blk t).view.read (Elt Ideal) X : Vec Ideal S256x1 .f32) (ix2 p 0) = X (ix2 i 0) := by
  obtain ⟨e0, e1⟩ := idx0 t
  rw [View.read_apply]
  refine congrArg X ?_
  funext a
  apply Fin.ext
  match a with
  | ⟨0, _⟩ => show win0_0.index t (0 : Fin 2) * 256 + 1 * p.val = i.val; omega
  | ⟨1, _⟩ => show win0_0.index t (1 : Fin 2) * 1 + 1 * 0 = 0; omega

/-- The column is the argument as launched: no host operation before the launch writes it. -/
theorem iblk0_at (c : Dev nD) (t : Fin cfg0.N) (p : Fin 256) (i : Fin 8192) (hi : i.val = 256 * t.val + p.val) :
    (iblk m c 0 t : Vec Ideal S256x1 .f32) (ix2 p 0) = ((m ((c : Thread nD τ).loc main_arg0)) : S8192x1.Idx → EReal) (ix2 i 0) := by
  unfold iblk
  refine (col0_read t p i hi _).trans ?_
  exact congrFun (V_main_arg0 m c) (ix2 i 0)

/-- Row `p` of point `t`'s block of trait column 1 is row `256 t + p` of the column. -/
theorem col1_read (t : Fin cfg0.N) (p : Fin 256) (i : Fin 8192) (hi : i.val = 256 * t.val + p.val) (X : S8192x1.Idx → EReal) :
    (((cfg0.win 1).blk t).view.read (Elt Ideal) X : Vec Ideal S256x1 .f32) (ix2 p 0) = X (ix2 i 0) := by
  obtain ⟨e0, e1⟩ := idx1 t
  rw [View.read_apply]
  refine congrArg X ?_
  funext a
  apply Fin.ext
  match a with
  | ⟨0, _⟩ => show win0_1.index t (0 : Fin 2) * 256 + 1 * p.val = i.val; omega
  | ⟨1, _⟩ => show win0_1.index t (1 : Fin 2) * 1 + 1 * 0 = 0; omega

/-- The column is the argument as launched: no host operation before the launch writes it. -/
theorem iblk1_at (c : Dev nD) (t : Fin cfg0.N) (p : Fin 256) (i : Fin 8192) (hi : i.val = 256 * t.val + p.val) :
    (iblk m c 1 t : Vec Ideal S256x1 .f32) (ix2 p 0) = ((m ((c : Thread nD τ).loc main_arg1)) : S8192x1.Idx → EReal) (ix2 i 0) := by
  unfold iblk
  refine (col1_read t p i hi _).trans ?_
  exact congrFun (V_main_arg1 m c) (ix2 i 0)

/-- Row `p` of point `t`'s block of trait column 2 is row `256 t + p` of the column. -/
theorem col2_read (t : Fin cfg0.N) (p : Fin 256) (i : Fin 8192) (hi : i.val = 256 * t.val + p.val) (X : S8192x1.Idx → EReal) :
    (((cfg0.win 2).blk t).view.read (Elt Ideal) X : Vec Ideal S256x1 .f32) (ix2 p 0) = X (ix2 i 0) := by
  obtain ⟨e0, e1⟩ := idx2 t
  rw [View.read_apply]
  refine congrArg X ?_
  funext a
  apply Fin.ext
  match a with
  | ⟨0, _⟩ => show win0_2.index t (0 : Fin 2) * 256 + 1 * p.val = i.val; omega
  | ⟨1, _⟩ => show win0_2.index t (1 : Fin 2) * 1 + 1 * 0 = 0; omega

/-- The column is the argument as launched: no host operation before the launch writes it. -/
theorem iblk2_at (c : Dev nD) (t : Fin cfg0.N) (p : Fin 256) (i : Fin 8192) (hi : i.val = 256 * t.val + p.val) :
    (iblk m c 2 t : Vec Ideal S256x1 .f32) (ix2 p 0) = ((m ((c : Thread nD τ).loc main_arg2)) : S8192x1.Idx → EReal) (ix2 i 0) := by
  unfold iblk
  refine (col2_read t p i hi _).trans ?_
  exact congrFun (V_main_arg2 m c) (ix2 i 0)

/-- Row `p` of point `t`'s block of trait column 3 is row `256 t + p` of the column. -/
theorem col3_read (t : Fin cfg0.N) (p : Fin 256) (i : Fin 8192) (hi : i.val = 256 * t.val + p.val) (X : S8192x1.Idx → EReal) :
    (((cfg0.win 3).blk t).view.read (Elt Ideal) X : Vec Ideal S256x1 .f32) (ix2 p 0) = X (ix2 i 0) := by
  obtain ⟨e0, e1⟩ := idx3 t
  rw [View.read_apply]
  refine congrArg X ?_
  funext a
  apply Fin.ext
  match a with
  | ⟨0, _⟩ => show win0_3.index t (0 : Fin 2) * 256 + 1 * p.val = i.val; omega
  | ⟨1, _⟩ => show win0_3.index t (1 : Fin 2) * 1 + 1 * 0 = 0; omega

/-- The column is the argument as launched: no host operation before the launch writes it. -/
theorem iblk3_at (c : Dev nD) (t : Fin cfg0.N) (p : Fin 256) (i : Fin 8192) (hi : i.val = 256 * t.val + p.val) :
    (iblk m c 3 t : Vec Ideal S256x1 .f32) (ix2 p 0) = ((m ((c : Thread nD τ).loc main_arg3)) : S8192x1.Idx → EReal) (ix2 i 0) := by
  unfold iblk
  refine (col3_read t p i hi _).trans ?_
  exact congrFun (V_main_arg3 m c) (ix2 i 0)

/-- Row `p` of point `t`'s block of trait column 4 is row `256 t + p` of the column. -/
theorem col4_read (t : Fin cfg0.N) (p : Fin 256) (i : Fin 8192) (hi : i.val = 256 * t.val + p.val) (X : S8192x1.Idx → EReal) :
    (((cfg0.win 4).blk t).view.read (Elt Ideal) X : Vec Ideal S256x1 .f32) (ix2 p 0) = X (ix2 i 0) := by
  obtain ⟨e0, e1⟩ := idx4 t
  rw [View.read_apply]
  refine congrArg X ?_
  funext a
  apply Fin.ext
  match a with
  | ⟨0, _⟩ => show win0_4.index t (0 : Fin 2) * 256 + 1 * p.val = i.val; omega
  | ⟨1, _⟩ => show win0_4.index t (1 : Fin 2) * 1 + 1 * 0 = 0; omega

/-- The column is the argument as launched: no host operation before the launch writes it. -/
theorem iblk4_at (c : Dev nD) (t : Fin cfg0.N) (p : Fin 256) (i : Fin 8192) (hi : i.val = 256 * t.val + p.val) :
    (iblk m c 4 t : Vec Ideal S256x1 .f32) (ix2 p 0) = ((m ((c : Thread nD τ).loc main_arg4)) : S8192x1.Idx → EReal) (ix2 i 0) := by
  unfold iblk
  refine (col4_read t p i hi _).trans ?_
  exact congrFun (V_main_arg4 m c) (ix2 i 0)

/-- Row `p` of point `t`'s block of trait column 5 is row `256 t + p` of the column. -/
theorem col5_read (t : Fin cfg0.N) (p : Fin 256) (i : Fin 8192) (hi : i.val = 256 * t.val + p.val) (X : S8192x1.Idx → EReal) :
    (((cfg0.win 5).blk t).view.read (Elt Ideal) X : Vec Ideal S256x1 .f32) (ix2 p 0) = X (ix2 i 0) := by
  obtain ⟨e0, e1⟩ := idx5 t
  rw [View.read_apply]
  refine congrArg X ?_
  funext a
  apply Fin.ext
  match a with
  | ⟨0, _⟩ => show win0_5.index t (0 : Fin 2) * 256 + 1 * p.val = i.val; omega
  | ⟨1, _⟩ => show win0_5.index t (1 : Fin 2) * 1 + 1 * 0 = 0; omega

/-- The column is the argument as launched: no host operation before the launch writes it. -/
theorem iblk5_at (c : Dev nD) (t : Fin cfg0.N) (p : Fin 256) (i : Fin 8192) (hi : i.val = 256 * t.val + p.val) :
    (iblk m c 5 t : Vec Ideal S256x1 .f32) (ix2 p 0) = ((m ((c : Thread nD τ).loc main_arg5)) : S8192x1.Idx → EReal) (ix2 i 0) := by
  unfold iblk
  refine (col5_read t p i hi _).trans ?_
  exact congrFun (V_main_arg5 m c) (ix2 i 0)

/-- Entry `q` of point `t`'s block of the staged row 6 is entry `q` of the row. -/
theorem row6_read (t : Fin cfg0.N) (q : Fin 2101) (X : S1x2101.Idx → EReal) :
    (((cfg0.win 6).blk t).view.read (Elt Ideal) X : Vec Ideal S1x2101 .f32) (ix2 0 q) = X (ix2 0 q) := by
  obtain ⟨e0, e1⟩ := idx6 t
  rw [View.read_apply]
  refine congrArg X ?_
  funext a
  apply Fin.ext
  match a with
  | ⟨0, _⟩ => show win0_6.index t (0 : Fin 2) * 1 + 1 * 0 = 0; omega
  | ⟨1, _⟩ => show win0_6.index t (1 : Fin 2) * 2101 + 1 * q.val = q.val; omega

/-- It is wavelength `q` of the absorption spectrum the row was staged from. -/
theorem iblk6_at (c : Dev nD) (t : Fin cfg0.N) (q : Fin 2101) :
    (iblk m c 6 t : Vec Ideal S1x2101 .f32) (ix2 0 q) = ((m ((c : Thread nD τ).loc main_arg7)) : S2101.Idx → EReal) (ix1 q) := by
  unfold iblk
  refine (row6_read t q _).trans ?_
  exact congrFun (V_kab m c) (ix2 0 q)

/-- Entry `q` of point `t`'s block of the staged row 7 is entry `q` of the row. -/
theorem row7_read (t : Fin cfg0.N) (q : Fin 2101) (X : S1x2101.Idx → EReal) :
    (((cfg0.win 7).blk t).view.read (Elt Ideal) X : Vec Ideal S1x2101 .f32) (ix2 0 q) = X (ix2 0 q) := by
  obtain ⟨e0, e1⟩ := idx7 t
  rw [View.read_apply]
  refine congrArg X ?_
  funext a
  apply Fin.ext
  match a with
  | ⟨0, _⟩ => show win0_7.index t (0 : Fin 2) * 1 + 1 * 0 = 0; omega
  | ⟨1, _⟩ => show win0_7.index t (1 : Fin 2) * 2101 + 1 * q.val = q.val; omega

/-- It is wavelength `q` of the absorption spectrum the row was staged from. -/
theorem iblk7_at (c : Dev nD) (t : Fin cfg0.N) (q : Fin 2101) :
    (iblk m c 7 t : Vec Ideal S1x2101 .f32) (ix2 0 q) = ((m ((c : Thread nD τ).loc main_arg8)) : S2101.Idx → EReal) (ix1 q) := by
  unfold iblk
  refine (row7_read t q _).trans ?_
  exact congrFun (V_kcar m c) (ix2 0 q)

/-- Entry `q` of point `t`'s block of the staged row 8 is entry `q` of the row. -/
theorem row8_read (t : Fin cfg0.N) (q : Fin 2101) (X : S1x2101.Idx → EReal) :
    (((cfg0.win 8).blk t).view.read (Elt Ideal) X : Vec Ideal S1x2101 .f32) (ix2 0 q) = X (ix2 0 q) := by
  obtain ⟨e0, e1⟩ := idx8 t
  rw [View.read_apply]
  refine congrArg X ?_
  funext a
  apply Fin.ext
  match a with
  | ⟨0, _⟩ => show win0_8.index t (0 : Fin 2) * 1 + 1 * 0 = 0; omega
  | ⟨1, _⟩ => show win0_8.index t (1 : Fin 2) * 2101 + 1 * q.val = q.val; omega

/-- It is wavelength `q` of the absorption spectrum the row was staged from. -/
theorem iblk8_at (c : Dev nD) (t : Fin cfg0.N) (q : Fin 2101) :
    (iblk m c 8 t : Vec Ideal S1x2101 .f32) (ix2 0 q) = ((m ((c : Thread nD τ).loc main_arg9)) : S2101.Idx → EReal) (ix1 q) := by
  unfold iblk
  refine (row8_read t q _).trans ?_
  exact congrFun (V_kant m c) (ix2 0 q)

/-- Entry `q` of point `t`'s block of the staged row 9 is entry `q` of the row. -/
theorem row9_read (t : Fin cfg0.N) (q : Fin 2101) (X : S1x2101.Idx → EReal) :
    (((cfg0.win 9).blk t).view.read (Elt Ideal) X : Vec Ideal S1x2101 .f32) (ix2 0 q) = X (ix2 0 q) := by
  obtain ⟨e0, e1⟩ := idx9 t
  rw [View.read_apply]
  refine congrArg X ?_
  funext a
  apply Fin.ext
  match a with
  | ⟨0, _⟩ => show win0_9.index t (0 : Fin 2) * 1 + 1 * 0 = 0; omega
  | ⟨1, _⟩ => show win0_9.index t (1 : Fin 2) * 2101 + 1 * q.val = q.val; omega

/-- It is wavelength `q` of the absorption spectrum the row was staged from. -/
theorem iblk9_at (c : Dev nD) (t : Fin cfg0.N) (q : Fin 2101) :
    (iblk m c 9 t : Vec Ideal S1x2101 .f32) (ix2 0 q) = ((m ((c : Thread nD τ).loc main_arg10)) : S2101.Idx → EReal) (ix1 q) := by
  unfold iblk
  refine (row9_read t q _).trans ?_
  exact congrFun (V_kw m c) (ix2 0 q)

/-- Entry `q` of point `t`'s block of the staged row 10 is entry `q` of the row. -/
theorem row10_read (t : Fin cfg0.N) (q : Fin 2101) (X : S1x2101.Idx → EReal) :
    (((cfg0.win 10).blk t).view.read (Elt Ideal) X : Vec Ideal S1x2101 .f32) (ix2 0 q) = X (ix2 0 q) := by
  obtain ⟨e0, e1⟩ := idx10 t
  rw [View.read_apply]
  refine congrArg X ?_
  funext a
  apply Fin.ext
  match a with
  | ⟨0, _⟩ => show win0_10.index t (0 : Fin 2) * 1 + 1 * 0 = 0; omega
  | ⟨1, _⟩ => show win0_10.index t (1 : Fin 2) * 2101 + 1 * q.val = q.val; omega

/-- It is wavelength `q` of the absorption spectrum the row was staged from. -/
theorem iblk10_at (c : Dev nD) (t : Fin cfg0.N) (q : Fin 2101) :
    (iblk m c 10 t : Vec Ideal S1x2101 .f32) (ix2 0 q) = ((m ((c : Thread nD τ).loc main_arg11)) : S2101.Idx → EReal) (ix1 q) := by
  unfold iblk
  refine (row10_read t q _).trans ?_
  exact congrFun (V_km m c) (ix2 0 q)

/-- Entry `q` of point `t`'s block of the staged row 11 is entry `q` of the row. -/
theorem row11_read (t : Fin cfg0.N) (q : Fin 2101) (X : S1x2101.Idx → EReal) :
    (((cfg0.win 11).blk t).view.read (Elt Ideal) X : Vec Ideal S1x2101 .f32) (ix2 0 q) = X (ix2 0 q) := by
  obtain ⟨e0, e1⟩ := idx11 t
  rw [View.read_apply]
  refine congrArg X ?_
  funext a
  apply Fin.ext
  match a with
  | ⟨0, _⟩ => show win0_11.index t (0 : Fin 2) * 1 + 1 * 0 = 0; omega
  | ⟨1, _⟩ => show win0_11.index t (1 : Fin 2) * 2101 + 1 * q.val = q.val; omega

/-- It is the surface quantity of the refractive index at wavelength `q`. -/
theorem iblk11_at (c : Dev nD) (t : Fin cfg0.N) (q : Fin 2101) :
    (iblk m c 11 t : Vec Ideal S1x2101 .f32) (ix2 0 q) = gav40 (nrOf m c (ix1 q)) := by
  unfold iblk
  refine (row11_read t q _).trans ?_
  exact congrFun (V_talf m c) (ix2 0 q)

/-- Entry `q` of point `t`'s block of the staged row 12 is entry `q` of the row. -/
theorem row12_read (t : Fin cfg0.N) (q : Fin 2101) (X : S1x2101.Idx → EReal) :
    (((cfg0.win 12).blk t).view.read (Elt Ideal) X : Vec Ideal S1x2101 .f32) (ix2 0 q) = X (ix2 0 q) := by
  obtain ⟨e0, e1⟩ := idx12 t
  rw [View.read_apply]
  refine congrArg X ?_
  funext a
  apply Fin.ext
  match a with
  | ⟨0, _⟩ => show win0_12.index t (0 : Fin 2) * 1 + 1 * 0 = 0; omega
  | ⟨1, _⟩ => show win0_12.index t (1 : Fin 2) * 2101 + 1 * q.val = q.val; omega

/-- It is the surface quantity of the refractive index at wavelength `q`. -/
theorem iblk12_at (c : Dev nD) (t : Fin cfg0.N) (q : Fin 2101) :
    (iblk m c 12 t : Vec Ideal S1x2101 .f32) (ix2 0 q) = c1 - gav40 (nrOf m c (ix1 q)) := by
  unfold iblk
  refine (row12_read t q _).trans ?_
  exact congrFun (V_ralf m c) (ix2 0 q)

/-- Entry `q` of point `t`'s block of the staged row 13 is entry `q` of the row. -/
theorem row13_read (t : Fin cfg0.N) (q : Fin 2101) (X : S1x2101.Idx → EReal) :
    (((cfg0.win 13).blk t).view.read (Elt Ideal) X : Vec Ideal S1x2101 .f32) (ix2 0 q) = X (ix2 0 q) := by
  obtain ⟨e0, e1⟩ := idx13 t
  rw [View.read_apply]
  refine congrArg X ?_
  funext a
  apply Fin.ext
  match a with
  | ⟨0, _⟩ => show win0_13.index t (0 : Fin 2) * 1 + 1 * 0 = 0; omega
  | ⟨1, _⟩ => show win0_13.index t (1 : Fin 2) * 2101 + 1 * q.val = q.val; omega

/-- It is the surface quantity of the refractive index at wavelength `q`. -/
theorem iblk13_at (c : Dev nD) (t : Fin cfg0.N) (q : Fin 2101) :
    (iblk m c 13 t : Vec Ideal S1x2101 .f32) (ix2 0 q) = gav90 (nrOf m c (ix1 q)) := by
  unfold iblk
  refine (row13_read t q _).trans ?_
  exact congrFun (V_t12 m c) (ix2 0 q)

/-- Entry `q` of point `t`'s block of the staged row 14 is entry `q` of the row. -/
theorem row14_read (t : Fin cfg0.N) (q : Fin 2101) (X : S1x2101.Idx → EReal) :
    (((cfg0.win 14).blk t).view.read (Elt Ideal) X : Vec Ideal S1x2101 .f32) (ix2 0 q) = X (ix2 0 q) := by
  obtain ⟨e0, e1⟩ := idx14 t
  rw [View.read_apply]
  refine congrArg X ?_
  funext a
  apply Fin.ext
  match a with
  | ⟨0, _⟩ => show win0_14.index t (0 : Fin 2) * 1 + 1 * 0 = 0; omega
  | ⟨1, _⟩ => show win0_14.index t (1 : Fin 2) * 2101 + 1 * q.val = q.val; omega

/-- It is the surface quantity of the refractive index at wavelength `q`. -/
theorem iblk14_at (c : Dev nD) (t : Fin cfg0.N) (q : Fin 2101) :
    (iblk m c 14 t : Vec Ideal S1x2101 .f32) (ix2 0 q) = c1 - gav90 (nrOf m c (ix1 q)) := by
  unfold iblk
  refine (row14_read t q _).trans ?_
  exact congrFun (V_r12 m c) (ix2 0 q)

/-- Entry `q` of point `t`'s block of the staged row 15 is entry `q` of the row. -/
theorem row15_read (t : Fin cfg0.N) (q : Fin 2101) (X : S1x2101.Idx → EReal) :
    (((cfg0.win 15).blk t).view.read (Elt Ideal) X : Vec Ideal S1x2101 .f32) (ix2 0 q) = X (ix2 0 q) := by
  obtain ⟨e0, e1⟩ := idx15 t
  rw [View.read_apply]
  refine congrArg X ?_
  funext a
  apply Fin.ext
  match a with
  | ⟨0, _⟩ => show win0_15.index t (0 : Fin 2) * 1 + 1 * 0 = 0; omega
  | ⟨1, _⟩ => show win0_15.index t (1 : Fin 2) * 2101 + 1 * q.val = q.val; omega

/-- It is the surface quantity of the refractive index at wavelength `q`. -/
theorem iblk15_at (c : Dev nD) (t : Fin cfg0.N) (q : Fin 2101) :
    (iblk m c 15 t : Vec Ideal S1x2101 .f32) (ix2 0 q) = Ideal.div (gav90 (nrOf m c (ix1 q))) (nrOf m c (ix1 q) * nrOf m c (ix1 q)) := by
  unfold iblk
  refine (row15_read t q _).trans ?_
  exact congrFun (V_t21 m c) (ix2 0 q)

/-- Entry `q` of point `t`'s block of the staged row 16 is entry `q` of the row. -/
theorem row16_read (t : Fin cfg0.N) (q : Fin 2101) (X : S1x2101.Idx → EReal) :
    (((cfg0.win 16).blk t).view.read (Elt Ideal) X : Vec Ideal S1x2101 .f32) (ix2 0 q) = X (ix2 0 q) := by
  obtain ⟨e0, e1⟩ := idx16 t
  rw [View.read_apply]
  refine congrArg X ?_
  funext a
  apply Fin.ext
  match a with
  | ⟨0, _⟩ => show win0_16.index t (0 : Fin 2) * 1 + 1 * 0 = 0; omega
  | ⟨1, _⟩ => show win0_16.index t (1 : Fin 2) * 2101 + 1 * q.val = q.val; omega

/-- It is the surface quantity of the refractive index at wavelength `q`. -/
theorem iblk16_at (c : Dev nD) (t : Fin cfg0.N) (q : Fin 2101) :
    (iblk m c 16 t : Vec Ideal S1x2101 .f32) (ix2 0 q) = c1 - Ideal.div (gav90 (nrOf m c (ix1 q))) (nrOf m c (ix1 q) * nrOf m c (ix1 q)) := by
  unfold iblk
  refine (row16_read t q _).trans ?_
  exact congrFun (V_r21 m c) (ix2 0 q)

/-! ## The seventeen scalars of a cell, read off point `t`'s blocks, are the cell's scalars of the twelve arguments -/

theorem inAt_eq (c : Dev nD) (t : Fin cfg0.N) (p : Fin 256) (q : Fin 2101) (i : Fin 8192) (hi : i.val = 256 * t.val + p.val) :
    Cert.KerBody.inAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q
      = Cert.Spec.cellIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i q := by
  have h0 := iblk0_at m c t p i hi
  have h1 := iblk1_at m c t p i hi
  have h2 := iblk2_at m c t p i hi
  have h3 := iblk3_at m c t p i hi
  have h4 := iblk4_at m c t p i hi
  have h5 := iblk5_at m c t p i hi
  have h6 := iblk6_at m c t q
  have h7 := iblk7_at m c t q
  have h8 := iblk8_at m c t q
  have h9 := iblk9_at m c t q
  have h10 := iblk10_at m c t q
  have h11 := iblk11_at m c t q
  have h12 := iblk12_at m c t q
  have h13 := iblk13_at m c t q
  have h14 := iblk14_at m c t q
  have h15 := iblk15_at m c t q
  have h16 := iblk16_at m c t q
  unfold Cert.Spec.cellIn Cert.Cell.mkIn
  dsimp only [Cert.KerBody.inAt, Cert.Spec.atL, Cert.Spec.atW]
  rw [h0, h1, h2, h3, h4, h5, h6, h7, h8, h9, h10, h11, h12, h13, h14, h15, h16]

/-! ## What a point writes back is its block of the cell function's array -/

/-- The reflectance array as a function of the arguments, as core `c` was launched. -/
abbrev reflOf (c : Dev nD) : S8192x2101.Idx → EReal :=
  Cert.Spec.reflK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
/-- The transmittance array. -/
abbrev tranOf (c : Dev nD) : S8192x2101.Idx → EReal :=
  Cert.Spec.tranK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem flushed17_eq (c : Dev nD) (t : Fin cfg0.N) :
    (dats m 0 c).flushed 17 t = ((cfg0.win 17).blk t).view.read (Elt Ideal) (reflOf m c) := by
  rw [Cert.KernelIdeal.Value.flushed17]
  obtain ⟨e0, e1⟩ := idx17 t
  funext j
  obtain ⟨p, q, rfl⟩ : ∃ (p : Fin 256) (q : Fin 2101), j = ix2 p q := ⟨j 0, j 1, eq_ix2 j⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = reflOf m c (((cfg0.win 17).blk t).view.emb (ix2 p q))
  refine (Cert.KerOut.out17_at _ _ _ _ _ _ _ _ _ _ _ _ _ _ _ _ _ p q).trans ?_
  have hi : ((((cfg0.win 17).blk t).view.emb (ix2 p q) : S8192x2101.Idx) 0).val = 256 * t.val + p.val := by
    show win0_17.index t (0 : Fin 2) * 256 + 1 * p.val = _; omega
  have hq : (((cfg0.win 17).blk t).view.emb (ix2 p q) : S8192x2101.Idx) 1 = q :=
    Fin.ext (show win0_17.index t (1 : Fin 2) * 2101 + 1 * q.val = q.val by omega)
  rw [inAt_eq m c t p q _ hi]
  show _ = (Cert.Cell.cellK (Cert.Spec.cellIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _)).1
  rw [hq]

theorem flushed18_eq (c : Dev nD) (t : Fin cfg0.N) :
    (dats m 0 c).flushed 18 t = ((cfg0.win 18).blk t).view.read (Elt Ideal) (tranOf m c) := by
  rw [Cert.KernelIdeal.Value.flushed18]
  obtain ⟨e0, e1⟩ := idx18 t
  funext j
  obtain ⟨p, q, rfl⟩ : ∃ (p : Fin 256) (q : Fin 2101), j = ix2 p q := ⟨j 0, j 1, eq_ix2 j⟩
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = tranOf m c (((cfg0.win 18).blk t).view.emb (ix2 p q))
  refine (Cert.KerOut.out18_at _ _ _ _ _ _ _ _ _ _ _ _ _ _ _ _ _ p q).trans ?_
  have hi : ((((cfg0.win 18).blk t).view.emb (ix2 p q) : S8192x2101.Idx) 0).val = 256 * t.val + p.val := by
    show win0_18.index t (0 : Fin 2) * 256 + 1 * p.val = _; omega
  have hq : (((cfg0.win 18).blk t).view.emb (ix2 p q) : S8192x2101.Idx) 1 = q :=
    Fin.ext (show win0_18.index t (1 : Fin 2) * 2101 + 1 * q.val = q.val by omega)
  rw [inAt_eq m c t p q _ hi]
  show _ = (Cert.Cell.cellK (Cert.Spec.cellIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _)).2
  rw [hq]

/-! ## The arrays after the run -/

/-- The 32 blocks cover the reflectance array, so it ends holding the cell function's array. -/
theorem final17 (c : Dev nD) : (dats m 0 c).arrAt 17 cfg0.N = reflOf m c :=
  (dats m 0 c).arrAt_eq_of_cover 17 (reflOf m c) (fun t _ => flushed17_eq m c t) Cert.KerCover.cover17

theorem final18 (c : Dev nD) : (dats m 0 c).arrAt 18 cfg0.N = tranOf m c :=
  (dats m 0 c).arrAt_eq_of_cover 18 (tranOf m c) (fun t _ => flushed18_eq m c t) Cert.KerCover.cover18

/-! ## The run, read -/

/-- Every weakly fair execution of the kernel program terminates with the two result arrays at the kernel's cell function
    of the arguments, entry by entry, and the twelve arguments unchanged. -/
theorem ker_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v247_0) = Cert.Spec.reflK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v247_1) = Cert.Spec.tranK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (final17 m c), (h c).2.1.trans (final18 m c), (h c).2.2⟩)
    (Cert.KernelIdeal.Value.run_blocks m ρ)

end Cert.KerValue

end
-- ==== Proof.RefOps.lean ====
/- @main of the printed reference program as a table: its 553 host operations, in order, one list per printed window
   (ops0 … ops9 for main_part0 … main_part9), each entry the operation of the printed line it transcribes (that line's
   MLIR text in the comment); a call's entries are the called function's operations over the call's buffer record. -/
import proofs.«406795_j81097572483403_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 553 (window main_part0). -/
abbrev ops0 : List (HloOp τ sig (Elt F)) :=
  [ StableHlo.nullary main_cst (fun i => FloatOps.ofBits .f32 (lit0 (S6.rowMajor i))), -- %cst = stablehlo.constant dense<[-0.577215672, 0.999991953, -0.249910548, 0.055199679, -9.760040e-03, 1.078570e-03]> : tensor<6xf32>
    StableHlo.nullary main_cst_0 (fun i => FloatOps.ofBits .f32 (lit1 (S5.rowMajor i))), -- %cst_0 = stablehlo.constant dense<[1.000000e+00, 8.57332897, 18.0590172, 8.63476085, 0.267773747]> : tensor<5xf32>
    StableHlo.nullary main_cst_1 (fun i => FloatOps.ofBits .f32 (lit2 (S5.rowMajor i))), -- %cst_1 = stablehlo.constant dense<[1.000000e+00, 9.57332229, 25.6329556, 21.0996532, 3.95849681]> : tensor<5xf32>
    StableHlo.unary main_arg7 main_v0 (broadcastInDim S1x2101 ![1] bcast_S2101_S1x2101_1 : (⟨S2101, .f32⟩ : BufTy).Contents (Elt F) → (⟨S1x2101, .f32⟩ : BufTy).Contents (Elt F)), -- %0 = stablehlo.broadcast_in_dim %arg7, dims = [1] : (tensor<2101xf32>) -> tensor<1x2101xf32>  @ reference:57
    StableHlo.unary main_arg1 main_v1 (broadcastInDim S8192x2101 ![0, 1] bcast_S8192x1_S8192x2101_0_1 : (⟨S8192x1, .f32⟩ : BufTy).Contents (Elt F) → (⟨S8192x2101, .f32⟩ : BufTy).Contents (Elt F)), -- %1 = stablehlo.broadcast_in_dim %arg1, dims = [0, 1] : (tensor<8192x1xf32>) -> tensor<8192x2101xf32>  @ reference:57
    StableHlo.unary main_v0 main_v2 (broadcastInDim S8192x2101 ![0, 1] bcast_S1x2101_S8192x2101_0_1 : (⟨S1x2101, .f32⟩ : BufTy).Contents (Elt F) → (⟨S8192x2101, .f32⟩ : BufTy).Contents (Elt F)), -- %2 = stablehlo.broadcast_in_dim %0, dims = [0, 1] : (tensor<1x2101xf32>) -> tensor<8192x2101xf32>  @ reference:57
    StableHlo.binary main_v1 main_v2 main_v3 (mulf : (⟨S8192x2101, .f32⟩ : BufTy).Contents (Elt F) → (⟨S8192x2101, .f32⟩ : BufTy).Contents (Elt F) → (⟨S8192x2101, .f32⟩ : BufTy).Contents (Elt F)), -- %3 = stablehlo.multiply %1, %2 : tensor<8192x2101xf32>  @ reference:57
    StableHlo.unary main_arg8 main_v4 (broadcastInDim S1x2101 ![1] bcast_S2101_S1x2101_1 : (⟨S2101, .f32⟩ : BufTy).Contents (Elt F) → (⟨S1x2101, .f32⟩ : BufTy).Contents (Elt F)), -- %4 = stablehlo.broadcast_in_dim %arg8, dims = [1] : (tensor<2101xf32>) -> tensor<1x2101xf32>  @ reference:57
    StableHlo.unary main_arg2 main_v5 (broadcastInDim S8192x2101 ![0, 1] bcast_S8192x1_S8192x2101_0_1 : (⟨S8192x1, .f32⟩ : BufTy).Contents (Elt F) → (⟨S8192x2101, .f32⟩ : BufTy).Contents (Elt F)), -- %5 = stablehlo.broadcast_in_dim %arg2, dims = [0, 1] : (tensor<8192x1xf32>) -> tensor<8192x2101xf32>  @ reference:57
    StableHlo.unary main_v4 main_v6 (broadcastInDim S8192x2101 ![0, 1] bcast_S1x2101_S8192x2101_0_1 : (⟨S1x2101, .f32⟩ : BufTy).Contents (Elt F) → (⟨S8192x2101, .f32⟩ : BufTy).Contents (Elt F)), -- %6 = stablehlo.broadcast_in_dim %4, dims = [0, 1] : (tensor<1x2101xf32>) -> tensor<8192x2101xf32>  @ reference:57
    StableHlo.binary main_v5 main_v6 main_v7 (mulf : (⟨S8192x2101, .f32⟩ : BufTy).Contents (Elt F) → (⟨S8192x2101, .f32⟩ : BufTy).Contents (Elt F) → (⟨S8192x2101, .f32⟩ : BufTy).Contents (Elt F)), -- %7 = stablehlo.multiply %5, %6 : tensor<8192x2101xf32>  @ reference:57
    StableHlo.binary main_v3 main_v7 main_v8 (addf : (⟨S8192x2101, .f32⟩ : BufTy).Contents (Elt F) → (⟨S8192x2101, .f32⟩ : BufTy).Contents (Elt F) → (⟨S8192x2101, .f32⟩ : BufTy).Contents (Elt F)), -- %8 = stablehlo.add %3, %7 : tensor<8192x2101xf32>  @ reference:57
    StableHlo.unary main_arg9 main_v9 (broadcastInDim S1x2101 ![1] bcast_S2101_S1x2101_1 : (⟨S2101, .f32⟩ : BufTy).Contents (Elt F) → (⟨S1x2101, .f32⟩ : BufTy).Contents (Elt F)), -- %9 = stablehlo.broadcast_in_dim %arg9, dims = [1] : (tensor<2101xf32>) -> tensor<1x2101xf32>  @ reference:57
    StableHlo.unary main_arg5 main_v10 (broadcastInDim S8192x2101 ![0, 1] bcast_S8192x1_S8192x2101_0_1 : (⟨S8192x1, .f32⟩ : BufTy).Contents (Elt F) → (⟨S8192x2101, .f32⟩ : BufTy).Contents (Elt F)), -- %10 = stablehlo.broadcast_in_dim %arg5, dims = [0, 1] : (tensor<8192x1xf32>) -> tensor<8192x2101xf32>  @ reference:57
    StableHlo.unary main_v9 main_v11 (broadcastInDim S8192x2101 ![0, 1] bcast_S1x2101_S8192x2101_0_1 : (⟨S1x2101, .f32⟩ : BufTy).Contents (Elt F) → (⟨S8192x2101, .f32⟩ : BufTy).Contents (Elt F)), -- %11 = stablehlo.broadcast_in_dim %9, dims = [0, 1] : (tensor<1x2101xf32>) -> tensor<8192x2101xf32>  @ reference:57
    StableHlo.binary main_v10 main_v11 main_v12 (mulf : (⟨S8192x2101, .f32⟩ : BufTy).Contents (Elt F) → (⟨S8192x2101, .f32⟩ : BufTy).Contents (Elt F) → (⟨S8192x2101, .f32⟩ : BufTy).Contents (Elt F)), -- %12 = stablehlo.multiply %10, %11 : tensor<8192x2101xf32>  @ reference:57
    StableHlo.binary main_v8 main_v12 main_v13 (addf : (⟨S8192x2101, .f32⟩ : BufTy).Contents (Elt F) → (⟨S8192x2101, .f32⟩ : BufTy).Contents (Elt F) → (⟨S8192x2101, .f32⟩ : BufTy).Contents (Elt F)), -- %13 = stablehlo.add %8, %12 : tensor<8192x2101xf32>  @ reference:57
    StableHlo.unary main_arg10 main_v14 (broadcastInDim S1x2101 ![1] bcast_S2101_S1x2101_1 : (⟨S2101, .f32⟩ : BufTy).Contents (Elt F) → (⟨S1x2101, .f32⟩ : BufTy).Contents (Elt F)), -- %14 = stablehlo.broadcast_in_dim %arg10, dims = [1] : (tensor<2101xf32>) -> tensor<1x2101xf32>  @ reference:57
    StableHlo.unary main_arg3 main_v15 (broadcastInDim S8192x2101 ![0, 1] bcast_S8192x1_S8192x2101_0_1 : (⟨S8192x1, .f32⟩ : BufTy).Contents (Elt F) → (⟨S8192x2101, .f32⟩ : BufTy).Contents (Elt F)), -- %15 = stablehlo.broadcast_in_dim %arg3, dims = [0, 1] : (tensor<8192x1xf32>) -> tensor<8192x2101xf32>  @ reference:57
    StableHlo.unary main_v14 main_v16 (broadcastInDim S8192x2101 ![0, 1] bcast_S1x2101_S8192x2101_0_1 : (⟨S1x2101, .f32⟩ : BufTy).Contents (Elt F) → (⟨S8192x2101, .f32⟩ : BufTy).Contents (Elt F)), -- %16 = stablehlo.broadcast_in_dim %14, dims = [0, 1] : (tensor<1x2101xf32>) -> tensor<8192x2101xf32>  @ reference:57
    StableHlo.binary main_v15 main_v16 main_v17 (mulf : (⟨S8192x2101, .f32⟩ : BufTy).Contents (Elt F) → (⟨S8192x2101, .f32⟩ : BufTy).Contents (Elt F) → (⟨S8192x2101, .f32⟩ : BufTy).Contents (Elt F)), -- %17 = stablehlo.multiply %15, %16 : tensor<8192x2101xf32>  @ reference:57
    StableHlo.binary main_v13 main_v17 main_v18 (addf : (⟨S8192x2101, .f32⟩ : BufTy).Contents (Elt F) → (⟨S8192x2101, .f32⟩ : BufTy).Contents (Elt F) → (⟨S8192x2101, .f32⟩ : BufTy).Contents (Elt F)), -- %18 = stablehlo.add %13, %17 : tensor<8192x2101xf32>  @ reference:57
    StableHlo.unary main_arg11 main_v19 (broadcastInDim S1x2101 ![1] bcast_S2101_S1x2101_1 : (⟨S2101, .f32⟩ : BufTy).Contents (Elt F) → (⟨S1x2101, .f32⟩ : BufTy).Contents (Elt F)), -- %19 = stablehlo.broadcast_in_dim %arg11, dims = [1] : (tensor<2101xf32>) -> tensor<1x2101xf32>  @ reference:57
    StableHlo.unary main_arg4 main_v20 (broadcastInDim S8192x2101 ![0, 1] bcast_S8192x1_S8192x2101_0_1 : (⟨S8192x1, .f32⟩ : BufTy).Contents (Elt F) → (⟨S8192x2101, .f32⟩ : BufTy).Contents (Elt F)), -- %20 = stablehlo.broadcast_in_dim %arg4, dims = [0, 1] : (tensor<8192x1xf32>) -> tensor<8192x2101xf32>  @ reference:57
    StableHlo.unary main_v19 main_v21 (broadcastInDim S8192x2101 ![0, 1] bcast_S1x2101_S8192x2101_0_1 : (⟨S1x2101, .f32⟩ : BufTy).Contents (Elt F) → (⟨S8192x2101, .f32⟩ : BufTy).Contents (Elt F)), -- %21 = stablehlo.broadcast_in_dim %19, dims = [0, 1] : (tensor<1x2101xf32>) -> tensor<8192x2101xf32>  @ reference:57
    StableHlo.binary main_v20 main_v21 main_v22 (mulf : (⟨S8192x2101, .f32⟩ : BufTy).Contents (Elt F) → (⟨S8192x2101, .f32⟩ : BufTy).Contents (Elt F) → (⟨S8192x2101, .f32⟩ : BufTy).Contents (Elt F)), -- %22 = stablehlo.multiply %20, %21 : tensor<8192x2101xf32>  @ reference:57
    StableHlo.binary main_v18 main_v22 main_v23 (addf : (⟨S8192x2101, .f32⟩ : BufTy).Contents (Elt F) → (⟨S8192x2101, .f32⟩ : BufTy).Contents (Elt F) → (⟨S8192x2101, .f32⟩ : BufTy).Contents (Elt F)), -- %23 = stablehlo.add %18, %22 : tensor<8192x2101xf32>  @ reference:57
    StableHlo.unary main_arg0 main_v24 (broadcastInDim S8192x2101 ![0, 1] bcast_S8192x1_S8192x2101_0_1 : (⟨S8192x1, .f32⟩ : BufTy).Contents (Elt F) → (⟨S8192x2101, .f32⟩ : BufTy).Contents (Elt F)), -- %24 = stablehlo.broadcast_in_dim %arg0, dims = [0, 1] : (tensor<8192x1xf32>) -> tensor<8192x2101xf32>  @ reference:57
    StableHlo.binary main_v23 main_v24 main_v25 (Host.divf : (⟨S8192x2101, .f32⟩ : BufTy).Contents (Elt F) → (⟨S8192x2101, .f32⟩ : BufTy).Contents (Elt F) → (⟨S8192x2101, .f32⟩ : BufTy).Contents (Elt F)), -- %25 = stablehlo.divide %23, %24 : tensor<8192x2101xf32>  @ reference:57
    StableHlo.nullary main_cst_2 (constant S_ .f32 0x38D1B717#32), -- %cst_2 = stablehlo.constant dense<9.99999974E-5> : tensor<f32>
    StableHlo.unary main_cst_2 main_v26 (broadcastInDim S8192x2101 ![] bcast_S_S8192x2101 : (⟨S_, .f32⟩ : BufTy).Contents (Elt F) → (⟨S8192x2101, .f32⟩ : BufTy).Contents (Elt F)), -- %26 = stablehlo.broadcast_in_dim %cst_2, dims = [] : (tensor<f32>) -> tensor<8192x2101xf32>  @ reference:58
    StableHlo.binary main_v25 main_v26 main_v27 (maximumf : (⟨S8192x2101, .f32⟩ : BufTy).Contents (Elt F) → (⟨S8192x2101, .f32⟩ : BufTy).Contents (Elt F) → (⟨S8192x2101, .f32⟩ : BufTy).Contents (Elt F)), -- %27 = stablehlo.maximum %25, %26 : tensor<8192x2101xf32>  @ reference:58
    StableHlo.nullary main_cst_3 (constant S_ .f32 0x3F800000#32), -- %cst_3 = stablehlo.constant dense<1.000000e+00> : tensor<f32>
    StableHlo.unary main_cst_3 main_v28 (broadcastInDim S8192x2101 ![] bcast_S_S8192x2101 : (⟨S_, .f32⟩ : BufTy).Contents (Elt F) → (⟨S8192x2101, .f32⟩ : BufTy).Contents (Elt F)), -- %28 = stablehlo.broadcast_in_dim %cst_3, dims = [] : (tensor<f32>) -> tensor<8192x2101xf32>  @ reference:60
    StableHlo.binary main_v28 main_v27 main_v29 (subf : (⟨S8192x2101, .f32⟩ : BufTy).Contents (Elt F) → (⟨S8192x2101, .f32⟩ : BufTy).Contents (Elt F) → (⟨S8192x2101, .f32⟩ : BufTy).Contents (Elt F)), -- %29 = stablehlo.subtract %28, %27 : tensor<8192x2101xf32>  @ reference:60
    StableHlo.unary main_v27 main_v30 (Host.negf : (⟨S8192x2101, .f32⟩ : BufTy).Contents (Elt F) → (⟨S8192x2101, .f32⟩ : BufTy).Contents (Elt F)), -- %30 = stablehlo.negate %27 : tensor<8192x2101xf32>  @ reference:60
    StableHlo.unary main_v30 main_v31 (Host.exp : (⟨S8192x2101, .f32⟩ : BufTy).Contents (Elt F) → (⟨S8192x2101, .f32⟩ : BufTy).Contents (Elt F)), -- %31 = stablehlo.exponential %30 : tensor<8192x2101xf32>  @ reference:60
    StableHlo.binary main_v29 main_v31 main_v32 (mulf : (⟨S8192x2101, .f32⟩ : BufTy).Contents (Elt F) → (⟨S8192x2101, .f32⟩ : BufTy).Contents (Elt F) → (⟨S8192x2101, .f32⟩ : BufTy).Contents (Elt F)), -- %32 = stablehlo.multiply %29, %31 : tensor<8192x2101xf32>  @ reference:60
    StableHlo.binary main_v27 main_v27 main_v33 (mulf : (⟨S8192x2101, .f32⟩ : BufTy).Contents (Elt F) → (⟨S8192x2101, .f32⟩ : BufTy).Contents (Elt F) → (⟨S8192x2101, .f32⟩ : BufTy).Contents (Elt F)), -- %33 = stablehlo.multiply %27, %27 : tensor<8192x2101xf32>  @ reference:60
    StableHlo.unary main_v27 main_v34 (Host.log : (⟨S8192x2101, .f32⟩ : BufTy).Contents (Elt F) → (⟨S8192x2101, .f32⟩ : BufTy).Contents (Elt F)), -- %34 = stablehlo.log %27 : tensor<8192x2101xf32>  @ reference:21
    StableHlo.unary main_v34 main_v35 (Host.negf : (⟨S8192x2101, .f32⟩ : BufTy).Contents (Elt F) → (⟨S8192x2101, .f32⟩ : BufTy).Contents (Elt F)), -- %35 = stablehlo.negate %34 : tensor<8192x2101xf32>  @ reference:21
    StableHlo.unary main_cst main_v36 (Host.reverse [0] : (⟨S6, .f32⟩ : BufTy).Contents (Elt F) → (⟨S6, .f32⟩ : BufTy).Contents (Elt F)), -- %36 = stablehlo.reverse %cst, dims = [0] : tensor<6xf32>  @ reference:21
    StableHlo.unary main_v36 main_v37 ((extractStridedSlice S1 ![0] · slices_S6_S1_0) : (⟨S6, .f32⟩ : BufTy).Contents (Elt F) → (⟨S1, .f32⟩ : BufTy).Contents (Elt F)), -- %37 = stablehlo.slice %36 [0:1] : (tensor<6xf32>) -> tensor<1xf32>  @ reference:14
    StableHlo.reshape main_v37 main_v38 rfl shapeCasts_S1_S_, -- %38 = stablehlo.reshape %37 : (tensor<1xf32>) -> tensor<f32>  @ reference:14
    StableHlo.unary main_v36 main_v39 ((extractStridedSlice S5 ![1] · slices_S6_S5_1) : (⟨S6, .f32⟩ : BufTy).Contents (Elt F) → (⟨S5, .f32⟩ : BufTy).Contents (Elt F)), -- %39 = stablehlo.slice %36 [1:6] : (tensor<6xf32>) -> tensor<5xf32>  @ reference:15
    StableHlo.unary main_v39 main_v40 ((extractStridedSlice S1 ![0] · slices_S5_S1_0) : (⟨S5, .f32⟩ : BufTy).Contents (Elt F) → (⟨S1, .f32⟩ : BufTy).Contents (Elt F)), -- %40 = stablehlo.slice %39 [0:1] : (tensor<5xf32>) -> tensor<1xf32>  @ reference:15
    StableHlo.reshape main_v40 main_v41 rfl shapeCasts_S1_S_, -- %41 = stablehlo.reshape %40 : (tensor<1xf32>) -> tensor<f32>  @ reference:15
    StableHlo.unary main_v39 main_v42 ((extractStridedSlice S1 ![1] · slices_S5_S1_1) : (⟨S5, .f32⟩ : BufTy).Contents (Elt F) → (⟨S1, .f32⟩ : BufTy).Contents (Elt F)), -- %42 = stablehlo.slice %39 [1:2] : (tensor<5xf32>) -> tensor<1xf32>  @ reference:15
    StableHlo.reshape main_v42 main_v43 rfl shapeCasts_S1_S_, -- %43 = stablehlo.reshape %42 : (tensor<1xf32>) -> tensor<f32>  @ reference:15
    StableHlo.unary main_v39 main_v44 ((extractStridedSlice S1 ![2] · slices_S5_S1_2) : (⟨S5, .f32⟩ : BufTy).Contents (Elt F) → (⟨S1, .f32⟩ : BufTy).Contents (Elt F)), -- %44 = stablehlo.slice %39 [2:3] : (tensor<5xf32>) -> tensor<1xf32>  @ reference:15
    StableHlo.reshape main_v44 main_v45 rfl shapeCasts_S1_S_, -- %45 = stablehlo.reshape %44 : (tensor<1xf32>) -> tensor<f32>  @ reference:15
    StableHlo.unary main_v39 main_v46 ((extractStridedSlice S1 ![3] · slices_S5_S1_3) : (⟨S5, .f32⟩ : BufTy).Contents (Elt F) → (⟨S1, .f32⟩ : BufTy).Contents (Elt F)), -- %46 = stablehlo.slice %39 [3:4] : (tensor<5xf32>) -> tensor<1xf32>  @ reference:15
    StableHlo.reshape main_v46 main_v47 rfl shapeCasts_S1_S_, -- %47 = stablehlo.reshape %46 : (tensor<1xf32>) -> tensor<f32>  @ reference:15
    StableHlo.unary main_v39 main_v48 ((extractStridedSlice S1 ![4] · slices_S5_S1_4) : (⟨S5, .f32⟩ : BufTy).Contents (Elt F) → (⟨S1, .f32⟩ : BufTy).Contents (Elt F)), -- %48 = stablehlo.slice %39 [4:5] : (tensor<5xf32>) -> tensor<1xf32>  @ reference:15
    StableHlo.reshape main_v48 main_v49 rfl shapeCasts_S1_S_, -- %49 = stablehlo.reshape %48 : (tensor<1xf32>) -> tensor<f32>  @ reference:15
    StableHlo.unary main_v38 main_v50 (broadcastInDim S8192x2101 ![] bcast_S_S8192x2101 : (⟨S_, .f32⟩ : BufTy).Contents (Elt F) → (⟨S8192x2101, .f32⟩ : BufTy).Contents (Elt F)), -- %50 = stablehlo.broadcast_in_dim %38, dims = [] : (tensor<f32>) -> tensor<8192x2101xf32>  @ reference:16
    StableHlo.binary main_v50 main_v27 main_v51 (mulf : (⟨S8192x2101, .f32⟩ : BufTy).Contents (Elt F) → (⟨S8192x2101, .f32⟩ : BufTy).Contents (Elt F) → (⟨S8192x2101, .f32⟩ : BufTy).Contents (Elt F)), -- %51 = stablehlo.multiply %50, %27 : tensor<8192x2101xf32>  @ reference:16
    StableHlo.unary main_v41 main_v52 (broadcastInDim S8192x2101 ![] bcast_S_S8192x2101 : (⟨S_, .f32⟩ : BufTy).Contents (Elt F) → (⟨S8192x2101, .f32⟩ : BufTy).Contents (Elt F)), -- %52 = stablehlo.broadcast_in_dim %41, dims = [] : (tensor<f32>) -> tensor<8192x2101xf32>  @ reference:16
    StableHlo.binary main_v51 main_v52 main_v53 (addf : (⟨S8192x2101, .f32⟩ : BufTy).Contents (Elt F) → (⟨S8192x2101, .f32⟩ : BufTy).Contents (Elt F) → (⟨S8192x2101, .f32⟩ : BufTy).Contents (Elt F)), -- %53 = stablehlo.add %51, %52 : tensor<8192x2101xf32>  @ reference:16
    StableHlo.binary main_v53 main_v27 main_v54 (mulf : (⟨S8192x2101, .f32⟩ : BufTy).Contents (Elt F) → (⟨S8192x2101, .f32⟩ : BufTy).Contents (Elt F) → (⟨S8192x2101, .f32⟩ : BufTy).Contents (Elt F)) ] -- %54 = stablehlo.multiply %53, %27 : tensor<8192x2101xf32>  @ reference:16

/-- @main's operations 61 … 120 of 553 (window main_part1). -/
abbrev ops1 : List (HloOp τ sig (Elt F)) :=
  [ StableHlo.unary main_v43 main_v55 (broadcastInDim S8192x2101 ![] bcast_S_S8192x2101 : (⟨S_, .f32⟩ : BufTy).Contents (Elt F) → (⟨S8192x2101, .f32⟩ : BufTy).Contents (Elt F)), -- %55 = stablehlo.broadcast_in_dim %43, dims = [] : (tensor<f32>) -> tensor<8192x2101xf32>  @ reference:16
    StableHlo.binary main_v54 main_v55 main_v56 (addf : (⟨S8192x2101, .f32⟩ : BufTy).Contents (Elt F) → (⟨S8192x2101, .f32⟩ : BufTy).Contents (Elt F) → (⟨S8192x2101, .f32⟩ : BufTy).Contents (Elt F)), -- %56 = stablehlo.add %54, %55 : tensor<8192x2101xf32>  @ reference:16
    StableHlo.binary main_v56 main_v27 main_v57 (mulf : (⟨S8192x2101, .f32⟩ : BufTy).Contents (Elt F) → (⟨S8192x2101, .f32⟩ : BufTy).Contents (Elt F) → (⟨S8192x2101, .f32⟩ : BufTy).Contents (Elt F)), -- %57 = stablehlo.multiply %56, %27 : tensor<8192x2101xf32>  @ reference:16
    StableHlo.unary main_v45 main_v58 (broadcastInDim S8192x2101 ![] bcast_S_S8192x2101 : (⟨S_, .f32⟩ : BufTy).Contents (Elt F) → (⟨S8192x2101, .f32⟩ : BufTy).Contents (Elt F)), -- %58 = stablehlo.broadcast_in_dim %45, dims = [] : (tensor<f32>) -> tensor<8192x2101xf32>  @ reference:16
    StableHlo.binary main_v57 main_v58 main_v59 (addf : (⟨S8192x2101, .f32⟩ : BufTy).Contents (Elt F) → (⟨S8192x2101, .f32⟩ : BufTy).Contents (Elt F) → (⟨S8192x2101, .f32⟩ : BufTy).Contents (Elt F)), -- %59 = stablehlo.add %57, %58 : tensor<8192x2101xf32>  @ reference:16
    StableHlo.binary main_v59 main_v27 main_v60 (mulf : (⟨S8192x2101, .f32⟩ : BufTy).Contents (Elt F) → (⟨S8192x2101, .f32⟩ : BufTy).Contents (Elt F) → (⟨S8192x2101, .f32⟩ : BufTy).Contents (Elt F)), -- %60 = stablehlo.multiply %59, %27 : tensor<8192x2101xf32>  @ reference:16
    StableHlo.unary main_v47 main_v61 (broadcastInDim S8192x2101 ![] bcast_S_S8192x2101 : (⟨S_, .f32⟩ : BufTy).Contents (Elt F) → (⟨S8192x2101, .f32⟩ : BufTy).Contents (Elt F)), -- %61 = stablehlo.broadcast_in_dim %47, dims = [] : (tensor<f32>) -> tensor<8192x2101xf32>  @ reference:16
    StableHlo.binary main_v60 main_v61 main_v62 (addf : (⟨S8192x2101, .f32⟩ : BufTy).Contents (Elt F) → (⟨S8192x2101, .f32⟩ : BufTy).Contents (Elt F) → (⟨S8192x2101, .f32⟩ : BufTy).Contents (Elt F)), -- %62 = stablehlo.add %60, %61 : tensor<8192x2101xf32>  @ reference:16
    StableHlo.binary main_v62 main_v27 main_v63 (mulf : (⟨S8192x2101, .f32⟩ : BufTy).Contents (Elt F) → (⟨S8192x2101, .f32⟩ : BufTy).Contents (Elt F) → (⟨S8192x2101, .f32⟩ : BufTy).Contents (Elt F)), -- %63 = stablehlo.multiply %62, %27 : tensor<8192x2101xf32>  @ reference:16
    StableHlo.unary main_v49 main_v64 (broadcastInDim S8192x2101 ![] bcast_S_S8192x2101 : (⟨S_, .f32⟩ : BufTy).Contents (Elt F) → (⟨S8192x2101, .f32⟩ : BufTy).Contents (Elt F)), -- %64 = stablehlo.broadcast_in_dim %49, dims = [] : (tensor<f32>) -> tensor<8192x2101xf32>  @ reference:16
    StableHlo.binary main_v63 main_v64 main_v65 (addf : (⟨S8192x2101, .f32⟩ : BufTy).Contents (Elt F) → (⟨S8192x2101, .f32⟩ : BufTy).Contents (Elt F) → (⟨S8192x2101, .f32⟩ : BufTy).Contents (Elt F)), -- %65 = stablehlo.add %63, %64 : tensor<8192x2101xf32>  @ reference:16
    StableHlo.binary main_v35 main_v65 main_v66 (addf : (⟨S8192x2101, .f32⟩ : BufTy).Contents (Elt F) → (⟨S8192x2101, .f32⟩ : BufTy).Contents (Elt F) → (⟨S8192x2101, .f32⟩ : BufTy).Contents (Elt F)), -- %66 = stablehlo.add %35, %65 : tensor<8192x2101xf32>  @ reference:21
    StableHlo.unary main_v27 main_v67 (Host.negf : (⟨S8192x2101, .f32⟩ : BufTy).Contents (Elt F) → (⟨S8192x2101, .f32⟩ : BufTy).Contents (Elt F)), -- %67 = stablehlo.negate %27 : tensor<8192x2101xf32>  @ reference:22
    StableHlo.unary main_v67 main_v68 (Host.exp : (⟨S8192x2101, .f32⟩ : BufTy).Contents (Elt F) → (⟨S8192x2101, .f32⟩ : BufTy).Contents (Elt F)), -- %68 = stablehlo.exponential %67 : tensor<8192x2101xf32>  @ reference:22
    StableHlo.binary main_v68 main_v27 main_v69 (Host.divf : (⟨S8192x2101, .f32⟩ : BufTy).Contents (Elt F) → (⟨S8192x2101, .f32⟩ : BufTy).Contents (Elt F) → (⟨S8192x2101, .f32⟩ : BufTy).Contents (Elt F)), -- %69 = stablehlo.divide %68, %27 : tensor<8192x2101xf32>  @ reference:22
    StableHlo.unary main_cst_0 main_v70 ((extractStridedSlice S1 ![0] · slices_S5_S1_0) : (⟨S5, .f32⟩ : BufTy).Contents (Elt F) → (⟨S1, .f32⟩ : BufTy).Contents (Elt F)), -- %70 = stablehlo.slice %cst_0 [0:1] : (tensor<5xf32>) -> tensor<1xf32>  @ reference:14
    StableHlo.reshape main_v70 main_v71 rfl shapeCasts_S1_S_, -- %71 = stablehlo.reshape %70 : (tensor<1xf32>) -> tensor<f32>  @ reference:14
    StableHlo.unary main_cst_0 main_v72 ((extractStridedSlice S4 ![1] · slices_S5_S4_1) : (⟨S5, .f32⟩ : BufTy).Contents (Elt F) → (⟨S4, .f32⟩ : BufTy).Contents (Elt F)), -- %72 = stablehlo.slice %cst_0 [1:5] : (tensor<5xf32>) -> tensor<4xf32>  @ reference:15
    StableHlo.unary main_v72 main_v73 ((extractStridedSlice S1 ![0] · slices_S4_S1_0) : (⟨S4, .f32⟩ : BufTy).Contents (Elt F) → (⟨S1, .f32⟩ : BufTy).Contents (Elt F)), -- %73 = stablehlo.slice %72 [0:1] : (tensor<4xf32>) -> tensor<1xf32>  @ reference:15
    StableHlo.reshape main_v73 main_v74 rfl shapeCasts_S1_S_, -- %74 = stablehlo.reshape %73 : (tensor<1xf32>) -> tensor<f32>  @ reference:15
    StableHlo.unary main_v72 main_v75 ((extractStridedSlice S1 ![1] · slices_S4_S1_1) : (⟨S4, .f32⟩ : BufTy).Contents (Elt F) → (⟨S1, .f32⟩ : BufTy).Contents (Elt F)), -- %75 = stablehlo.slice %72 [1:2] : (tensor<4xf32>) -> tensor<1xf32>  @ reference:15
    StableHlo.reshape main_v75 main_v76 rfl shapeCasts_S1_S_, -- %76 = stablehlo.reshape %75 : (tensor<1xf32>) -> tensor<f32>  @ reference:15
    StableHlo.unary main_v72 main_v77 ((extractStridedSlice S1 ![2] · slices_S4_S1_2) : (⟨S4, .f32⟩ : BufTy).Contents (Elt F) → (⟨S1, .f32⟩ : BufTy).Contents (Elt F)), -- %77 = stablehlo.slice %72 [2:3] : (tensor<4xf32>) -> tensor<1xf32>  @ reference:15
    StableHlo.reshape main_v77 main_v78 rfl shapeCasts_S1_S_, -- %78 = stablehlo.reshape %77 : (tensor<1xf32>) -> tensor<f32>  @ reference:15
    StableHlo.unary main_v72 main_v79 ((extractStridedSlice S1 ![3] · slices_S4_S1_3) : (⟨S4, .f32⟩ : BufTy).Contents (Elt F) → (⟨S1, .f32⟩ : BufTy).Contents (Elt F)), -- %79 = stablehlo.slice %72 [3:4] : (tensor<4xf32>) -> tensor<1xf32>  @ reference:15
    StableHlo.reshape main_v79 main_v80 rfl shapeCasts_S1_S_, -- %80 = stablehlo.reshape %79 : (tensor<1xf32>) -> tensor<f32>  @ reference:15
    StableHlo.unary main_v71 main_v81 (broadcastInDim S8192x2101 ![] bcast_S_S8192x2101 : (⟨S_, .f32⟩ : BufTy).Contents (Elt F) → (⟨S8192x2101, .f32⟩ : BufTy).Contents (Elt F)), -- %81 = stablehlo.broadcast_in_dim %71, dims = [] : (tensor<f32>) -> tensor<8192x2101xf32>  @ reference:16
    StableHlo.binary main_v81 main_v27 main_v82 (mulf : (⟨S8192x2101, .f32⟩ : BufTy).Contents (Elt F) → (⟨S8192x2101, .f32⟩ : BufTy).Contents (Elt F) → (⟨S8192x2101, .f32⟩ : BufTy).Contents (Elt F)), -- %82 = stablehlo.multiply %81, %27 : tensor<8192x2101xf32>  @ reference:16
    StableHlo.unary main_v74 main_v83 (broadcastInDim S8192x2101 ![] bcast_S_S8192x2101 : (⟨S_, .f32⟩ : BufTy).Contents (Elt F) → (⟨S8192x2101, .f32⟩ : BufTy).Contents (Elt F)), -- %83 = stablehlo.broadcast_in_dim %74, dims = [] : (tensor<f32>) -> tensor<8192x2101xf32>  @ reference:16
    StableHlo.binary main_v82 main_v83 main_v84 (addf : (⟨S8192x2101, .f32⟩ : BufTy).Contents (Elt F) → (⟨S8192x2101, .f32⟩ : BufTy).Contents (Elt F) → (⟨S8192x2101, .f32⟩ : BufTy).Contents (Elt F)), -- %84 = stablehlo.add %82, %83 : tensor<8192x2101xf32>  @ reference:16
    StableHlo.binary main_v84 main_v27 main_v85 (mulf : (⟨S8192x2101, .f32⟩ : BufTy).Contents (Elt F) → (⟨S8192x2101, .f32⟩ : BufTy).Contents (Elt F) → (⟨S8192x2101, .f32⟩ : BufTy).Contents (Elt F)), -- %85 = stablehlo.multiply %84, %27 : tensor<8192x2101xf32>  @ reference:16
    StableHlo.unary main_v76 main_v86 (broadcastInDim S8192x2101 ![] bcast_S_S8192x2101 : (⟨S_, .f32⟩ : BufTy).Contents (Elt F) → (⟨S8192x2101, .f32⟩ : BufTy).Contents (Elt F)), -- %86 = stablehlo.broadcast_in_dim %76, dims = [] : (tensor<f32>) -> tensor<8192x2101xf32>  @ reference:16
    StableHlo.binary main_v85 main_v86 main_v87 (addf : (⟨S8192x2101, .f32⟩ : BufTy).Contents (Elt F) → (⟨S8192x2101, .f32⟩ : BufTy).Contents (Elt F) → (⟨S8192x2101, .f32⟩ : BufTy).Contents (Elt F)), -- %87 = stablehlo.add %85, %86 : tensor<8192x2101xf32>  @ reference:16
    StableHlo.binary main_v87 main_v27 main_v88 (mulf : (⟨S8192x2101, .f32⟩ : BufTy).Contents (Elt F) → (⟨S8192x2101, .f32⟩ : BufTy).Contents (Elt F) → (⟨S8192x2101, .f32⟩ : BufTy).Contents (Elt F)), -- %88 = stablehlo.multiply %87, %27 : tensor<8192x2101xf32>  @ reference:16
    StableHlo.unary main_v78 main_v89 (broadcastInDim S8192x2101 ![] bcast_S_S8192x2101 : (⟨S_, .f32⟩ : BufTy).Contents (Elt F) → (⟨S8192x2101, .f32⟩ : BufTy).Contents (Elt F)), -- %89 = stablehlo.broadcast_in_dim %78, dims = [] : (tensor<f32>) -> tensor<8192x2101xf32>  @ reference:16
    StableHlo.binary main_v88 main_v89 main_v90 (addf : (⟨S8192x2101, .f32⟩ : BufTy).Contents (Elt F) → (⟨S8192x2101, .f32⟩ : BufTy).Contents (Elt F) → (⟨S8192x2101, .f32⟩ : BufTy).Contents (Elt F)), -- %90 = stablehlo.add %88, %89 : tensor<8192x2101xf32>  @ reference:16
    StableHlo.binary main_v90 main_v27 main_v91 (mulf : (⟨S8192x2101, .f32⟩ : BufTy).Contents (Elt F) → (⟨S8192x2101, .f32⟩ : BufTy).Contents (Elt F) → (⟨S8192x2101, .f32⟩ : BufTy).Contents (Elt F)), -- %91 = stablehlo.multiply %90, %27 : tensor<8192x2101xf32>  @ reference:16
    StableHlo.unary main_v80 main_v92 (broadcastInDim S8192x2101 ![] bcast_S_S8192x2101 : (⟨S_, .f32⟩ : BufTy).Contents (Elt F) → (⟨S8192x2101, .f32⟩ : BufTy).Contents (Elt F)), -- %92 = stablehlo.broadcast_in_dim %80, dims = [] : (tensor<f32>) -> tensor<8192x2101xf32>  @ reference:16
    StableHlo.binary main_v91 main_v92 main_v93 (addf : (⟨S8192x2101, .f32⟩ : BufTy).Contents (Elt F) → (⟨S8192x2101, .f32⟩ : BufTy).Contents (Elt F) → (⟨S8192x2101, .f32⟩ : BufTy).Contents (Elt F)), -- %93 = stablehlo.add %91, %92 : tensor<8192x2101xf32>  @ reference:16
    StableHlo.unary main_cst_1 main_v94 ((extractStridedSlice S1 ![0] · slices_S5_S1_0) : (⟨S5, .f32⟩ : BufTy).Contents (Elt F) → (⟨S1, .f32⟩ : BufTy).Contents (Elt F)), -- %94 = stablehlo.slice %cst_1 [0:1] : (tensor<5xf32>) -> tensor<1xf32>  @ reference:14
    StableHlo.reshape main_v94 main_v95 rfl shapeCasts_S1_S_, -- %95 = stablehlo.reshape %94 : (tensor<1xf32>) -> tensor<f32>  @ reference:14
    StableHlo.unary main_cst_1 main_v96 ((extractStridedSlice S4 ![1] · slices_S5_S4_1) : (⟨S5, .f32⟩ : BufTy).Contents (Elt F) → (⟨S4, .f32⟩ : BufTy).Contents (Elt F)), -- %96 = stablehlo.slice %cst_1 [1:5] : (tensor<5xf32>) -> tensor<4xf32>  @ reference:15
    StableHlo.unary main_v96 main_v97 ((extractStridedSlice S1 ![0] · slices_S4_S1_0) : (⟨S4, .f32⟩ : BufTy).Contents (Elt F) → (⟨S1, .f32⟩ : BufTy).Contents (Elt F)), -- %97 = stablehlo.slice %96 [0:1] : (tensor<4xf32>) -> tensor<1xf32>  @ reference:15
    StableHlo.reshape main_v97 main_v98 rfl shapeCasts_S1_S_, -- %98 = stablehlo.reshape %97 : (tensor<1xf32>) -> tensor<f32>  @ reference:15
    StableHlo.unary main_v96 main_v99 ((extractStridedSlice S1 ![1] · slices_S4_S1_1) : (⟨S4, .f32⟩ : BufTy).Contents (Elt F) → (⟨S1, .f32⟩ : BufTy).Contents (Elt F)), -- %99 = stablehlo.slice %96 [1:2] : (tensor<4xf32>) -> tensor<1xf32>  @ reference:15
    StableHlo.reshape main_v99 main_v100 rfl shapeCasts_S1_S_, -- %100 = stablehlo.reshape %99 : (tensor<1xf32>) -> tensor<f32>  @ reference:15
    StableHlo.unary main_v96 main_v101 ((extractStridedSlice S1 ![2] · slices_S4_S1_2) : (⟨S4, .f32⟩ : BufTy).Contents (Elt F) → (⟨S1, .f32⟩ : BufTy).Contents (Elt F)), -- %101 = stablehlo.slice %96 [2:3] : (tensor<4xf32>) -> tensor<1xf32>  @ reference:15
    StableHlo.reshape main_v101 main_v102 rfl shapeCasts_S1_S_, -- %102 = stablehlo.reshape %101 : (tensor<1xf32>) -> tensor<f32>  @ reference:15
    StableHlo.unary main_v96 main_v103 ((extractStridedSlice S1 ![3] · slices_S4_S1_3) : (⟨S4, .f32⟩ : BufTy).Contents (Elt F) → (⟨S1, .f32⟩ : BufTy).Contents (Elt F)), -- %103 = stablehlo.slice %96 [3:4] : (tensor<4xf32>) -> tensor<1xf32>  @ reference:15
    StableHlo.reshape main_v103 main_v104 rfl shapeCasts_S1_S_, -- %104 = stablehlo.reshape %103 : (tensor<1xf32>) -> tensor<f32>  @ reference:15
    StableHlo.unary main_v95 main_v105 (broadcastInDim S8192x2101 ![] bcast_S_S8192x2101 : (⟨S_, .f32⟩ : BufTy).Contents (Elt F) → (⟨S8192x2101, .f32⟩ : BufTy).Contents (Elt F)), -- %105 = stablehlo.broadcast_in_dim %95, dims = [] : (tensor<f32>) -> tensor<8192x2101xf32>  @ reference:16
    StableHlo.binary main_v105 main_v27 main_v106 (mulf : (⟨S8192x2101, .f32⟩ : BufTy).Contents (Elt F) → (⟨S8192x2101, .f32⟩ : BufTy).Contents (Elt F) → (⟨S8192x2101, .f32⟩ : BufTy).Contents (Elt F)), -- %106 = stablehlo.multiply %105, %27 : tensor<8192x2101xf32>  @ reference:16
    StableHlo.unary main_v98 main_v107 (broadcastInDim S8192x2101 ![] bcast_S_S8192x2101 : (⟨S_, .f32⟩ : BufTy).Contents (Elt F) → (⟨S8192x2101, .f32⟩ : BufTy).Contents (Elt F)), -- %107 = stablehlo.broadcast_in_dim %98, dims = [] : (tensor<f32>) -> tensor<8192x2101xf32>  @ reference:16
    StableHlo.binary main_v106 main_v107 main_v108 (addf : (⟨S8192x2101, .f32⟩ : BufTy).Contents (Elt F) → (⟨S8192x2101, .f32⟩ : BufTy).Contents (Elt F) → (⟨S8192x2101, .f32⟩ : BufTy).Contents (Elt F)), -- %108 = stablehlo.add %106, %107 : tensor<8192x2101xf32>  @ reference:16
    StableHlo.binary main_v108 main_v27 main_v109 (mulf : (⟨S8192x2101, .f32⟩ : BufTy).Contents (Elt F) → (⟨S8192x2101, .f32⟩ : BufTy).Contents (Elt F) → (⟨S8192x2101, .f32⟩ : BufTy).Contents (Elt F)), -- %109 = stablehlo.multiply %108, %27 : tensor<8192x2101xf32>  @ reference:16
    StableHlo.unary main_v100 main_v110 (broadcastInDim S8192x2101 ![] bcast_S_S8192x2101 : (⟨S_, .f32⟩ : BufTy).Contents (Elt F) → (⟨S8192x2101, .f32⟩ : BufTy).Contents (Elt F)), -- %110 = stablehlo.broadcast_in_dim %100, dims = [] : (tensor<f32>) -> tensor<8192x2101xf32>  @ reference:16
    StableHlo.binary main_v109 main_v110 main_v111 (addf : (⟨S8192x2101, .f32⟩ : BufTy).Contents (Elt F) → (⟨S8192x2101, .f32⟩ : BufTy).Contents (Elt F) → (⟨S8192x2101, .f32⟩ : BufTy).Contents (Elt F)), -- %111 = stablehlo.add %109, %110 : tensor<8192x2101xf32>  @ reference:16
    StableHlo.binary main_v111 main_v27 main_v112 (mulf : (⟨S8192x2101, .f32⟩ : BufTy).Contents (Elt F) → (⟨S8192x2101, .f32⟩ : BufTy).Contents (Elt F) → (⟨S8192x2101, .f32⟩ : BufTy).Contents (Elt F)), -- %112 = stablehlo.multiply %111, %27 : tensor<8192x2101xf32>  @ reference:16
    StableHlo.unary main_v102 main_v113 (broadcastInDim S8192x2101 ![] bcast_S_S8192x2101 : (⟨S_, .f32⟩ : BufTy).Contents (Elt F) → (⟨S8192x2101, .f32⟩ : BufTy).Contents (Elt F)), -- %113 = stablehlo.broadcast_in_dim %102, dims = [] : (tensor<f32>) -> tensor<8192x2101xf32>  @ reference:16
    StableHlo.binary main_v112 main_v113 main_v114 (addf : (⟨S8192x2101, .f32⟩ : BufTy).Contents (Elt F) → (⟨S8192x2101, .f32⟩ : BufTy).Contents (Elt F) → (⟨S8192x2101, .f32⟩ : BufTy).Contents (Elt F)) ] -- %114 = stablehlo.add %112, %113 : tensor<8192x2101xf32>  @ reference:16

/-- @main's operations 121 … 180 of 553 (window main_part2). -/
abbrev ops2 : List (HloOp τ sig (Elt F)) :=
  [ StableHlo.binary main_v114 main_v27 main_v115 (mulf : (⟨S8192x2101, .f32⟩ : BufTy).Contents (Elt F) → (⟨S8192x2101, .f32⟩ : BufTy).Contents (Elt F) → (⟨S8192x2101, .f32⟩ : BufTy).Contents (Elt F)), -- %115 = stablehlo.multiply %114, %27 : tensor<8192x2101xf32>  @ reference:16
    StableHlo.unary main_v104 main_v116 (broadcastInDim S8192x2101 ![] bcast_S_S8192x2101 : (⟨S_, .f32⟩ : BufTy).Contents (Elt F) → (⟨S8192x2101, .f32⟩ : BufTy).Contents (Elt F)), -- %116 = stablehlo.broadcast_in_dim %104, dims = [] : (tensor<f32>) -> tensor<8192x2101xf32>  @ reference:16
    StableHlo.binary main_v115 main_v116 main_v117 (addf : (⟨S8192x2101, .f32⟩ : BufTy).Contents (Elt F) → (⟨S8192x2101, .f32⟩ : BufTy).Contents (Elt F) → (⟨S8192x2101, .f32⟩ : BufTy).Contents (Elt F)), -- %117 = stablehlo.add %115, %116 : tensor<8192x2101xf32>  @ reference:16
    StableHlo.binary main_v93 main_v117 main_v118 (Host.divf : (⟨S8192x2101, .f32⟩ : BufTy).Contents (Elt F) → (⟨S8192x2101, .f32⟩ : BufTy).Contents (Elt F) → (⟨S8192x2101, .f32⟩ : BufTy).Contents (Elt F)), -- %118 = stablehlo.divide %93, %117 : tensor<8192x2101xf32>  @ reference:22
    StableHlo.binary main_v69 main_v118 main_v119 (mulf : (⟨S8192x2101, .f32⟩ : BufTy).Contents (Elt F) → (⟨S8192x2101, .f32⟩ : BufTy).Contents (Elt F) → (⟨S8192x2101, .f32⟩ : BufTy).Contents (Elt F)), -- %119 = stablehlo.multiply %69, %118 : tensor<8192x2101xf32>  @ reference:22
    StableHlo.nullary main_cst_4 (constant S_ .f32 0x3F800000#32), -- %cst_4 = stablehlo.constant dense<1.000000e+00> : tensor<f32>
    StableHlo.unary main_cst_4 main_v120 (broadcastInDim S8192x2101 ![] bcast_S_S8192x2101 : (⟨S_, .f32⟩ : BufTy).Contents (Elt F) → (⟨S8192x2101, .f32⟩ : BufTy).Contents (Elt F)), -- %120 = stablehlo.broadcast_in_dim %cst_4, dims = [] : (tensor<f32>) -> tensor<8192x2101xf32>  @ reference:23
    StableHlo.binary main_v27 main_v120 main_v121 (cmpf .ole : (⟨S8192x2101, .f32⟩ : BufTy).Contents (Elt F) → (⟨S8192x2101, .f32⟩ : BufTy).Contents (Elt F) → (⟨S8192x2101, .i1⟩ : BufTy).Contents (Elt F)), -- %121 = stablehlo.compare LE, %27, %120, FLOAT : (tensor<8192x2101xf32>, tensor<8192x2101xf32>) -> tensor<8192x2101xi1>  @ reference:23
    StableHlo.TRef.ternary (.of main_v121 : StableHlo.TRef sig ⟨S8192x2101, .i1⟩) (.of main_v66 : StableHlo.TRef sig ⟨S8192x2101, .f32⟩) (.of main_v119 : StableHlo.TRef sig ⟨S8192x2101, .f32⟩) main_call0.v0 select, -- @where of [%122 = func.call @_where(%121, %66, %119) : (tensor<8192x2101xi1>, tensor<8192x2101xf32>, tensor<8192x2101xf32>) -> tensor<8192x2101xf32>  @ reference:23]: %0 = stablehlo.select %arg0, %arg1, %arg2 : tensor<8192x2101xi1>, tensor<8192x2101xf32>
    StableHlo.binary main_v33 main_v122 main_v123 (mulf : (⟨S8192x2101, .f32⟩ : BufTy).Contents (Elt F) → (⟨S8192x2101, .f32⟩ : BufTy).Contents (Elt F) → (⟨S8192x2101, .f32⟩ : BufTy).Contents (Elt F)), -- %123 = stablehlo.multiply %33, %122 : tensor<8192x2101xf32>  @ reference:60
    StableHlo.binary main_v32 main_v123 main_v124 (addf : (⟨S8192x2101, .f32⟩ : BufTy).Contents (Elt F) → (⟨S8192x2101, .f32⟩ : BufTy).Contents (Elt F) → (⟨S8192x2101, .f32⟩ : BufTy).Contents (Elt F)), -- %124 = stablehlo.add %32, %123 : tensor<8192x2101xf32>  @ reference:60
    StableHlo.binary main_arg6 main_arg6 main_v125 (mulf : (⟨S2101, .f32⟩ : BufTy).Contents (Elt F) → (⟨S2101, .f32⟩ : BufTy).Contents (Elt F) → (⟨S2101, .f32⟩ : BufTy).Contents (Elt F)), -- %125 = stablehlo.multiply %arg6, %arg6 : tensor<2101xf32>  @ reference:27
    StableHlo.nullary main_cst_5 (constant S_ .f32 0x3F800000#32), -- %cst_5 = stablehlo.constant dense<1.000000e+00> : tensor<f32>
    StableHlo.unary main_cst_5 main_v126 (broadcastInDim S2101 ![] bcast_S_S2101 : (⟨S_, .f32⟩ : BufTy).Contents (Elt F) → (⟨S2101, .f32⟩ : BufTy).Contents (Elt F)), -- %126 = stablehlo.broadcast_in_dim %cst_5, dims = [] : (tensor<f32>) -> tensor<2101xf32>  @ reference:28
    StableHlo.binary main_v125 main_v126 main_v127 (addf : (⟨S2101, .f32⟩ : BufTy).Contents (Elt F) → (⟨S2101, .f32⟩ : BufTy).Contents (Elt F) → (⟨S2101, .f32⟩ : BufTy).Contents (Elt F)), -- %127 = stablehlo.add %125, %126 : tensor<2101xf32>  @ reference:28
    StableHlo.nullary main_cst_6 (constant S_ .f32 0x3F800000#32), -- %cst_6 = stablehlo.constant dense<1.000000e+00> : tensor<f32>
    StableHlo.unary main_cst_6 main_v128 (broadcastInDim S2101 ![] bcast_S_S2101 : (⟨S_, .f32⟩ : BufTy).Contents (Elt F) → (⟨S2101, .f32⟩ : BufTy).Contents (Elt F)), -- %128 = stablehlo.broadcast_in_dim %cst_6, dims = [] : (tensor<f32>) -> tensor<2101xf32>  @ reference:29
    StableHlo.binary main_v125 main_v128 main_v129 (subf : (⟨S2101, .f32⟩ : BufTy).Contents (Elt F) → (⟨S2101, .f32⟩ : BufTy).Contents (Elt F) → (⟨S2101, .f32⟩ : BufTy).Contents (Elt F)), -- %129 = stablehlo.subtract %125, %128 : tensor<2101xf32>  @ reference:29
    StableHlo.nullary main_cst_7 (constant S_ .f32 0x3F800000#32), -- %cst_7 = stablehlo.constant dense<1.000000e+00> : tensor<f32>
    StableHlo.unary main_cst_7 main_v130 (broadcastInDim S2101 ![] bcast_S_S2101 : (⟨S_, .f32⟩ : BufTy).Contents (Elt F) → (⟨S2101, .f32⟩ : BufTy).Contents (Elt F)), -- %130 = stablehlo.broadcast_in_dim %cst_7, dims = [] : (tensor<f32>) -> tensor<2101xf32>  @ reference:30
    StableHlo.binary main_arg6 main_v130 main_v131 (addf : (⟨S2101, .f32⟩ : BufTy).Contents (Elt F) → (⟨S2101, .f32⟩ : BufTy).Contents (Elt F) → (⟨S2101, .f32⟩ : BufTy).Contents (Elt F)), -- %131 = stablehlo.add %arg6, %130 : tensor<2101xf32>  @ reference:30
    StableHlo.nullary main_cst_8 (constant S_ .f32 0x3F800000#32), -- %cst_8 = stablehlo.constant dense<1.000000e+00> : tensor<f32>
    StableHlo.unary main_cst_8 main_v132 (broadcastInDim S2101 ![] bcast_S_S2101 : (⟨S_, .f32⟩ : BufTy).Contents (Elt F) → (⟨S2101, .f32⟩ : BufTy).Contents (Elt F)), -- %132 = stablehlo.broadcast_in_dim %cst_8, dims = [] : (tensor<f32>) -> tensor<2101xf32>  @ reference:30
    StableHlo.binary main_arg6 main_v132 main_v133 (addf : (⟨S2101, .f32⟩ : BufTy).Contents (Elt F) → (⟨S2101, .f32⟩ : BufTy).Contents (Elt F) → (⟨S2101, .f32⟩ : BufTy).Contents (Elt F)), -- %133 = stablehlo.add %arg6, %132 : tensor<2101xf32>  @ reference:30
    StableHlo.binary main_v131 main_v133 main_v134 (mulf : (⟨S2101, .f32⟩ : BufTy).Contents (Elt F) → (⟨S2101, .f32⟩ : BufTy).Contents (Elt F) → (⟨S2101, .f32⟩ : BufTy).Contents (Elt F)), -- %134 = stablehlo.multiply %131, %133 : tensor<2101xf32>  @ reference:30
    StableHlo.nullary main_cst_9 (constant S_ .f32 0x40000000#32), -- %cst_9 = stablehlo.constant dense<2.000000e+00> : tensor<f32>
    StableHlo.unary main_cst_9 main_v135 (broadcastInDim S2101 ![] bcast_S_S2101 : (⟨S_, .f32⟩ : BufTy).Contents (Elt F) → (⟨S2101, .f32⟩ : BufTy).Contents (Elt F)), -- %135 = stablehlo.broadcast_in_dim %cst_9, dims = [] : (tensor<f32>) -> tensor<2101xf32>  @ reference:30
    StableHlo.binary main_v134 main_v135 main_v136 (Host.divf : (⟨S2101, .f32⟩ : BufTy).Contents (Elt F) → (⟨S2101, .f32⟩ : BufTy).Contents (Elt F) → (⟨S2101, .f32⟩ : BufTy).Contents (Elt F)), -- %136 = stablehlo.divide %134, %135 : tensor<2101xf32>  @ reference:30
    StableHlo.nullary main_cst_10 (constant S_ .f32 0x3F800000#32), -- %cst_10 = stablehlo.constant dense<1.000000e+00> : tensor<f32>
    StableHlo.unary main_cst_10 main_v137 (broadcastInDim S2101 ![] bcast_S_S2101 : (⟨S_, .f32⟩ : BufTy).Contents (Elt F) → (⟨S2101, .f32⟩ : BufTy).Contents (Elt F)), -- %137 = stablehlo.broadcast_in_dim %cst_10, dims = [] : (tensor<f32>) -> tensor<2101xf32>  @ reference:31
    StableHlo.binary main_v125 main_v137 main_v138 (subf : (⟨S2101, .f32⟩ : BufTy).Contents (Elt F) → (⟨S2101, .f32⟩ : BufTy).Contents (Elt F) → (⟨S2101, .f32⟩ : BufTy).Contents (Elt F)), -- %138 = stablehlo.subtract %125, %137 : tensor<2101xf32>  @ reference:31
    StableHlo.unary main_v138 main_v139 (Host.negf : (⟨S2101, .f32⟩ : BufTy).Contents (Elt F) → (⟨S2101, .f32⟩ : BufTy).Contents (Elt F)), -- %139 = stablehlo.negate %138 : tensor<2101xf32>  @ reference:31
    StableHlo.nullary main_cst_11 (constant S_ .f32 0x3F800000#32), -- %cst_11 = stablehlo.constant dense<1.000000e+00> : tensor<f32>
    StableHlo.unary main_cst_11 main_v140 (broadcastInDim S2101 ![] bcast_S_S2101 : (⟨S_, .f32⟩ : BufTy).Contents (Elt F) → (⟨S2101, .f32⟩ : BufTy).Contents (Elt F)), -- %140 = stablehlo.broadcast_in_dim %cst_11, dims = [] : (tensor<f32>) -> tensor<2101xf32>  @ reference:31
    StableHlo.binary main_v125 main_v140 main_v141 (subf : (⟨S2101, .f32⟩ : BufTy).Contents (Elt F) → (⟨S2101, .f32⟩ : BufTy).Contents (Elt F) → (⟨S2101, .f32⟩ : BufTy).Contents (Elt F)), -- %141 = stablehlo.subtract %125, %140 : tensor<2101xf32>  @ reference:31
    StableHlo.binary main_v139 main_v141 main_v142 (mulf : (⟨S2101, .f32⟩ : BufTy).Contents (Elt F) → (⟨S2101, .f32⟩ : BufTy).Contents (Elt F) → (⟨S2101, .f32⟩ : BufTy).Contents (Elt F)), -- %142 = stablehlo.multiply %139, %141 : tensor<2101xf32>  @ reference:31
    StableHlo.nullary main_cst_12 (constant S_ .f32 0x40800000#32), -- %cst_12 = stablehlo.constant dense<4.000000e+00> : tensor<f32>
    StableHlo.unary main_cst_12 main_v143 (broadcastInDim S2101 ![] bcast_S_S2101 : (⟨S_, .f32⟩ : BufTy).Contents (Elt F) → (⟨S2101, .f32⟩ : BufTy).Contents (Elt F)), -- %143 = stablehlo.broadcast_in_dim %cst_12, dims = [] : (tensor<f32>) -> tensor<2101xf32>  @ reference:31
    StableHlo.binary main_v142 main_v143 main_v144 (Host.divf : (⟨S2101, .f32⟩ : BufTy).Contents (Elt F) → (⟨S2101, .f32⟩ : BufTy).Contents (Elt F) → (⟨S2101, .f32⟩ : BufTy).Contents (Elt F)), -- %144 = stablehlo.divide %142, %143 : tensor<2101xf32>  @ reference:31
    StableHlo.nullary main_cst_13 (constant S_ .f32 0x40000000#32), -- %cst_13 = stablehlo.constant dense<2.000000e+00> : tensor<f32>
    StableHlo.unary main_cst_13 main_v145 (broadcastInDim S2101 ![] bcast_S_S2101 : (⟨S_, .f32⟩ : BufTy).Contents (Elt F) → (⟨S2101, .f32⟩ : BufTy).Contents (Elt F)), -- %145 = stablehlo.broadcast_in_dim %cst_13, dims = [] : (tensor<f32>) -> tensor<2101xf32>  @ reference:35
    StableHlo.binary main_v127 main_v145 main_v146 (Host.divf : (⟨S2101, .f32⟩ : BufTy).Contents (Elt F) → (⟨S2101, .f32⟩ : BufTy).Contents (Elt F) → (⟨S2101, .f32⟩ : BufTy).Contents (Elt F)), -- %146 = stablehlo.divide %127, %145 : tensor<2101xf32>  @ reference:35
    StableHlo.nullary main_cst_14 (constant S_ .f32 0x3ED38BCB#32), -- %cst_14 = stablehlo.constant dense<0.413175911> : tensor<f32>
    StableHlo.unary main_cst_14 main_v147 (broadcastInDim S2101 ![] bcast_S_S2101 : (⟨S_, .f32⟩ : BufTy).Contents (Elt F) → (⟨S2101, .f32⟩ : BufTy).Contents (Elt F)), -- %147 = stablehlo.broadcast_in_dim %cst_14, dims = [] : (tensor<f32>) -> tensor<2101xf32>  @ reference:35
    StableHlo.binary main_v147 main_v146 main_v148 (subf : (⟨S2101, .f32⟩ : BufTy).Contents (Elt F) → (⟨S2101, .f32⟩ : BufTy).Contents (Elt F) → (⟨S2101, .f32⟩ : BufTy).Contents (Elt F)), -- %148 = stablehlo.subtract %147, %146 : tensor<2101xf32>  @ reference:35
    StableHlo.binary main_v148 main_v148 main_v149 (mulf : (⟨S2101, .f32⟩ : BufTy).Contents (Elt F) → (⟨S2101, .f32⟩ : BufTy).Contents (Elt F) → (⟨S2101, .f32⟩ : BufTy).Contents (Elt F)), -- %149 = stablehlo.multiply %148, %148 : tensor<2101xf32>  @ reference:35
    StableHlo.binary main_v149 main_v144 main_v150 (addf : (⟨S2101, .f32⟩ : BufTy).Contents (Elt F) → (⟨S2101, .f32⟩ : BufTy).Contents (Elt F) → (⟨S2101, .f32⟩ : BufTy).Contents (Elt F)), -- %150 = stablehlo.add %149, %144 : tensor<2101xf32>  @ reference:35
    StableHlo.unary main_v150 main_v151 (Host.sqrt : (⟨S2101, .f32⟩ : BufTy).Contents (Elt F) → (⟨S2101, .f32⟩ : BufTy).Contents (Elt F)), -- %151 = stablehlo.sqrt %150 : tensor<2101xf32>  @ reference:35
    StableHlo.nullary main_cst_15 (constant S_ .f32 0x40000000#32), -- %cst_15 = stablehlo.constant dense<2.000000e+00> : tensor<f32>
    StableHlo.unary main_cst_15 main_v152 (broadcastInDim S2101 ![] bcast_S_S2101 : (⟨S_, .f32⟩ : BufTy).Contents (Elt F) → (⟨S2101, .f32⟩ : BufTy).Contents (Elt F)), -- %152 = stablehlo.broadcast_in_dim %cst_15, dims = [] : (tensor<f32>) -> tensor<2101xf32>  @ reference:38
    StableHlo.binary main_v127 main_v152 main_v153 (Host.divf : (⟨S2101, .f32⟩ : BufTy).Contents (Elt F) → (⟨S2101, .f32⟩ : BufTy).Contents (Elt F) → (⟨S2101, .f32⟩ : BufTy).Contents (Elt F)), -- %153 = stablehlo.divide %127, %152 : tensor<2101xf32>  @ reference:38
    StableHlo.nullary main_cst_16 (constant S_ .f32 0x3ED38BCB#32), -- %cst_16 = stablehlo.constant dense<0.413175911> : tensor<f32>
    StableHlo.unary main_cst_16 main_v154 (broadcastInDim S2101 ![] bcast_S_S2101 : (⟨S_, .f32⟩ : BufTy).Contents (Elt F) → (⟨S2101, .f32⟩ : BufTy).Contents (Elt F)), -- %154 = stablehlo.broadcast_in_dim %cst_16, dims = [] : (tensor<f32>) -> tensor<2101xf32>  @ reference:38
    StableHlo.binary main_v154 main_v153 main_v155 (subf : (⟨S2101, .f32⟩ : BufTy).Contents (Elt F) → (⟨S2101, .f32⟩ : BufTy).Contents (Elt F) → (⟨S2101, .f32⟩ : BufTy).Contents (Elt F)), -- %155 = stablehlo.subtract %154, %153 : tensor<2101xf32>  @ reference:38
    StableHlo.binary main_v151 main_v155 main_v156 (subf : (⟨S2101, .f32⟩ : BufTy).Contents (Elt F) → (⟨S2101, .f32⟩ : BufTy).Contents (Elt F) → (⟨S2101, .f32⟩ : BufTy).Contents (Elt F)), -- %156 = stablehlo.subtract %151, %155 : tensor<2101xf32>  @ reference:39
    StableHlo.binary main_v144 main_v144 main_v157 (mulf : (⟨S2101, .f32⟩ : BufTy).Contents (Elt F) → (⟨S2101, .f32⟩ : BufTy).Contents (Elt F) → (⟨S2101, .f32⟩ : BufTy).Contents (Elt F)), -- %157 = stablehlo.multiply %144, %144 : tensor<2101xf32>  @ reference:40
    StableHlo.binary main_v156 main_v156 main_v158 (mulf : (⟨S2101, .f32⟩ : BufTy).Contents (Elt F) → (⟨S2101, .f32⟩ : BufTy).Contents (Elt F) → (⟨S2101, .f32⟩ : BufTy).Contents (Elt F)), -- %158 = stablehlo.multiply %156, %156 : tensor<2101xf32>  @ reference:41
    StableHlo.binary main_v158 main_v156 main_v159 (mulf : (⟨S2101, .f32⟩ : BufTy).Contents (Elt F) → (⟨S2101, .f32⟩ : BufTy).Contents (Elt F) → (⟨S2101, .f32⟩ : BufTy).Contents (Elt F)), -- %159 = stablehlo.multiply %158, %156 : tensor<2101xf32>  @ reference:41
    StableHlo.nullary main_cst_17 (constant S_ .f32 0x40C00000#32), -- %cst_17 = stablehlo.constant dense<6.000000e+00> : tensor<f32>
    StableHlo.unary main_cst_17 main_v160 (broadcastInDim S2101 ![] bcast_S_S2101 : (⟨S_, .f32⟩ : BufTy).Contents (Elt F) → (⟨S2101, .f32⟩ : BufTy).Contents (Elt F)) ] -- %160 = stablehlo.broadcast_in_dim %cst_17, dims = [] : (tensor<f32>) -> tensor<2101xf32>  @ reference:41

/-- @main's operations 181 … 240 of 553 (window main_part3). -/
abbrev ops3 : List (HloOp τ sig (Elt F)) :=
  [ StableHlo.binary main_v160 main_v159 main_v161 (mulf : (⟨S2101, .f32⟩ : BufTy).Contents (Elt F) → (⟨S2101, .f32⟩ : BufTy).Contents (Elt F) → (⟨S2101, .f32⟩ : BufTy).Contents (Elt F)), -- %161 = stablehlo.multiply %160, %159 : tensor<2101xf32>  @ reference:41
    StableHlo.binary main_v157 main_v161 main_v162 (Host.divf : (⟨S2101, .f32⟩ : BufTy).Contents (Elt F) → (⟨S2101, .f32⟩ : BufTy).Contents (Elt F) → (⟨S2101, .f32⟩ : BufTy).Contents (Elt F)), -- %162 = stablehlo.divide %157, %161 : tensor<2101xf32>  @ reference:41
    StableHlo.binary main_v144 main_v156 main_v163 (Host.divf : (⟨S2101, .f32⟩ : BufTy).Contents (Elt F) → (⟨S2101, .f32⟩ : BufTy).Contents (Elt F) → (⟨S2101, .f32⟩ : BufTy).Contents (Elt F)), -- %163 = stablehlo.divide %144, %156 : tensor<2101xf32>  @ reference:41
    StableHlo.binary main_v162 main_v163 main_v164 (addf : (⟨S2101, .f32⟩ : BufTy).Contents (Elt F) → (⟨S2101, .f32⟩ : BufTy).Contents (Elt F) → (⟨S2101, .f32⟩ : BufTy).Contents (Elt F)), -- %164 = stablehlo.add %162, %163 : tensor<2101xf32>  @ reference:41
    StableHlo.nullary main_cst_18 (constant S_ .f32 0x40000000#32), -- %cst_18 = stablehlo.constant dense<2.000000e+00> : tensor<f32>
    StableHlo.unary main_cst_18 main_v165 (broadcastInDim S2101 ![] bcast_S_S2101 : (⟨S_, .f32⟩ : BufTy).Contents (Elt F) → (⟨S2101, .f32⟩ : BufTy).Contents (Elt F)), -- %165 = stablehlo.broadcast_in_dim %cst_18, dims = [] : (tensor<f32>) -> tensor<2101xf32>  @ reference:41
    StableHlo.binary main_v156 main_v165 main_v166 (Host.divf : (⟨S2101, .f32⟩ : BufTy).Contents (Elt F) → (⟨S2101, .f32⟩ : BufTy).Contents (Elt F) → (⟨S2101, .f32⟩ : BufTy).Contents (Elt F)), -- %166 = stablehlo.divide %156, %165 : tensor<2101xf32>  @ reference:41
    StableHlo.binary main_v164 main_v166 main_v167 (subf : (⟨S2101, .f32⟩ : BufTy).Contents (Elt F) → (⟨S2101, .f32⟩ : BufTy).Contents (Elt F) → (⟨S2101, .f32⟩ : BufTy).Contents (Elt F)), -- %167 = stablehlo.subtract %164, %166 : tensor<2101xf32>  @ reference:41
    StableHlo.binary main_v136 main_v136 main_v168 (mulf : (⟨S2101, .f32⟩ : BufTy).Contents (Elt F) → (⟨S2101, .f32⟩ : BufTy).Contents (Elt F) → (⟨S2101, .f32⟩ : BufTy).Contents (Elt F)), -- %168 = stablehlo.multiply %136, %136 : tensor<2101xf32>  @ reference:41
    StableHlo.binary main_v168 main_v136 main_v169 (mulf : (⟨S2101, .f32⟩ : BufTy).Contents (Elt F) → (⟨S2101, .f32⟩ : BufTy).Contents (Elt F) → (⟨S2101, .f32⟩ : BufTy).Contents (Elt F)), -- %169 = stablehlo.multiply %168, %136 : tensor<2101xf32>  @ reference:41
    StableHlo.nullary main_cst_19 (constant S_ .f32 0x40C00000#32), -- %cst_19 = stablehlo.constant dense<6.000000e+00> : tensor<f32>
    StableHlo.unary main_cst_19 main_v170 (broadcastInDim S2101 ![] bcast_S_S2101 : (⟨S_, .f32⟩ : BufTy).Contents (Elt F) → (⟨S2101, .f32⟩ : BufTy).Contents (Elt F)), -- %170 = stablehlo.broadcast_in_dim %cst_19, dims = [] : (tensor<f32>) -> tensor<2101xf32>  @ reference:41
    StableHlo.binary main_v170 main_v169 main_v171 (mulf : (⟨S2101, .f32⟩ : BufTy).Contents (Elt F) → (⟨S2101, .f32⟩ : BufTy).Contents (Elt F) → (⟨S2101, .f32⟩ : BufTy).Contents (Elt F)), -- %171 = stablehlo.multiply %170, %169 : tensor<2101xf32>  @ reference:41
    StableHlo.binary main_v157 main_v171 main_v172 (Host.divf : (⟨S2101, .f32⟩ : BufTy).Contents (Elt F) → (⟨S2101, .f32⟩ : BufTy).Contents (Elt F) → (⟨S2101, .f32⟩ : BufTy).Contents (Elt F)), -- %172 = stablehlo.divide %157, %171 : tensor<2101xf32>  @ reference:41
    StableHlo.binary main_v144 main_v136 main_v173 (Host.divf : (⟨S2101, .f32⟩ : BufTy).Contents (Elt F) → (⟨S2101, .f32⟩ : BufTy).Contents (Elt F) → (⟨S2101, .f32⟩ : BufTy).Contents (Elt F)), -- %173 = stablehlo.divide %144, %136 : tensor<2101xf32>  @ reference:41
    StableHlo.binary main_v172 main_v173 main_v174 (addf : (⟨S2101, .f32⟩ : BufTy).Contents (Elt F) → (⟨S2101, .f32⟩ : BufTy).Contents (Elt F) → (⟨S2101, .f32⟩ : BufTy).Contents (Elt F)), -- %174 = stablehlo.add %172, %173 : tensor<2101xf32>  @ reference:41
    StableHlo.nullary main_cst_20 (constant S_ .f32 0x40000000#32), -- %cst_20 = stablehlo.constant dense<2.000000e+00> : tensor<f32>
    StableHlo.unary main_cst_20 main_v175 (broadcastInDim S2101 ![] bcast_S_S2101 : (⟨S_, .f32⟩ : BufTy).Contents (Elt F) → (⟨S2101, .f32⟩ : BufTy).Contents (Elt F)), -- %175 = stablehlo.broadcast_in_dim %cst_20, dims = [] : (tensor<f32>) -> tensor<2101xf32>  @ reference:41
    StableHlo.binary main_v136 main_v175 main_v176 (Host.divf : (⟨S2101, .f32⟩ : BufTy).Contents (Elt F) → (⟨S2101, .f32⟩ : BufTy).Contents (Elt F) → (⟨S2101, .f32⟩ : BufTy).Contents (Elt F)), -- %176 = stablehlo.divide %136, %175 : tensor<2101xf32>  @ reference:41
    StableHlo.binary main_v174 main_v176 main_v177 (subf : (⟨S2101, .f32⟩ : BufTy).Contents (Elt F) → (⟨S2101, .f32⟩ : BufTy).Contents (Elt F) → (⟨S2101, .f32⟩ : BufTy).Contents (Elt F)), -- %177 = stablehlo.subtract %174, %176 : tensor<2101xf32>  @ reference:41
    StableHlo.binary main_v167 main_v177 main_v178 (subf : (⟨S2101, .f32⟩ : BufTy).Contents (Elt F) → (⟨S2101, .f32⟩ : BufTy).Contents (Elt F) → (⟨S2101, .f32⟩ : BufTy).Contents (Elt F)), -- %178 = stablehlo.subtract %167, %177 : tensor<2101xf32>  @ reference:41
    StableHlo.nullary main_cst_21 (constant S_ .f32 0xC0000000#32), -- %cst_21 = stablehlo.constant dense<-2.000000e+00> : tensor<f32>
    StableHlo.unary main_cst_21 main_v179 (broadcastInDim S2101 ![] bcast_S_S2101 : (⟨S_, .f32⟩ : BufTy).Contents (Elt F) → (⟨S2101, .f32⟩ : BufTy).Contents (Elt F)), -- %179 = stablehlo.broadcast_in_dim %cst_21, dims = [] : (tensor<f32>) -> tensor<2101xf32>  @ reference:42
    StableHlo.binary main_v179 main_v125 main_v180 (mulf : (⟨S2101, .f32⟩ : BufTy).Contents (Elt F) → (⟨S2101, .f32⟩ : BufTy).Contents (Elt F) → (⟨S2101, .f32⟩ : BufTy).Contents (Elt F)), -- %180 = stablehlo.multiply %179, %125 : tensor<2101xf32>  @ reference:42
    StableHlo.binary main_v156 main_v136 main_v181 (subf : (⟨S2101, .f32⟩ : BufTy).Contents (Elt F) → (⟨S2101, .f32⟩ : BufTy).Contents (Elt F) → (⟨S2101, .f32⟩ : BufTy).Contents (Elt F)), -- %181 = stablehlo.subtract %156, %136 : tensor<2101xf32>  @ reference:42
    StableHlo.binary main_v180 main_v181 main_v182 (mulf : (⟨S2101, .f32⟩ : BufTy).Contents (Elt F) → (⟨S2101, .f32⟩ : BufTy).Contents (Elt F) → (⟨S2101, .f32⟩ : BufTy).Contents (Elt F)), -- %182 = stablehlo.multiply %180, %181 : tensor<2101xf32>  @ reference:42
    StableHlo.binary main_v127 main_v127 main_v183 (mulf : (⟨S2101, .f32⟩ : BufTy).Contents (Elt F) → (⟨S2101, .f32⟩ : BufTy).Contents (Elt F) → (⟨S2101, .f32⟩ : BufTy).Contents (Elt F)), -- %183 = stablehlo.multiply %127, %127 : tensor<2101xf32>  @ reference:42
    StableHlo.binary main_v182 main_v183 main_v184 (Host.divf : (⟨S2101, .f32⟩ : BufTy).Contents (Elt F) → (⟨S2101, .f32⟩ : BufTy).Contents (Elt F) → (⟨S2101, .f32⟩ : BufTy).Contents (Elt F)), -- %184 = stablehlo.divide %182, %183 : tensor<2101xf32>  @ reference:42
    StableHlo.binary main_v129 main_v129 main_v185 (mulf : (⟨S2101, .f32⟩ : BufTy).Contents (Elt F) → (⟨S2101, .f32⟩ : BufTy).Contents (Elt F) → (⟨S2101, .f32⟩ : BufTy).Contents (Elt F)), -- %185 = stablehlo.multiply %129, %129 : tensor<2101xf32>  @ reference:43
    StableHlo.nullary main_cst_22 (constant S_ .f32 0xC0000000#32), -- %cst_22 = stablehlo.constant dense<-2.000000e+00> : tensor<f32>
    StableHlo.unary main_cst_22 main_v186 (broadcastInDim S2101 ![] bcast_S_S2101 : (⟨S_, .f32⟩ : BufTy).Contents (Elt F) → (⟨S2101, .f32⟩ : BufTy).Contents (Elt F)), -- %186 = stablehlo.broadcast_in_dim %cst_22, dims = [] : (tensor<f32>) -> tensor<2101xf32>  @ reference:44
    StableHlo.binary main_v186 main_v125 main_v187 (mulf : (⟨S2101, .f32⟩ : BufTy).Contents (Elt F) → (⟨S2101, .f32⟩ : BufTy).Contents (Elt F) → (⟨S2101, .f32⟩ : BufTy).Contents (Elt F)), -- %187 = stablehlo.multiply %186, %125 : tensor<2101xf32>  @ reference:44
    StableHlo.binary main_v187 main_v127 main_v188 (mulf : (⟨S2101, .f32⟩ : BufTy).Contents (Elt F) → (⟨S2101, .f32⟩ : BufTy).Contents (Elt F) → (⟨S2101, .f32⟩ : BufTy).Contents (Elt F)), -- %188 = stablehlo.multiply %187, %127 : tensor<2101xf32>  @ reference:44
    StableHlo.binary main_v156 main_v136 main_v189 (Host.divf : (⟨S2101, .f32⟩ : BufTy).Contents (Elt F) → (⟨S2101, .f32⟩ : BufTy).Contents (Elt F) → (⟨S2101, .f32⟩ : BufTy).Contents (Elt F)), -- %189 = stablehlo.divide %156, %136 : tensor<2101xf32>  @ reference:44
    StableHlo.unary main_v189 main_v190 (Host.log : (⟨S2101, .f32⟩ : BufTy).Contents (Elt F) → (⟨S2101, .f32⟩ : BufTy).Contents (Elt F)), -- %190 = stablehlo.log %189 : tensor<2101xf32>  @ reference:44
    StableHlo.binary main_v188 main_v190 main_v191 (mulf : (⟨S2101, .f32⟩ : BufTy).Contents (Elt F) → (⟨S2101, .f32⟩ : BufTy).Contents (Elt F) → (⟨S2101, .f32⟩ : BufTy).Contents (Elt F)), -- %191 = stablehlo.multiply %188, %190 : tensor<2101xf32>  @ reference:44
    StableHlo.binary main_v191 main_v185 main_v192 (Host.divf : (⟨S2101, .f32⟩ : BufTy).Contents (Elt F) → (⟨S2101, .f32⟩ : BufTy).Contents (Elt F) → (⟨S2101, .f32⟩ : BufTy).Contents (Elt F)), -- %192 = stablehlo.divide %191, %185 : tensor<2101xf32>  @ reference:44
    StableHlo.nullary main_cst_23 (constant S_ .f32 0x3F800000#32), -- %cst_23 = stablehlo.constant dense<1.000000e+00> : tensor<f32>
    StableHlo.unary main_cst_23 main_v193 (broadcastInDim S2101 ![] bcast_S_S2101 : (⟨S_, .f32⟩ : BufTy).Contents (Elt F) → (⟨S2101, .f32⟩ : BufTy).Contents (Elt F)), -- %193 = stablehlo.broadcast_in_dim %cst_23, dims = [] : (tensor<f32>) -> tensor<2101xf32>  @ reference:45
    StableHlo.binary main_v193 main_v156 main_v194 (Host.divf : (⟨S2101, .f32⟩ : BufTy).Contents (Elt F) → (⟨S2101, .f32⟩ : BufTy).Contents (Elt F) → (⟨S2101, .f32⟩ : BufTy).Contents (Elt F)), -- %194 = stablehlo.divide %193, %156 : tensor<2101xf32>  @ reference:45
    StableHlo.nullary main_cst_24 (constant S_ .f32 0x3F800000#32), -- %cst_24 = stablehlo.constant dense<1.000000e+00> : tensor<f32>
    StableHlo.unary main_cst_24 main_v195 (broadcastInDim S2101 ![] bcast_S_S2101 : (⟨S_, .f32⟩ : BufTy).Contents (Elt F) → (⟨S2101, .f32⟩ : BufTy).Contents (Elt F)), -- %195 = stablehlo.broadcast_in_dim %cst_24, dims = [] : (tensor<f32>) -> tensor<2101xf32>  @ reference:45
    StableHlo.binary main_v195 main_v136 main_v196 (Host.divf : (⟨S2101, .f32⟩ : BufTy).Contents (Elt F) → (⟨S2101, .f32⟩ : BufTy).Contents (Elt F) → (⟨S2101, .f32⟩ : BufTy).Contents (Elt F)), -- %196 = stablehlo.divide %195, %136 : tensor<2101xf32>  @ reference:45
    StableHlo.binary main_v194 main_v196 main_v197 (subf : (⟨S2101, .f32⟩ : BufTy).Contents (Elt F) → (⟨S2101, .f32⟩ : BufTy).Contents (Elt F) → (⟨S2101, .f32⟩ : BufTy).Contents (Elt F)), -- %197 = stablehlo.subtract %194, %196 : tensor<2101xf32>  @ reference:45
    StableHlo.binary main_v125 main_v197 main_v198 (mulf : (⟨S2101, .f32⟩ : BufTy).Contents (Elt F) → (⟨S2101, .f32⟩ : BufTy).Contents (Elt F) → (⟨S2101, .f32⟩ : BufTy).Contents (Elt F)), -- %198 = stablehlo.multiply %125, %197 : tensor<2101xf32>  @ reference:45
    StableHlo.nullary main_cst_25 (constant S_ .f32 0x40000000#32), -- %cst_25 = stablehlo.constant dense<2.000000e+00> : tensor<f32>
    StableHlo.unary main_cst_25 main_v199 (broadcastInDim S2101 ![] bcast_S_S2101 : (⟨S_, .f32⟩ : BufTy).Contents (Elt F) → (⟨S2101, .f32⟩ : BufTy).Contents (Elt F)), -- %199 = stablehlo.broadcast_in_dim %cst_25, dims = [] : (tensor<f32>) -> tensor<2101xf32>  @ reference:45
    StableHlo.binary main_v198 main_v199 main_v200 (Host.divf : (⟨S2101, .f32⟩ : BufTy).Contents (Elt F) → (⟨S2101, .f32⟩ : BufTy).Contents (Elt F) → (⟨S2101, .f32⟩ : BufTy).Contents (Elt F)), -- %200 = stablehlo.divide %198, %199 : tensor<2101xf32>  @ reference:45
    StableHlo.binary main_v125 main_v125 main_v201 (mulf : (⟨S2101, .f32⟩ : BufTy).Contents (Elt F) → (⟨S2101, .f32⟩ : BufTy).Contents (Elt F) → (⟨S2101, .f32⟩ : BufTy).Contents (Elt F)), -- %201 = stablehlo.multiply %125, %125 : tensor<2101xf32>  @ reference:46
    StableHlo.binary main_v127 main_v127 main_v202 (mulf : (⟨S2101, .f32⟩ : BufTy).Contents (Elt F) → (⟨S2101, .f32⟩ : BufTy).Contents (Elt F) → (⟨S2101, .f32⟩ : BufTy).Contents (Elt F)), -- %202 = stablehlo.multiply %127, %127 : tensor<2101xf32>  @ reference:47
    StableHlo.binary main_v202 main_v127 main_v203 (mulf : (⟨S2101, .f32⟩ : BufTy).Contents (Elt F) → (⟨S2101, .f32⟩ : BufTy).Contents (Elt F) → (⟨S2101, .f32⟩ : BufTy).Contents (Elt F)), -- %203 = stablehlo.multiply %202, %127 : tensor<2101xf32>  @ reference:47
    StableHlo.nullary main_cst_26 (constant S_ .f32 0x40000000#32), -- %cst_26 = stablehlo.constant dense<2.000000e+00> : tensor<f32>
    StableHlo.unary main_cst_26 main_v204 (broadcastInDim S2101 ![] bcast_S_S2101 : (⟨S_, .f32⟩ : BufTy).Contents (Elt F) → (⟨S2101, .f32⟩ : BufTy).Contents (Elt F)), -- %204 = stablehlo.broadcast_in_dim %cst_26, dims = [] : (tensor<f32>) -> tensor<2101xf32>  @ reference:48
    StableHlo.binary main_v204 main_v127 main_v205 (mulf : (⟨S2101, .f32⟩ : BufTy).Contents (Elt F) → (⟨S2101, .f32⟩ : BufTy).Contents (Elt F) → (⟨S2101, .f32⟩ : BufTy).Contents (Elt F)), -- %205 = stablehlo.multiply %204, %127 : tensor<2101xf32>  @ reference:48
    StableHlo.binary main_v205 main_v136 main_v206 (mulf : (⟨S2101, .f32⟩ : BufTy).Contents (Elt F) → (⟨S2101, .f32⟩ : BufTy).Contents (Elt F) → (⟨S2101, .f32⟩ : BufTy).Contents (Elt F)), -- %206 = stablehlo.multiply %205, %136 : tensor<2101xf32>  @ reference:48
    StableHlo.binary main_v206 main_v185 main_v207 (subf : (⟨S2101, .f32⟩ : BufTy).Contents (Elt F) → (⟨S2101, .f32⟩ : BufTy).Contents (Elt F) → (⟨S2101, .f32⟩ : BufTy).Contents (Elt F)), -- %207 = stablehlo.subtract %206, %185 : tensor<2101xf32>  @ reference:48
    StableHlo.nullary main_cst_27 (constant S_ .f32 0x40000000#32), -- %cst_27 = stablehlo.constant dense<2.000000e+00> : tensor<f32>
    StableHlo.unary main_cst_27 main_v208 (broadcastInDim S2101 ![] bcast_S_S2101 : (⟨S_, .f32⟩ : BufTy).Contents (Elt F) → (⟨S2101, .f32⟩ : BufTy).Contents (Elt F)), -- %208 = stablehlo.broadcast_in_dim %cst_27, dims = [] : (tensor<f32>) -> tensor<2101xf32>  @ reference:49
    StableHlo.binary main_v208 main_v127 main_v209 (mulf : (⟨S2101, .f32⟩ : BufTy).Contents (Elt F) → (⟨S2101, .f32⟩ : BufTy).Contents (Elt F) → (⟨S2101, .f32⟩ : BufTy).Contents (Elt F)), -- %209 = stablehlo.multiply %208, %127 : tensor<2101xf32>  @ reference:49
    StableHlo.binary main_v209 main_v156 main_v210 (mulf : (⟨S2101, .f32⟩ : BufTy).Contents (Elt F) → (⟨S2101, .f32⟩ : BufTy).Contents (Elt F) → (⟨S2101, .f32⟩ : BufTy).Contents (Elt F)) ] -- %210 = stablehlo.multiply %209, %156 : tensor<2101xf32>  @ reference:49

/-- @main's operations 241 … 300 of 553 (window main_part4). -/
abbrev ops4 : List (HloOp τ sig (Elt F)) :=
  [ StableHlo.binary main_v210 main_v185 main_v211 (subf : (⟨S2101, .f32⟩ : BufTy).Contents (Elt F) → (⟨S2101, .f32⟩ : BufTy).Contents (Elt F) → (⟨S2101, .f32⟩ : BufTy).Contents (Elt F)), -- %211 = stablehlo.subtract %210, %185 : tensor<2101xf32>  @ reference:49
    StableHlo.nullary main_cst_28 (constant S_ .f32 0x41800000#32), -- %cst_28 = stablehlo.constant dense<1.600000e+01> : tensor<f32>
    StableHlo.unary main_cst_28 main_v212 (broadcastInDim S2101 ![] bcast_S_S2101 : (⟨S_, .f32⟩ : BufTy).Contents (Elt F) → (⟨S2101, .f32⟩ : BufTy).Contents (Elt F)), -- %212 = stablehlo.broadcast_in_dim %cst_28, dims = [] : (tensor<f32>) -> tensor<2101xf32>  @ reference:50
    StableHlo.binary main_v212 main_v201 main_v213 (mulf : (⟨S2101, .f32⟩ : BufTy).Contents (Elt F) → (⟨S2101, .f32⟩ : BufTy).Contents (Elt F) → (⟨S2101, .f32⟩ : BufTy).Contents (Elt F)), -- %213 = stablehlo.multiply %212, %201 : tensor<2101xf32>  @ reference:50
    StableHlo.nullary main_cst_29 (constant S_ .f32 0x3F800000#32), -- %cst_29 = stablehlo.constant dense<1.000000e+00> : tensor<f32>
    StableHlo.unary main_cst_29 main_v214 (broadcastInDim S2101 ![] bcast_S_S2101 : (⟨S_, .f32⟩ : BufTy).Contents (Elt F) → (⟨S2101, .f32⟩ : BufTy).Contents (Elt F)), -- %214 = stablehlo.broadcast_in_dim %cst_29, dims = [] : (tensor<f32>) -> tensor<2101xf32>  @ reference:50
    StableHlo.binary main_v201 main_v214 main_v215 (addf : (⟨S2101, .f32⟩ : BufTy).Contents (Elt F) → (⟨S2101, .f32⟩ : BufTy).Contents (Elt F) → (⟨S2101, .f32⟩ : BufTy).Contents (Elt F)), -- %215 = stablehlo.add %201, %214 : tensor<2101xf32>  @ reference:50
    StableHlo.binary main_v213 main_v215 main_v216 (mulf : (⟨S2101, .f32⟩ : BufTy).Contents (Elt F) → (⟨S2101, .f32⟩ : BufTy).Contents (Elt F) → (⟨S2101, .f32⟩ : BufTy).Contents (Elt F)), -- %216 = stablehlo.multiply %213, %215 : tensor<2101xf32>  @ reference:50
    StableHlo.binary main_v211 main_v207 main_v217 (Host.divf : (⟨S2101, .f32⟩ : BufTy).Contents (Elt F) → (⟨S2101, .f32⟩ : BufTy).Contents (Elt F) → (⟨S2101, .f32⟩ : BufTy).Contents (Elt F)), -- %217 = stablehlo.divide %211, %207 : tensor<2101xf32>  @ reference:50
    StableHlo.unary main_v217 main_v218 (Host.log : (⟨S2101, .f32⟩ : BufTy).Contents (Elt F) → (⟨S2101, .f32⟩ : BufTy).Contents (Elt F)), -- %218 = stablehlo.log %217 : tensor<2101xf32>  @ reference:50
    StableHlo.binary main_v216 main_v218 main_v219 (mulf : (⟨S2101, .f32⟩ : BufTy).Contents (Elt F) → (⟨S2101, .f32⟩ : BufTy).Contents (Elt F) → (⟨S2101, .f32⟩ : BufTy).Contents (Elt F)), -- %219 = stablehlo.multiply %216, %218 : tensor<2101xf32>  @ reference:50
    StableHlo.binary main_v203 main_v185 main_v220 (mulf : (⟨S2101, .f32⟩ : BufTy).Contents (Elt F) → (⟨S2101, .f32⟩ : BufTy).Contents (Elt F) → (⟨S2101, .f32⟩ : BufTy).Contents (Elt F)), -- %220 = stablehlo.multiply %203, %185 : tensor<2101xf32>  @ reference:50
    StableHlo.binary main_v219 main_v220 main_v221 (Host.divf : (⟨S2101, .f32⟩ : BufTy).Contents (Elt F) → (⟨S2101, .f32⟩ : BufTy).Contents (Elt F) → (⟨S2101, .f32⟩ : BufTy).Contents (Elt F)), -- %221 = stablehlo.divide %219, %220 : tensor<2101xf32>  @ reference:50
    StableHlo.binary main_v125 main_v125 main_v222 (mulf : (⟨S2101, .f32⟩ : BufTy).Contents (Elt F) → (⟨S2101, .f32⟩ : BufTy).Contents (Elt F) → (⟨S2101, .f32⟩ : BufTy).Contents (Elt F)), -- %222 = stablehlo.multiply %125, %125 : tensor<2101xf32>  @ reference:51
    StableHlo.binary main_v222 main_v125 main_v223 (mulf : (⟨S2101, .f32⟩ : BufTy).Contents (Elt F) → (⟨S2101, .f32⟩ : BufTy).Contents (Elt F) → (⟨S2101, .f32⟩ : BufTy).Contents (Elt F)), -- %223 = stablehlo.multiply %222, %125 : tensor<2101xf32>  @ reference:51
    StableHlo.nullary main_cst_30 (constant S_ .f32 0x41800000#32), -- %cst_30 = stablehlo.constant dense<1.600000e+01> : tensor<f32>
    StableHlo.unary main_cst_30 main_v224 (broadcastInDim S2101 ![] bcast_S_S2101 : (⟨S_, .f32⟩ : BufTy).Contents (Elt F) → (⟨S2101, .f32⟩ : BufTy).Contents (Elt F)), -- %224 = stablehlo.broadcast_in_dim %cst_30, dims = [] : (tensor<f32>) -> tensor<2101xf32>  @ reference:51
    StableHlo.binary main_v224 main_v223 main_v225 (mulf : (⟨S2101, .f32⟩ : BufTy).Contents (Elt F) → (⟨S2101, .f32⟩ : BufTy).Contents (Elt F) → (⟨S2101, .f32⟩ : BufTy).Contents (Elt F)), -- %225 = stablehlo.multiply %224, %223 : tensor<2101xf32>  @ reference:51
    StableHlo.nullary main_cst_31 (constant S_ .f32 0x3F800000#32), -- %cst_31 = stablehlo.constant dense<1.000000e+00> : tensor<f32>
    StableHlo.unary main_cst_31 main_v226 (broadcastInDim S2101 ![] bcast_S_S2101 : (⟨S_, .f32⟩ : BufTy).Contents (Elt F) → (⟨S2101, .f32⟩ : BufTy).Contents (Elt F)), -- %226 = stablehlo.broadcast_in_dim %cst_31, dims = [] : (tensor<f32>) -> tensor<2101xf32>  @ reference:51
    StableHlo.binary main_v226 main_v211 main_v227 (Host.divf : (⟨S2101, .f32⟩ : BufTy).Contents (Elt F) → (⟨S2101, .f32⟩ : BufTy).Contents (Elt F) → (⟨S2101, .f32⟩ : BufTy).Contents (Elt F)), -- %227 = stablehlo.divide %226, %211 : tensor<2101xf32>  @ reference:51
    StableHlo.nullary main_cst_32 (constant S_ .f32 0x3F800000#32), -- %cst_32 = stablehlo.constant dense<1.000000e+00> : tensor<f32>
    StableHlo.unary main_cst_32 main_v228 (broadcastInDim S2101 ![] bcast_S_S2101 : (⟨S_, .f32⟩ : BufTy).Contents (Elt F) → (⟨S2101, .f32⟩ : BufTy).Contents (Elt F)), -- %228 = stablehlo.broadcast_in_dim %cst_32, dims = [] : (tensor<f32>) -> tensor<2101xf32>  @ reference:51
    StableHlo.binary main_v228 main_v207 main_v229 (Host.divf : (⟨S2101, .f32⟩ : BufTy).Contents (Elt F) → (⟨S2101, .f32⟩ : BufTy).Contents (Elt F) → (⟨S2101, .f32⟩ : BufTy).Contents (Elt F)), -- %229 = stablehlo.divide %228, %207 : tensor<2101xf32>  @ reference:51
    StableHlo.binary main_v227 main_v229 main_v230 (subf : (⟨S2101, .f32⟩ : BufTy).Contents (Elt F) → (⟨S2101, .f32⟩ : BufTy).Contents (Elt F) → (⟨S2101, .f32⟩ : BufTy).Contents (Elt F)), -- %230 = stablehlo.subtract %227, %229 : tensor<2101xf32>  @ reference:51
    StableHlo.binary main_v225 main_v230 main_v231 (mulf : (⟨S2101, .f32⟩ : BufTy).Contents (Elt F) → (⟨S2101, .f32⟩ : BufTy).Contents (Elt F) → (⟨S2101, .f32⟩ : BufTy).Contents (Elt F)), -- %231 = stablehlo.multiply %225, %230 : tensor<2101xf32>  @ reference:51
    StableHlo.binary main_v231 main_v203 main_v232 (Host.divf : (⟨S2101, .f32⟩ : BufTy).Contents (Elt F) → (⟨S2101, .f32⟩ : BufTy).Contents (Elt F) → (⟨S2101, .f32⟩ : BufTy).Contents (Elt F)), -- %232 = stablehlo.divide %231, %203 : tensor<2101xf32>  @ reference:51
    StableHlo.binary main_v184 main_v192 main_v233 (addf : (⟨S2101, .f32⟩ : BufTy).Contents (Elt F) → (⟨S2101, .f32⟩ : BufTy).Contents (Elt F) → (⟨S2101, .f32⟩ : BufTy).Contents (Elt F)), -- %233 = stablehlo.add %184, %192 : tensor<2101xf32>  @ reference:52
    StableHlo.binary main_v233 main_v200 main_v234 (addf : (⟨S2101, .f32⟩ : BufTy).Contents (Elt F) → (⟨S2101, .f32⟩ : BufTy).Contents (Elt F) → (⟨S2101, .f32⟩ : BufTy).Contents (Elt F)), -- %234 = stablehlo.add %233, %200 : tensor<2101xf32>  @ reference:52
    StableHlo.binary main_v234 main_v221 main_v235 (addf : (⟨S2101, .f32⟩ : BufTy).Contents (Elt F) → (⟨S2101, .f32⟩ : BufTy).Contents (Elt F) → (⟨S2101, .f32⟩ : BufTy).Contents (Elt F)), -- %235 = stablehlo.add %234, %221 : tensor<2101xf32>  @ reference:52
    StableHlo.binary main_v235 main_v232 main_v236 (addf : (⟨S2101, .f32⟩ : BufTy).Contents (Elt F) → (⟨S2101, .f32⟩ : BufTy).Contents (Elt F) → (⟨S2101, .f32⟩ : BufTy).Contents (Elt F)), -- %236 = stablehlo.add %235, %232 : tensor<2101xf32>  @ reference:52
    StableHlo.binary main_v178 main_v236 main_v237 (addf : (⟨S2101, .f32⟩ : BufTy).Contents (Elt F) → (⟨S2101, .f32⟩ : BufTy).Contents (Elt F) → (⟨S2101, .f32⟩ : BufTy).Contents (Elt F)), -- %237 = stablehlo.add %178, %236 : tensor<2101xf32>  @ reference:53
    StableHlo.nullary main_cst_33 (constant S_ .f32 0x3F538BCB#32), -- %cst_33 = stablehlo.constant dense<0.826351821> : tensor<f32>
    StableHlo.unary main_cst_33 main_v238 (broadcastInDim S2101 ![] bcast_S_S2101 : (⟨S_, .f32⟩ : BufTy).Contents (Elt F) → (⟨S2101, .f32⟩ : BufTy).Contents (Elt F)), -- %238 = stablehlo.broadcast_in_dim %cst_33, dims = [] : (tensor<f32>) -> tensor<2101xf32>  @ reference:53
    StableHlo.binary main_v237 main_v238 main_v239 (Host.divf : (⟨S2101, .f32⟩ : BufTy).Contents (Elt F) → (⟨S2101, .f32⟩ : BufTy).Contents (Elt F) → (⟨S2101, .f32⟩ : BufTy).Contents (Elt F)), -- %239 = stablehlo.divide %237, %238 : tensor<2101xf32>  @ reference:53
    StableHlo.nullary main_cst_34 (constant S_ .f32 0x3F800000#32), -- %cst_34 = stablehlo.constant dense<1.000000e+00> : tensor<f32>
    StableHlo.unary main_cst_34 main_v240 (broadcastInDim S2101 ![] bcast_S_S2101 : (⟨S_, .f32⟩ : BufTy).Contents (Elt F) → (⟨S2101, .f32⟩ : BufTy).Contents (Elt F)), -- %240 = stablehlo.broadcast_in_dim %cst_34, dims = [] : (tensor<f32>) -> tensor<2101xf32>  @ reference:64
    StableHlo.binary main_v240 main_v239 main_v241 (subf : (⟨S2101, .f32⟩ : BufTy).Contents (Elt F) → (⟨S2101, .f32⟩ : BufTy).Contents (Elt F) → (⟨S2101, .f32⟩ : BufTy).Contents (Elt F)), -- %241 = stablehlo.subtract %240, %239 : tensor<2101xf32>  @ reference:64
    StableHlo.binary main_arg6 main_arg6 main_v242 (mulf : (⟨S2101, .f32⟩ : BufTy).Contents (Elt F) → (⟨S2101, .f32⟩ : BufTy).Contents (Elt F) → (⟨S2101, .f32⟩ : BufTy).Contents (Elt F)), -- %242 = stablehlo.multiply %arg6, %arg6 : tensor<2101xf32>  @ reference:27
    StableHlo.nullary main_cst_35 (constant S_ .f32 0x3F800000#32), -- %cst_35 = stablehlo.constant dense<1.000000e+00> : tensor<f32>
    StableHlo.unary main_cst_35 main_v243 (broadcastInDim S2101 ![] bcast_S_S2101 : (⟨S_, .f32⟩ : BufTy).Contents (Elt F) → (⟨S2101, .f32⟩ : BufTy).Contents (Elt F)), -- %243 = stablehlo.broadcast_in_dim %cst_35, dims = [] : (tensor<f32>) -> tensor<2101xf32>  @ reference:28
    StableHlo.binary main_v242 main_v243 main_v244 (addf : (⟨S2101, .f32⟩ : BufTy).Contents (Elt F) → (⟨S2101, .f32⟩ : BufTy).Contents (Elt F) → (⟨S2101, .f32⟩ : BufTy).Contents (Elt F)), -- %244 = stablehlo.add %242, %243 : tensor<2101xf32>  @ reference:28
    StableHlo.nullary main_cst_36 (constant S_ .f32 0x3F800000#32), -- %cst_36 = stablehlo.constant dense<1.000000e+00> : tensor<f32>
    StableHlo.unary main_cst_36 main_v245 (broadcastInDim S2101 ![] bcast_S_S2101 : (⟨S_, .f32⟩ : BufTy).Contents (Elt F) → (⟨S2101, .f32⟩ : BufTy).Contents (Elt F)), -- %245 = stablehlo.broadcast_in_dim %cst_36, dims = [] : (tensor<f32>) -> tensor<2101xf32>  @ reference:29
    StableHlo.binary main_v242 main_v245 main_v246 (subf : (⟨S2101, .f32⟩ : BufTy).Contents (Elt F) → (⟨S2101, .f32⟩ : BufTy).Contents (Elt F) → (⟨S2101, .f32⟩ : BufTy).Contents (Elt F)), -- %246 = stablehlo.subtract %242, %245 : tensor<2101xf32>  @ reference:29
    StableHlo.nullary main_cst_37 (constant S_ .f32 0x3F800000#32), -- %cst_37 = stablehlo.constant dense<1.000000e+00> : tensor<f32>
    StableHlo.unary main_cst_37 main_v247 (broadcastInDim S2101 ![] bcast_S_S2101 : (⟨S_, .f32⟩ : BufTy).Contents (Elt F) → (⟨S2101, .f32⟩ : BufTy).Contents (Elt F)), -- %247 = stablehlo.broadcast_in_dim %cst_37, dims = [] : (tensor<f32>) -> tensor<2101xf32>  @ reference:30
    StableHlo.binary main_arg6 main_v247 main_v248 (addf : (⟨S2101, .f32⟩ : BufTy).Contents (Elt F) → (⟨S2101, .f32⟩ : BufTy).Contents (Elt F) → (⟨S2101, .f32⟩ : BufTy).Contents (Elt F)), -- %248 = stablehlo.add %arg6, %247 : tensor<2101xf32>  @ reference:30
    StableHlo.nullary main_cst_38 (constant S_ .f32 0x3F800000#32), -- %cst_38 = stablehlo.constant dense<1.000000e+00> : tensor<f32>
    StableHlo.unary main_cst_38 main_v249 (broadcastInDim S2101 ![] bcast_S_S2101 : (⟨S_, .f32⟩ : BufTy).Contents (Elt F) → (⟨S2101, .f32⟩ : BufTy).Contents (Elt F)), -- %249 = stablehlo.broadcast_in_dim %cst_38, dims = [] : (tensor<f32>) -> tensor<2101xf32>  @ reference:30
    StableHlo.binary main_arg6 main_v249 main_v250 (addf : (⟨S2101, .f32⟩ : BufTy).Contents (Elt F) → (⟨S2101, .f32⟩ : BufTy).Contents (Elt F) → (⟨S2101, .f32⟩ : BufTy).Contents (Elt F)), -- %250 = stablehlo.add %arg6, %249 : tensor<2101xf32>  @ reference:30
    StableHlo.binary main_v248 main_v250 main_v251 (mulf : (⟨S2101, .f32⟩ : BufTy).Contents (Elt F) → (⟨S2101, .f32⟩ : BufTy).Contents (Elt F) → (⟨S2101, .f32⟩ : BufTy).Contents (Elt F)), -- %251 = stablehlo.multiply %248, %250 : tensor<2101xf32>  @ reference:30
    StableHlo.nullary main_cst_39 (constant S_ .f32 0x40000000#32), -- %cst_39 = stablehlo.constant dense<2.000000e+00> : tensor<f32>
    StableHlo.unary main_cst_39 main_v252 (broadcastInDim S2101 ![] bcast_S_S2101 : (⟨S_, .f32⟩ : BufTy).Contents (Elt F) → (⟨S2101, .f32⟩ : BufTy).Contents (Elt F)), -- %252 = stablehlo.broadcast_in_dim %cst_39, dims = [] : (tensor<f32>) -> tensor<2101xf32>  @ reference:30
    StableHlo.binary main_v251 main_v252 main_v253 (Host.divf : (⟨S2101, .f32⟩ : BufTy).Contents (Elt F) → (⟨S2101, .f32⟩ : BufTy).Contents (Elt F) → (⟨S2101, .f32⟩ : BufTy).Contents (Elt F)), -- %253 = stablehlo.divide %251, %252 : tensor<2101xf32>  @ reference:30
    StableHlo.nullary main_cst_40 (constant S_ .f32 0x3F800000#32), -- %cst_40 = stablehlo.constant dense<1.000000e+00> : tensor<f32>
    StableHlo.unary main_cst_40 main_v254 (broadcastInDim S2101 ![] bcast_S_S2101 : (⟨S_, .f32⟩ : BufTy).Contents (Elt F) → (⟨S2101, .f32⟩ : BufTy).Contents (Elt F)), -- %254 = stablehlo.broadcast_in_dim %cst_40, dims = [] : (tensor<f32>) -> tensor<2101xf32>  @ reference:31
    StableHlo.binary main_v242 main_v254 main_v255 (subf : (⟨S2101, .f32⟩ : BufTy).Contents (Elt F) → (⟨S2101, .f32⟩ : BufTy).Contents (Elt F) → (⟨S2101, .f32⟩ : BufTy).Contents (Elt F)), -- %255 = stablehlo.subtract %242, %254 : tensor<2101xf32>  @ reference:31
    StableHlo.unary main_v255 main_v256 (Host.negf : (⟨S2101, .f32⟩ : BufTy).Contents (Elt F) → (⟨S2101, .f32⟩ : BufTy).Contents (Elt F)), -- %256 = stablehlo.negate %255 : tensor<2101xf32>  @ reference:31
    StableHlo.nullary main_cst_41 (constant S_ .f32 0x3F800000#32) ] -- %cst_41 = stablehlo.constant dense<1.000000e+00> : tensor<f32>

/-- @main's operations 301 … 360 of 553 (window main_part5). -/
abbrev ops5 : List (HloOp τ sig (Elt F)) :=
  [ StableHlo.unary main_cst_41 main_v257 (broadcastInDim S2101 ![] bcast_S_S2101 : (⟨S_, .f32⟩ : BufTy).Contents (Elt F) → (⟨S2101, .f32⟩ : BufTy).Contents (Elt F)), -- %257 = stablehlo.broadcast_in_dim %cst_41, dims = [] : (tensor<f32>) -> tensor<2101xf32>  @ reference:31
    StableHlo.binary main_v242 main_v257 main_v258 (subf : (⟨S2101, .f32⟩ : BufTy).Contents (Elt F) → (⟨S2101, .f32⟩ : BufTy).Contents (Elt F) → (⟨S2101, .f32⟩ : BufTy).Contents (Elt F)), -- %258 = stablehlo.subtract %242, %257 : tensor<2101xf32>  @ reference:31
    StableHlo.binary main_v256 main_v258 main_v259 (mulf : (⟨S2101, .f32⟩ : BufTy).Contents (Elt F) → (⟨S2101, .f32⟩ : BufTy).Contents (Elt F) → (⟨S2101, .f32⟩ : BufTy).Contents (Elt F)), -- %259 = stablehlo.multiply %256, %258 : tensor<2101xf32>  @ reference:31
    StableHlo.nullary main_cst_42 (constant S_ .f32 0x40800000#32), -- %cst_42 = stablehlo.constant dense<4.000000e+00> : tensor<f32>
    StableHlo.unary main_cst_42 main_v260 (broadcastInDim S2101 ![] bcast_S_S2101 : (⟨S_, .f32⟩ : BufTy).Contents (Elt F) → (⟨S2101, .f32⟩ : BufTy).Contents (Elt F)), -- %260 = stablehlo.broadcast_in_dim %cst_42, dims = [] : (tensor<f32>) -> tensor<2101xf32>  @ reference:31
    StableHlo.binary main_v259 main_v260 main_v261 (Host.divf : (⟨S2101, .f32⟩ : BufTy).Contents (Elt F) → (⟨S2101, .f32⟩ : BufTy).Contents (Elt F) → (⟨S2101, .f32⟩ : BufTy).Contents (Elt F)), -- %261 = stablehlo.divide %259, %260 : tensor<2101xf32>  @ reference:31
    StableHlo.nullary main_cst_43 (constant S_ .f32 0x40000000#32), -- %cst_43 = stablehlo.constant dense<2.000000e+00> : tensor<f32>
    StableHlo.unary main_cst_43 main_v262 (broadcastInDim S2101 ![] bcast_S_S2101 : (⟨S_, .f32⟩ : BufTy).Contents (Elt F) → (⟨S2101, .f32⟩ : BufTy).Contents (Elt F)), -- %262 = stablehlo.broadcast_in_dim %cst_43, dims = [] : (tensor<f32>) -> tensor<2101xf32>  @ reference:38
    StableHlo.binary main_v244 main_v262 main_v263 (Host.divf : (⟨S2101, .f32⟩ : BufTy).Contents (Elt F) → (⟨S2101, .f32⟩ : BufTy).Contents (Elt F) → (⟨S2101, .f32⟩ : BufTy).Contents (Elt F)), -- %263 = stablehlo.divide %244, %262 : tensor<2101xf32>  @ reference:38
    StableHlo.nullary main_cst_44 (constant S_ .f32 0x3F800000#32), -- %cst_44 = stablehlo.constant dense<1.000000e+00> : tensor<f32>
    StableHlo.unary main_cst_44 main_v264 (broadcastInDim S2101 ![] bcast_S_S2101 : (⟨S_, .f32⟩ : BufTy).Contents (Elt F) → (⟨S2101, .f32⟩ : BufTy).Contents (Elt F)), -- %264 = stablehlo.broadcast_in_dim %cst_44, dims = [] : (tensor<f32>) -> tensor<2101xf32>  @ reference:38
    StableHlo.binary main_v264 main_v263 main_v265 (subf : (⟨S2101, .f32⟩ : BufTy).Contents (Elt F) → (⟨S2101, .f32⟩ : BufTy).Contents (Elt F) → (⟨S2101, .f32⟩ : BufTy).Contents (Elt F)), -- %265 = stablehlo.subtract %264, %263 : tensor<2101xf32>  @ reference:38
    StableHlo.nullary main_cst_45 (constant S_ .f32 0x00000000#32), -- %cst_45 = stablehlo.constant dense<0.000000e+00> : tensor<f32>
    StableHlo.unary main_cst_45 main_v266 (broadcastInDim S2101 ![] bcast_S_S2101 : (⟨S_, .f32⟩ : BufTy).Contents (Elt F) → (⟨S2101, .f32⟩ : BufTy).Contents (Elt F)), -- %266 = stablehlo.broadcast_in_dim %cst_45, dims = [] : (tensor<f32>) -> tensor<2101xf32>  @ reference:39
    StableHlo.binary main_v266 main_v265 main_v267 (subf : (⟨S2101, .f32⟩ : BufTy).Contents (Elt F) → (⟨S2101, .f32⟩ : BufTy).Contents (Elt F) → (⟨S2101, .f32⟩ : BufTy).Contents (Elt F)), -- %267 = stablehlo.subtract %266, %265 : tensor<2101xf32>  @ reference:39
    StableHlo.binary main_v261 main_v261 main_v268 (mulf : (⟨S2101, .f32⟩ : BufTy).Contents (Elt F) → (⟨S2101, .f32⟩ : BufTy).Contents (Elt F) → (⟨S2101, .f32⟩ : BufTy).Contents (Elt F)), -- %268 = stablehlo.multiply %261, %261 : tensor<2101xf32>  @ reference:40
    StableHlo.binary main_v267 main_v267 main_v269 (mulf : (⟨S2101, .f32⟩ : BufTy).Contents (Elt F) → (⟨S2101, .f32⟩ : BufTy).Contents (Elt F) → (⟨S2101, .f32⟩ : BufTy).Contents (Elt F)), -- %269 = stablehlo.multiply %267, %267 : tensor<2101xf32>  @ reference:41
    StableHlo.binary main_v269 main_v267 main_v270 (mulf : (⟨S2101, .f32⟩ : BufTy).Contents (Elt F) → (⟨S2101, .f32⟩ : BufTy).Contents (Elt F) → (⟨S2101, .f32⟩ : BufTy).Contents (Elt F)), -- %270 = stablehlo.multiply %269, %267 : tensor<2101xf32>  @ reference:41
    StableHlo.nullary main_cst_46 (constant S_ .f32 0x40C00000#32), -- %cst_46 = stablehlo.constant dense<6.000000e+00> : tensor<f32>
    StableHlo.unary main_cst_46 main_v271 (broadcastInDim S2101 ![] bcast_S_S2101 : (⟨S_, .f32⟩ : BufTy).Contents (Elt F) → (⟨S2101, .f32⟩ : BufTy).Contents (Elt F)), -- %271 = stablehlo.broadcast_in_dim %cst_46, dims = [] : (tensor<f32>) -> tensor<2101xf32>  @ reference:41
    StableHlo.binary main_v271 main_v270 main_v272 (mulf : (⟨S2101, .f32⟩ : BufTy).Contents (Elt F) → (⟨S2101, .f32⟩ : BufTy).Contents (Elt F) → (⟨S2101, .f32⟩ : BufTy).Contents (Elt F)), -- %272 = stablehlo.multiply %271, %270 : tensor<2101xf32>  @ reference:41
    StableHlo.binary main_v268 main_v272 main_v273 (Host.divf : (⟨S2101, .f32⟩ : BufTy).Contents (Elt F) → (⟨S2101, .f32⟩ : BufTy).Contents (Elt F) → (⟨S2101, .f32⟩ : BufTy).Contents (Elt F)), -- %273 = stablehlo.divide %268, %272 : tensor<2101xf32>  @ reference:41
    StableHlo.binary main_v261 main_v267 main_v274 (Host.divf : (⟨S2101, .f32⟩ : BufTy).Contents (Elt F) → (⟨S2101, .f32⟩ : BufTy).Contents (Elt F) → (⟨S2101, .f32⟩ : BufTy).Contents (Elt F)), -- %274 = stablehlo.divide %261, %267 : tensor<2101xf32>  @ reference:41
    StableHlo.binary main_v273 main_v274 main_v275 (addf : (⟨S2101, .f32⟩ : BufTy).Contents (Elt F) → (⟨S2101, .f32⟩ : BufTy).Contents (Elt F) → (⟨S2101, .f32⟩ : BufTy).Contents (Elt F)), -- %275 = stablehlo.add %273, %274 : tensor<2101xf32>  @ reference:41
    StableHlo.nullary main_cst_47 (constant S_ .f32 0x40000000#32), -- %cst_47 = stablehlo.constant dense<2.000000e+00> : tensor<f32>
    StableHlo.unary main_cst_47 main_v276 (broadcastInDim S2101 ![] bcast_S_S2101 : (⟨S_, .f32⟩ : BufTy).Contents (Elt F) → (⟨S2101, .f32⟩ : BufTy).Contents (Elt F)), -- %276 = stablehlo.broadcast_in_dim %cst_47, dims = [] : (tensor<f32>) -> tensor<2101xf32>  @ reference:41
    StableHlo.binary main_v267 main_v276 main_v277 (Host.divf : (⟨S2101, .f32⟩ : BufTy).Contents (Elt F) → (⟨S2101, .f32⟩ : BufTy).Contents (Elt F) → (⟨S2101, .f32⟩ : BufTy).Contents (Elt F)), -- %277 = stablehlo.divide %267, %276 : tensor<2101xf32>  @ reference:41
    StableHlo.binary main_v275 main_v277 main_v278 (subf : (⟨S2101, .f32⟩ : BufTy).Contents (Elt F) → (⟨S2101, .f32⟩ : BufTy).Contents (Elt F) → (⟨S2101, .f32⟩ : BufTy).Contents (Elt F)), -- %278 = stablehlo.subtract %275, %277 : tensor<2101xf32>  @ reference:41
    StableHlo.binary main_v253 main_v253 main_v279 (mulf : (⟨S2101, .f32⟩ : BufTy).Contents (Elt F) → (⟨S2101, .f32⟩ : BufTy).Contents (Elt F) → (⟨S2101, .f32⟩ : BufTy).Contents (Elt F)), -- %279 = stablehlo.multiply %253, %253 : tensor<2101xf32>  @ reference:41
    StableHlo.binary main_v279 main_v253 main_v280 (mulf : (⟨S2101, .f32⟩ : BufTy).Contents (Elt F) → (⟨S2101, .f32⟩ : BufTy).Contents (Elt F) → (⟨S2101, .f32⟩ : BufTy).Contents (Elt F)), -- %280 = stablehlo.multiply %279, %253 : tensor<2101xf32>  @ reference:41
    StableHlo.nullary main_cst_48 (constant S_ .f32 0x40C00000#32), -- %cst_48 = stablehlo.constant dense<6.000000e+00> : tensor<f32>
    StableHlo.unary main_cst_48 main_v281 (broadcastInDim S2101 ![] bcast_S_S2101 : (⟨S_, .f32⟩ : BufTy).Contents (Elt F) → (⟨S2101, .f32⟩ : BufTy).Contents (Elt F)), -- %281 = stablehlo.broadcast_in_dim %cst_48, dims = [] : (tensor<f32>) -> tensor<2101xf32>  @ reference:41
    StableHlo.binary main_v281 main_v280 main_v282 (mulf : (⟨S2101, .f32⟩ : BufTy).Contents (Elt F) → (⟨S2101, .f32⟩ : BufTy).Contents (Elt F) → (⟨S2101, .f32⟩ : BufTy).Contents (Elt F)), -- %282 = stablehlo.multiply %281, %280 : tensor<2101xf32>  @ reference:41
    StableHlo.binary main_v268 main_v282 main_v283 (Host.divf : (⟨S2101, .f32⟩ : BufTy).Contents (Elt F) → (⟨S2101, .f32⟩ : BufTy).Contents (Elt F) → (⟨S2101, .f32⟩ : BufTy).Contents (Elt F)), -- %283 = stablehlo.divide %268, %282 : tensor<2101xf32>  @ reference:41
    StableHlo.binary main_v261 main_v253 main_v284 (Host.divf : (⟨S2101, .f32⟩ : BufTy).Contents (Elt F) → (⟨S2101, .f32⟩ : BufTy).Contents (Elt F) → (⟨S2101, .f32⟩ : BufTy).Contents (Elt F)), -- %284 = stablehlo.divide %261, %253 : tensor<2101xf32>  @ reference:41
    StableHlo.binary main_v283 main_v284 main_v285 (addf : (⟨S2101, .f32⟩ : BufTy).Contents (Elt F) → (⟨S2101, .f32⟩ : BufTy).Contents (Elt F) → (⟨S2101, .f32⟩ : BufTy).Contents (Elt F)), -- %285 = stablehlo.add %283, %284 : tensor<2101xf32>  @ reference:41
    StableHlo.nullary main_cst_49 (constant S_ .f32 0x40000000#32), -- %cst_49 = stablehlo.constant dense<2.000000e+00> : tensor<f32>
    StableHlo.unary main_cst_49 main_v286 (broadcastInDim S2101 ![] bcast_S_S2101 : (⟨S_, .f32⟩ : BufTy).Contents (Elt F) → (⟨S2101, .f32⟩ : BufTy).Contents (Elt F)), -- %286 = stablehlo.broadcast_in_dim %cst_49, dims = [] : (tensor<f32>) -> tensor<2101xf32>  @ reference:41
    StableHlo.binary main_v253 main_v286 main_v287 (Host.divf : (⟨S2101, .f32⟩ : BufTy).Contents (Elt F) → (⟨S2101, .f32⟩ : BufTy).Contents (Elt F) → (⟨S2101, .f32⟩ : BufTy).Contents (Elt F)), -- %287 = stablehlo.divide %253, %286 : tensor<2101xf32>  @ reference:41
    StableHlo.binary main_v285 main_v287 main_v288 (subf : (⟨S2101, .f32⟩ : BufTy).Contents (Elt F) → (⟨S2101, .f32⟩ : BufTy).Contents (Elt F) → (⟨S2101, .f32⟩ : BufTy).Contents (Elt F)), -- %288 = stablehlo.subtract %285, %287 : tensor<2101xf32>  @ reference:41
    StableHlo.binary main_v278 main_v288 main_v289 (subf : (⟨S2101, .f32⟩ : BufTy).Contents (Elt F) → (⟨S2101, .f32⟩ : BufTy).Contents (Elt F) → (⟨S2101, .f32⟩ : BufTy).Contents (Elt F)), -- %289 = stablehlo.subtract %278, %288 : tensor<2101xf32>  @ reference:41
    StableHlo.nullary main_cst_50 (constant S_ .f32 0xC0000000#32), -- %cst_50 = stablehlo.constant dense<-2.000000e+00> : tensor<f32>
    StableHlo.unary main_cst_50 main_v290 (broadcastInDim S2101 ![] bcast_S_S2101 : (⟨S_, .f32⟩ : BufTy).Contents (Elt F) → (⟨S2101, .f32⟩ : BufTy).Contents (Elt F)), -- %290 = stablehlo.broadcast_in_dim %cst_50, dims = [] : (tensor<f32>) -> tensor<2101xf32>  @ reference:42
    StableHlo.binary main_v290 main_v242 main_v291 (mulf : (⟨S2101, .f32⟩ : BufTy).Contents (Elt F) → (⟨S2101, .f32⟩ : BufTy).Contents (Elt F) → (⟨S2101, .f32⟩ : BufTy).Contents (Elt F)), -- %291 = stablehlo.multiply %290, %242 : tensor<2101xf32>  @ reference:42
    StableHlo.binary main_v267 main_v253 main_v292 (subf : (⟨S2101, .f32⟩ : BufTy).Contents (Elt F) → (⟨S2101, .f32⟩ : BufTy).Contents (Elt F) → (⟨S2101, .f32⟩ : BufTy).Contents (Elt F)), -- %292 = stablehlo.subtract %267, %253 : tensor<2101xf32>  @ reference:42
    StableHlo.binary main_v291 main_v292 main_v293 (mulf : (⟨S2101, .f32⟩ : BufTy).Contents (Elt F) → (⟨S2101, .f32⟩ : BufTy).Contents (Elt F) → (⟨S2101, .f32⟩ : BufTy).Contents (Elt F)), -- %293 = stablehlo.multiply %291, %292 : tensor<2101xf32>  @ reference:42
    StableHlo.binary main_v244 main_v244 main_v294 (mulf : (⟨S2101, .f32⟩ : BufTy).Contents (Elt F) → (⟨S2101, .f32⟩ : BufTy).Contents (Elt F) → (⟨S2101, .f32⟩ : BufTy).Contents (Elt F)), -- %294 = stablehlo.multiply %244, %244 : tensor<2101xf32>  @ reference:42
    StableHlo.binary main_v293 main_v294 main_v295 (Host.divf : (⟨S2101, .f32⟩ : BufTy).Contents (Elt F) → (⟨S2101, .f32⟩ : BufTy).Contents (Elt F) → (⟨S2101, .f32⟩ : BufTy).Contents (Elt F)), -- %295 = stablehlo.divide %293, %294 : tensor<2101xf32>  @ reference:42
    StableHlo.binary main_v246 main_v246 main_v296 (mulf : (⟨S2101, .f32⟩ : BufTy).Contents (Elt F) → (⟨S2101, .f32⟩ : BufTy).Contents (Elt F) → (⟨S2101, .f32⟩ : BufTy).Contents (Elt F)), -- %296 = stablehlo.multiply %246, %246 : tensor<2101xf32>  @ reference:43
    StableHlo.nullary main_cst_51 (constant S_ .f32 0xC0000000#32), -- %cst_51 = stablehlo.constant dense<-2.000000e+00> : tensor<f32>
    StableHlo.unary main_cst_51 main_v297 (broadcastInDim S2101 ![] bcast_S_S2101 : (⟨S_, .f32⟩ : BufTy).Contents (Elt F) → (⟨S2101, .f32⟩ : BufTy).Contents (Elt F)), -- %297 = stablehlo.broadcast_in_dim %cst_51, dims = [] : (tensor<f32>) -> tensor<2101xf32>  @ reference:44
    StableHlo.binary main_v297 main_v242 main_v298 (mulf : (⟨S2101, .f32⟩ : BufTy).Contents (Elt F) → (⟨S2101, .f32⟩ : BufTy).Contents (Elt F) → (⟨S2101, .f32⟩ : BufTy).Contents (Elt F)), -- %298 = stablehlo.multiply %297, %242 : tensor<2101xf32>  @ reference:44
    StableHlo.binary main_v298 main_v244 main_v299 (mulf : (⟨S2101, .f32⟩ : BufTy).Contents (Elt F) → (⟨S2101, .f32⟩ : BufTy).Contents (Elt F) → (⟨S2101, .f32⟩ : BufTy).Contents (Elt F)), -- %299 = stablehlo.multiply %298, %244 : tensor<2101xf32>  @ reference:44
    StableHlo.binary main_v267 main_v253 main_v300 (Host.divf : (⟨S2101, .f32⟩ : BufTy).Contents (Elt F) → (⟨S2101, .f32⟩ : BufTy).Contents (Elt F) → (⟨S2101, .f32⟩ : BufTy).Contents (Elt F)), -- %300 = stablehlo.divide %267, %253 : tensor<2101xf32>  @ reference:44
    StableHlo.unary main_v300 main_v301 (Host.log : (⟨S2101, .f32⟩ : BufTy).Contents (Elt F) → (⟨S2101, .f32⟩ : BufTy).Contents (Elt F)), -- %301 = stablehlo.log %300 : tensor<2101xf32>  @ reference:44
    StableHlo.binary main_v299 main_v301 main_v302 (mulf : (⟨S2101, .f32⟩ : BufTy).Contents (Elt F) → (⟨S2101, .f32⟩ : BufTy).Contents (Elt F) → (⟨S2101, .f32⟩ : BufTy).Contents (Elt F)), -- %302 = stablehlo.multiply %299, %301 : tensor<2101xf32>  @ reference:44
    StableHlo.binary main_v302 main_v296 main_v303 (Host.divf : (⟨S2101, .f32⟩ : BufTy).Contents (Elt F) → (⟨S2101, .f32⟩ : BufTy).Contents (Elt F) → (⟨S2101, .f32⟩ : BufTy).Contents (Elt F)), -- %303 = stablehlo.divide %302, %296 : tensor<2101xf32>  @ reference:44
    StableHlo.nullary main_cst_52 (constant S_ .f32 0x3F800000#32), -- %cst_52 = stablehlo.constant dense<1.000000e+00> : tensor<f32>
    StableHlo.unary main_cst_52 main_v304 (broadcastInDim S2101 ![] bcast_S_S2101 : (⟨S_, .f32⟩ : BufTy).Contents (Elt F) → (⟨S2101, .f32⟩ : BufTy).Contents (Elt F)), -- %304 = stablehlo.broadcast_in_dim %cst_52, dims = [] : (tensor<f32>) -> tensor<2101xf32>  @ reference:45
    StableHlo.binary main_v304 main_v267 main_v305 (Host.divf : (⟨S2101, .f32⟩ : BufTy).Contents (Elt F) → (⟨S2101, .f32⟩ : BufTy).Contents (Elt F) → (⟨S2101, .f32⟩ : BufTy).Contents (Elt F)) ] -- %305 = stablehlo.divide %304, %267 : tensor<2101xf32>  @ reference:45

/-- @main's operations 361 … 420 of 553 (window main_part6). -/
abbrev ops6 : List (HloOp τ sig (Elt F)) :=
  [ StableHlo.nullary main_cst_53 (constant S_ .f32 0x3F800000#32), -- %cst_53 = stablehlo.constant dense<1.000000e+00> : tensor<f32>
    StableHlo.unary main_cst_53 main_v306 (broadcastInDim S2101 ![] bcast_S_S2101 : (⟨S_, .f32⟩ : BufTy).Contents (Elt F) → (⟨S2101, .f32⟩ : BufTy).Contents (Elt F)), -- %306 = stablehlo.broadcast_in_dim %cst_53, dims = [] : (tensor<f32>) -> tensor<2101xf32>  @ reference:45
    StableHlo.binary main_v306 main_v253 main_v307 (Host.divf : (⟨S2101, .f32⟩ : BufTy).Contents (Elt F) → (⟨S2101, .f32⟩ : BufTy).Contents (Elt F) → (⟨S2101, .f32⟩ : BufTy).Contents (Elt F)), -- %307 = stablehlo.divide %306, %253 : tensor<2101xf32>  @ reference:45
    StableHlo.binary main_v305 main_v307 main_v308 (subf : (⟨S2101, .f32⟩ : BufTy).Contents (Elt F) → (⟨S2101, .f32⟩ : BufTy).Contents (Elt F) → (⟨S2101, .f32⟩ : BufTy).Contents (Elt F)), -- %308 = stablehlo.subtract %305, %307 : tensor<2101xf32>  @ reference:45
    StableHlo.binary main_v242 main_v308 main_v309 (mulf : (⟨S2101, .f32⟩ : BufTy).Contents (Elt F) → (⟨S2101, .f32⟩ : BufTy).Contents (Elt F) → (⟨S2101, .f32⟩ : BufTy).Contents (Elt F)), -- %309 = stablehlo.multiply %242, %308 : tensor<2101xf32>  @ reference:45
    StableHlo.nullary main_cst_54 (constant S_ .f32 0x40000000#32), -- %cst_54 = stablehlo.constant dense<2.000000e+00> : tensor<f32>
    StableHlo.unary main_cst_54 main_v310 (broadcastInDim S2101 ![] bcast_S_S2101 : (⟨S_, .f32⟩ : BufTy).Contents (Elt F) → (⟨S2101, .f32⟩ : BufTy).Contents (Elt F)), -- %310 = stablehlo.broadcast_in_dim %cst_54, dims = [] : (tensor<f32>) -> tensor<2101xf32>  @ reference:45
    StableHlo.binary main_v309 main_v310 main_v311 (Host.divf : (⟨S2101, .f32⟩ : BufTy).Contents (Elt F) → (⟨S2101, .f32⟩ : BufTy).Contents (Elt F) → (⟨S2101, .f32⟩ : BufTy).Contents (Elt F)), -- %311 = stablehlo.divide %309, %310 : tensor<2101xf32>  @ reference:45
    StableHlo.binary main_v242 main_v242 main_v312 (mulf : (⟨S2101, .f32⟩ : BufTy).Contents (Elt F) → (⟨S2101, .f32⟩ : BufTy).Contents (Elt F) → (⟨S2101, .f32⟩ : BufTy).Contents (Elt F)), -- %312 = stablehlo.multiply %242, %242 : tensor<2101xf32>  @ reference:46
    StableHlo.binary main_v244 main_v244 main_v313 (mulf : (⟨S2101, .f32⟩ : BufTy).Contents (Elt F) → (⟨S2101, .f32⟩ : BufTy).Contents (Elt F) → (⟨S2101, .f32⟩ : BufTy).Contents (Elt F)), -- %313 = stablehlo.multiply %244, %244 : tensor<2101xf32>  @ reference:47
    StableHlo.binary main_v313 main_v244 main_v314 (mulf : (⟨S2101, .f32⟩ : BufTy).Contents (Elt F) → (⟨S2101, .f32⟩ : BufTy).Contents (Elt F) → (⟨S2101, .f32⟩ : BufTy).Contents (Elt F)), -- %314 = stablehlo.multiply %313, %244 : tensor<2101xf32>  @ reference:47
    StableHlo.nullary main_cst_55 (constant S_ .f32 0x40000000#32), -- %cst_55 = stablehlo.constant dense<2.000000e+00> : tensor<f32>
    StableHlo.unary main_cst_55 main_v315 (broadcastInDim S2101 ![] bcast_S_S2101 : (⟨S_, .f32⟩ : BufTy).Contents (Elt F) → (⟨S2101, .f32⟩ : BufTy).Contents (Elt F)), -- %315 = stablehlo.broadcast_in_dim %cst_55, dims = [] : (tensor<f32>) -> tensor<2101xf32>  @ reference:48
    StableHlo.binary main_v315 main_v244 main_v316 (mulf : (⟨S2101, .f32⟩ : BufTy).Contents (Elt F) → (⟨S2101, .f32⟩ : BufTy).Contents (Elt F) → (⟨S2101, .f32⟩ : BufTy).Contents (Elt F)), -- %316 = stablehlo.multiply %315, %244 : tensor<2101xf32>  @ reference:48
    StableHlo.binary main_v316 main_v253 main_v317 (mulf : (⟨S2101, .f32⟩ : BufTy).Contents (Elt F) → (⟨S2101, .f32⟩ : BufTy).Contents (Elt F) → (⟨S2101, .f32⟩ : BufTy).Contents (Elt F)), -- %317 = stablehlo.multiply %316, %253 : tensor<2101xf32>  @ reference:48
    StableHlo.binary main_v317 main_v296 main_v318 (subf : (⟨S2101, .f32⟩ : BufTy).Contents (Elt F) → (⟨S2101, .f32⟩ : BufTy).Contents (Elt F) → (⟨S2101, .f32⟩ : BufTy).Contents (Elt F)), -- %318 = stablehlo.subtract %317, %296 : tensor<2101xf32>  @ reference:48
    StableHlo.nullary main_cst_56 (constant S_ .f32 0x40000000#32), -- %cst_56 = stablehlo.constant dense<2.000000e+00> : tensor<f32>
    StableHlo.unary main_cst_56 main_v319 (broadcastInDim S2101 ![] bcast_S_S2101 : (⟨S_, .f32⟩ : BufTy).Contents (Elt F) → (⟨S2101, .f32⟩ : BufTy).Contents (Elt F)), -- %319 = stablehlo.broadcast_in_dim %cst_56, dims = [] : (tensor<f32>) -> tensor<2101xf32>  @ reference:49
    StableHlo.binary main_v319 main_v244 main_v320 (mulf : (⟨S2101, .f32⟩ : BufTy).Contents (Elt F) → (⟨S2101, .f32⟩ : BufTy).Contents (Elt F) → (⟨S2101, .f32⟩ : BufTy).Contents (Elt F)), -- %320 = stablehlo.multiply %319, %244 : tensor<2101xf32>  @ reference:49
    StableHlo.binary main_v320 main_v267 main_v321 (mulf : (⟨S2101, .f32⟩ : BufTy).Contents (Elt F) → (⟨S2101, .f32⟩ : BufTy).Contents (Elt F) → (⟨S2101, .f32⟩ : BufTy).Contents (Elt F)), -- %321 = stablehlo.multiply %320, %267 : tensor<2101xf32>  @ reference:49
    StableHlo.binary main_v321 main_v296 main_v322 (subf : (⟨S2101, .f32⟩ : BufTy).Contents (Elt F) → (⟨S2101, .f32⟩ : BufTy).Contents (Elt F) → (⟨S2101, .f32⟩ : BufTy).Contents (Elt F)), -- %322 = stablehlo.subtract %321, %296 : tensor<2101xf32>  @ reference:49
    StableHlo.nullary main_cst_57 (constant S_ .f32 0x41800000#32), -- %cst_57 = stablehlo.constant dense<1.600000e+01> : tensor<f32>
    StableHlo.unary main_cst_57 main_v323 (broadcastInDim S2101 ![] bcast_S_S2101 : (⟨S_, .f32⟩ : BufTy).Contents (Elt F) → (⟨S2101, .f32⟩ : BufTy).Contents (Elt F)), -- %323 = stablehlo.broadcast_in_dim %cst_57, dims = [] : (tensor<f32>) -> tensor<2101xf32>  @ reference:50
    StableHlo.binary main_v323 main_v312 main_v324 (mulf : (⟨S2101, .f32⟩ : BufTy).Contents (Elt F) → (⟨S2101, .f32⟩ : BufTy).Contents (Elt F) → (⟨S2101, .f32⟩ : BufTy).Contents (Elt F)), -- %324 = stablehlo.multiply %323, %312 : tensor<2101xf32>  @ reference:50
    StableHlo.nullary main_cst_58 (constant S_ .f32 0x3F800000#32), -- %cst_58 = stablehlo.constant dense<1.000000e+00> : tensor<f32>
    StableHlo.unary main_cst_58 main_v325 (broadcastInDim S2101 ![] bcast_S_S2101 : (⟨S_, .f32⟩ : BufTy).Contents (Elt F) → (⟨S2101, .f32⟩ : BufTy).Contents (Elt F)), -- %325 = stablehlo.broadcast_in_dim %cst_58, dims = [] : (tensor<f32>) -> tensor<2101xf32>  @ reference:50
    StableHlo.binary main_v312 main_v325 main_v326 (addf : (⟨S2101, .f32⟩ : BufTy).Contents (Elt F) → (⟨S2101, .f32⟩ : BufTy).Contents (Elt F) → (⟨S2101, .f32⟩ : BufTy).Contents (Elt F)), -- %326 = stablehlo.add %312, %325 : tensor<2101xf32>  @ reference:50
    StableHlo.binary main_v324 main_v326 main_v327 (mulf : (⟨S2101, .f32⟩ : BufTy).Contents (Elt F) → (⟨S2101, .f32⟩ : BufTy).Contents (Elt F) → (⟨S2101, .f32⟩ : BufTy).Contents (Elt F)), -- %327 = stablehlo.multiply %324, %326 : tensor<2101xf32>  @ reference:50
    StableHlo.binary main_v322 main_v318 main_v328 (Host.divf : (⟨S2101, .f32⟩ : BufTy).Contents (Elt F) → (⟨S2101, .f32⟩ : BufTy).Contents (Elt F) → (⟨S2101, .f32⟩ : BufTy).Contents (Elt F)), -- %328 = stablehlo.divide %322, %318 : tensor<2101xf32>  @ reference:50
    StableHlo.unary main_v328 main_v329 (Host.log : (⟨S2101, .f32⟩ : BufTy).Contents (Elt F) → (⟨S2101, .f32⟩ : BufTy).Contents (Elt F)), -- %329 = stablehlo.log %328 : tensor<2101xf32>  @ reference:50
    StableHlo.binary main_v327 main_v329 main_v330 (mulf : (⟨S2101, .f32⟩ : BufTy).Contents (Elt F) → (⟨S2101, .f32⟩ : BufTy).Contents (Elt F) → (⟨S2101, .f32⟩ : BufTy).Contents (Elt F)), -- %330 = stablehlo.multiply %327, %329 : tensor<2101xf32>  @ reference:50
    StableHlo.binary main_v314 main_v296 main_v331 (mulf : (⟨S2101, .f32⟩ : BufTy).Contents (Elt F) → (⟨S2101, .f32⟩ : BufTy).Contents (Elt F) → (⟨S2101, .f32⟩ : BufTy).Contents (Elt F)), -- %331 = stablehlo.multiply %314, %296 : tensor<2101xf32>  @ reference:50
    StableHlo.binary main_v330 main_v331 main_v332 (Host.divf : (⟨S2101, .f32⟩ : BufTy).Contents (Elt F) → (⟨S2101, .f32⟩ : BufTy).Contents (Elt F) → (⟨S2101, .f32⟩ : BufTy).Contents (Elt F)), -- %332 = stablehlo.divide %330, %331 : tensor<2101xf32>  @ reference:50
    StableHlo.binary main_v242 main_v242 main_v333 (mulf : (⟨S2101, .f32⟩ : BufTy).Contents (Elt F) → (⟨S2101, .f32⟩ : BufTy).Contents (Elt F) → (⟨S2101, .f32⟩ : BufTy).Contents (Elt F)), -- %333 = stablehlo.multiply %242, %242 : tensor<2101xf32>  @ reference:51
    StableHlo.binary main_v333 main_v242 main_v334 (mulf : (⟨S2101, .f32⟩ : BufTy).Contents (Elt F) → (⟨S2101, .f32⟩ : BufTy).Contents (Elt F) → (⟨S2101, .f32⟩ : BufTy).Contents (Elt F)), -- %334 = stablehlo.multiply %333, %242 : tensor<2101xf32>  @ reference:51
    StableHlo.nullary main_cst_59 (constant S_ .f32 0x41800000#32), -- %cst_59 = stablehlo.constant dense<1.600000e+01> : tensor<f32>
    StableHlo.unary main_cst_59 main_v335 (broadcastInDim S2101 ![] bcast_S_S2101 : (⟨S_, .f32⟩ : BufTy).Contents (Elt F) → (⟨S2101, .f32⟩ : BufTy).Contents (Elt F)), -- %335 = stablehlo.broadcast_in_dim %cst_59, dims = [] : (tensor<f32>) -> tensor<2101xf32>  @ reference:51
    StableHlo.binary main_v335 main_v334 main_v336 (mulf : (⟨S2101, .f32⟩ : BufTy).Contents (Elt F) → (⟨S2101, .f32⟩ : BufTy).Contents (Elt F) → (⟨S2101, .f32⟩ : BufTy).Contents (Elt F)), -- %336 = stablehlo.multiply %335, %334 : tensor<2101xf32>  @ reference:51
    StableHlo.nullary main_cst_60 (constant S_ .f32 0x3F800000#32), -- %cst_60 = stablehlo.constant dense<1.000000e+00> : tensor<f32>
    StableHlo.unary main_cst_60 main_v337 (broadcastInDim S2101 ![] bcast_S_S2101 : (⟨S_, .f32⟩ : BufTy).Contents (Elt F) → (⟨S2101, .f32⟩ : BufTy).Contents (Elt F)), -- %337 = stablehlo.broadcast_in_dim %cst_60, dims = [] : (tensor<f32>) -> tensor<2101xf32>  @ reference:51
    StableHlo.binary main_v337 main_v322 main_v338 (Host.divf : (⟨S2101, .f32⟩ : BufTy).Contents (Elt F) → (⟨S2101, .f32⟩ : BufTy).Contents (Elt F) → (⟨S2101, .f32⟩ : BufTy).Contents (Elt F)), -- %338 = stablehlo.divide %337, %322 : tensor<2101xf32>  @ reference:51
    StableHlo.nullary main_cst_61 (constant S_ .f32 0x3F800000#32), -- %cst_61 = stablehlo.constant dense<1.000000e+00> : tensor<f32>
    StableHlo.unary main_cst_61 main_v339 (broadcastInDim S2101 ![] bcast_S_S2101 : (⟨S_, .f32⟩ : BufTy).Contents (Elt F) → (⟨S2101, .f32⟩ : BufTy).Contents (Elt F)), -- %339 = stablehlo.broadcast_in_dim %cst_61, dims = [] : (tensor<f32>) -> tensor<2101xf32>  @ reference:51
    StableHlo.binary main_v339 main_v318 main_v340 (Host.divf : (⟨S2101, .f32⟩ : BufTy).Contents (Elt F) → (⟨S2101, .f32⟩ : BufTy).Contents (Elt F) → (⟨S2101, .f32⟩ : BufTy).Contents (Elt F)), -- %340 = stablehlo.divide %339, %318 : tensor<2101xf32>  @ reference:51
    StableHlo.binary main_v338 main_v340 main_v341 (subf : (⟨S2101, .f32⟩ : BufTy).Contents (Elt F) → (⟨S2101, .f32⟩ : BufTy).Contents (Elt F) → (⟨S2101, .f32⟩ : BufTy).Contents (Elt F)), -- %341 = stablehlo.subtract %338, %340 : tensor<2101xf32>  @ reference:51
    StableHlo.binary main_v336 main_v341 main_v342 (mulf : (⟨S2101, .f32⟩ : BufTy).Contents (Elt F) → (⟨S2101, .f32⟩ : BufTy).Contents (Elt F) → (⟨S2101, .f32⟩ : BufTy).Contents (Elt F)), -- %342 = stablehlo.multiply %336, %341 : tensor<2101xf32>  @ reference:51
    StableHlo.binary main_v342 main_v314 main_v343 (Host.divf : (⟨S2101, .f32⟩ : BufTy).Contents (Elt F) → (⟨S2101, .f32⟩ : BufTy).Contents (Elt F) → (⟨S2101, .f32⟩ : BufTy).Contents (Elt F)), -- %343 = stablehlo.divide %342, %314 : tensor<2101xf32>  @ reference:51
    StableHlo.binary main_v295 main_v303 main_v344 (addf : (⟨S2101, .f32⟩ : BufTy).Contents (Elt F) → (⟨S2101, .f32⟩ : BufTy).Contents (Elt F) → (⟨S2101, .f32⟩ : BufTy).Contents (Elt F)), -- %344 = stablehlo.add %295, %303 : tensor<2101xf32>  @ reference:52
    StableHlo.binary main_v344 main_v311 main_v345 (addf : (⟨S2101, .f32⟩ : BufTy).Contents (Elt F) → (⟨S2101, .f32⟩ : BufTy).Contents (Elt F) → (⟨S2101, .f32⟩ : BufTy).Contents (Elt F)), -- %345 = stablehlo.add %344, %311 : tensor<2101xf32>  @ reference:52
    StableHlo.binary main_v345 main_v332 main_v346 (addf : (⟨S2101, .f32⟩ : BufTy).Contents (Elt F) → (⟨S2101, .f32⟩ : BufTy).Contents (Elt F) → (⟨S2101, .f32⟩ : BufTy).Contents (Elt F)), -- %346 = stablehlo.add %345, %332 : tensor<2101xf32>  @ reference:52
    StableHlo.binary main_v346 main_v343 main_v347 (addf : (⟨S2101, .f32⟩ : BufTy).Contents (Elt F) → (⟨S2101, .f32⟩ : BufTy).Contents (Elt F) → (⟨S2101, .f32⟩ : BufTy).Contents (Elt F)), -- %347 = stablehlo.add %346, %343 : tensor<2101xf32>  @ reference:52
    StableHlo.binary main_v289 main_v347 main_v348 (addf : (⟨S2101, .f32⟩ : BufTy).Contents (Elt F) → (⟨S2101, .f32⟩ : BufTy).Contents (Elt F) → (⟨S2101, .f32⟩ : BufTy).Contents (Elt F)), -- %348 = stablehlo.add %289, %347 : tensor<2101xf32>  @ reference:53
    StableHlo.nullary main_cst_62 (constant S_ .f32 0x40000000#32), -- %cst_62 = stablehlo.constant dense<2.000000e+00> : tensor<f32>
    StableHlo.unary main_cst_62 main_v349 (broadcastInDim S2101 ![] bcast_S_S2101 : (⟨S_, .f32⟩ : BufTy).Contents (Elt F) → (⟨S2101, .f32⟩ : BufTy).Contents (Elt F)), -- %349 = stablehlo.broadcast_in_dim %cst_62, dims = [] : (tensor<f32>) -> tensor<2101xf32>  @ reference:53
    StableHlo.binary main_v348 main_v349 main_v350 (Host.divf : (⟨S2101, .f32⟩ : BufTy).Contents (Elt F) → (⟨S2101, .f32⟩ : BufTy).Contents (Elt F) → (⟨S2101, .f32⟩ : BufTy).Contents (Elt F)), -- %350 = stablehlo.divide %348, %349 : tensor<2101xf32>  @ reference:53
    StableHlo.nullary main_cst_63 (constant S_ .f32 0x3F800000#32), -- %cst_63 = stablehlo.constant dense<1.000000e+00> : tensor<f32>
    StableHlo.unary main_cst_63 main_v351 (broadcastInDim S2101 ![] bcast_S_S2101 : (⟨S_, .f32⟩ : BufTy).Contents (Elt F) → (⟨S2101, .f32⟩ : BufTy).Contents (Elt F)), -- %351 = stablehlo.broadcast_in_dim %cst_63, dims = [] : (tensor<f32>) -> tensor<2101xf32>  @ reference:66
    StableHlo.binary main_v351 main_v350 main_v352 (subf : (⟨S2101, .f32⟩ : BufTy).Contents (Elt F) → (⟨S2101, .f32⟩ : BufTy).Contents (Elt F) → (⟨S2101, .f32⟩ : BufTy).Contents (Elt F)), -- %352 = stablehlo.subtract %351, %350 : tensor<2101xf32>  @ reference:66
    StableHlo.binary main_arg6 main_arg6 main_v353 (mulf : (⟨S2101, .f32⟩ : BufTy).Contents (Elt F) → (⟨S2101, .f32⟩ : BufTy).Contents (Elt F) → (⟨S2101, .f32⟩ : BufTy).Contents (Elt F)), -- %353 = stablehlo.multiply %arg6, %arg6 : tensor<2101xf32>  @ reference:67
    StableHlo.binary main_v350 main_v353 main_v354 (Host.divf : (⟨S2101, .f32⟩ : BufTy).Contents (Elt F) → (⟨S2101, .f32⟩ : BufTy).Contents (Elt F) → (⟨S2101, .f32⟩ : BufTy).Contents (Elt F)) ] -- %354 = stablehlo.divide %350, %353 : tensor<2101xf32>  @ reference:67

/-- @main's operations 421 … 480 of 553 (window main_part7). -/
abbrev ops7 : List (HloOp τ sig (Elt F)) :=
  [ StableHlo.nullary main_cst_64 (constant S_ .f32 0x3F800000#32), -- %cst_64 = stablehlo.constant dense<1.000000e+00> : tensor<f32>
    StableHlo.unary main_cst_64 main_v355 (broadcastInDim S2101 ![] bcast_S_S2101 : (⟨S_, .f32⟩ : BufTy).Contents (Elt F) → (⟨S2101, .f32⟩ : BufTy).Contents (Elt F)), -- %355 = stablehlo.broadcast_in_dim %cst_64, dims = [] : (tensor<f32>) -> tensor<2101xf32>  @ reference:68
    StableHlo.binary main_v355 main_v354 main_v356 (subf : (⟨S2101, .f32⟩ : BufTy).Contents (Elt F) → (⟨S2101, .f32⟩ : BufTy).Contents (Elt F) → (⟨S2101, .f32⟩ : BufTy).Contents (Elt F)), -- %356 = stablehlo.subtract %355, %354 : tensor<2101xf32>  @ reference:68
    StableHlo.binary main_v356 main_v356 main_v357 (mulf : (⟨S2101, .f32⟩ : BufTy).Contents (Elt F) → (⟨S2101, .f32⟩ : BufTy).Contents (Elt F) → (⟨S2101, .f32⟩ : BufTy).Contents (Elt F)), -- %357 = stablehlo.multiply %356, %356 : tensor<2101xf32>  @ reference:69
    StableHlo.unary main_v357 main_v358 (broadcastInDim S1x2101 ![1] bcast_S2101_S1x2101_1 : (⟨S2101, .f32⟩ : BufTy).Contents (Elt F) → (⟨S1x2101, .f32⟩ : BufTy).Contents (Elt F)), -- %358 = stablehlo.broadcast_in_dim %357, dims = [1] : (tensor<2101xf32>) -> tensor<1x2101xf32>  @ reference:69
    StableHlo.unary main_v358 main_v359 (broadcastInDim S8192x2101 ![0, 1] bcast_S1x2101_S8192x2101_0_1 : (⟨S1x2101, .f32⟩ : BufTy).Contents (Elt F) → (⟨S8192x2101, .f32⟩ : BufTy).Contents (Elt F)), -- %359 = stablehlo.broadcast_in_dim %358, dims = [0, 1] : (tensor<1x2101xf32>) -> tensor<8192x2101xf32>  @ reference:69
    StableHlo.binary main_v359 main_v124 main_v360 (mulf : (⟨S8192x2101, .f32⟩ : BufTy).Contents (Elt F) → (⟨S8192x2101, .f32⟩ : BufTy).Contents (Elt F) → (⟨S8192x2101, .f32⟩ : BufTy).Contents (Elt F)), -- %360 = stablehlo.multiply %359, %124 : tensor<8192x2101xf32>  @ reference:69
    StableHlo.binary main_v360 main_v124 main_v361 (mulf : (⟨S8192x2101, .f32⟩ : BufTy).Contents (Elt F) → (⟨S8192x2101, .f32⟩ : BufTy).Contents (Elt F) → (⟨S8192x2101, .f32⟩ : BufTy).Contents (Elt F)), -- %361 = stablehlo.multiply %360, %124 : tensor<8192x2101xf32>  @ reference:69
    StableHlo.nullary main_cst_65 (constant S_ .f32 0x3F800000#32), -- %cst_65 = stablehlo.constant dense<1.000000e+00> : tensor<f32>
    StableHlo.unary main_cst_65 main_v362 (broadcastInDim S8192x2101 ![] bcast_S_S8192x2101 : (⟨S_, .f32⟩ : BufTy).Contents (Elt F) → (⟨S8192x2101, .f32⟩ : BufTy).Contents (Elt F)), -- %362 = stablehlo.broadcast_in_dim %cst_65, dims = [] : (tensor<f32>) -> tensor<8192x2101xf32>  @ reference:69
    StableHlo.binary main_v362 main_v361 main_v363 (subf : (⟨S8192x2101, .f32⟩ : BufTy).Contents (Elt F) → (⟨S8192x2101, .f32⟩ : BufTy).Contents (Elt F) → (⟨S8192x2101, .f32⟩ : BufTy).Contents (Elt F)), -- %363 = stablehlo.subtract %362, %361 : tensor<8192x2101xf32>  @ reference:69
    StableHlo.unary main_v239 main_v364 (broadcastInDim S1x2101 ![1] bcast_S2101_S1x2101_1 : (⟨S2101, .f32⟩ : BufTy).Contents (Elt F) → (⟨S1x2101, .f32⟩ : BufTy).Contents (Elt F)), -- %364 = stablehlo.broadcast_in_dim %239, dims = [1] : (tensor<2101xf32>) -> tensor<1x2101xf32>  @ reference:70
    StableHlo.unary main_v364 main_v365 (broadcastInDim S8192x2101 ![0, 1] bcast_S1x2101_S8192x2101_0_1 : (⟨S1x2101, .f32⟩ : BufTy).Contents (Elt F) → (⟨S8192x2101, .f32⟩ : BufTy).Contents (Elt F)), -- %365 = stablehlo.broadcast_in_dim %364, dims = [0, 1] : (tensor<1x2101xf32>) -> tensor<8192x2101xf32>  @ reference:70
    StableHlo.binary main_v365 main_v124 main_v366 (mulf : (⟨S8192x2101, .f32⟩ : BufTy).Contents (Elt F) → (⟨S8192x2101, .f32⟩ : BufTy).Contents (Elt F) → (⟨S8192x2101, .f32⟩ : BufTy).Contents (Elt F)), -- %366 = stablehlo.multiply %365, %124 : tensor<8192x2101xf32>  @ reference:70
    StableHlo.unary main_v354 main_v367 (broadcastInDim S1x2101 ![1] bcast_S2101_S1x2101_1 : (⟨S2101, .f32⟩ : BufTy).Contents (Elt F) → (⟨S1x2101, .f32⟩ : BufTy).Contents (Elt F)), -- %367 = stablehlo.broadcast_in_dim %354, dims = [1] : (tensor<2101xf32>) -> tensor<1x2101xf32>  @ reference:70
    StableHlo.unary main_v367 main_v368 (broadcastInDim S8192x2101 ![0, 1] bcast_S1x2101_S8192x2101_0_1 : (⟨S1x2101, .f32⟩ : BufTy).Contents (Elt F) → (⟨S8192x2101, .f32⟩ : BufTy).Contents (Elt F)), -- %368 = stablehlo.broadcast_in_dim %367, dims = [0, 1] : (tensor<1x2101xf32>) -> tensor<8192x2101xf32>  @ reference:70
    StableHlo.binary main_v366 main_v368 main_v369 (mulf : (⟨S8192x2101, .f32⟩ : BufTy).Contents (Elt F) → (⟨S8192x2101, .f32⟩ : BufTy).Contents (Elt F) → (⟨S8192x2101, .f32⟩ : BufTy).Contents (Elt F)), -- %369 = stablehlo.multiply %366, %368 : tensor<8192x2101xf32>  @ reference:70
    StableHlo.binary main_v369 main_v363 main_v370 (Host.divf : (⟨S8192x2101, .f32⟩ : BufTy).Contents (Elt F) → (⟨S8192x2101, .f32⟩ : BufTy).Contents (Elt F) → (⟨S8192x2101, .f32⟩ : BufTy).Contents (Elt F)), -- %370 = stablehlo.divide %369, %363 : tensor<8192x2101xf32>  @ reference:70
    StableHlo.unary main_v356 main_v371 (broadcastInDim S1x2101 ![1] bcast_S2101_S1x2101_1 : (⟨S2101, .f32⟩ : BufTy).Contents (Elt F) → (⟨S1x2101, .f32⟩ : BufTy).Contents (Elt F)), -- %371 = stablehlo.broadcast_in_dim %356, dims = [1] : (tensor<2101xf32>) -> tensor<1x2101xf32>  @ reference:71
    StableHlo.unary main_v371 main_v372 (broadcastInDim S8192x2101 ![0, 1] bcast_S1x2101_S8192x2101_0_1 : (⟨S1x2101, .f32⟩ : BufTy).Contents (Elt F) → (⟨S8192x2101, .f32⟩ : BufTy).Contents (Elt F)), -- %372 = stablehlo.broadcast_in_dim %371, dims = [0, 1] : (tensor<1x2101xf32>) -> tensor<8192x2101xf32>  @ reference:71
    StableHlo.binary main_v372 main_v124 main_v373 (mulf : (⟨S8192x2101, .f32⟩ : BufTy).Contents (Elt F) → (⟨S8192x2101, .f32⟩ : BufTy).Contents (Elt F) → (⟨S8192x2101, .f32⟩ : BufTy).Contents (Elt F)), -- %373 = stablehlo.multiply %372, %124 : tensor<8192x2101xf32>  @ reference:71
    StableHlo.binary main_v373 main_v370 main_v374 (mulf : (⟨S8192x2101, .f32⟩ : BufTy).Contents (Elt F) → (⟨S8192x2101, .f32⟩ : BufTy).Contents (Elt F) → (⟨S8192x2101, .f32⟩ : BufTy).Contents (Elt F)), -- %374 = stablehlo.multiply %373, %370 : tensor<8192x2101xf32>  @ reference:71
    StableHlo.unary main_v241 main_v375 (broadcastInDim S1x2101 ![1] bcast_S2101_S1x2101_1 : (⟨S2101, .f32⟩ : BufTy).Contents (Elt F) → (⟨S1x2101, .f32⟩ : BufTy).Contents (Elt F)), -- %375 = stablehlo.broadcast_in_dim %241, dims = [1] : (tensor<2101xf32>) -> tensor<1x2101xf32>  @ reference:71
    StableHlo.unary main_v375 main_v376 (broadcastInDim S8192x2101 ![0, 1] bcast_S1x2101_S8192x2101_0_1 : (⟨S1x2101, .f32⟩ : BufTy).Contents (Elt F) → (⟨S8192x2101, .f32⟩ : BufTy).Contents (Elt F)), -- %376 = stablehlo.broadcast_in_dim %375, dims = [0, 1] : (tensor<1x2101xf32>) -> tensor<8192x2101xf32>  @ reference:71
    StableHlo.binary main_v376 main_v374 main_v377 (addf : (⟨S8192x2101, .f32⟩ : BufTy).Contents (Elt F) → (⟨S8192x2101, .f32⟩ : BufTy).Contents (Elt F) → (⟨S8192x2101, .f32⟩ : BufTy).Contents (Elt F)), -- %377 = stablehlo.add %376, %374 : tensor<8192x2101xf32>  @ reference:71
    StableHlo.unary main_v350 main_v378 (broadcastInDim S1x2101 ![1] bcast_S2101_S1x2101_1 : (⟨S2101, .f32⟩ : BufTy).Contents (Elt F) → (⟨S1x2101, .f32⟩ : BufTy).Contents (Elt F)), -- %378 = stablehlo.broadcast_in_dim %350, dims = [1] : (tensor<2101xf32>) -> tensor<1x2101xf32>  @ reference:72
    StableHlo.unary main_v378 main_v379 (broadcastInDim S8192x2101 ![0, 1] bcast_S1x2101_S8192x2101_0_1 : (⟨S1x2101, .f32⟩ : BufTy).Contents (Elt F) → (⟨S8192x2101, .f32⟩ : BufTy).Contents (Elt F)), -- %379 = stablehlo.broadcast_in_dim %378, dims = [0, 1] : (tensor<1x2101xf32>) -> tensor<8192x2101xf32>  @ reference:72
    StableHlo.binary main_v379 main_v124 main_v380 (mulf : (⟨S8192x2101, .f32⟩ : BufTy).Contents (Elt F) → (⟨S8192x2101, .f32⟩ : BufTy).Contents (Elt F) → (⟨S8192x2101, .f32⟩ : BufTy).Contents (Elt F)), -- %380 = stablehlo.multiply %379, %124 : tensor<8192x2101xf32>  @ reference:72
    StableHlo.unary main_v354 main_v381 (broadcastInDim S1x2101 ![1] bcast_S2101_S1x2101_1 : (⟨S2101, .f32⟩ : BufTy).Contents (Elt F) → (⟨S1x2101, .f32⟩ : BufTy).Contents (Elt F)), -- %381 = stablehlo.broadcast_in_dim %354, dims = [1] : (tensor<2101xf32>) -> tensor<1x2101xf32>  @ reference:72
    StableHlo.unary main_v381 main_v382 (broadcastInDim S8192x2101 ![0, 1] bcast_S1x2101_S8192x2101_0_1 : (⟨S1x2101, .f32⟩ : BufTy).Contents (Elt F) → (⟨S8192x2101, .f32⟩ : BufTy).Contents (Elt F)), -- %382 = stablehlo.broadcast_in_dim %381, dims = [0, 1] : (tensor<1x2101xf32>) -> tensor<8192x2101xf32>  @ reference:72
    StableHlo.binary main_v380 main_v382 main_v383 (mulf : (⟨S8192x2101, .f32⟩ : BufTy).Contents (Elt F) → (⟨S8192x2101, .f32⟩ : BufTy).Contents (Elt F) → (⟨S8192x2101, .f32⟩ : BufTy).Contents (Elt F)), -- %383 = stablehlo.multiply %380, %382 : tensor<8192x2101xf32>  @ reference:72
    StableHlo.binary main_v383 main_v363 main_v384 (Host.divf : (⟨S8192x2101, .f32⟩ : BufTy).Contents (Elt F) → (⟨S8192x2101, .f32⟩ : BufTy).Contents (Elt F) → (⟨S8192x2101, .f32⟩ : BufTy).Contents (Elt F)), -- %384 = stablehlo.divide %383, %363 : tensor<8192x2101xf32>  @ reference:72
    StableHlo.unary main_v356 main_v385 (broadcastInDim S1x2101 ![1] bcast_S2101_S1x2101_1 : (⟨S2101, .f32⟩ : BufTy).Contents (Elt F) → (⟨S1x2101, .f32⟩ : BufTy).Contents (Elt F)), -- %385 = stablehlo.broadcast_in_dim %356, dims = [1] : (tensor<2101xf32>) -> tensor<1x2101xf32>  @ reference:73
    StableHlo.unary main_v385 main_v386 (broadcastInDim S8192x2101 ![0, 1] bcast_S1x2101_S8192x2101_0_1 : (⟨S1x2101, .f32⟩ : BufTy).Contents (Elt F) → (⟨S8192x2101, .f32⟩ : BufTy).Contents (Elt F)), -- %386 = stablehlo.broadcast_in_dim %385, dims = [0, 1] : (tensor<1x2101xf32>) -> tensor<8192x2101xf32>  @ reference:73
    StableHlo.binary main_v386 main_v124 main_v387 (mulf : (⟨S8192x2101, .f32⟩ : BufTy).Contents (Elt F) → (⟨S8192x2101, .f32⟩ : BufTy).Contents (Elt F) → (⟨S8192x2101, .f32⟩ : BufTy).Contents (Elt F)), -- %387 = stablehlo.multiply %386, %124 : tensor<8192x2101xf32>  @ reference:73
    StableHlo.binary main_v387 main_v384 main_v388 (mulf : (⟨S8192x2101, .f32⟩ : BufTy).Contents (Elt F) → (⟨S8192x2101, .f32⟩ : BufTy).Contents (Elt F) → (⟨S8192x2101, .f32⟩ : BufTy).Contents (Elt F)), -- %388 = stablehlo.multiply %387, %384 : tensor<8192x2101xf32>  @ reference:73
    StableHlo.unary main_v352 main_v389 (broadcastInDim S1x2101 ![1] bcast_S2101_S1x2101_1 : (⟨S2101, .f32⟩ : BufTy).Contents (Elt F) → (⟨S1x2101, .f32⟩ : BufTy).Contents (Elt F)), -- %389 = stablehlo.broadcast_in_dim %352, dims = [1] : (tensor<2101xf32>) -> tensor<1x2101xf32>  @ reference:73
    StableHlo.unary main_v389 main_v390 (broadcastInDim S8192x2101 ![0, 1] bcast_S1x2101_S8192x2101_0_1 : (⟨S1x2101, .f32⟩ : BufTy).Contents (Elt F) → (⟨S8192x2101, .f32⟩ : BufTy).Contents (Elt F)), -- %390 = stablehlo.broadcast_in_dim %389, dims = [0, 1] : (tensor<1x2101xf32>) -> tensor<8192x2101xf32>  @ reference:73
    StableHlo.binary main_v390 main_v388 main_v391 (addf : (⟨S8192x2101, .f32⟩ : BufTy).Contents (Elt F) → (⟨S8192x2101, .f32⟩ : BufTy).Contents (Elt F) → (⟨S8192x2101, .f32⟩ : BufTy).Contents (Elt F)), -- %391 = stablehlo.add %390, %388 : tensor<8192x2101xf32>  @ reference:73
    StableHlo.binary main_v391 main_v384 main_v392 (addf : (⟨S8192x2101, .f32⟩ : BufTy).Contents (Elt F) → (⟨S8192x2101, .f32⟩ : BufTy).Contents (Elt F) → (⟨S8192x2101, .f32⟩ : BufTy).Contents (Elt F)), -- %392 = stablehlo.add %391, %384 : tensor<8192x2101xf32>  @ reference:75
    StableHlo.binary main_v391 main_v384 main_v393 (subf : (⟨S8192x2101, .f32⟩ : BufTy).Contents (Elt F) → (⟨S8192x2101, .f32⟩ : BufTy).Contents (Elt F) → (⟨S8192x2101, .f32⟩ : BufTy).Contents (Elt F)), -- %393 = stablehlo.subtract %391, %384 : tensor<8192x2101xf32>  @ reference:76
    StableHlo.nullary main_cst_66 (constant S_ .f32 0x3F800000#32), -- %cst_66 = stablehlo.constant dense<1.000000e+00> : tensor<f32>
    StableHlo.unary main_cst_66 main_v394 (broadcastInDim S8192x2101 ![] bcast_S_S8192x2101 : (⟨S_, .f32⟩ : BufTy).Contents (Elt F) → (⟨S8192x2101, .f32⟩ : BufTy).Contents (Elt F)), -- %394 = stablehlo.broadcast_in_dim %cst_66, dims = [] : (tensor<f32>) -> tensor<8192x2101xf32>  @ reference:77
    StableHlo.binary main_v392 main_v394 main_v395 (cmpf .oge : (⟨S8192x2101, .f32⟩ : BufTy).Contents (Elt F) → (⟨S8192x2101, .f32⟩ : BufTy).Contents (Elt F) → (⟨S8192x2101, .i1⟩ : BufTy).Contents (Elt F)), -- %395 = stablehlo.compare GE, %392, %394, FLOAT : (tensor<8192x2101xf32>, tensor<8192x2101xf32>) -> tensor<8192x2101xi1>  @ reference:77
    StableHlo.nullary main_cst_67 (constant S_ .f32 0x3F800000#32), -- %cst_67 = stablehlo.constant dense<1.000000e+00> : tensor<f32>
    StableHlo.unary main_cst_67 main_v396 (broadcastInDim S8192x2101 ![] bcast_S_S8192x2101 : (⟨S_, .f32⟩ : BufTy).Contents (Elt F) → (⟨S8192x2101, .f32⟩ : BufTy).Contents (Elt F)), -- %396 = stablehlo.broadcast_in_dim %cst_67, dims = [] : (tensor<f32>) -> tensor<8192x2101xf32>  @ reference:78
    StableHlo.binary main_v396 main_v392 main_v397 (addf : (⟨S8192x2101, .f32⟩ : BufTy).Contents (Elt F) → (⟨S8192x2101, .f32⟩ : BufTy).Contents (Elt F) → (⟨S8192x2101, .f32⟩ : BufTy).Contents (Elt F)), -- %397 = stablehlo.add %396, %392 : tensor<8192x2101xf32>  @ reference:78
    StableHlo.nullary main_cst_68 (constant S_ .f32 0x3F800000#32), -- %cst_68 = stablehlo.constant dense<1.000000e+00> : tensor<f32>
    StableHlo.unary main_cst_68 main_v398 (broadcastInDim S8192x2101 ![] bcast_S_S8192x2101 : (⟨S_, .f32⟩ : BufTy).Contents (Elt F) → (⟨S8192x2101, .f32⟩ : BufTy).Contents (Elt F)), -- %398 = stablehlo.broadcast_in_dim %cst_68, dims = [] : (tensor<f32>) -> tensor<8192x2101xf32>  @ reference:78
    StableHlo.binary main_v398 main_v393 main_v399 (addf : (⟨S8192x2101, .f32⟩ : BufTy).Contents (Elt F) → (⟨S8192x2101, .f32⟩ : BufTy).Contents (Elt F) → (⟨S8192x2101, .f32⟩ : BufTy).Contents (Elt F)), -- %399 = stablehlo.add %398, %393 : tensor<8192x2101xf32>  @ reference:78
    StableHlo.binary main_v397 main_v399 main_v400 (mulf : (⟨S8192x2101, .f32⟩ : BufTy).Contents (Elt F) → (⟨S8192x2101, .f32⟩ : BufTy).Contents (Elt F) → (⟨S8192x2101, .f32⟩ : BufTy).Contents (Elt F)), -- %400 = stablehlo.multiply %397, %399 : tensor<8192x2101xf32>  @ reference:78
    StableHlo.nullary main_cst_69 (constant S_ .f32 0x3F800000#32), -- %cst_69 = stablehlo.constant dense<1.000000e+00> : tensor<f32>
    StableHlo.unary main_cst_69 main_v401 (broadcastInDim S8192x2101 ![] bcast_S_S8192x2101 : (⟨S_, .f32⟩ : BufTy).Contents (Elt F) → (⟨S8192x2101, .f32⟩ : BufTy).Contents (Elt F)), -- %401 = stablehlo.broadcast_in_dim %cst_69, dims = [] : (tensor<f32>) -> tensor<8192x2101xf32>  @ reference:78
    StableHlo.binary main_v401 main_v393 main_v402 (subf : (⟨S8192x2101, .f32⟩ : BufTy).Contents (Elt F) → (⟨S8192x2101, .f32⟩ : BufTy).Contents (Elt F) → (⟨S8192x2101, .f32⟩ : BufTy).Contents (Elt F)), -- %402 = stablehlo.subtract %401, %393 : tensor<8192x2101xf32>  @ reference:78
    StableHlo.binary main_v400 main_v402 main_v403 (mulf : (⟨S8192x2101, .f32⟩ : BufTy).Contents (Elt F) → (⟨S8192x2101, .f32⟩ : BufTy).Contents (Elt F) → (⟨S8192x2101, .f32⟩ : BufTy).Contents (Elt F)), -- %403 = stablehlo.multiply %400, %402 : tensor<8192x2101xf32>  @ reference:78
    StableHlo.nullary main_cst_70 (constant S_ .f32 0x3F800000#32), -- %cst_70 = stablehlo.constant dense<1.000000e+00> : tensor<f32>
    StableHlo.unary main_cst_70 main_v404 (broadcastInDim S8192x2101 ![] bcast_S_S8192x2101 : (⟨S_, .f32⟩ : BufTy).Contents (Elt F) → (⟨S8192x2101, .f32⟩ : BufTy).Contents (Elt F)), -- %404 = stablehlo.broadcast_in_dim %cst_70, dims = [] : (tensor<f32>) -> tensor<8192x2101xf32>  @ reference:78
    StableHlo.binary main_v404 main_v392 main_v405 (subf : (⟨S8192x2101, .f32⟩ : BufTy).Contents (Elt F) → (⟨S8192x2101, .f32⟩ : BufTy).Contents (Elt F) → (⟨S8192x2101, .f32⟩ : BufTy).Contents (Elt F)), -- %405 = stablehlo.subtract %404, %392 : tensor<8192x2101xf32>  @ reference:78
    StableHlo.binary main_v403 main_v405 main_v406 (mulf : (⟨S8192x2101, .f32⟩ : BufTy).Contents (Elt F) → (⟨S8192x2101, .f32⟩ : BufTy).Contents (Elt F) → (⟨S8192x2101, .f32⟩ : BufTy).Contents (Elt F)), -- %406 = stablehlo.multiply %403, %405 : tensor<8192x2101xf32>  @ reference:78
    StableHlo.nullary main_cst_71 (constant S_ .f32 0x3F800000#32) ] -- %cst_71 = stablehlo.constant dense<1.000000e+00> : tensor<f32>

/-- @main's operations 481 … 544 of 553 (window main_part8). -/
abbrev ops8 : List (HloOp τ sig (Elt F)) :=
  [ StableHlo.TRef.unary (.of main_cst_71 : StableHlo.TRef sig ⟨S_, .f32⟩) main_call1.v0 id, -- @where_0 of [%407 = func.call @_where_0(%395, %cst_71, %406) : (tensor<8192x2101xi1>, tensor<f32>, tensor<8192x2101xf32>) -> tensor<8192x2101xf32>  @ reference:79]: %0 = stablehlo.convert %arg1 : tensor<f32>
    StableHlo.TRef.unary main_call1.v0 main_call1.v1 (broadcastInDim S8192x2101 ![] bcast_S_S8192x2101), -- @where_0 of [%407 = func.call @_where_0(%395, %cst_71, %406) : (tensor<8192x2101xi1>, tensor<f32>, tensor<8192x2101xf32>) -> tensor<8192x2101xf32>  @ reference:79]: %1 = stablehlo.broadcast_in_dim %0, dims = [] : (tensor<f32>) -> tensor<8192x2101xf32>
    StableHlo.TRef.ternary (.of main_v395 : StableHlo.TRef sig ⟨S8192x2101, .i1⟩) main_call1.v1 (.of main_v406 : StableHlo.TRef sig ⟨S8192x2101, .f32⟩) main_call1.v2 select, -- @where_0 of [%407 = func.call @_where_0(%395, %cst_71, %406) : (tensor<8192x2101xi1>, tensor<f32>, tensor<8192x2101xf32>) -> tensor<8192x2101xf32>  @ reference:79]: %2 = stablehlo.select %arg0, %1, %arg2 : tensor<8192x2101xi1>, tensor<8192x2101xf32>
    StableHlo.unary main_v407 main_v408 (Host.sqrt : (⟨S8192x2101, .f32⟩ : BufTy).Contents (Elt F) → (⟨S8192x2101, .f32⟩ : BufTy).Contents (Elt F)), -- %408 = stablehlo.sqrt %407 : tensor<8192x2101xf32>  @ reference:79
    StableHlo.binary main_v391 main_v391 main_v409 (mulf : (⟨S8192x2101, .f32⟩ : BufTy).Contents (Elt F) → (⟨S8192x2101, .f32⟩ : BufTy).Contents (Elt F) → (⟨S8192x2101, .f32⟩ : BufTy).Contents (Elt F)), -- %409 = stablehlo.multiply %391, %391 : tensor<8192x2101xf32>  @ reference:80
    StableHlo.binary main_v384 main_v384 main_v410 (mulf : (⟨S8192x2101, .f32⟩ : BufTy).Contents (Elt F) → (⟨S8192x2101, .f32⟩ : BufTy).Contents (Elt F) → (⟨S8192x2101, .f32⟩ : BufTy).Contents (Elt F)), -- %410 = stablehlo.multiply %384, %384 : tensor<8192x2101xf32>  @ reference:80
    StableHlo.binary main_v409 main_v410 main_v411 (subf : (⟨S8192x2101, .f32⟩ : BufTy).Contents (Elt F) → (⟨S8192x2101, .f32⟩ : BufTy).Contents (Elt F) → (⟨S8192x2101, .f32⟩ : BufTy).Contents (Elt F)), -- %411 = stablehlo.subtract %409, %410 : tensor<8192x2101xf32>  @ reference:80
    StableHlo.nullary main_cst_72 (constant S_ .f32 0x3F800000#32), -- %cst_72 = stablehlo.constant dense<1.000000e+00> : tensor<f32>
    StableHlo.unary main_cst_72 main_v412 (broadcastInDim S8192x2101 ![] bcast_S_S8192x2101 : (⟨S_, .f32⟩ : BufTy).Contents (Elt F) → (⟨S8192x2101, .f32⟩ : BufTy).Contents (Elt F)), -- %412 = stablehlo.broadcast_in_dim %cst_72, dims = [] : (tensor<f32>) -> tensor<8192x2101xf32>  @ reference:81
    StableHlo.binary main_v412 main_v411 main_v413 (addf : (⟨S8192x2101, .f32⟩ : BufTy).Contents (Elt F) → (⟨S8192x2101, .f32⟩ : BufTy).Contents (Elt F) → (⟨S8192x2101, .f32⟩ : BufTy).Contents (Elt F)), -- %413 = stablehlo.add %412, %411 : tensor<8192x2101xf32>  @ reference:81
    StableHlo.binary main_v413 main_v408 main_v414 (addf : (⟨S8192x2101, .f32⟩ : BufTy).Contents (Elt F) → (⟨S8192x2101, .f32⟩ : BufTy).Contents (Elt F) → (⟨S8192x2101, .f32⟩ : BufTy).Contents (Elt F)), -- %414 = stablehlo.add %413, %408 : tensor<8192x2101xf32>  @ reference:81
    StableHlo.nullary main_cst_73 (constant S_ .f32 0x40000000#32), -- %cst_73 = stablehlo.constant dense<2.000000e+00> : tensor<f32>
    StableHlo.unary main_cst_73 main_v415 (broadcastInDim S8192x2101 ![] bcast_S_S8192x2101 : (⟨S_, .f32⟩ : BufTy).Contents (Elt F) → (⟨S8192x2101, .f32⟩ : BufTy).Contents (Elt F)), -- %415 = stablehlo.broadcast_in_dim %cst_73, dims = [] : (tensor<f32>) -> tensor<8192x2101xf32>  @ reference:81
    StableHlo.binary main_v415 main_v391 main_v416 (mulf : (⟨S8192x2101, .f32⟩ : BufTy).Contents (Elt F) → (⟨S8192x2101, .f32⟩ : BufTy).Contents (Elt F) → (⟨S8192x2101, .f32⟩ : BufTy).Contents (Elt F)), -- %416 = stablehlo.multiply %415, %391 : tensor<8192x2101xf32>  @ reference:81
    StableHlo.binary main_v414 main_v416 main_v417 (Host.divf : (⟨S8192x2101, .f32⟩ : BufTy).Contents (Elt F) → (⟨S8192x2101, .f32⟩ : BufTy).Contents (Elt F) → (⟨S8192x2101, .f32⟩ : BufTy).Contents (Elt F)), -- %417 = stablehlo.divide %414, %416 : tensor<8192x2101xf32>  @ reference:81
    StableHlo.nullary main_cst_74 (constant S_ .f32 0x3F800000#32), -- %cst_74 = stablehlo.constant dense<1.000000e+00> : tensor<f32>
    StableHlo.unary main_cst_74 main_v418 (broadcastInDim S8192x2101 ![] bcast_S_S8192x2101 : (⟨S_, .f32⟩ : BufTy).Contents (Elt F) → (⟨S8192x2101, .f32⟩ : BufTy).Contents (Elt F)), -- %418 = stablehlo.broadcast_in_dim %cst_74, dims = [] : (tensor<f32>) -> tensor<8192x2101xf32>  @ reference:82
    StableHlo.binary main_v418 main_v411 main_v419 (subf : (⟨S8192x2101, .f32⟩ : BufTy).Contents (Elt F) → (⟨S8192x2101, .f32⟩ : BufTy).Contents (Elt F) → (⟨S8192x2101, .f32⟩ : BufTy).Contents (Elt F)), -- %419 = stablehlo.subtract %418, %411 : tensor<8192x2101xf32>  @ reference:82
    StableHlo.binary main_v419 main_v408 main_v420 (addf : (⟨S8192x2101, .f32⟩ : BufTy).Contents (Elt F) → (⟨S8192x2101, .f32⟩ : BufTy).Contents (Elt F) → (⟨S8192x2101, .f32⟩ : BufTy).Contents (Elt F)), -- %420 = stablehlo.add %419, %408 : tensor<8192x2101xf32>  @ reference:82
    StableHlo.nullary main_cst_75 (constant S_ .f32 0x40000000#32), -- %cst_75 = stablehlo.constant dense<2.000000e+00> : tensor<f32>
    StableHlo.unary main_cst_75 main_v421 (broadcastInDim S8192x2101 ![] bcast_S_S8192x2101 : (⟨S_, .f32⟩ : BufTy).Contents (Elt F) → (⟨S8192x2101, .f32⟩ : BufTy).Contents (Elt F)), -- %421 = stablehlo.broadcast_in_dim %cst_75, dims = [] : (tensor<f32>) -> tensor<8192x2101xf32>  @ reference:82
    StableHlo.binary main_v421 main_v384 main_v422 (mulf : (⟨S8192x2101, .f32⟩ : BufTy).Contents (Elt F) → (⟨S8192x2101, .f32⟩ : BufTy).Contents (Elt F) → (⟨S8192x2101, .f32⟩ : BufTy).Contents (Elt F)), -- %422 = stablehlo.multiply %421, %384 : tensor<8192x2101xf32>  @ reference:82
    StableHlo.binary main_v420 main_v422 main_v423 (Host.divf : (⟨S8192x2101, .f32⟩ : BufTy).Contents (Elt F) → (⟨S8192x2101, .f32⟩ : BufTy).Contents (Elt F) → (⟨S8192x2101, .f32⟩ : BufTy).Contents (Elt F)), -- %423 = stablehlo.divide %420, %422 : tensor<8192x2101xf32>  @ reference:82
    StableHlo.nullary main_cst_76 (constant S_ .f32 0x3F800000#32), -- %cst_76 = stablehlo.constant dense<1.000000e+00> : tensor<f32>
    StableHlo.TRef.unary (.of main_cst_76 : StableHlo.TRef sig ⟨S_, .f32⟩) main_call2.v0 id, -- @where_0 of [%424 = func.call @_where_0(%395, %cst_76, %423) : (tensor<8192x2101xi1>, tensor<f32>, tensor<8192x2101xf32>) -> tensor<8192x2101xf32>  @ reference:83]: %0 = stablehlo.convert %arg1 : tensor<f32>
    StableHlo.TRef.unary main_call2.v0 main_call2.v1 (broadcastInDim S8192x2101 ![] bcast_S_S8192x2101), -- @where_0 of [%424 = func.call @_where_0(%395, %cst_76, %423) : (tensor<8192x2101xi1>, tensor<f32>, tensor<8192x2101xf32>) -> tensor<8192x2101xf32>  @ reference:83]: %1 = stablehlo.broadcast_in_dim %0, dims = [] : (tensor<f32>) -> tensor<8192x2101xf32>
    StableHlo.TRef.ternary (.of main_v395 : StableHlo.TRef sig ⟨S8192x2101, .i1⟩) main_call2.v1 (.of main_v423 : StableHlo.TRef sig ⟨S8192x2101, .f32⟩) main_call2.v2 select, -- @where_0 of [%424 = func.call @_where_0(%395, %cst_76, %423) : (tensor<8192x2101xi1>, tensor<f32>, tensor<8192x2101xf32>) -> tensor<8192x2101xf32>  @ reference:83]: %2 = stablehlo.select %arg0, %1, %arg2 : tensor<8192x2101xi1>, tensor<8192x2101xf32>
    StableHlo.nullary main_cst_77 (constant S_ .f32 0x3F800000#32), -- %cst_77 = stablehlo.constant dense<1.000000e+00> : tensor<f32>
    StableHlo.unary main_cst_77 main_v425 (broadcastInDim S8192x1 ![] bcast_S_S8192x1 : (⟨S_, .f32⟩ : BufTy).Contents (Elt F) → (⟨S8192x1, .f32⟩ : BufTy).Contents (Elt F)), -- %425 = stablehlo.broadcast_in_dim %cst_77, dims = [] : (tensor<f32>) -> tensor<8192x1xf32>  @ reference:84
    StableHlo.binary main_arg0 main_v425 main_v426 (subf : (⟨S8192x1, .f32⟩ : BufTy).Contents (Elt F) → (⟨S8192x1, .f32⟩ : BufTy).Contents (Elt F) → (⟨S8192x1, .f32⟩ : BufTy).Contents (Elt F)), -- %426 = stablehlo.subtract %arg0, %425 : tensor<8192x1xf32>  @ reference:84
    StableHlo.unary main_v426 main_v427 (broadcastInDim S8192x2101 ![0, 1] bcast_S8192x1_S8192x2101_0_1 : (⟨S8192x1, .f32⟩ : BufTy).Contents (Elt F) → (⟨S8192x2101, .f32⟩ : BufTy).Contents (Elt F)), -- %427 = stablehlo.broadcast_in_dim %426, dims = [0, 1] : (tensor<8192x1xf32>) -> tensor<8192x2101xf32>  @ reference:84
    StableHlo.binary main_v424 main_v427 main_v428 (Host.powf : (⟨S8192x2101, .f32⟩ : BufTy).Contents (Elt F) → (⟨S8192x2101, .f32⟩ : BufTy).Contents (Elt F) → (⟨S8192x2101, .f32⟩ : BufTy).Contents (Elt F)), -- %428 = stablehlo.power %424, %427 : tensor<8192x2101xf32>  @ reference:84
    StableHlo.binary main_v428 main_v428 main_v429 (mulf : (⟨S8192x2101, .f32⟩ : BufTy).Contents (Elt F) → (⟨S8192x2101, .f32⟩ : BufTy).Contents (Elt F) → (⟨S8192x2101, .f32⟩ : BufTy).Contents (Elt F)), -- %429 = stablehlo.multiply %428, %428 : tensor<8192x2101xf32>  @ reference:85
    StableHlo.binary main_v417 main_v417 main_v430 (mulf : (⟨S8192x2101, .f32⟩ : BufTy).Contents (Elt F) → (⟨S8192x2101, .f32⟩ : BufTy).Contents (Elt F) → (⟨S8192x2101, .f32⟩ : BufTy).Contents (Elt F)), -- %430 = stablehlo.multiply %417, %417 : tensor<8192x2101xf32>  @ reference:86
    StableHlo.binary main_v430 main_v429 main_v431 (mulf : (⟨S8192x2101, .f32⟩ : BufTy).Contents (Elt F) → (⟨S8192x2101, .f32⟩ : BufTy).Contents (Elt F) → (⟨S8192x2101, .f32⟩ : BufTy).Contents (Elt F)), -- %431 = stablehlo.multiply %430, %429 : tensor<8192x2101xf32>  @ reference:87
    StableHlo.nullary main_cst_78 (constant S_ .f32 0x3F800000#32), -- %cst_78 = stablehlo.constant dense<1.000000e+00> : tensor<f32>
    StableHlo.unary main_cst_78 main_v432 (broadcastInDim S8192x2101 ![] bcast_S_S8192x2101 : (⟨S_, .f32⟩ : BufTy).Contents (Elt F) → (⟨S8192x2101, .f32⟩ : BufTy).Contents (Elt F)), -- %432 = stablehlo.broadcast_in_dim %cst_78, dims = [] : (tensor<f32>) -> tensor<8192x2101xf32>  @ reference:87
    StableHlo.binary main_v431 main_v432 main_v433 (subf : (⟨S8192x2101, .f32⟩ : BufTy).Contents (Elt F) → (⟨S8192x2101, .f32⟩ : BufTy).Contents (Elt F) → (⟨S8192x2101, .f32⟩ : BufTy).Contents (Elt F)), -- %433 = stablehlo.subtract %431, %432 : tensor<8192x2101xf32>  @ reference:87
    StableHlo.nullary main_cst_79 (constant S_ .f32 0x3F800000#32), -- %cst_79 = stablehlo.constant dense<1.000000e+00> : tensor<f32>
    StableHlo.unary main_cst_79 main_v434 (broadcastInDim S8192x2101 ![] bcast_S_S8192x2101 : (⟨S_, .f32⟩ : BufTy).Contents (Elt F) → (⟨S8192x2101, .f32⟩ : BufTy).Contents (Elt F)), -- %434 = stablehlo.broadcast_in_dim %cst_79, dims = [] : (tensor<f32>) -> tensor<8192x2101xf32>  @ reference:88
    StableHlo.binary main_v429 main_v434 main_v435 (subf : (⟨S8192x2101, .f32⟩ : BufTy).Contents (Elt F) → (⟨S8192x2101, .f32⟩ : BufTy).Contents (Elt F) → (⟨S8192x2101, .f32⟩ : BufTy).Contents (Elt F)), -- %435 = stablehlo.subtract %429, %434 : tensor<8192x2101xf32>  @ reference:88
    StableHlo.binary main_v417 main_v435 main_v436 (mulf : (⟨S8192x2101, .f32⟩ : BufTy).Contents (Elt F) → (⟨S8192x2101, .f32⟩ : BufTy).Contents (Elt F) → (⟨S8192x2101, .f32⟩ : BufTy).Contents (Elt F)), -- %436 = stablehlo.multiply %417, %435 : tensor<8192x2101xf32>  @ reference:88
    StableHlo.binary main_v436 main_v433 main_v437 (Host.divf : (⟨S8192x2101, .f32⟩ : BufTy).Contents (Elt F) → (⟨S8192x2101, .f32⟩ : BufTy).Contents (Elt F) → (⟨S8192x2101, .f32⟩ : BufTy).Contents (Elt F)), -- %437 = stablehlo.divide %436, %433 : tensor<8192x2101xf32>  @ reference:88
    StableHlo.nullary main_cst_80 (constant S_ .f32 0x3F800000#32), -- %cst_80 = stablehlo.constant dense<1.000000e+00> : tensor<f32>
    StableHlo.unary main_cst_80 main_v438 (broadcastInDim S8192x2101 ![] bcast_S_S8192x2101 : (⟨S_, .f32⟩ : BufTy).Contents (Elt F) → (⟨S8192x2101, .f32⟩ : BufTy).Contents (Elt F)), -- %438 = stablehlo.broadcast_in_dim %cst_80, dims = [] : (tensor<f32>) -> tensor<8192x2101xf32>  @ reference:89
    StableHlo.binary main_v430 main_v438 main_v439 (subf : (⟨S8192x2101, .f32⟩ : BufTy).Contents (Elt F) → (⟨S8192x2101, .f32⟩ : BufTy).Contents (Elt F) → (⟨S8192x2101, .f32⟩ : BufTy).Contents (Elt F)), -- %439 = stablehlo.subtract %430, %438 : tensor<8192x2101xf32>  @ reference:89
    StableHlo.binary main_v428 main_v439 main_v440 (mulf : (⟨S8192x2101, .f32⟩ : BufTy).Contents (Elt F) → (⟨S8192x2101, .f32⟩ : BufTy).Contents (Elt F) → (⟨S8192x2101, .f32⟩ : BufTy).Contents (Elt F)), -- %440 = stablehlo.multiply %428, %439 : tensor<8192x2101xf32>  @ reference:89
    StableHlo.binary main_v440 main_v433 main_v441 (Host.divf : (⟨S8192x2101, .f32⟩ : BufTy).Contents (Elt F) → (⟨S8192x2101, .f32⟩ : BufTy).Contents (Elt F) → (⟨S8192x2101, .f32⟩ : BufTy).Contents (Elt F)), -- %441 = stablehlo.divide %440, %433 : tensor<8192x2101xf32>  @ reference:89
    StableHlo.nullary main_cst_81 (constant S_ .f32 0x3F800000#32), -- %cst_81 = stablehlo.constant dense<1.000000e+00> : tensor<f32>
    StableHlo.unary main_cst_81 main_v442 (broadcastInDim S8192x2101 ![] bcast_S_S8192x2101 : (⟨S_, .f32⟩ : BufTy).Contents (Elt F) → (⟨S8192x2101, .f32⟩ : BufTy).Contents (Elt F)), -- %442 = stablehlo.broadcast_in_dim %cst_81, dims = [] : (tensor<f32>) -> tensor<8192x2101xf32>  @ reference:91
    StableHlo.binary main_v442 main_v384 main_v443 (subf : (⟨S8192x2101, .f32⟩ : BufTy).Contents (Elt F) → (⟨S8192x2101, .f32⟩ : BufTy).Contents (Elt F) → (⟨S8192x2101, .f32⟩ : BufTy).Contents (Elt F)), -- %443 = stablehlo.subtract %442, %384 : tensor<8192x2101xf32>  @ reference:91
    StableHlo.nullary main_cst_82 (constant S_ .f32 0x3F800000#32), -- %cst_82 = stablehlo.constant dense<1.000000e+00> : tensor<f32>
    StableHlo.unary main_cst_82 main_v444 (broadcastInDim S8192x1 ![] bcast_S_S8192x1 : (⟨S_, .f32⟩ : BufTy).Contents (Elt F) → (⟨S8192x1, .f32⟩ : BufTy).Contents (Elt F)), -- %444 = stablehlo.broadcast_in_dim %cst_82, dims = [] : (tensor<f32>) -> tensor<8192x1xf32>  @ reference:91
    StableHlo.binary main_arg0 main_v444 main_v445 (subf : (⟨S8192x1, .f32⟩ : BufTy).Contents (Elt F) → (⟨S8192x1, .f32⟩ : BufTy).Contents (Elt F) → (⟨S8192x1, .f32⟩ : BufTy).Contents (Elt F)), -- %445 = stablehlo.subtract %arg0, %444 : tensor<8192x1xf32>  @ reference:91
    StableHlo.unary main_v445 main_v446 (broadcastInDim S8192x2101 ![0, 1] bcast_S8192x1_S8192x2101_0_1 : (⟨S8192x1, .f32⟩ : BufTy).Contents (Elt F) → (⟨S8192x2101, .f32⟩ : BufTy).Contents (Elt F)), -- %446 = stablehlo.broadcast_in_dim %445, dims = [0, 1] : (tensor<8192x1xf32>) -> tensor<8192x2101xf32>  @ reference:91
    StableHlo.binary main_v443 main_v446 main_v447 (mulf : (⟨S8192x2101, .f32⟩ : BufTy).Contents (Elt F) → (⟨S8192x2101, .f32⟩ : BufTy).Contents (Elt F) → (⟨S8192x2101, .f32⟩ : BufTy).Contents (Elt F)), -- %447 = stablehlo.multiply %443, %446 : tensor<8192x2101xf32>  @ reference:91
    StableHlo.binary main_v384 main_v447 main_v448 (addf : (⟨S8192x2101, .f32⟩ : BufTy).Contents (Elt F) → (⟨S8192x2101, .f32⟩ : BufTy).Contents (Elt F) → (⟨S8192x2101, .f32⟩ : BufTy).Contents (Elt F)), -- %448 = stablehlo.add %384, %447 : tensor<8192x2101xf32>  @ reference:91
    StableHlo.binary main_v384 main_v448 main_v449 (Host.divf : (⟨S8192x2101, .f32⟩ : BufTy).Contents (Elt F) → (⟨S8192x2101, .f32⟩ : BufTy).Contents (Elt F) → (⟨S8192x2101, .f32⟩ : BufTy).Contents (Elt F)), -- %449 = stablehlo.divide %384, %448 : tensor<8192x2101xf32>  @ reference:91
    StableHlo.TRef.ternary (.of main_v395 : StableHlo.TRef sig ⟨S8192x2101, .i1⟩) (.of main_v449 : StableHlo.TRef sig ⟨S8192x2101, .f32⟩) (.of main_v441 : StableHlo.TRef sig ⟨S8192x2101, .f32⟩) main_call3.v0 select, -- @where of [%450 = func.call @_where(%395, %449, %441) : (tensor<8192x2101xi1>, tensor<8192x2101xf32>, tensor<8192x2101xf32>) -> tensor<8192x2101xf32>  @ reference:92]: %0 = stablehlo.select %arg0, %arg1, %arg2 : tensor<8192x2101xi1>, tensor<8192x2101xf32>
    StableHlo.nullary main_cst_83 (constant S_ .f32 0x3F800000#32), -- %cst_83 = stablehlo.constant dense<1.000000e+00> : tensor<f32>
    StableHlo.unary main_cst_83 main_v451 (broadcastInDim S8192x2101 ![] bcast_S_S8192x2101 : (⟨S_, .f32⟩ : BufTy).Contents (Elt F) → (⟨S8192x2101, .f32⟩ : BufTy).Contents (Elt F)), -- %451 = stablehlo.broadcast_in_dim %cst_83, dims = [] : (tensor<f32>) -> tensor<8192x2101xf32>  @ reference:93
    StableHlo.binary main_v451 main_v449 main_v452 (subf : (⟨S8192x2101, .f32⟩ : BufTy).Contents (Elt F) → (⟨S8192x2101, .f32⟩ : BufTy).Contents (Elt F) → (⟨S8192x2101, .f32⟩ : BufTy).Contents (Elt F)), -- %452 = stablehlo.subtract %451, %449 : tensor<8192x2101xf32>  @ reference:93
    StableHlo.TRef.ternary (.of main_v395 : StableHlo.TRef sig ⟨S8192x2101, .i1⟩) (.of main_v452 : StableHlo.TRef sig ⟨S8192x2101, .f32⟩) (.of main_v437 : StableHlo.TRef sig ⟨S8192x2101, .f32⟩) main_call4.v0 select, -- @where of [%453 = func.call @_where(%395, %452, %437) : (tensor<8192x2101xi1>, tensor<8192x2101xf32>, tensor<8192x2101xf32>) -> tensor<8192x2101xf32>  @ reference:93]: %0 = stablehlo.select %arg0, %arg1, %arg2 : tensor<8192x2101xi1>, tensor<8192x2101xf32>
    StableHlo.binary main_v453 main_v391 main_v454 (mulf : (⟨S8192x2101, .f32⟩ : BufTy).Contents (Elt F) → (⟨S8192x2101, .f32⟩ : BufTy).Contents (Elt F) → (⟨S8192x2101, .f32⟩ : BufTy).Contents (Elt F)) ] -- %454 = stablehlo.multiply %453, %391 : tensor<8192x2101xf32>  @ reference:95

/-- @main's operations 545 … 553 of 553 (window main_part9). -/
abbrev ops9 : List (HloOp τ sig (Elt F)) :=
  [ StableHlo.nullary main_cst_84 (constant S_ .f32 0x3F800000#32), -- %cst_84 = stablehlo.constant dense<1.000000e+00> : tensor<f32>
    StableHlo.unary main_cst_84 main_v455 (broadcastInDim S8192x2101 ![] bcast_S_S8192x2101 : (⟨S_, .f32⟩ : BufTy).Contents (Elt F) → (⟨S8192x2101, .f32⟩ : BufTy).Contents (Elt F)), -- %455 = stablehlo.broadcast_in_dim %cst_84, dims = [] : (tensor<f32>) -> tensor<8192x2101xf32>  @ reference:95
    StableHlo.binary main_v455 main_v454 main_v456 (subf : (⟨S8192x2101, .f32⟩ : BufTy).Contents (Elt F) → (⟨S8192x2101, .f32⟩ : BufTy).Contents (Elt F) → (⟨S8192x2101, .f32⟩ : BufTy).Contents (Elt F)), -- %456 = stablehlo.subtract %455, %454 : tensor<8192x2101xf32>  @ reference:95
    StableHlo.binary main_v370 main_v450 main_v457 (mulf : (⟨S8192x2101, .f32⟩ : BufTy).Contents (Elt F) → (⟨S8192x2101, .f32⟩ : BufTy).Contents (Elt F) → (⟨S8192x2101, .f32⟩ : BufTy).Contents (Elt F)), -- %457 = stablehlo.multiply %370, %450 : tensor<8192x2101xf32>  @ reference:96
    StableHlo.binary main_v457 main_v456 main_v458 (Host.divf : (⟨S8192x2101, .f32⟩ : BufTy).Contents (Elt F) → (⟨S8192x2101, .f32⟩ : BufTy).Contents (Elt F) → (⟨S8192x2101, .f32⟩ : BufTy).Contents (Elt F)), -- %458 = stablehlo.divide %457, %456 : tensor<8192x2101xf32>  @ reference:96
    StableHlo.binary main_v370 main_v453 main_v459 (mulf : (⟨S8192x2101, .f32⟩ : BufTy).Contents (Elt F) → (⟨S8192x2101, .f32⟩ : BufTy).Contents (Elt F) → (⟨S8192x2101, .f32⟩ : BufTy).Contents (Elt F)), -- %459 = stablehlo.multiply %370, %453 : tensor<8192x2101xf32>  @ reference:101
    StableHlo.binary main_v459 main_v384 main_v460 (mulf : (⟨S8192x2101, .f32⟩ : BufTy).Contents (Elt F) → (⟨S8192x2101, .f32⟩ : BufTy).Contents (Elt F) → (⟨S8192x2101, .f32⟩ : BufTy).Contents (Elt F)), -- %460 = stablehlo.multiply %459, %384 : tensor<8192x2101xf32>  @ reference:101
    StableHlo.binary main_v460 main_v456 main_v461 (Host.divf : (⟨S8192x2101, .f32⟩ : BufTy).Contents (Elt F) → (⟨S8192x2101, .f32⟩ : BufTy).Contents (Elt F) → (⟨S8192x2101, .f32⟩ : BufTy).Contents (Elt F)), -- %461 = stablehlo.divide %460, %456 : tensor<8192x2101xf32>  @ reference:101
    StableHlo.binary main_v377 main_v461 main_v462 (addf : (⟨S8192x2101, .f32⟩ : BufTy).Contents (Elt F) → (⟨S8192x2101, .f32⟩ : BufTy).Contents (Elt F) → (⟨S8192x2101, .f32⟩ : BufTy).Contents (Elt F)) ] -- %462 = stablehlo.add %377, %461 : tensor<8192x2101xf32>  @ reference:97

/-- @main's 553 operations, in order. -/
abbrev ops : List (HloOp τ sig (Elt F)) :=
  ops0 ++ (ops1 ++ (ops2 ++ (ops3 ++ (ops4 ++ (ops5 ++ (ops6 ++ (ops7 ++ (ops8 ++ (ops9)))))))))

end Cert.ReferenceIdeal.Hand

end
-- ==== Proof.RefRun.lean ====
/-
  The reference program's run, read back: @main is the straight line `seq ops` of the table of its 553 host operations
  (window by window, a called function's operations in its call's place), the signature scopes no TensorCore buffer and no
  semaphore, every operation touches TensorCore references only and determines what it writes; so every weakly fair
  execution of @main terminates with each TensorCore buffer at the fold `after ops` of the operations over the launch
  contents.
-/
import proofs.«406795_j81097572483403_3_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of the table, window by window

Each printed window is the line of its operations by computation: sequencing on the free monad is structural, a called
function's body unfolds at its call, and a window's closing step followed by nothing is that step. -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl
set_option maxRecDepth 8192 in
theorem main_part4_eq (c : Dev nD) : main_part4 (F := F) c = seq ops4 := rfl
set_option maxRecDepth 8192 in
theorem main_part5_eq (c : Dev nD) : main_part5 (F := F) c = seq ops5 := rfl
set_option maxRecDepth 8192 in
theorem main_part6_eq (c : Dev nD) : main_part6 (F := F) c = seq ops6 := rfl
set_option maxRecDepth 8192 in
theorem main_part7_eq (c : Dev nD) : main_part7 (F := F) c = seq ops7 := rfl
set_option maxRecDepth 8192 in
theorem main_part8_eq (c : Dev nD) : main_part8 (F := F) c = seq ops8 := rfl
set_option maxRecDepth 8192 in
theorem main_part9_eq (c : Dev nD) : main_part9 (F := F) c = seq ops9 := rfl

set_option maxRecDepth 8192 in
/-- The windows in a row are the concatenated table in a row (`seq_append`). -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c]
  rfl

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub, and_self]
theorem ops1_sub : (ops1 : List (HloOp τ sig (Elt F))).Forall fun op => op.bufs ⊆ tcRefs τ sig := by
  simp only [ops1, List.Forall, nullary_bufs_sub, unary_bufs_sub, binary_bufs_sub, ternary_bufs_sub, reshape_bufs_sub, and_self]
theorem ops2_sub : (ops2 : List (HloOp τ sig (Elt F))).Forall fun op => op.bufs ⊆ tcRefs τ sig := by
  simp only [ops2, List.Forall, nullary_bufs_sub, unary_bufs_sub, binary_bufs_sub, ternary_bufs_sub, reshape_bufs_sub, and_self]
theorem ops3_sub : (ops3 : List (HloOp τ sig (Elt F))).Forall fun op => op.bufs ⊆ tcRefs τ sig := by
  simp only [ops3, List.Forall, nullary_bufs_sub, unary_bufs_sub, binary_bufs_sub, ternary_bufs_sub, reshape_bufs_sub, and_self]
theorem ops4_sub : (ops4 : List (HloOp τ sig (Elt F))).Forall fun op => op.bufs ⊆ tcRefs τ sig := by
  simp only [ops4, List.Forall, nullary_bufs_sub, unary_bufs_sub, binary_bufs_sub, ternary_bufs_sub, reshape_bufs_sub, and_self]
theorem ops5_sub : (ops5 : List (HloOp τ sig (Elt F))).Forall fun op => op.bufs ⊆ tcRefs τ sig := by
  simp only [ops5, List.Forall, nullary_bufs_sub, unary_bufs_sub, binary_bufs_sub, ternary_bufs_sub, reshape_bufs_sub, and_self]
theorem ops6_sub : (ops6 : List (HloOp τ sig (Elt F))).Forall fun op => op.bufs ⊆ tcRefs τ sig := by
  simp only [ops6, List.Forall, nullary_bufs_sub, unary_bufs_sub, binary_bufs_sub, ternary_bufs_sub, reshape_bufs_sub, and_self]
theorem ops7_sub : (ops7 : List (HloOp τ sig (Elt F))).Forall fun op => op.bufs ⊆ tcRefs τ sig := by
  simp only [ops7, List.Forall, nullary_bufs_sub, unary_bufs_sub, binary_bufs_sub, ternary_bufs_sub, reshape_bufs_sub, and_self]
theorem ops8_sub : (ops8 : List (HloOp τ sig (Elt F))).Forall fun op => op.bufs ⊆ tcRefs τ sig := by
  simp only [ops8, List.Forall, nullary_bufs_sub, unary_bufs_sub, binary_bufs_sub, ternary_bufs_sub, reshape_bufs_sub, and_self]
theorem ops9_sub : (ops9 : List (HloOp τ sig (Elt F))).Forall fun op => op.bufs ⊆ tcRefs τ sig := by
  simp only [ops9, List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h]

theorem ops0_fresh : (ops0 : List (HloOp τ sig (Elt F))).Forall fun op => op.fresh = ∅ := by
  simp only [ops0, List.Forall]
  repeat' (first | exact rfl | apply And.intro)
theorem ops1_fresh : (ops1 : List (HloOp τ sig (Elt F))).Forall fun op => op.fresh = ∅ := by
  simp only [ops1, List.Forall]
  repeat' (first | exact rfl | apply And.intro)
theorem ops2_fresh : (ops2 : List (HloOp τ sig (Elt F))).Forall fun op => op.fresh = ∅ := by
  simp only [ops2, List.Forall]
  repeat' (first | exact rfl | apply And.intro)
theorem ops3_fresh : (ops3 : List (HloOp τ sig (Elt F))).Forall fun op => op.fresh = ∅ := by
  simp only [ops3, List.Forall]
  repeat' (first | exact rfl | apply And.intro)
theorem ops4_fresh : (ops4 : List (HloOp τ sig (Elt F))).Forall fun op => op.fresh = ∅ := by
  simp only [ops4, List.Forall]
  repeat' (first | exact rfl | apply And.intro)
theorem ops5_fresh : (ops5 : List (HloOp τ sig (Elt F))).Forall fun op => op.fresh = ∅ := by
  simp only [ops5, List.Forall]
  repeat' (first | exact rfl | apply And.intro)
theorem ops6_fresh : (ops6 : List (HloOp τ sig (Elt F))).Forall fun op => op.fresh = ∅ := by
  simp only [ops6, List.Forall]
  repeat' (first | exact rfl | apply And.intro)
theorem ops7_fresh : (ops7 : List (HloOp τ sig (Elt F))).Forall fun op => op.fresh = ∅ := by
  simp only [ops7, List.Forall]
  repeat' (first | exact rfl | apply And.intro)
theorem ops8_fresh : (ops8 : List (HloOp τ sig (Elt F))).Forall fun op => op.fresh = ∅ := by
  simp only [ops8, List.Forall]
  repeat' (first | exact rfl | apply And.intro)
theorem ops9_fresh : (ops9 : List (HloOp τ sig (Elt F))).Forall fun op => op.fresh = ∅ := by
  simp only [ops9, List.Forall]
  repeat' (first | exact rfl | apply And.intro)

theorem ops_fresh : ∀ op ∈ (ops : List (HloOp τ sig (Elt F))), op.fresh = ∅ := fun op h => by
  simp only [ops, List.mem_append] at h
  rcases h with h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h]

/-! ## The run -/

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, window by window -/

/-- The fold over two lines in a row. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the table is the windows' folds in a row. -/
theorem after_ops (V : Valuation τ sig (Elt F)) :
    after ops V = after ops9 (after ops8 (after ops7 (after ops6 (after ops5 (after ops4 (after ops3 (after ops2
      (after ops1 (after ops0 V))))))))) := by
  simp only [ops, after_app]

end Cert.ReferenceIdeal.Hand

end
-- ==== Proof.RefStages.lean ====
/-
  The reference program's arrays as functions of the twelve argument arrays. Every array the program computes and
  reads again later is given a name here, built from the earlier ones by the same elementwise operations and
  broadcasts, in the same order and association. The arrays of shape [8192, 2101] are then read at an index: there
  they are the cell functions of Cell.lean at the cell's scalars.
-/
import proofs.«406795_j81097572483403_3_alg».proof.Proof.Spec
import proofs.«406795_j81097572483403_3_alg».proof.ReferenceIdeal

namespace Cert.RefStages

open Idealize.ShloMosaic Idealize.ShloMosaic.ValueIdx Cert.Cell Cert.Spec

noncomputable section

/-! ## Shapes, broadcasts and the operations at an index -/

abbrev S0 : Shape := ⟨0, ![]⟩
abbrev S1W : Shape := ⟨2, ![1, 2101]⟩
abbrev S1 : Shape := ⟨1, ![1]⟩
abbrev S4 : Shape := ⟨1, ![4]⟩
abbrev S5 : Shape := ⟨1, ![5]⟩
abbrev S6 : Shape := ⟨1, ![6]⟩

theorem bc0 (S : Shape) : S0.BroadcastsInDim S (![] : Fin 0 → Fin S.rank) :=
  ⟨fun a => a.elim0, fun a => a.elim0⟩
theorem bcW1 : SW.BroadcastsInDim S1W (![1] : Fin 1 → Fin 2) := by decide
theorem bc1W : S1W.BroadcastsInDim SLW (![0, 1] : Fin 2 → Fin 2) := by decide
theorem bcL : SL1.BroadcastsInDim SLW (![0, 1] : Fin 2 → Fin 2) := by decide

/-- A scalar spread over a shape. -/
def up0 (S : Shape) (x : FVec Ideal S0 .f32) : FVec Ideal S .f32 := broadcastInDim S ![] (bc0 S) x
/-- A 32-bit constant spread over a shape. -/
def kst (S : Shape) (w : BitVec 32) : FVec Ideal S .f32 := up0 S (constant S0 .f32 w)
/-- A spectrum spread over the leaves. -/
def upW (v : FVec Ideal SW .f32) : FVec Ideal SLW .f32 :=
  broadcastInDim SLW ![0, 1] bc1W (broadcastInDim S1W ![1] bcW1 v)
/-- A trait column spread over the wavelengths. -/
def upL (v : FVec Ideal SL1 .f32) : FVec Ideal SLW .f32 := broadcastInDim SLW ![0, 1] bcL v

theorem up0_apply (S : Shape) (x : FVec Ideal S0 .f32) (i : S.Idx) : up0 S x i = x ix0 :=
  congrArg x (funext fun a => a.elim0)
theorem kst_apply (S : Shape) (w : BitVec 32) (i : S.Idx) : kst S w i = lit w := rfl
theorem upW_apply (v : FVec Ideal SW .f32) (idx : SLW.Idx) : upW v idx = v (ix1 (idx 1)) := by
  unfold upW broadcastInDim
  refine congrArg v (funext fun a => ?_)
  match a with
  | ⟨0, _⟩ => rfl
theorem upL_apply (v : FVec Ideal SL1 .f32) (idx : SLW.Idx) : upL v idx = v (ix2 (idx 0) 0) := by
  unfold upL broadcastInDim
  refine congrArg v (funext fun a => ?_)
  match a with
  | ⟨0, _⟩ => rfl
  | ⟨1, _⟩ => rfl

section Apply
variable {s : Shape}
theorem hdivf_apply (a b : FVec Ideal s .f32) (i : s.Idx) : Host.divf a b i = Ideal.div (a i) (b i) := rfl
theorem hnegf_apply (a : FVec Ideal s .f32) (i : s.Idx) : Host.negf a i = -(a i) := rfl
theorem hexp_apply (a : FVec Ideal s .f32) (i : s.Idx) : Host.exp a i = Ideal.exp (a i) := rfl
theorem hlog_apply (a : FVec Ideal s .f32) (i : s.Idx) : Host.log a i = Ideal.log (a i) := rfl
theorem hsqrt_apply (a : FVec Ideal s .f32) (i : s.Idx) : Host.sqrt a i = Ideal.sqrt (a i) := rfl
theorem hpowf_apply (a b : FVec Ideal s .f32) (i : s.Idx) : Host.powf a b i = Ideal.pow (a i) (b i) := rfl
theorem cmpfI_apply (p : CmpFPredicate) (a b : FVec Ideal s .f32) (i : s.Idx) :
    cmpf p a b i = Ideal.cmp p (a i) (b i) := rfl
end Apply

/-! ## The constants' words -/

abbrev w0 : BitVec 32 := 0x00000000#32
abbrev w1 : BitVec 32 := 0x3F800000#32
abbrev w2 : BitVec 32 := 0x40000000#32
abbrev w4 : BitVec 32 := 0x40800000#32
abbrev w6 : BitVec 32 := 0x40C00000#32
abbrev w16 : BitVec 32 := 0x41800000#32
abbrev wm2 : BitVec 32 := 0xC0000000#32
abbrev wk0 : BitVec 32 := 0x38D1B717#32
abbrev wS40 : BitVec 32 := 0x3ED38BCB#32
abbrev w2S40 : BitVec 32 := 0x3F538BCB#32

/-! ## The arguments -/

/-- The twelve argument arrays. -/
structure Args where
  (N cab car water lma cant : FVec Ideal SL1 .f32)
  (nr kab kcar kant kw km : FVec Ideal SW .f32)

/-- The scalars of cell (i, j). -/
abbrev Args.cell (x : Args) (i : Fin 8192) (j : Fin 2101) : In :=
  cellIn x.N x.cab x.car x.water x.lma x.cant x.nr x.kab x.kcar x.kant x.kw x.km i j

/-! ## The three coefficient tables and their entries as scalars -/

def tA : FVec Ideal S6 .f32 := fun i => FloatOps.ofBits .f32 (Cert.ReferenceIdeal.lit0 (S6.rowMajor i))
def tN : FVec Ideal S5 .f32 := fun i => FloatOps.ofBits .f32 (Cert.ReferenceIdeal.lit1 (S5.rowMajor i))
def tD : FVec Ideal S5 .f32 := fun i => FloatOps.ofBits .f32 (Cert.ReferenceIdeal.lit2 (S5.rowMajor i))

/-- The first table reversed, and all of it but its first entry. -/
def rA : FVec Ideal S6 .f32 := Host.reverse [0] tA
def rA' : FVec Ideal S5 .f32 := extractStridedSlice S5 ![1] rA
def s38 : FVec Ideal S0 .f32 := shapeCast S0 (extractStridedSlice S1 ![0] rA)
def s41 : FVec Ideal S0 .f32 := shapeCast S0 (extractStridedSlice S1 ![0] rA')
def s43 : FVec Ideal S0 .f32 := shapeCast S0 (extractStridedSlice S1 ![1] rA')
def s45 : FVec Ideal S0 .f32 := shapeCast S0 (extractStridedSlice S1 ![2] rA')
def s47 : FVec Ideal S0 .f32 := shapeCast S0 (extractStridedSlice S1 ![3] rA')
def s49 : FVec Ideal S0 .f32 := shapeCast S0 (extractStridedSlice S1 ![4] rA')
/-- A five-entry table's first entry, and the other four. -/
def hd5 (t : FVec Ideal S5 .f32) : FVec Ideal S0 .f32 := shapeCast S0 (extractStridedSlice S1 ![0] t)
def tl5 (t : FVec Ideal S5 .f32) : FVec Ideal S4 .f32 := extractStridedSlice S4 ![1] t
def t0 (t : FVec Ideal S5 .f32) : FVec Ideal S0 .f32 := shapeCast S0 (extractStridedSlice S1 ![0] (tl5 t))
def t1 (t : FVec Ideal S5 .f32) : FVec Ideal S0 .f32 := shapeCast S0 (extractStridedSlice S1 ![1] (tl5 t))
def t2 (t : FVec Ideal S5 .f32) : FVec Ideal S0 .f32 := shapeCast S0 (extractStridedSlice S1 ![2] (tl5 t))
def t3 (t : FVec Ideal S5 .f32) : FVec Ideal S0 .f32 := shapeCast S0 (extractStridedSlice S1 ![3] (tl5 t))

theorem s38_at : s38 ix0 = cA5 := rfl
theorem s41_at : s41 ix0 = cA4 := rfl
theorem s43_at : s43 ix0 = cA3 := rfl
theorem s45_at : s45 ix0 = cA2 := rfl
theorem s47_at : s47 ix0 = cA1 := rfl
theorem s49_at : s49 ix0 = cA0 := rfl
theorem hdN_at : hd5 tN ix0 = c1 := rfl
theorem tN0_at : t0 tN ix0 = cN1 := rfl
theorem tN1_at : t1 tN ix0 = cN2 := rfl
theorem tN2_at : t2 tN ix0 = cN3 := rfl
theorem tN3_at : t3 tN ix0 = cN4 := rfl
theorem hdD_at : hd5 tD ix0 = c1 := rfl
theorem tD0_at : t0 tD ix0 = cD1 := rfl
theorem tD1_at : t1 tD ix0 = cD2 := rfl
theorem tD2_at : t2 tD ix0 = cD3 := rfl
theorem tD3_at : t3 tD ix0 = cD4 := rfl

/-! ## The absorption and the layer's transmission factor, [8192, 2101] -/

abbrev ALW := FVec Ideal SLW .f32
abbrev AW := FVec Ideal SW .f32

/-- The clamped specific absorption. -/
def a27 (x : Args) : ALW :=
  maximumf (Host.divf (addf (addf (addf (addf (mulf (upL x.cab) (upW x.kab)) (mulf (upL x.car) (upW x.kcar)))
    (mulf (upL x.cant) (upW x.kant))) (mulf (upL x.water) (upW x.kw))) (mulf (upL x.lma) (upW x.km))) (upL x.N))
    (kst SLW wk0)
/-- (1 - k) exp (-k). -/
def a32 (x : Args) : ALW := mulf (subf (kst SLW w1) (a27 x)) (Host.exp (Host.negf (a27 x)))
/-- k². -/
def a33 (x : Args) : ALW := mulf (a27 x) (a27 x)
/-- -log k. -/
def a35 (x : Args) : ALW := Host.negf (Host.log (a27 x))
/-- The first two Horner steps of the small-argument polynomial. -/
def a54 (x : Args) : ALW := mulf (addf (mulf (up0 SLW s38) (a27 x)) (up0 SLW s41)) (a27 x)
/-- The small-argument polynomial. -/
def a65 (x : Args) : ALW :=
  addf (mulf (addf (mulf (addf (mulf (addf (a54 x) (up0 SLW s43)) (a27 x)) (up0 SLW s45)) (a27 x)) (up0 SLW s47)) (a27 x))
    (up0 SLW s49)
/-- The small-argument branch of the exponential integral. -/
def a66 (x : Args) : ALW := addf (a35 x) (a65 x)
/-- exp (-k) / k. -/
def a69 (x : Args) : ALW := Host.divf (Host.exp (Host.negf (a27 x))) (a27 x)
/-- A quartic with leading entry, by Horner, but for its last step. -/
def poly3 (t : FVec Ideal S5 .f32) (k : ALW) : ALW :=
  addf (mulf (addf (mulf (addf (mulf (up0 SLW (hd5 t)) k) (up0 SLW (t0 t))) k) (up0 SLW (t1 t))) k) (up0 SLW (t2 t))
/-- The quartic. -/
def poly4 (t : FVec Ideal S5 .f32) (k : ALW) : ALW := addf (mulf (poly3 t k) k) (up0 SLW (t3 t))
def a93 (x : Args) : ALW := poly4 tN (a27 x)
def a114 (x : Args) : ALW := poly3 tD (a27 x)
/-- The large-argument branch. -/
def a119 (x : Args) : ALW := mulf (a69 x) (Host.divf (a93 x) (addf (mulf (a114 x) (a27 x)) (up0 SLW (t3 tD))))
/-- The exponential integral's approximation. -/
def a122 (x : Args) : ALW := select (cmpf .ole (a27 x) (kst SLW w1)) (a66 x) (a119 x)
/-- The layer's transmission factor. -/
def a124 (x : Args) : ALW := addf (a32 x) (mulf (a33 x) (a122 x))

/-! ## The surface's averaged transmissivity, [2101]: its pieces over arrays -/

def sNeg (n2 : AW) : AW := Host.negf (subf n2 (kst SW w1))
def sK (n2 : AW) : AW := Host.divf (mulf (sNeg n2) (subf n2 (kst SW w1))) (kst SW w4)
def sU40 (npx : AW) : AW := subf (kst SW wS40) (Host.divf npx (kst SW w2))
def sCube (b : AW) : AW := mulf (mulf b b) b
def sHalf (k2 k y : AW) : AW :=
  subf (addf (Host.divf k2 (mulf (kst SW w6) (sCube y))) (Host.divf k y)) (Host.divf y (kst SW w2))
def sTs (k2 k a b : AW) : AW := subf (sHalf k2 k b) (sHalf k2 k a)
def sTp1 (n2 npx a b : AW) : AW := Host.divf (mulf (mulf (kst SW wm2) n2) (subf b a)) (mulf npx npx)
def sTp2 (n2 npx a b nm2 : AW) : AW :=
  Host.divf (mulf (mulf (mulf (kst SW wm2) n2) npx) (Host.log (Host.divf b a))) nm2
def sRecip (y : AW) : AW := Host.divf (kst SW w1) y
def sTp3 (n2 a b : AW) : AW := Host.divf (mulf n2 (subf (sRecip b) (sRecip a))) (kst SW w2)
def sTwo (npx y : AW) : AW := mulf (mulf (kst SW w2) npx) y
def sTp4 (n22 npxb npaxa npx3 nm2 : AW) : AW :=
  Host.divf (mulf (mulf (mulf (kst SW w16) n22) (addf n22 (kst SW w1))) (Host.log (Host.divf npxb npaxa))) (mulf npx3 nm2)
def sTp5 (n2 npxb npaxa npx3 : AW) : AW :=
  Host.divf (mulf (mulf (kst SW w16) (mulf (mulf n2 n2) n2)) (subf (sRecip npxb) (sRecip npaxa))) npx3
def sSum (ts tp1 tp2 tp3 tp4 tp5 den : AW) : AW :=
  Host.divf (addf ts (addf (addf (addf (addf tp1 tp2) tp3) tp4) tp5)) den

/-! ### Up to 40 degrees -/

/-- n². -/
def a125 (x : Args) : AW := mulf x.nr x.nr
/-- n² + 1. -/
def a127 (x : Args) : AW := addf (a125 x) (kst SW w1)
/-- n² - 1. -/
def a129 (x : Args) : AW := subf (a125 x) (kst SW w1)
/-- (n + 1)² / 2. -/
def a136 (x : Args) : AW := Host.divf (mulf (addf x.nr (kst SW w1)) (addf x.nr (kst SW w1))) (kst SW w2)
/-- -(n² - 1)² / 4. -/
def a144 (x : Args) : AW := sK (a125 x)
/-- b at 40 degrees. -/
def a156 (x : Args) : AW :=
  subf (Host.sqrt (addf (mulf (sU40 (a127 x)) (sU40 (a127 x))) (a144 x))) (sU40 (a127 x))
def a157 (x : Args) : AW := mulf (a144 x) (a144 x)
def a159 (x : Args) : AW := sCube (a156 x)
def a160 : AW := kst SW w6
def a178 (x : Args) : AW := sTs (a157 x) (a144 x) (a136 x) (a156 x)
def a184 (x : Args) : AW := sTp1 (a125 x) (a127 x) (a136 x) (a156 x)
/-- (n² - 1)². -/
def a185 (x : Args) : AW := mulf (a129 x) (a129 x)
def a192 (x : Args) : AW := sTp2 (a125 x) (a127 x) (a136 x) (a156 x) (a185 x)
def a200 (x : Args) : AW := sTp3 (a125 x) (a136 x) (a156 x)
def a201 (x : Args) : AW := mulf (a125 x) (a125 x)
def a203 (x : Args) : AW := mulf (mulf (a127 x) (a127 x)) (a127 x)
def a207 (x : Args) : AW := subf (sTwo (a127 x) (a136 x)) (a185 x)
def a210 (x : Args) : AW := sTwo (a127 x) (a156 x)
def a211 (x : Args) : AW := subf (a210 x) (a185 x)
/-- The transmissivity averaged up to 40 degrees. -/
def a239 (x : Args) : AW :=
  sSum (a178 x) (a184 x) (a192 x) (a200 x) (sTp4 (a201 x) (a211 x) (a207 x) (a203 x) (a185 x))
    (sTp5 (a125 x) (a211 x) (a207 x) (a203 x)) (kst SW w2S40)
def a241 (x : Args) : AW := subf (kst SW w1) (a239 x)

/-! ### Over all angles -/

def a256 (x : Args) : AW := sNeg (a125 x)
/-- b at 90 degrees. -/
def a267 (x : Args) : AW := subf (kst SW w0) (subf (kst SW w1) (Host.divf (a127 x) (kst SW w2)))
def a289 (x : Args) : AW := sTs (a157 x) (a144 x) (a136 x) (a267 x)
def a295 (x : Args) : AW := sTp1 (a125 x) (a127 x) (a136 x) (a267 x)
def a303 (x : Args) : AW := sTp2 (a125 x) (a127 x) (a136 x) (a267 x) (a185 x)
def a305 (x : Args) : AW := sRecip (a267 x)
def a322 (x : Args) : AW := subf (sTwo (a127 x) (a267 x)) (a185 x)
/-- The transmissivity averaged over all angles. -/
def a350 (x : Args) : AW :=
  sSum (a289 x) (a295 x) (a303 x) (sTp3 (a125 x) (a136 x) (a267 x)) (sTp4 (a201 x) (a322 x) (a207 x) (a203 x) (a185 x))
    (sTp5 (a125 x) (a322 x) (a207 x) (a203 x)) (kst SW w2)
def a352 (x : Args) : AW := subf (kst SW w1) (a350 x)
def a354 (x : Args) : AW := Host.divf (a350 x) (a125 x)
def a356 (x : Args) : AW := subf (kst SW w1) (a354 x)

/-! ## The layer and the stack, [8192, 2101] -/

def a363 (x : Args) : ALW := subf (kst SLW w1) (mulf (mulf (upW (mulf (a356 x) (a356 x))) (a124 x)) (a124 x))
def a370 (x : Args) : ALW := Host.divf (mulf (mulf (upW (a239 x)) (a124 x)) (upW (a354 x))) (a363 x)
def a377 (x : Args) : ALW := addf (upW (a241 x)) (mulf (mulf (upW (a356 x)) (a124 x)) (a370 x))
def a384 (x : Args) : ALW := Host.divf (mulf (mulf (upW (a350 x)) (a124 x)) (upW (a354 x))) (a363 x)
def a391 (x : Args) : ALW := addf (upW (a352 x)) (mulf (mulf (upW (a356 x)) (a124 x)) (a384 x))
def a392 (x : Args) : ALW := addf (a391 x) (a384 x)
def a393 (x : Args) : ALW := subf (a391 x) (a384 x)
def a395 (x : Args) : IVec SLW 1 := cmpf .oge (a392 x) (kst SLW w1)
def a406 (x : Args) : ALW :=
  mulf (mulf (mulf (addf (kst SLW w1) (a392 x)) (addf (kst SLW w1) (a393 x))) (subf (kst SLW w1) (a393 x)))
    (subf (kst SLW w1) (a392 x))
def a408 (x : Args) : ALW := Host.sqrt (select (a395 x) (kst SLW w1) (a406 x))
def a411 (x : Args) : ALW := subf (mulf (a391 x) (a391 x)) (mulf (a384 x) (a384 x))
def a417 (x : Args) : ALW := Host.divf (addf (addf (kst SLW w1) (a411 x)) (a408 x)) (mulf (kst SLW w2) (a391 x))
def a423 (x : Args) : ALW := Host.divf (addf (subf (kst SLW w1) (a411 x)) (a408 x)) (mulf (kst SLW w2) (a384 x))
def a424 (x : Args) : ALW := select (a395 x) (kst SLW w1) (a423 x)
def a427 (x : Args) : ALW := upL (subf x.N (kst SL1 w1))
def a428 (x : Args) : ALW := Host.powf (a424 x) (a427 x)
def a429 (x : Args) : ALW := mulf (a428 x) (a428 x)
def a430 (x : Args) : ALW := mulf (a417 x) (a417 x)
def a433 (x : Args) : ALW := subf (mulf (a430 x) (a429 x)) (kst SLW w1)
def a437 (x : Args) : ALW := Host.divf (mulf (a417 x) (subf (a429 x) (kst SLW w1))) (a433 x)
def a441 (x : Args) : ALW := Host.divf (mulf (a428 x) (subf (a430 x) (kst SLW w1))) (a433 x)
def a449 (x : Args) : ALW :=
  Host.divf (a384 x) (addf (a384 x) (mulf (subf (kst SLW w1) (a384 x)) (a427 x)))
def a450 (x : Args) : ALW := select (a395 x) (a449 x) (a441 x)
def a453 (x : Args) : ALW := select (a395 x) (subf (kst SLW w1) (a449 x)) (a437 x)
def a454 (x : Args) : ALW := mulf (a453 x) (a391 x)
def a456 (x : Args) : ALW := subf (kst SLW w1) (a454 x)
/-- The transmittance. -/
def a458 (x : Args) : ALW := Host.divf (mulf (a370 x) (a450 x)) (a456 x)
/-- The reflectance. -/
def a462 (x : Args) : ALW := addf (a377 x) (Host.divf (mulf (mulf (a370 x) (a453 x)) (a384 x)) (a456 x))

end

end Cert.RefStages
-- ==== Proof.RefStagesB.lean ====
/-
  The reference program's arrays of shape [2101] that depend on the refractive index alone, read at an index: at
  wavelength `j` the two averaged transmissivities are Stern's form at the entry `n = nr j`, at 40 degrees and over
  all angles, and the four derived arrays are `1 -` the first, `1 -` the second, the second over `n · n`, and `1 -`
  that quotient: the six surface quantities of a cell.
-/
import proofs.«406795_j81097572483403_3_alg».proof.Proof.RefStages

namespace Cert.RefStages

open Idealize.ShloMosaic Idealize.ShloMosaic.ValueIdx Cert.Cell Cert.Spec

noncomputable section

/-- The transmissivity averaged up to 40 degrees, at wavelength `j`. -/
theorem a239_at (x : Args) (j : Fin 2101) : a239 x (ix1 j) = gav40 (x.nr (ix1 j)) := rfl

theorem a241_at (x : Args) (j : Fin 2101) : a241 x (ix1 j) = c1 - gav40 (x.nr (ix1 j)) := rfl

/-- The transmissivity averaged over all angles, at wavelength `j`. -/
theorem a350_at (x : Args) (j : Fin 2101) : a350 x (ix1 j) = gav90 (x.nr (ix1 j)) := rfl

theorem a352_at (x : Args) (j : Fin 2101) : a352 x (ix1 j) = c1 - gav90 (x.nr (ix1 j)) := rfl

theorem a354_at (x : Args) (j : Fin 2101) :
    a354 x (ix1 j) = Ideal.div (gav90 (x.nr (ix1 j))) (x.nr (ix1 j) * x.nr (ix1 j)) := rfl

theorem a356_at (x : Args) (j : Fin 2101) :
    a356 x (ix1 j) = c1 - Ideal.div (gav90 (x.nr (ix1 j))) (x.nr (ix1 j) * x.nr (ix1 j)) := rfl

end

end Cert.RefStages
-- ==== Proof.RefPoint.lean ====
/-
  The reference program's arrays of shape [8192, 2101] read at an index (i, j): the clamped absorption, the layer's
  transmission factor, the layer's reflectance and transmittance and the stack's, each the cell function of Cell.lean
  at the scalars of cell (i, j). The two result arrays are therefore the specification's.
-/
import proofs.«406795_j81097572483403_3_alg».proof.Proof.RefStagesB

namespace Cert.RefStages

open Idealize.ShloMosaic Idealize.ShloMosaic.ValueIdx Cert.Cell Cert.Spec

noncomputable section

/-- A spectrum spread over the leaves, read at (i, j). -/
theorem upW_at (v : FVec Ideal SW .f32) (i : Fin 8192) (j : Fin 2101) : upW v (ix2 i j) = v (ix1 j) := upW_apply v _
/-- A trait column spread over the wavelengths, read at (i, j). -/
theorem upL_at (v : FVec Ideal SL1 .f32) (i : Fin 8192) (j : Fin 2101) : upL v (ix2 i j) = v (ix2 i 0) := upL_apply v _

variable (x : Args) (i : Fin 8192) (j : Fin 2101)

/-- The clamped specific absorption at a cell. -/
theorem a27_at : a27 x (ix2 i j) = kall (x.cell i j) := by
  simp only [a27, maximumf_apply, hdivf_apply, addf_apply, mulf_apply, upL_at, upW_at, kst_apply]
  rfl

/-- The layer's transmission factor at a cell. -/
theorem a124_at : a124 x (ix2 i j) = tau (kall (x.cell i j)) := by
  simp only [a124, a32, a33, a122, a66, a65, a54, a35, a119, a69, a93, a114, poly3, poly4, addf_apply, mulf_apply,
    subf_apply, select_apply, cmpfI_apply, hdivf_apply, hnegf_apply, hexp_apply, hlog_apply, up0_apply, kst_apply, a27_at,
    s38_at, s41_at, s43_at, s45_at, s47_at, s49_at, hdN_at, tN0_at, tN1_at, tN2_at, tN3_at, hdD_at, tD0_at, tD1_at,
    tD2_at, tD3_at]
  rfl

/-- The denominator shared by the layer's two quotients. -/
theorem a363_at : a363 x (ix2 i j) = denom (x.cell i j).r21 (tau (kall (x.cell i j))) := by
  simp only [a363, subf_apply, mulf_apply, kst_apply, upW_at, a356_at, a124_at]
  rfl

theorem a370_at : a370 x (ix2 i j)
    = qR ((x.cell i j).talf * tau (kall (x.cell i j)) * (x.cell i j).t21) (denom (x.cell i j).r21 (tau (kall (x.cell i j)))) := by
  simp only [a370, hdivf_apply, mulf_apply, upW_at, a239_at, a354_at, a124_at, a363_at]
  rfl

theorem a384_at : a384 x (ix2 i j)
    = qR ((x.cell i j).t12 * tau (kall (x.cell i j)) * (x.cell i j).t21) (denom (x.cell i j).r21 (tau (kall (x.cell i j)))) := by
  simp only [a384, hdivf_apply, mulf_apply, upW_at, a350_at, a354_at, a124_at, a363_at]
  rfl

theorem a377_at : a377 x (ix2 i j)
    = Ra (x.cell i j).ralf (x.cell i j).r21 (tau (kall (x.cell i j)))
        (qR ((x.cell i j).talf * tau (kall (x.cell i j)) * (x.cell i j).t21) (denom (x.cell i j).r21 (tau (kall (x.cell i j))))) := by
  simp only [a377, addf_apply, mulf_apply, upW_at, a241_at, a356_at, a124_at, a370_at]
  rfl

theorem a391_at : a391 x (ix2 i j)
    = rr (x.cell i j).r12 (x.cell i j).r21 (tau (kall (x.cell i j)))
        (qR ((x.cell i j).t12 * tau (kall (x.cell i j)) * (x.cell i j).t21) (denom (x.cell i j).r21 (tau (kall (x.cell i j))))) := by
  simp only [a391, addf_apply, mulf_apply, upW_at, a352_at, a356_at, a124_at, a384_at]
  rfl

/-- The structure parameter less one, spread over the wavelengths. -/
theorem a427_at : a427 x (ix2 i j) = (x.cell i j).N - c1 := by
  simp only [a427, upL_at, subf_apply, kst_apply]
  rfl

/-- The reflectance at a cell. -/
theorem a462_at : a462 x (ix2 i j) = (cellR (x.cell i j)).1 := by
  simp only [a462, a456, a454, a453, a450, a449, a441, a437, a433, a430, a429, a428, a424, a423, a417, a411, a408, a406,
    a395, a393, a392, addf_apply, mulf_apply, subf_apply, select_apply, cmpfI_apply, hdivf_apply, hsqrt_apply, hpowf_apply,
    kst_apply, a427_at, a377_at, a370_at, a384_at, a391_at]
  rfl

/-- The transmittance at a cell. -/
theorem a458_at : a458 x (ix2 i j) = (cellR (x.cell i j)).2 := by
  simp only [a458, a456, a454, a453, a450, a449, a441, a437, a433, a430, a429, a428, a424, a423, a417, a411, a408, a406,
    a395, a393, a392, addf_apply, mulf_apply, subf_apply, select_apply, cmpfI_apply, hdivf_apply, hsqrt_apply, hpowf_apply,
    kst_apply, a427_at, a370_at, a384_at, a391_at]
  rfl

/-- The reflectance array is the specification's. -/
theorem a462_eq : a462 x = reflR x.N x.cab x.car x.water x.lma x.cant x.nr x.kab x.kcar x.kant x.kw x.km := by
  funext idx
  obtain ⟨a, b, rfl⟩ : ∃ a b, idx = ix2 a b := ⟨idx 0, idx 1, eq_ix2 idx⟩
  exact a462_at x a b

/-- The transmittance array is the specification's. -/
theorem a458_eq : a458 x = tranR x.N x.cab x.car x.water x.lma x.cant x.nr x.kab x.kcar x.kant x.kw x.km := by
  funext idx
  obtain ⟨a, b, rfl⟩ : ∃ a b, idx = ix2 a b := ⟨idx 0, idx 1, eq_ix2 idx⟩
  exact a458_at x a b

end

end Cert.RefStages
-- ==== Proof.RefTablesB.lean ====
/- For the reference program's windows 3, 4, 5, 6: the buffers each window's operations write, in the table's order. -/
import proofs.«406795_j81097572483403_3_alg».proof.Proof.RefOps

namespace Cert.RefRead

open Cert.ReferenceIdeal Cert.ReferenceIdeal.Gen Idealize.ShloMosaic

/-- The buffers that window `ops3` writes. -/
abbrev ops3_W : List (Ref sig .tc) := [main_v161, main_v162, main_v163, main_v164, main_cst_18, main_v165, main_v166, main_v167, main_v168, main_v169, main_cst_19, main_v170, main_v171, main_v172, main_v173, main_v174, main_cst_20, main_v175, main_v176, main_v177, main_v178, main_cst_21, main_v179, main_v180, main_v181, main_v182, main_v183, main_v184, main_v185, main_cst_22, main_v186, main_v187, main_v188, main_v189, main_v190, main_v191, main_v192, main_cst_23, main_v193, main_v194, main_cst_24, main_v195, main_v196, main_v197, main_v198, main_cst_25, main_v199, main_v200, main_v201, main_v202, main_v203, main_cst_26, main_v204, main_v205, main_v206, main_v207, main_cst_27, main_v208, main_v209, main_v210]

/-- The buffers that window `ops4` writes. -/
abbrev ops4_W : List (Ref sig .tc) := [main_v211, main_cst_28, main_v212, main_v213, main_cst_29, main_v214, main_v215, main_v216, main_v217, main_v218, main_v219, main_v220, main_v221, main_v222, main_v223, main_cst_30, main_v224, main_v225, main_cst_31, main_v226, main_v227, main_cst_32, main_v228, main_v229, main_v230, main_v231, main_v232, main_v233, main_v234, main_v235, main_v236, main_v237, main_cst_33, main_v238, main_v239, main_cst_34, main_v240, main_v241, main_v242, main_cst_35, main_v243, main_v244, main_cst_36, main_v245, main_v246, main_cst_37, main_v247, main_v248, main_cst_38, main_v249, main_v250, main_v251, main_cst_39, main_v252, main_v253, main_cst_40, main_v254, main_v255, main_v256, main_cst_41]

/-- The buffers that window `ops5` writes. -/
abbrev ops5_W : List (Ref sig .tc) := [main_v257, main_v258, main_v259, main_cst_42, main_v260, main_v261, main_cst_43, main_v262, main_v263, main_cst_44, main_v264, main_v265, main_cst_45, main_v266, main_v267, main_v268, main_v269, main_v270, main_cst_46, main_v271, main_v272, main_v273, main_v274, main_v275, main_cst_47, main_v276, main_v277, main_v278, main_v279, main_v280, main_cst_48, main_v281, main_v282, main_v283, main_v284, main_v285, main_cst_49, main_v286, main_v287, main_v288, main_v289, main_cst_50, main_v290, main_v291, main_v292, main_v293, main_v294, main_v295, main_v296, main_cst_51, main_v297, main_v298, main_v299, main_v300, main_v301, main_v302, main_v303, main_cst_52, main_v304, main_v305]

/-- The buffers that window `ops6` writes. -/
abbrev ops6_W : List (Ref sig .tc) := [main_cst_53, main_v306, main_v307, main_v308, main_v309, main_cst_54, main_v310, main_v311, main_v312, main_v313, main_v314, main_cst_55, main_v315, main_v316, main_v317, main_v318, main_cst_56, main_v319, main_v320, main_v321, main_v322, main_cst_57, main_v323, main_v324, main_cst_58, main_v325, main_v326, main_v327, main_v328, main_v329, main_v330, main_v331, main_v332, main_v333, main_v334, main_cst_59, main_v335, main_v336, main_cst_60, main_v337, main_v338, main_cst_61, main_v339, main_v340, main_v341, main_v342, main_v343, main_v344, main_v345, main_v346, main_v347, main_v348, main_cst_62, main_v349, main_v350, main_cst_63, main_v351, main_v352, main_v353, main_v354]

end Cert.RefRead
-- ==== Proof.RefReadB.lean ====
/-
  The reference program's windows 3 to 6, the stretch that depends on the refractive index alone, read back.  From any
  buffer contents in which the arrays a window reads hold their named values, each array the window computes and a later
  window reads holds its named value after the window; and each window writes only the buffers of its own operations, so
  every other buffer keeps its contents through it.
-/
import proofs.«406795_j81097572483403_3_alg».proof.Proof.RefStages
import proofs.«406795_j81097572483403_3_alg».proof.Proof.RefOps
import proofs.«406795_j81097572483403_3_alg».proof.Proof.RefTablesB

noncomputable section

namespace Cert.RefRead

open Cert.ReferenceIdeal Cert.ReferenceIdeal.Gen Cert.ReferenceIdeal.Hand Cert.RefStages Idealize.ShloMosaic
  Idealize.ShloMosaic.StableHlo Idealize.SL.Sem

/-! ## What the four windows write, and what they keep -/

set_option maxRecDepth 8192 in
theorem ops3_writes : (ops3 : List (HloOp τ sig (Elt Ideal))).Forall fun op =>
    op.writes ⊆ (ops3_W.map (Proc.devRef (τ := τ) .tc)).toFinset := by
  simp only [ops3, List.Forall]
  repeat' apply And.intro
  all_goals
    simp only [nullary_writes, unary_writes, binary_writes, Finset.singleton_subset_iff, List.mem_toFinset]
    exact List.mem_map_of_mem (by decide)

set_option maxRecDepth 8192 in
theorem ops4_writes : (ops4 : List (HloOp τ sig (Elt Ideal))).Forall fun op =>
    op.writes ⊆ (ops4_W.map (Proc.devRef (τ := τ) .tc)).toFinset := by
  simp only [ops4, List.Forall]
  repeat' apply And.intro
  all_goals
    simp only [nullary_writes, unary_writes, binary_writes, Finset.singleton_subset_iff, List.mem_toFinset]
    exact List.mem_map_of_mem (by decide)

set_option maxRecDepth 8192 in
theorem ops5_writes : (ops5 : List (HloOp τ sig (Elt Ideal))).Forall fun op =>
    op.writes ⊆ (ops5_W.map (Proc.devRef (τ := τ) .tc)).toFinset := by
  simp only [ops5, List.Forall]
  repeat' apply And.intro
  all_goals
    simp only [nullary_writes, unary_writes, binary_writes, Finset.singleton_subset_iff, List.mem_toFinset]
    exact List.mem_map_of_mem (by decide)

set_option maxRecDepth 8192 in
theorem ops6_writes : (ops6 : List (HloOp τ sig (Elt Ideal))).Forall fun op =>
    op.writes ⊆ (ops6_W.map (Proc.devRef (τ := τ) .tc)).toFinset := by
  simp only [ops6, List.Forall]
  repeat' apply And.intro
  all_goals
    simp only [nullary_writes, unary_writes, binary_writes, Finset.singleton_subset_iff, List.mem_toFinset]
    exact List.mem_map_of_mem (by decide)

/-- A buffer that window 3 does not write keeps its contents through it. -/
theorem keep3 (V : Valuation τ sig (Elt Ideal)) (r : Ref sig .tc) (h : r ∉ ops3_W) :
    after ops3 V (Proc.devRef .tc r) = V (Proc.devRef .tc r) := after_of_writes_sub ops3 V ops3_writes h
theorem keep4 (V : Valuation τ sig (Elt Ideal)) (r : Ref sig .tc) (h : r ∉ ops4_W) :
    after ops4 V (Proc.devRef .tc r) = V (Proc.devRef .tc r) := after_of_writes_sub ops4 V ops4_writes h
theorem keep5 (V : Valuation τ sig (Elt Ideal)) (r : Ref sig .tc) (h : r ∉ ops5_W) :
    after ops5 V (Proc.devRef .tc r) = V (Proc.devRef .tc r) := after_of_writes_sub ops5 V ops5_writes h
theorem keep6 (V : Valuation τ sig (Elt Ideal)) (r : Ref sig .tc) (h : r ∉ ops6_W) :
    after ops6 V (Proc.devRef .tc r) = V (Proc.devRef .tc r) := after_of_writes_sub ops6 V ops6_writes h

/-! ## Window 3: the remaining terms of the form at 40 degrees -/

set_option maxRecDepth 8192 in
set_option maxHeartbeats 2000000 in
/-- The difference of the two half-sums (at `b` and at `a`). -/
theorem w3_v178 (V : Valuation τ sig (Elt Ideal)) (x : Args)
    (h136 : V (Proc.devRef .tc main_v136) = a136 x) (h144 : V (Proc.devRef .tc main_v144) = a144 x)
    (h156 : V (Proc.devRef .tc main_v156) = a156 x) (h157 : V (Proc.devRef .tc main_v157) = a157 x)
    (h159 : V (Proc.devRef .tc main_v159) = a159 x) (h160 : V (Proc.devRef .tc main_v160) = a160) :
    after ops3 V (Proc.devRef .tc main_v178) = a178 x := by
  simp only [ops3]
  after_results_simp
  simp only [h136, h144, h156, h157, h159, h160]
  rfl

set_option maxRecDepth 8192 in
set_option maxHeartbeats 2000000 in
theorem w3_v184 (V : Valuation τ sig (Elt Ideal)) (x : Args)
    (h125 : V (Proc.devRef .tc main_v125) = a125 x) (h127 : V (Proc.devRef .tc main_v127) = a127 x)
    (h136 : V (Proc.devRef .tc main_v136) = a136 x) (h156 : V (Proc.devRef .tc main_v156) = a156 x) :
    after ops3 V (Proc.devRef .tc main_v184) = a184 x := by
  simp only [ops3]
  after_results_simp
  simp only [h125, h127, h136, h156]
  rfl

set_option maxRecDepth 8192 in
set_option maxHeartbeats 2000000 in
theorem w3_v185 (V : Valuation τ sig (Elt Ideal)) (x : Args)
    (h129 : V (Proc.devRef .tc main_v129) = a129 x) :
    after ops3 V (Proc.devRef .tc main_v185) = a185 x := by
  simp only [ops3]
  after_results_simp
  simp only [h129]
  rfl

set_option maxRecDepth 8192 in
set_option maxHeartbeats 2000000 in
theorem w3_v192 (V : Valuation τ sig (Elt Ideal)) (x : Args)
    (h125 : V (Proc.devRef .tc main_v125) = a125 x) (h127 : V (Proc.devRef .tc main_v127) = a127 x)
    (h129 : V (Proc.devRef .tc main_v129) = a129 x) (h136 : V (Proc.devRef .tc main_v136) = a136 x)
    (h156 : V (Proc.devRef .tc main_v156) = a156 x) :
    after ops3 V (Proc.devRef .tc main_v192) = a192 x := by
  simp only [ops3]
  after_results_simp
  simp only [h125, h127, h129, h136, h156]
  rfl

set_option maxRecDepth 8192 in
set_option maxHeartbeats 2000000 in
theorem w3_v200 (V : Valuation τ sig (Elt Ideal)) (x : Args)
    (h125 : V (Proc.devRef .tc main_v125) = a125 x) (h136 : V (Proc.devRef .tc main_v136) = a136 x)
    (h156 : V (Proc.devRef .tc main_v156) = a156 x) :
    after ops3 V (Proc.devRef .tc main_v200) = a200 x := by
  simp only [ops3]
  after_results_simp
  simp only [h125, h136, h156]
  rfl

set_option maxRecDepth 8192 in
set_option maxHeartbeats 2000000 in
theorem w3_v201 (V : Valuation τ sig (Elt Ideal)) (x : Args)
    (h125 : V (Proc.devRef .tc main_v125) = a125 x) :
    after ops3 V (Proc.devRef .tc main_v201) = a201 x := by
  simp only [ops3]
  after_results_simp
  simp only [h125]
  rfl

set_option maxRecDepth 8192 in
set_option maxHeartbeats 2000000 in
theorem w3_v203 (V : Valuation τ sig (Elt Ideal)) (x : Args)
    (h127 : V (Proc.devRef .tc main_v127) = a127 x) :
    after ops3 V (Proc.devRef .tc main_v203) = a203 x := by
  simp only [ops3]
  after_results_simp
  simp only [h127]
  rfl

set_option maxRecDepth 8192 in
set_option maxHeartbeats 2000000 in
theorem w3_v207 (V : Valuation τ sig (Elt Ideal)) (x : Args)
    (h127 : V (Proc.devRef .tc main_v127) = a127 x) (h129 : V (Proc.devRef .tc main_v129) = a129 x)
    (h136 : V (Proc.devRef .tc main_v136) = a136 x) :
    after ops3 V (Proc.devRef .tc main_v207) = a207 x := by
  simp only [ops3]
  after_results_simp
  simp only [h127, h129, h136]
  rfl

set_option maxRecDepth 8192 in
set_option maxHeartbeats 2000000 in
theorem w3_v210 (V : Valuation τ sig (Elt Ideal)) (x : Args)
    (h127 : V (Proc.devRef .tc main_v127) = a127 x) (h156 : V (Proc.devRef .tc main_v156) = a156 x) :
    after ops3 V (Proc.devRef .tc main_v210) = a210 x := by
  simp only [ops3]
  after_results_simp
  simp only [h127, h156]
  rfl

/-! ## Window 4: the transmissivity at 40 degrees, and the first arrays of the all-angle form -/

set_option maxRecDepth 8192 in
set_option maxHeartbeats 2000000 in
/-- The transmissivity averaged up to 40 degrees. -/
theorem w4_v239 (V : Valuation τ sig (Elt Ideal)) (x : Args)
    (h125 : V (Proc.devRef .tc main_v125) = a125 x) (h178 : V (Proc.devRef .tc main_v178) = a178 x)
    (h184 : V (Proc.devRef .tc main_v184) = a184 x) (h185 : V (Proc.devRef .tc main_v185) = a185 x)
    (h192 : V (Proc.devRef .tc main_v192) = a192 x) (h200 : V (Proc.devRef .tc main_v200) = a200 x)
    (h201 : V (Proc.devRef .tc main_v201) = a201 x) (h203 : V (Proc.devRef .tc main_v203) = a203 x)
    (h207 : V (Proc.devRef .tc main_v207) = a207 x) (h210 : V (Proc.devRef .tc main_v210) = a210 x) :
    after ops4 V (Proc.devRef .tc main_v239) = a239 x := by
  simp only [ops4]
  after_results_simp
  simp only [h125, h178, h184, h185, h192, h200, h201, h203, h207, h210]
  rfl

set_option maxRecDepth 8192 in
set_option maxHeartbeats 2000000 in
theorem w4_v241 (V : Valuation τ sig (Elt Ideal)) (x : Args)
    (h125 : V (Proc.devRef .tc main_v125) = a125 x) (h178 : V (Proc.devRef .tc main_v178) = a178 x)
    (h184 : V (Proc.devRef .tc main_v184) = a184 x) (h185 : V (Proc.devRef .tc main_v185) = a185 x)
    (h192 : V (Proc.devRef .tc main_v192) = a192 x) (h200 : V (Proc.devRef .tc main_v200) = a200 x)
    (h201 : V (Proc.devRef .tc main_v201) = a201 x) (h203 : V (Proc.devRef .tc main_v203) = a203 x)
    (h207 : V (Proc.devRef .tc main_v207) = a207 x) (h210 : V (Proc.devRef .tc main_v210) = a210 x) :
    after ops4 V (Proc.devRef .tc main_v241) = a241 x := by
  simp only [ops4]
  after_results_simp
  simp only [h125, h178, h184, h185, h192, h200, h201, h203, h207, h210]
  rfl

set_option maxRecDepth 8192 in
set_option maxHeartbeats 2000000 in
/-- The all-angle form computes `n²` again: the same array. -/
theorem w4_v242 (V : Valuation τ sig (Elt Ideal)) (x : Args)
    (harg6 : V (Proc.devRef .tc main_arg6) = x.nr) :
    after ops4 V (Proc.devRef .tc main_v242) = a125 x := by
  simp only [ops4]
  after_results_simp
  simp only [harg6]
  rfl

set_option maxRecDepth 8192 in
set_option maxHeartbeats 2000000 in
theorem w4_v244 (V : Valuation τ sig (Elt Ideal)) (x : Args)
    (harg6 : V (Proc.devRef .tc main_arg6) = x.nr) :
    after ops4 V (Proc.devRef .tc main_v244) = a127 x := by
  simp only [ops4]
  after_results_simp
  simp only [harg6]
  rfl

set_option maxRecDepth 8192 in
set_option maxHeartbeats 2000000 in
theorem w4_v246 (V : Valuation τ sig (Elt Ideal)) (x : Args)
    (harg6 : V (Proc.devRef .tc main_arg6) = x.nr) :
    after ops4 V (Proc.devRef .tc main_v246) = a129 x := by
  simp only [ops4]
  after_results_simp
  simp only [harg6]
  rfl

set_option maxRecDepth 8192 in
set_option maxHeartbeats 2000000 in
theorem w4_v253 (V : Valuation τ sig (Elt Ideal)) (x : Args)
    (harg6 : V (Proc.devRef .tc main_arg6) = x.nr) :
    after ops4 V (Proc.devRef .tc main_v253) = a136 x := by
  simp only [ops4]
  after_results_simp
  simp only [harg6]
  rfl

set_option maxRecDepth 8192 in
set_option maxHeartbeats 2000000 in
theorem w4_v256 (V : Valuation τ sig (Elt Ideal)) (x : Args)
    (harg6 : V (Proc.devRef .tc main_arg6) = x.nr) :
    after ops4 V (Proc.devRef .tc main_v256) = a256 x := by
  simp only [ops4]
  after_results_simp
  simp only [harg6]
  rfl

set_option maxRecDepth 8192 in
set_option maxHeartbeats 2000000 in
/-- The scalar constant `1` that window 5 spreads. -/
theorem w4_cst_41 (V : Valuation τ sig (Elt Ideal)) :
    after ops4 V (Proc.devRef .tc main_cst_41) = (constant S0 .f32 w1 : FVec Ideal S0 .f32) := by
  simp only [ops4]
  after_results_simp
  all_goals rfl

/-! ## Window 5: the terms of the all-angle form -/

set_option maxRecDepth 8192 in
set_option maxHeartbeats 2000000 in
/-- `b` over all angles. -/
theorem w5_v267 (V : Valuation τ sig (Elt Ideal)) (x : Args)
    (h244 : V (Proc.devRef .tc main_v244) = a127 x) :
    after ops5 V (Proc.devRef .tc main_v267) = a267 x := by
  simp only [ops5]
  after_results_simp
  simp only [h244]
  rfl

set_option maxRecDepth 8192 in
set_option maxHeartbeats 2000000 in
theorem w5_v289 (V : Valuation τ sig (Elt Ideal)) (x : Args)
    (hc41 : V (Proc.devRef .tc main_cst_41) = (constant S0 .f32 w1 : FVec Ideal S0 .f32))
    (h242 : V (Proc.devRef .tc main_v242) = a125 x) (h244 : V (Proc.devRef .tc main_v244) = a127 x)
    (h253 : V (Proc.devRef .tc main_v253) = a136 x) (h256 : V (Proc.devRef .tc main_v256) = a256 x) :
    after ops5 V (Proc.devRef .tc main_v289) = a289 x := by
  simp only [ops5]
  after_results_simp
  simp only [hc41, h242, h244, h253, h256]
  rfl

set_option maxRecDepth 8192 in
set_option maxHeartbeats 2000000 in
theorem w5_v295 (V : Valuation τ sig (Elt Ideal)) (x : Args)
    (h242 : V (Proc.devRef .tc main_v242) = a125 x) (h244 : V (Proc.devRef .tc main_v244) = a127 x)
    (h253 : V (Proc.devRef .tc main_v253) = a136 x) :
    after ops5 V (Proc.devRef .tc main_v295) = a295 x := by
  simp only [ops5]
  after_results_simp
  simp only [h242, h244, h253]
  rfl

set_option maxRecDepth 8192 in
set_option maxHeartbeats 2000000 in
/-- `(n² - 1)²` again: the same array. -/
theorem w5_v296 (V : Valuation τ sig (Elt Ideal)) (x : Args)
    (h246 : V (Proc.devRef .tc main_v246) = a129 x) :
    after ops5 V (Proc.devRef .tc main_v296) = a185 x := by
  simp only [ops5]
  after_results_simp
  simp only [h246]
  rfl

set_option maxRecDepth 8192 in
set_option maxHeartbeats 2000000 in
theorem w5_v303 (V : Valuation τ sig (Elt Ideal)) (x : Args)
    (h242 : V (Proc.devRef .tc main_v242) = a125 x) (h244 : V (Proc.devRef .tc main_v244) = a127 x)
    (h246 : V (Proc.devRef .tc main_v246) = a129 x) (h253 : V (Proc.devRef .tc main_v253) = a136 x) :
    after ops5 V (Proc.devRef .tc main_v303) = a303 x := by
  simp only [ops5]
  after_results_simp
  simp only [h242, h244, h246, h253]
  rfl

set_option maxRecDepth 8192 in
set_option maxHeartbeats 2000000 in
theorem w5_v305 (V : Valuation τ sig (Elt Ideal)) (x : Args)
    (h244 : V (Proc.devRef .tc main_v244) = a127 x) :
    after ops5 V (Proc.devRef .tc main_v305) = a305 x := by
  simp only [ops5]
  after_results_simp
  simp only [h244]
  rfl

/-! ## Window 6: the all-angle transmissivity and what is derived from it -/

set_option maxRecDepth 8192 in
set_option maxHeartbeats 2000000 in
/-- The transmissivity averaged over all angles. -/
theorem w6_v350 (V : Valuation τ sig (Elt Ideal)) (x : Args)
    (h242 : V (Proc.devRef .tc main_v242) = a125 x) (h244 : V (Proc.devRef .tc main_v244) = a127 x)
    (h253 : V (Proc.devRef .tc main_v253) = a136 x) (h267 : V (Proc.devRef .tc main_v267) = a267 x)
    (h289 : V (Proc.devRef .tc main_v289) = a289 x) (h295 : V (Proc.devRef .tc main_v295) = a295 x)
    (h296 : V (Proc.devRef .tc main_v296) = a185 x) (h303 : V (Proc.devRef .tc main_v303) = a303 x)
    (h305 : V (Proc.devRef .tc main_v305) = a305 x) :
    after ops6 V (Proc.devRef .tc main_v350) = a350 x := by
  simp only [ops6]
  after_results_simp
  simp only [h242, h244, h253, h267, h289, h295, h296, h303, h305]
  rfl

set_option maxRecDepth 8192 in
set_option maxHeartbeats 2000000 in
theorem w6_v352 (V : Valuation τ sig (Elt Ideal)) (x : Args)
    (h242 : V (Proc.devRef .tc main_v242) = a125 x) (h244 : V (Proc.devRef .tc main_v244) = a127 x)
    (h253 : V (Proc.devRef .tc main_v253) = a136 x) (h267 : V (Proc.devRef .tc main_v267) = a267 x)
    (h289 : V (Proc.devRef .tc main_v289) = a289 x) (h295 : V (Proc.devRef .tc main_v295) = a295 x)
    (h296 : V (Proc.devRef .tc main_v296) = a185 x) (h303 : V (Proc.devRef .tc main_v303) = a303 x)
    (h305 : V (Proc.devRef .tc main_v305) = a305 x) :
    after ops6 V (Proc.devRef .tc main_v352) = a352 x := by
  simp only [ops6]
  after_results_simp
  simp only [h242, h244, h253, h267, h289, h295, h296, h303, h305]
  rfl

set_option maxRecDepth 8192 in
set_option maxHeartbeats 2000000 in
/-- The all-angle transmissivity over `n · n`, the product computed once more from the argument. -/
theorem w6_v354 (V : Valuation τ sig (Elt Ideal)) (x : Args)
    (harg6 : V (Proc.devRef .tc main_arg6) = x.nr)
    (h242 : V (Proc.devRef .tc main_v242) = a125 x) (h244 : V (Proc.devRef .tc main_v244) = a127 x)
    (h253 : V (Proc.devRef .tc main_v253) = a136 x) (h267 : V (Proc.devRef .tc main_v267) = a267 x)
    (h289 : V (Proc.devRef .tc main_v289) = a289 x) (h295 : V (Proc.devRef .tc main_v295) = a295 x)
    (h296 : V (Proc.devRef .tc main_v296) = a185 x) (h303 : V (Proc.devRef .tc main_v303) = a303 x)
    (h305 : V (Proc.devRef .tc main_v305) = a305 x) :
    after ops6 V (Proc.devRef .tc main_v354) = a354 x := by
  simp only [ops6]
  after_results_simp
  simp only [harg6, h242, h244, h253, h267, h289, h295, h296, h303, h305]
  rfl

end Cert.RefRead

end
-- ==== Proof.RefWrites.lean ====
/- Window by window of the reference program's operation table, the buffer each operation writes, in the
   table's order: opsK_W lists the results of opsK (a called function's entries write its call's buffers). -/
import proofs.«406795_j81097572483403_3_alg».proof.Proof.RefOps

namespace Cert.RefRead

open Cert.ReferenceIdeal Cert.ReferenceIdeal.Gen Cert.ReferenceIdeal.Hand Idealize.ShloMosaic Idealize.ShloMosaic.StableHlo Idealize.SL.Sem

/-- The buffers ops0 writes, operation by operation (60 of them). -/
abbrev ops0_W : List (Ref sig .tc) :=
  [main_cst, main_cst_0, main_cst_1, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_cst_2, main_v26, main_v27, main_cst_3, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]

/-- The buffers ops1 writes, operation by operation (60 of them). -/
abbrev ops1_W : List (Ref sig .tc) :=
  [main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114]

/-- The buffers ops2 writes, operation by operation (60 of them). -/
abbrev ops2_W : List (Ref sig .tc) :=
  [main_v115, main_v116, main_v117, main_v118, main_v119, main_cst_4, main_v120, main_v121, main_v122, main_v123, main_v124, main_v125, main_cst_5, main_v126, main_v127, main_cst_6, main_v128, main_v129, main_cst_7, main_v130, main_v131, main_cst_8, main_v132, main_v133, main_v134, main_cst_9, main_v135, main_v136, main_cst_10, main_v137, main_v138, main_v139, main_cst_11, main_v140, main_v141, main_v142, main_cst_12, main_v143, main_v144, main_cst_13, main_v145, main_v146, main_cst_14, main_v147, main_v148, main_v149, main_v150, main_v151, main_cst_15, main_v152, main_v153, main_cst_16, main_v154, main_v155, main_v156, main_v157, main_v158, main_v159, main_cst_17, main_v160]

/-- The buffers ops7 writes, operation by operation (60 of them). -/
abbrev ops7_W : List (Ref sig .tc) :=
  [main_cst_64, main_v355, main_v356, main_v357, main_v358, main_v359, main_v360, main_v361, main_cst_65, main_v362, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_v391, main_v392, main_v393, main_cst_66, main_v394, main_v395, main_cst_67, main_v396, main_v397, main_cst_68, main_v398, main_v399, main_v400, main_cst_69, main_v401, main_v402, main_v403, main_cst_70, main_v404, main_v405, main_v406, main_cst_71]

/-- The buffers ops8 writes, operation by operation (64 of them). -/
abbrev ops8_W : List (Ref sig .tc) :=
  [main_call1_v0, main_call1_v1, main_v407, main_v408, main_v409, main_v410, main_v411, main_cst_72, main_v412, main_v413, main_v414, main_cst_73, main_v415, main_v416, main_v417, main_cst_74, main_v418, main_v419, main_v420, main_cst_75, main_v421, main_v422, main_v423, main_cst_76, main_call2_v0, main_call2_v1, main_v424, main_cst_77, main_v425, main_v426, main_v427, main_v428, main_v429, main_v430, main_v431, main_cst_78, main_v432, main_v433, main_cst_79, main_v434, main_v435, main_v436, main_v437, main_cst_80, main_v438, main_v439, main_v440, main_v441, main_cst_81, main_v442, main_v443, main_cst_82, main_v444, main_v445, main_v446, main_v447, main_v448, main_v449, main_v450, main_cst_83, main_v451, main_v452, main_v453, main_v454]

/-- The buffers ops9 writes, operation by operation (9 of them). -/
abbrev ops9_W : List (Ref sig .tc) :=
  [main_cst_84, main_v455, main_v456, main_v457, main_v458, main_v459, main_v460, main_v461, main_v462]

end Cert.RefRead
-- ==== Proof.RefKeep.lean ====
/-
  A buffer that a window of the reference program's operation table does not write keeps its contents through that
  window: every operation of the window writes one buffer of the window's list of results.
-/
import proofs.«406795_j81097572483403_3_alg».proof.Proof.RefOps
import proofs.«406795_j81097572483403_3_alg».proof.Proof.RefWrites
import Idealize.ShloMosaic.PureOps.Ideal

namespace Cert.RefRead

open Cert.ReferenceIdeal Cert.ReferenceIdeal.Gen Cert.ReferenceIdeal.Hand Idealize.ShloMosaic Idealize.ShloMosaic.StableHlo Idealize.SL.Sem

noncomputable section

abbrev Vl := Valuation τ sig (Elt Ideal)

/-- Every operation of ops0 writes a buffer of ops0_W. -/
theorem ops0_writes : (ops0 : List (HloOp τ sig (Elt Ideal))).Forall fun op =>
    op.writes ⊆ (ops0_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- So a buffer outside ops0_W is unchanged by ops0. -/
theorem keep0 (V : Vl) (r : Ref sig .tc) (h : r ∉ ops0_W) :
    after ops0 V (Proc.devRef .tc r) = V (Proc.devRef .tc r) :=
  after_of_writes_sub ops0 V ops0_writes h

/-- Every operation of ops1 writes a buffer of ops1_W. -/
theorem ops1_writes : (ops1 : List (HloOp τ sig (Elt Ideal))).Forall fun op =>
    op.writes ⊆ (ops1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- So a buffer outside ops1_W is unchanged by ops1. -/
theorem keep1 (V : Vl) (r : Ref sig .tc) (h : r ∉ ops1_W) :
    after ops1 V (Proc.devRef .tc r) = V (Proc.devRef .tc r) :=
  after_of_writes_sub ops1 V ops1_writes h

/-- Every operation of ops2 writes a buffer of ops2_W. -/
theorem ops2_writes : (ops2 : List (HloOp τ sig (Elt Ideal))).Forall fun op =>
    op.writes ⊆ (ops2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- So a buffer outside ops2_W is unchanged by ops2. -/
theorem keep2 (V : Vl) (r : Ref sig .tc) (h : r ∉ ops2_W) :
    after ops2 V (Proc.devRef .tc r) = V (Proc.devRef .tc r) :=
  after_of_writes_sub ops2 V ops2_writes h

/-- Every operation of ops7 writes a buffer of ops7_W. -/
theorem ops7_writes : (ops7 : List (HloOp τ sig (Elt Ideal))).Forall fun op =>
    op.writes ⊆ (ops7_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- So a buffer outside ops7_W is unchanged by ops7. -/
theorem keep7 (V : Vl) (r : Ref sig .tc) (h : r ∉ ops7_W) :
    after ops7 V (Proc.devRef .tc r) = V (Proc.devRef .tc r) :=
  after_of_writes_sub ops7 V ops7_writes h

/-- Every operation of ops8 writes a buffer of ops8_W. -/
theorem ops8_writes : (ops8 : List (HloOp τ sig (Elt Ideal))).Forall fun op =>
    op.writes ⊆ (ops8_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- So a buffer outside ops8_W is unchanged by ops8. -/
theorem keep8 (V : Vl) (r : Ref sig .tc) (h : r ∉ ops8_W) :
    after ops8 V (Proc.devRef .tc r) = V (Proc.devRef .tc r) :=
  after_of_writes_sub ops8 V ops8_writes h

/-- Every operation of ops9 writes a buffer of ops9_W. -/
theorem ops9_writes : (ops9 : List (HloOp τ sig (Elt Ideal))).Forall fun op =>
    op.writes ⊆ (ops9_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- So a buffer outside ops9_W is unchanged by ops9. -/
theorem keep9 (V : Vl) (r : Ref sig .tc) (h : r ∉ ops9_W) :
    after ops9 V (Proc.devRef .tc r) = V (Proc.devRef .tc r) :=
  after_of_writes_sub ops9 V ops9_writes h

end

end Cert.RefRead
-- ==== Proof.RefRead.lean ====
/-
  The reference program's run read buffer by buffer. The run leaves every buffer at the fold of the program's
  operations over the launch contents; the fold is taken one printed window at a time. For each window, every array it
  computes that a later window reads is the named array of RefStages.lean at the twelve argument arrays, given that the
  arrays it reads from earlier windows are theirs. Chained over the ten windows this gives the two result arrays, which
  are the specification's; no operation writes an argument.
-/
import proofs.«406795_j81097572483403_3_alg».proof.Proof.RefRun
import proofs.«406795_j81097572483403_3_alg».proof.Proof.RefPoint
import proofs.«406795_j81097572483403_3_alg».proof.Proof.RefReadB
import proofs.«406795_j81097572483403_3_alg».proof.Proof.RefKeep

namespace Cert.RefRead

open Cert.ReferenceIdeal Cert.ReferenceIdeal.Gen Cert.ReferenceIdeal.Hand Cert.RefStages Idealize.ShloMosaic
  Idealize.ShloMosaic.StableHlo Idealize.SL.Sem

noncomputable section

/-- The twelve arguments as a device's buffers hold them. -/
def argsOf (V : Vl) : Args where
  N := V (Proc.devRef .tc main_arg0)
  cab := V (Proc.devRef .tc main_arg1)
  car := V (Proc.devRef .tc main_arg2)
  water := V (Proc.devRef .tc main_arg3)
  lma := V (Proc.devRef .tc main_arg4)
  cant := V (Proc.devRef .tc main_arg5)
  nr := V (Proc.devRef .tc main_arg6)
  kab := V (Proc.devRef .tc main_arg7)
  kcar := V (Proc.devRef .tc main_arg8)
  kant := V (Proc.devRef .tc main_arg9)
  kw := V (Proc.devRef .tc main_arg10)
  km := V (Proc.devRef .tc main_arg11)

/-- The scalar one, as a rank-0 array. -/
abbrev one0 : FVec Ideal S0 .f32 := constant S0 .f32 w1

/-! ## The first window: the absorption, the first pieces of the transmission factor, the coefficient scalars -/

theorem w0_v27 (V : Vl) : after ops0 V (Proc.devRef .tc main_v27) = a27 (argsOf V) := by
  simp only [ops0]; after_results_simp; rfl
theorem w0_v32 (V : Vl) : after ops0 V (Proc.devRef .tc main_v32) = a32 (argsOf V) := by
  simp only [ops0]; after_results_simp; rfl
theorem w0_v33 (V : Vl) : after ops0 V (Proc.devRef .tc main_v33) = a33 (argsOf V) := by
  simp only [ops0]; after_results_simp; rfl
theorem w0_v35 (V : Vl) : after ops0 V (Proc.devRef .tc main_v35) = a35 (argsOf V) := by
  simp only [ops0]; after_results_simp; rfl
theorem w0_v54 (V : Vl) : after ops0 V (Proc.devRef .tc main_v54) = a54 (argsOf V) := by
  simp only [ops0]; after_results_simp; rfl
theorem w0_v43 (V : Vl) : after ops0 V (Proc.devRef .tc main_v43) = s43 := by
  simp only [ops0]; after_results_simp; rfl
theorem w0_v45 (V : Vl) : after ops0 V (Proc.devRef .tc main_v45) = s45 := by
  simp only [ops0]; after_results_simp; rfl
theorem w0_v47 (V : Vl) : after ops0 V (Proc.devRef .tc main_v47) = s47 := by
  simp only [ops0]; after_results_simp; rfl
theorem w0_v49 (V : Vl) : after ops0 V (Proc.devRef .tc main_v49) = s49 := by
  simp only [ops0]; after_results_simp; rfl
theorem w0_cst_0 (V : Vl) : after ops0 V (Proc.devRef .tc main_cst_0) = tN := by
  simp only [ops0]; after_results_simp; rfl
theorem w0_cst_1 (V : Vl) : after ops0 V (Proc.devRef .tc main_cst_1) = tD := by
  simp only [ops0]; after_results_simp; rfl

/-! ## The second window: the small-argument branch, and the large-argument branch's pieces -/

theorem w1_v66 (V : Vl) (x : Args) (h27 : V (Proc.devRef .tc main_v27) = a27 x) (h35 : V (Proc.devRef .tc main_v35) = a35 x)
    (h54 : V (Proc.devRef .tc main_v54) = a54 x) (h43 : V (Proc.devRef .tc main_v43) = s43)
    (h45 : V (Proc.devRef .tc main_v45) = s45) (h47 : V (Proc.devRef .tc main_v47) = s47)
    (h49 : V (Proc.devRef .tc main_v49) = s49) : after ops1 V (Proc.devRef .tc main_v66) = a66 x := by
  simp only [ops1]; after_results_simp; simp only [h27, h35, h54, h43, h45, h47, h49]; rfl
theorem w1_v69 (V : Vl) (x : Args) (h27 : V (Proc.devRef .tc main_v27) = a27 x) :
    after ops1 V (Proc.devRef .tc main_v69) = a69 x := by
  simp only [ops1]; after_results_simp; simp only [h27]; rfl
theorem w1_v93 (V : Vl) (x : Args) (hc0 : V (Proc.devRef .tc main_cst_0) = tN) (h27 : V (Proc.devRef .tc main_v27) = a27 x) :
    after ops1 V (Proc.devRef .tc main_v93) = a93 x := by
  simp only [ops1]; after_results_simp; simp only [hc0, h27]; rfl
theorem w1_v104 (V : Vl) (hc1 : V (Proc.devRef .tc main_cst_1) = tD) :
    after ops1 V (Proc.devRef .tc main_v104) = t3 tD := by
  simp only [ops1]; after_results_simp; simp only [hc1]; rfl
theorem w1_v114 (V : Vl) (x : Args) (hc1 : V (Proc.devRef .tc main_cst_1) = tD) (h27 : V (Proc.devRef .tc main_v27) = a27 x) :
    after ops1 V (Proc.devRef .tc main_v114) = a114 x := by
  simp only [ops1]; after_results_simp; simp only [hc1, h27]; rfl

/-! ## The third window: the transmission factor, and the first pieces of the transmissivity up to 40 degrees -/

theorem w2_v124 (V : Vl) (x : Args) (h27 : V (Proc.devRef .tc main_v27) = a27 x) (h32 : V (Proc.devRef .tc main_v32) = a32 x)
    (h33 : V (Proc.devRef .tc main_v33) = a33 x) (h66 : V (Proc.devRef .tc main_v66) = a66 x)
    (h69 : V (Proc.devRef .tc main_v69) = a69 x) (h93 : V (Proc.devRef .tc main_v93) = a93 x)
    (h104 : V (Proc.devRef .tc main_v104) = t3 tD) (h114 : V (Proc.devRef .tc main_v114) = a114 x) :
    after ops2 V (Proc.devRef .tc main_v124) = a124 x := by
  simp only [ops2]; after_results_simp; simp only [h27, h32, h33, h66, h69, h93, h104, h114]; rfl
theorem w2_v125 (V : Vl) (x : Args) (harg6 : V (Proc.devRef .tc main_arg6) = x.nr) :
    after ops2 V (Proc.devRef .tc main_v125) = a125 x := by
  simp only [ops2]; after_results_simp; simp only [harg6]; rfl
theorem w2_v127 (V : Vl) (x : Args) (harg6 : V (Proc.devRef .tc main_arg6) = x.nr) :
    after ops2 V (Proc.devRef .tc main_v127) = a127 x := by
  simp only [ops2]; after_results_simp; simp only [harg6]; rfl
theorem w2_v129 (V : Vl) (x : Args) (harg6 : V (Proc.devRef .tc main_arg6) = x.nr) :
    after ops2 V (Proc.devRef .tc main_v129) = a129 x := by
  simp only [ops2]; after_results_simp; simp only [harg6]; rfl
theorem w2_v136 (V : Vl) (x : Args) (harg6 : V (Proc.devRef .tc main_arg6) = x.nr) :
    after ops2 V (Proc.devRef .tc main_v136) = a136 x := by
  simp only [ops2]; after_results_simp; simp only [harg6]; rfl
theorem w2_v144 (V : Vl) (x : Args) (harg6 : V (Proc.devRef .tc main_arg6) = x.nr) :
    after ops2 V (Proc.devRef .tc main_v144) = a144 x := by
  simp only [ops2]; after_results_simp; simp only [harg6]; rfl
theorem w2_v156 (V : Vl) (x : Args) (harg6 : V (Proc.devRef .tc main_arg6) = x.nr) :
    after ops2 V (Proc.devRef .tc main_v156) = a156 x := by
  simp only [ops2]; after_results_simp; simp only [harg6]; rfl
theorem w2_v157 (V : Vl) (x : Args) (harg6 : V (Proc.devRef .tc main_arg6) = x.nr) :
    after ops2 V (Proc.devRef .tc main_v157) = a157 x := by
  simp only [ops2]; after_results_simp; simp only [harg6]; rfl
theorem w2_v159 (V : Vl) (x : Args) (harg6 : V (Proc.devRef .tc main_arg6) = x.nr) :
    after ops2 V (Proc.devRef .tc main_v159) = a159 x := by
  simp only [ops2]; after_results_simp; simp only [harg6]; rfl
theorem w2_v160 (V : Vl) : after ops2 V (Proc.devRef .tc main_v160) = a160 := by
  simp only [ops2]; after_results_simp; rfl

/-! ## The eighth window: the layer -/

theorem w7_v370 (V : Vl) (x : Args) (h124 : V (Proc.devRef .tc main_v124) = a124 x)
    (h239 : V (Proc.devRef .tc main_v239) = a239 x) (h354 : V (Proc.devRef .tc main_v354) = a354 x) :
    after ops7 V (Proc.devRef .tc main_v370) = a370 x := by
  simp only [ops7]; after_results_simp; simp only [h124, h239, h354]; rfl
theorem w7_v377 (V : Vl) (x : Args) (h124 : V (Proc.devRef .tc main_v124) = a124 x)
    (h239 : V (Proc.devRef .tc main_v239) = a239 x) (h241 : V (Proc.devRef .tc main_v241) = a241 x)
    (h354 : V (Proc.devRef .tc main_v354) = a354 x) : after ops7 V (Proc.devRef .tc main_v377) = a377 x := by
  simp only [ops7]; after_results_simp; simp only [h124, h239, h241, h354]; rfl
theorem w7_v384 (V : Vl) (x : Args) (h124 : V (Proc.devRef .tc main_v124) = a124 x)
    (h350 : V (Proc.devRef .tc main_v350) = a350 x) (h354 : V (Proc.devRef .tc main_v354) = a354 x) :
    after ops7 V (Proc.devRef .tc main_v384) = a384 x := by
  simp only [ops7]; after_results_simp; simp only [h124, h350, h354]; rfl
theorem w7_v391 (V : Vl) (x : Args) (h124 : V (Proc.devRef .tc main_v124) = a124 x)
    (h350 : V (Proc.devRef .tc main_v350) = a350 x) (h352 : V (Proc.devRef .tc main_v352) = a352 x)
    (h354 : V (Proc.devRef .tc main_v354) = a354 x) : after ops7 V (Proc.devRef .tc main_v391) = a391 x := by
  simp only [ops7]; after_results_simp; simp only [h124, h350, h352, h354]; rfl
theorem w7_v395 (V : Vl) (x : Args) (h124 : V (Proc.devRef .tc main_v124) = a124 x)
    (h350 : V (Proc.devRef .tc main_v350) = a350 x) (h352 : V (Proc.devRef .tc main_v352) = a352 x)
    (h354 : V (Proc.devRef .tc main_v354) = a354 x) : after ops7 V (Proc.devRef .tc main_v395) = a395 x := by
  simp only [ops7]; after_results_simp; simp only [h124, h350, h352, h354]; rfl
theorem w7_v406 (V : Vl) (x : Args) (h124 : V (Proc.devRef .tc main_v124) = a124 x)
    (h350 : V (Proc.devRef .tc main_v350) = a350 x) (h352 : V (Proc.devRef .tc main_v352) = a352 x)
    (h354 : V (Proc.devRef .tc main_v354) = a354 x) : after ops7 V (Proc.devRef .tc main_v406) = a406 x := by
  simp only [ops7]; after_results_simp; simp only [h124, h350, h352, h354]; rfl
theorem w7_cst_71 (V : Vl) : after ops7 V (Proc.devRef .tc main_cst_71) = one0 := by
  simp only [ops7]; after_results_simp

/-! ## The ninth window: the stack of layers, up to the last denominator's product -/

set_option maxHeartbeats 2000000 in
theorem w8_v450 (V : Vl) (x : Args) (harg0 : V (Proc.devRef .tc main_arg0) = x.N)
    (h384 : V (Proc.devRef .tc main_v384) = a384 x) (h391 : V (Proc.devRef .tc main_v391) = a391 x)
    (h395 : V (Proc.devRef .tc main_v395) = a395 x) (h406 : V (Proc.devRef .tc main_v406) = a406 x)
    (hc71 : V (Proc.devRef .tc main_cst_71) = one0) : after ops8 V (Proc.devRef .tc main_v450) = a450 x := by
  simp only [ops8]; after_results_simp; simp only [harg0, h384, h391, h395, h406, hc71]; rfl
set_option maxHeartbeats 2000000 in
theorem w8_v453 (V : Vl) (x : Args) (harg0 : V (Proc.devRef .tc main_arg0) = x.N)
    (h384 : V (Proc.devRef .tc main_v384) = a384 x) (h391 : V (Proc.devRef .tc main_v391) = a391 x)
    (h395 : V (Proc.devRef .tc main_v395) = a395 x) (h406 : V (Proc.devRef .tc main_v406) = a406 x)
    (hc71 : V (Proc.devRef .tc main_cst_71) = one0) : after ops8 V (Proc.devRef .tc main_v453) = a453 x := by
  simp only [ops8]; after_results_simp; simp only [harg0, h384, h391, h395, h406, hc71]; rfl
set_option maxHeartbeats 2000000 in
theorem w8_v454 (V : Vl) (x : Args) (harg0 : V (Proc.devRef .tc main_arg0) = x.N)
    (h384 : V (Proc.devRef .tc main_v384) = a384 x) (h391 : V (Proc.devRef .tc main_v391) = a391 x)
    (h395 : V (Proc.devRef .tc main_v395) = a395 x) (h406 : V (Proc.devRef .tc main_v406) = a406 x)
    (hc71 : V (Proc.devRef .tc main_cst_71) = one0) : after ops8 V (Proc.devRef .tc main_v454) = a454 x := by
  simp only [ops8]; after_results_simp; simp only [harg0, h384, h391, h395, h406, hc71]; rfl

/-! ## The last window: the two results -/

theorem w9_v458 (V : Vl) (x : Args) (h370 : V (Proc.devRef .tc main_v370) = a370 x)
    (h450 : V (Proc.devRef .tc main_v450) = a450 x) (h454 : V (Proc.devRef .tc main_v454) = a454 x) :
    after ops9 V (Proc.devRef .tc main_v458) = a458 x := by
  simp only [ops9]; after_results_simp; simp only [h370, h450, h454]; rfl
theorem w9_v462 (V : Vl) (x : Args) (h370 : V (Proc.devRef .tc main_v370) = a370 x)
    (h377 : V (Proc.devRef .tc main_v377) = a377 x) (h384 : V (Proc.devRef .tc main_v384) = a384 x)
    (h453 : V (Proc.devRef .tc main_v453) = a453 x) (h454 : V (Proc.devRef .tc main_v454) = a454 x) :
    after ops9 V (Proc.devRef .tc main_v462) = a462 x := by
  simp only [ops9]; after_results_simp; simp only [h370, h377, h384, h453, h454]; rfl

/-! ## The windows in a row -/

/-- The buffers after the first window, the first two, … -/
abbrev val1 (V : Vl) : Vl := after ops0 V
abbrev val2 (V : Vl) : Vl := after ops1 (val1 V)
abbrev val3 (V : Vl) : Vl := after ops2 (val2 V)
abbrev val4 (V : Vl) : Vl := after ops3 (val3 V)
abbrev val5 (V : Vl) : Vl := after ops4 (val4 V)
abbrev val6 (V : Vl) : Vl := after ops5 (val5 V)
abbrev val7 (V : Vl) : Vl := after ops6 (val6 V)
abbrev val8 (V : Vl) : Vl := after ops7 (val7 V)
abbrev val9 (V : Vl) : Vl := after ops8 (val8 V)
abbrev val10 (V : Vl) : Vl := after ops9 (val9 V)

section Chain
variable (V : Vl)

/-! ### After the first window -/

theorem L1_v27 : val1 V (Proc.devRef .tc main_v27) = a27 (argsOf V) := w0_v27 V
theorem L1_v32 : val1 V (Proc.devRef .tc main_v32) = a32 (argsOf V) := w0_v32 V
theorem L1_v33 : val1 V (Proc.devRef .tc main_v33) = a33 (argsOf V) := w0_v33 V
theorem L1_v35 : val1 V (Proc.devRef .tc main_v35) = a35 (argsOf V) := w0_v35 V
theorem L1_v54 : val1 V (Proc.devRef .tc main_v54) = a54 (argsOf V) := w0_v54 V
theorem L1_v43 : val1 V (Proc.devRef .tc main_v43) = s43 := w0_v43 V
theorem L1_v45 : val1 V (Proc.devRef .tc main_v45) = s45 := w0_v45 V
theorem L1_v47 : val1 V (Proc.devRef .tc main_v47) = s47 := w0_v47 V
theorem L1_v49 : val1 V (Proc.devRef .tc main_v49) = s49 := w0_v49 V
theorem L1_c0 : val1 V (Proc.devRef .tc main_cst_0) = tN := w0_cst_0 V
theorem L1_c1 : val1 V (Proc.devRef .tc main_cst_1) = tD := w0_cst_1 V
theorem L1_arg0 : val1 V (Proc.devRef .tc main_arg0) = (argsOf V).N := keep0 V main_arg0 (by decide)
theorem L1_arg6 : val1 V (Proc.devRef .tc main_arg6) = (argsOf V).nr := keep0 V main_arg6 (by decide)

/-! ### After the second -/

theorem L2_v27 : val2 V (Proc.devRef .tc main_v27) = a27 (argsOf V) :=
  (keep1 (val1 V) main_v27 (by decide)).trans (L1_v27 V)
theorem L2_v32 : val2 V (Proc.devRef .tc main_v32) = a32 (argsOf V) :=
  (keep1 (val1 V) main_v32 (by decide)).trans (L1_v32 V)
theorem L2_v33 : val2 V (Proc.devRef .tc main_v33) = a33 (argsOf V) :=
  (keep1 (val1 V) main_v33 (by decide)).trans (L1_v33 V)
theorem L2_v66 : val2 V (Proc.devRef .tc main_v66) = a66 (argsOf V) :=
  w1_v66 (val1 V) (argsOf V) (L1_v27 V) (L1_v35 V) (L1_v54 V) (L1_v43 V) (L1_v45 V) (L1_v47 V) (L1_v49 V)
theorem L2_v69 : val2 V (Proc.devRef .tc main_v69) = a69 (argsOf V) := w1_v69 (val1 V) (argsOf V) (L1_v27 V)
theorem L2_v93 : val2 V (Proc.devRef .tc main_v93) = a93 (argsOf V) := w1_v93 (val1 V) (argsOf V) (L1_c0 V) (L1_v27 V)
theorem L2_v104 : val2 V (Proc.devRef .tc main_v104) = t3 tD := w1_v104 (val1 V) (L1_c1 V)
theorem L2_v114 : val2 V (Proc.devRef .tc main_v114) = a114 (argsOf V) :=
  w1_v114 (val1 V) (argsOf V) (L1_c1 V) (L1_v27 V)
theorem L2_arg0 : val2 V (Proc.devRef .tc main_arg0) = (argsOf V).N :=
  (keep1 (val1 V) main_arg0 (by decide)).trans (L1_arg0 V)
theorem L2_arg6 : val2 V (Proc.devRef .tc main_arg6) = (argsOf V).nr :=
  (keep1 (val1 V) main_arg6 (by decide)).trans (L1_arg6 V)

/-! ### After the third -/

theorem L3_v124 : val3 V (Proc.devRef .tc main_v124) = a124 (argsOf V) :=
  w2_v124 (val2 V) (argsOf V) (L2_v27 V) (L2_v32 V) (L2_v33 V) (L2_v66 V) (L2_v69 V) (L2_v93 V) (L2_v104 V) (L2_v114 V)
theorem L3_v125 : val3 V (Proc.devRef .tc main_v125) = a125 (argsOf V) := w2_v125 (val2 V) (argsOf V) (L2_arg6 V)
theorem L3_v127 : val3 V (Proc.devRef .tc main_v127) = a127 (argsOf V) := w2_v127 (val2 V) (argsOf V) (L2_arg6 V)
theorem L3_v129 : val3 V (Proc.devRef .tc main_v129) = a129 (argsOf V) := w2_v129 (val2 V) (argsOf V) (L2_arg6 V)
theorem L3_v136 : val3 V (Proc.devRef .tc main_v136) = a136 (argsOf V) := w2_v136 (val2 V) (argsOf V) (L2_arg6 V)
theorem L3_v144 : val3 V (Proc.devRef .tc main_v144) = a144 (argsOf V) := w2_v144 (val2 V) (argsOf V) (L2_arg6 V)
theorem L3_v156 : val3 V (Proc.devRef .tc main_v156) = a156 (argsOf V) := w2_v156 (val2 V) (argsOf V) (L2_arg6 V)
theorem L3_v157 : val3 V (Proc.devRef .tc main_v157) = a157 (argsOf V) := w2_v157 (val2 V) (argsOf V) (L2_arg6 V)
theorem L3_v159 : val3 V (Proc.devRef .tc main_v159) = a159 (argsOf V) := w2_v159 (val2 V) (argsOf V) (L2_arg6 V)
theorem L3_v160 : val3 V (Proc.devRef .tc main_v160) = a160 := w2_v160 (val2 V)
theorem L3_arg0 : val3 V (Proc.devRef .tc main_arg0) = (argsOf V).N :=
  (keep2 (val2 V) main_arg0 (by decide)).trans (L2_arg0 V)
theorem L3_arg6 : val3 V (Proc.devRef .tc main_arg6) = (argsOf V).nr :=
  (keep2 (val2 V) main_arg6 (by decide)).trans (L2_arg6 V)

/-! ### After the fourth -/

theorem L4_v124 : val4 V (Proc.devRef .tc main_v124) = a124 (argsOf V) :=
  (keep3 (val3 V) main_v124 (by decide)).trans (L3_v124 V)
theorem L4_v125 : val4 V (Proc.devRef .tc main_v125) = a125 (argsOf V) :=
  (keep3 (val3 V) main_v125 (by decide)).trans (L3_v125 V)
theorem L4_v178 : val4 V (Proc.devRef .tc main_v178) = a178 (argsOf V) :=
  w3_v178 (val3 V) (argsOf V) (h136 := L3_v136 V) (h144 := L3_v144 V) (h156 := L3_v156 V) (h157 := L3_v157 V)
    (h159 := L3_v159 V) (h160 := L3_v160 V)
theorem L4_v184 : val4 V (Proc.devRef .tc main_v184) = a184 (argsOf V) :=
  w3_v184 (val3 V) (argsOf V) (h125 := L3_v125 V) (h127 := L3_v127 V) (h136 := L3_v136 V) (h156 := L3_v156 V)
theorem L4_v185 : val4 V (Proc.devRef .tc main_v185) = a185 (argsOf V) :=
  w3_v185 (val3 V) (argsOf V) (h129 := L3_v129 V)
theorem L4_v192 : val4 V (Proc.devRef .tc main_v192) = a192 (argsOf V) :=
  w3_v192 (val3 V) (argsOf V) (h125 := L3_v125 V) (h127 := L3_v127 V) (h129 := L3_v129 V) (h136 := L3_v136 V)
    (h156 := L3_v156 V)
theorem L4_v200 : val4 V (Proc.devRef .tc main_v200) = a200 (argsOf V) :=
  w3_v200 (val3 V) (argsOf V) (h125 := L3_v125 V) (h136 := L3_v136 V) (h156 := L3_v156 V)
theorem L4_v201 : val4 V (Proc.devRef .tc main_v201) = a201 (argsOf V) :=
  w3_v201 (val3 V) (argsOf V) (h125 := L3_v125 V)
theorem L4_v203 : val4 V (Proc.devRef .tc main_v203) = a203 (argsOf V) :=
  w3_v203 (val3 V) (argsOf V) (h127 := L3_v127 V)
theorem L4_v207 : val4 V (Proc.devRef .tc main_v207) = a207 (argsOf V) :=
  w3_v207 (val3 V) (argsOf V) (h127 := L3_v127 V) (h129 := L3_v129 V) (h136 := L3_v136 V)
theorem L4_v210 : val4 V (Proc.devRef .tc main_v210) = a210 (argsOf V) :=
  w3_v210 (val3 V) (argsOf V) (h127 := L3_v127 V) (h156 := L3_v156 V)
theorem L4_arg0 : val4 V (Proc.devRef .tc main_arg0) = (argsOf V).N :=
  (keep3 (val3 V) main_arg0 (by decide)).trans (L3_arg0 V)
theorem L4_arg6 : val4 V (Proc.devRef .tc main_arg6) = (argsOf V).nr :=
  (keep3 (val3 V) main_arg6 (by decide)).trans (L3_arg6 V)

/-! ### After the fifth -/

theorem L5_v124 : val5 V (Proc.devRef .tc main_v124) = a124 (argsOf V) :=
  (keep4 (val4 V) main_v124 (by decide)).trans (L4_v124 V)
theorem L5_v239 : val5 V (Proc.devRef .tc main_v239) = a239 (argsOf V) :=
  w4_v239 (val4 V) (argsOf V) (h125 := L4_v125 V) (h178 := L4_v178 V) (h184 := L4_v184 V) (h185 := L4_v185 V)
    (h192 := L4_v192 V) (h200 := L4_v200 V) (h201 := L4_v201 V) (h203 := L4_v203 V) (h207 := L4_v207 V) (h210 := L4_v210 V)
theorem L5_v241 : val5 V (Proc.devRef .tc main_v241) = a241 (argsOf V) :=
  w4_v241 (val4 V) (argsOf V) (h125 := L4_v125 V) (h178 := L4_v178 V) (h184 := L4_v184 V) (h185 := L4_v185 V)
    (h192 := L4_v192 V) (h200 := L4_v200 V) (h201 := L4_v201 V) (h203 := L4_v203 V) (h207 := L4_v207 V) (h210 := L4_v210 V)
theorem L5_v242 : val5 V (Proc.devRef .tc main_v242) = a125 (argsOf V) := w4_v242 (val4 V) (argsOf V) (harg6 := L4_arg6 V)
theorem L5_v244 : val5 V (Proc.devRef .tc main_v244) = a127 (argsOf V) := w4_v244 (val4 V) (argsOf V) (harg6 := L4_arg6 V)
theorem L5_v246 : val5 V (Proc.devRef .tc main_v246) = a129 (argsOf V) := w4_v246 (val4 V) (argsOf V) (harg6 := L4_arg6 V)
theorem L5_v253 : val5 V (Proc.devRef .tc main_v253) = a136 (argsOf V) := w4_v253 (val4 V) (argsOf V) (harg6 := L4_arg6 V)
theorem L5_v256 : val5 V (Proc.devRef .tc main_v256) = a256 (argsOf V) := w4_v256 (val4 V) (argsOf V) (harg6 := L4_arg6 V)
theorem L5_c41 : val5 V (Proc.devRef .tc main_cst_41) = one0 := w4_cst_41 (val4 V)
theorem L5_arg0 : val5 V (Proc.devRef .tc main_arg0) = (argsOf V).N :=
  (keep4 (val4 V) main_arg0 (by decide)).trans (L4_arg0 V)
theorem L5_arg6 : val5 V (Proc.devRef .tc main_arg6) = (argsOf V).nr :=
  (keep4 (val4 V) main_arg6 (by decide)).trans (L4_arg6 V)

/-! ### After the sixth -/

theorem L6_v124 : val6 V (Proc.devRef .tc main_v124) = a124 (argsOf V) :=
  (keep5 (val5 V) main_v124 (by decide)).trans (L5_v124 V)
theorem L6_v239 : val6 V (Proc.devRef .tc main_v239) = a239 (argsOf V) :=
  (keep5 (val5 V) main_v239 (by decide)).trans (L5_v239 V)
theorem L6_v241 : val6 V (Proc.devRef .tc main_v241) = a241 (argsOf V) :=
  (keep5 (val5 V) main_v241 (by decide)).trans (L5_v241 V)
theorem L6_v242 : val6 V (Proc.devRef .tc main_v242) = a125 (argsOf V) :=
  (keep5 (val5 V) main_v242 (by decide)).trans (L5_v242 V)
theorem L6_v244 : val6 V (Proc.devRef .tc main_v244) = a127 (argsOf V) :=
  (keep5 (val5 V) main_v244 (by decide)).trans (L5_v244 V)
theorem L6_v253 : val6 V (Proc.devRef .tc main_v253) = a136 (argsOf V) :=
  (keep5 (val5 V) main_v253 (by decide)).trans (L5_v253 V)
theorem L6_v267 : val6 V (Proc.devRef .tc main_v267) = a267 (argsOf V) := w5_v267 (val5 V) (argsOf V) (h244 := L5_v244 V)
theorem L6_v289 : val6 V (Proc.devRef .tc main_v289) = a289 (argsOf V) :=
  w5_v289 (val5 V) (argsOf V) (hc41 := L5_c41 V) (h242 := L5_v242 V) (h244 := L5_v244 V) (h253 := L5_v253 V)
    (h256 := L5_v256 V)
theorem L6_v295 : val6 V (Proc.devRef .tc main_v295) = a295 (argsOf V) :=
  w5_v295 (val5 V) (argsOf V) (h242 := L5_v242 V) (h244 := L5_v244 V) (h253 := L5_v253 V)
theorem L6_v296 : val6 V (Proc.devRef .tc main_v296) = a185 (argsOf V) := w5_v296 (val5 V) (argsOf V) (h246 := L5_v246 V)
theorem L6_v303 : val6 V (Proc.devRef .tc main_v303) = a303 (argsOf V) :=
  w5_v303 (val5 V) (argsOf V) (h242 := L5_v242 V) (h244 := L5_v244 V) (h246 := L5_v246 V) (h253 := L5_v253 V)
theorem L6_v305 : val6 V (Proc.devRef .tc main_v305) = a305 (argsOf V) := w5_v305 (val5 V) (argsOf V) (h244 := L5_v244 V)
theorem L6_arg0 : val6 V (Proc.devRef .tc main_arg0) = (argsOf V).N :=
  (keep5 (val5 V) main_arg0 (by decide)).trans (L5_arg0 V)
theorem L6_arg6 : val6 V (Proc.devRef .tc main_arg6) = (argsOf V).nr :=
  (keep5 (val5 V) main_arg6 (by decide)).trans (L5_arg6 V)

/-! ### After the seventh -/

theorem L7_v124 : val7 V (Proc.devRef .tc main_v124) = a124 (argsOf V) :=
  (keep6 (val6 V) main_v124 (by decide)).trans (L6_v124 V)
theorem L7_v239 : val7 V (Proc.devRef .tc main_v239) = a239 (argsOf V) :=
  (keep6 (val6 V) main_v239 (by decide)).trans (L6_v239 V)
theorem L7_v241 : val7 V (Proc.devRef .tc main_v241) = a241 (argsOf V) :=
  (keep6 (val6 V) main_v241 (by decide)).trans (L6_v241 V)
theorem L7_v350 : val7 V (Proc.devRef .tc main_v350) = a350 (argsOf V) :=
  w6_v350 (val6 V) (argsOf V) (h242 := L6_v242 V) (h244 := L6_v244 V) (h253 := L6_v253 V) (h267 := L6_v267 V)
    (h289 := L6_v289 V) (h295 := L6_v295 V) (h296 := L6_v296 V) (h303 := L6_v303 V) (h305 := L6_v305 V)
theorem L7_v352 : val7 V (Proc.devRef .tc main_v352) = a352 (argsOf V) :=
  w6_v352 (val6 V) (argsOf V) (h242 := L6_v242 V) (h244 := L6_v244 V) (h253 := L6_v253 V) (h267 := L6_v267 V)
    (h289 := L6_v289 V) (h295 := L6_v295 V) (h296 := L6_v296 V) (h303 := L6_v303 V) (h305 := L6_v305 V)
theorem L7_v354 : val7 V (Proc.devRef .tc main_v354) = a354 (argsOf V) :=
  w6_v354 (val6 V) (argsOf V) (harg6 := L6_arg6 V) (h242 := L6_v242 V) (h244 := L6_v244 V) (h253 := L6_v253 V)
    (h267 := L6_v267 V) (h289 := L6_v289 V) (h295 := L6_v295 V) (h296 := L6_v296 V) (h303 := L6_v303 V) (h305 := L6_v305 V)
theorem L7_arg0 : val7 V (Proc.devRef .tc main_arg0) = (argsOf V).N :=
  (keep6 (val6 V) main_arg0 (by decide)).trans (L6_arg0 V)

/-! ### After the eighth -/

theorem L8_v370 : val8 V (Proc.devRef .tc main_v370) = a370 (argsOf V) :=
  w7_v370 (val7 V) (argsOf V) (L7_v124 V) (L7_v239 V) (L7_v354 V)
theorem L8_v377 : val8 V (Proc.devRef .tc main_v377) = a377 (argsOf V) :=
  w7_v377 (val7 V) (argsOf V) (L7_v124 V) (L7_v239 V) (L7_v241 V) (L7_v354 V)
theorem L8_v384 : val8 V (Proc.devRef .tc main_v384) = a384 (argsOf V) :=
  w7_v384 (val7 V) (argsOf V) (L7_v124 V) (L7_v350 V) (L7_v354 V)
theorem L8_v391 : val8 V (Proc.devRef .tc main_v391) = a391 (argsOf V) :=
  w7_v391 (val7 V) (argsOf V) (L7_v124 V) (L7_v350 V) (L7_v352 V) (L7_v354 V)
theorem L8_v395 : val8 V (Proc.devRef .tc main_v395) = a395 (argsOf V) :=
  w7_v395 (val7 V) (argsOf V) (L7_v124 V) (L7_v350 V) (L7_v352 V) (L7_v354 V)
theorem L8_v406 : val8 V (Proc.devRef .tc main_v406) = a406 (argsOf V) :=
  w7_v406 (val7 V) (argsOf V) (L7_v124 V) (L7_v350 V) (L7_v352 V) (L7_v354 V)
theorem L8_c71 : val8 V (Proc.devRef .tc main_cst_71) = one0 := w7_cst_71 (val7 V)
theorem L8_arg0 : val8 V (Proc.devRef .tc main_arg0) = (argsOf V).N :=
  (keep7 (val7 V) main_arg0 (by decide)).trans (L7_arg0 V)

/-! ### After the ninth -/

theorem L9_v370 : val9 V (Proc.devRef .tc main_v370) = a370 (argsOf V) :=
  (keep8 (val8 V) main_v370 (by decide)).trans (L8_v370 V)
theorem L9_v377 : val9 V (Proc.devRef .tc main_v377) = a377 (argsOf V) :=
  (keep8 (val8 V) main_v377 (by decide)).trans (L8_v377 V)
theorem L9_v384 : val9 V (Proc.devRef .tc main_v384) = a384 (argsOf V) :=
  (keep8 (val8 V) main_v384 (by decide)).trans (L8_v384 V)
theorem L9_v450 : val9 V (Proc.devRef .tc main_v450) = a450 (argsOf V) :=
  w8_v450 (val8 V) (argsOf V) (L8_arg0 V) (L8_v384 V) (L8_v391 V) (L8_v395 V) (L8_v406 V) (L8_c71 V)
theorem L9_v453 : val9 V (Proc.devRef .tc main_v453) = a453 (argsOf V) :=
  w8_v453 (val8 V) (argsOf V) (L8_arg0 V) (L8_v384 V) (L8_v391 V) (L8_v395 V) (L8_v406 V) (L8_c71 V)
theorem L9_v454 : val9 V (Proc.devRef .tc main_v454) = a454 (argsOf V) :=
  w8_v454 (val8 V) (argsOf V) (L8_arg0 V) (L8_v384 V) (L8_v391 V) (L8_v395 V) (L8_v406 V) (L8_c71 V)

/-! ### After the last: the results -/

theorem L10_v458 : val10 V (Proc.devRef .tc main_v458) = a458 (argsOf V) :=
  w9_v458 (val9 V) (argsOf V) (L9_v370 V) (L9_v450 V) (L9_v454 V)
theorem L10_v462 : val10 V (Proc.devRef .tc main_v462) = a462 (argsOf V) :=
  w9_v462 (val9 V) (argsOf V) (L9_v370 V) (L9_v377 V) (L9_v384 V) (L9_v453 V) (L9_v454 V)

/-! ## The run's post -/

/-- The reflectance buffer after the run. -/
theorem read_refl : after ops V (Proc.devRef .tc main_v462)
    = Cert.Spec.reflR (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) (V (Proc.devRef .tc main_arg11)) := by
  rw [after_ops]
  exact (L10_v462 V).trans (a462_eq (argsOf V))

/-- The transmittance buffer after the run. -/
theorem read_tran : after ops V (Proc.devRef .tc main_v458)
    = Cert.Spec.tranR (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) (V (Proc.devRef .tc main_arg11)) := by
  rw [after_ops]
  exact (L10_v458 V).trans (a458_eq (argsOf V))

/-- No window writes an argument. -/
theorem args_not_written : ∀ r ∈ [main_arg0, main_arg1, main_arg2, main_arg3, main_arg4, main_arg5, main_arg6, main_arg7,
    main_arg8, main_arg9, main_arg10, main_arg11], r ∉ ops0_W ∧ r ∉ ops1_W ∧ r ∉ ops2_W ∧ r ∉ ops3_W ∧ r ∉ ops4_W ∧ r ∉ ops5_W
      ∧ r ∉ ops6_W ∧ r ∉ ops7_W ∧ r ∉ ops8_W ∧ r ∉ ops9_W := by decide

/-- An argument's buffer is unchanged by the run. -/
theorem keep_all (r : Ref sig .tc) (h : r ∈ [main_arg0, main_arg1, main_arg2, main_arg3, main_arg4, main_arg5, main_arg6,
    main_arg7, main_arg8, main_arg9, main_arg10, main_arg11]) : after ops V (Proc.devRef .tc r) = V (Proc.devRef .tc r) := by
  obtain ⟨h0, h1, h2, h3, h4, h5, h6, h7, h8, h9⟩ := args_not_written r h
  rw [after_ops, keep9 _ r h9, keep8 _ r h8, keep7 _ r h7, keep6 _ r h6, keep5 _ r h5, keep4 _ r h4, keep3 _ r h3,
    keep2 _ r h2, keep1 _ r h1, keep0 _ r h0]

end Chain

/-- The reference's run, read: the two result arrays are the specification's reflectance and transmittance of the twelve
    argument arrays, and the arguments are unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v462) = Cert.Spec.reflR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v458) = Cert.Spec.tranR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v462).trans (read_refl (launchContents m c)),
      (h c main_v458).trans (read_tran (launchContents m c)),
      (h c main_arg0).trans (keep_all (launchContents m c) main_arg0 (by decide)),
      (h c main_arg1).trans (keep_all (launchContents m c) main_arg1 (by decide)),
      (h c main_arg2).trans (keep_all (launchContents m c) main_arg2 (by decide)),
      (h c main_arg3).trans (keep_all (launchContents m c) main_arg3 (by decide)),
      (h c main_arg4).trans (keep_all (launchContents m c) main_arg4 (by decide)),
      (h c main_arg5).trans (keep_all (launchContents m c) main_arg5 (by decide)),
      (h c main_arg6).trans (keep_all (launchContents m c) main_arg6 (by decide)),
      (h c main_arg7).trans (keep_all (launchContents m c) main_arg7 (by decide)),
      (h c main_arg8).trans (keep_all (launchContents m c) main_arg8 (by decide)),
      (h c main_arg9).trans (keep_all (launchContents m c) main_arg9 (by decide)),
      (h c main_arg10).trans (keep_all (launchContents m c) main_arg10 (by decide)),
      (h c main_arg11).trans (keep_all (launchContents m c) main_arg11 (by decide))⟩)
    (run_main (F := Ideal) m ρ)

end

end Cert.RefRead
-- ==== Proof.lean ====
/-
  The leaf optical model: the kernel computes, for every leaf and wavelength, the same reflectance and transmittance as
  the reference, on the extended reals, wherever the reference's own arithmetic is defined — the structure parameter `N`
  is not zero (the reference divides by it), the refractive index exceeds 1 (the arguments of the two logarithms of its
  all-angle surface transmissivity are positive exactly then) and its last divisor `1 - Rsub r` is not zero — and all inputs
  are finite.

  Both programs compute each cell from the same scalars. They differ in four places: three quotients, which the kernel writes as
  products with one shared reciprocal, and the power `b ^ (N - 1)`, which it writes as `exp ((N - 1) log b)`. A product with the
  reciprocal is the quotient unless the divisor is zero; and the power is the exponential form when `b > 0`. That `b > 0` in a
  thin-layer cell follows from the surface transmissivity lying in `(0, 1]` for every refractive index above 1 and the layer
  factor lying in `(0, 1]` for every absorption from the clamp up: then `t > 0`, `0 < r < 1`, so `1 - r² + t² > 0`.

  The cell function and the result arrays are stated first; then the two real bounds, the cells' agreement, the reading of the
  precondition, the reference's run read back at an index and the kernel's; this file joins them.
-/
import proofs.«406795_j81097572483403_3_alg».proof.Defs
import proofs.«406795_j81097572483403_3_alg».proof.Proof.Gen.Kernel
import proofs.«406795_j81097572483403_3_alg».proof.Proof.Gen.Kernel.Skeleton
import proofs.«406795_j81097572483403_3_alg».proof.Proof.Gen.Kernel.Launch
import proofs.«406795_j81097572483403_3_alg».proof.Proof.Gen.Kernel.Points
import proofs.«406795_j81097572483403_3_alg».proof.Proof.Gen.Kernel.Frame
import proofs.«406795_j81097572483403_3_alg».proof.Proof.Gen.KernelIdeal
import proofs.«406795_j81097572483403_3_alg».proof.Proof.Gen.KernelIdeal.Skeleton
import proofs.«406795_j81097572483403_3_alg».proof.Proof.Gen.KernelIdeal.Launch
import proofs.«406795_j81097572483403_3_alg».proof.Proof.Gen.KernelIdeal.Points
import proofs.«406795_j81097572483403_3_alg».proof.Proof.Gen.KernelIdeal.Frame
import proofs.«406795_j81097572483403_3_alg».proof.Proof.Gen.KernelIdeal.Value
import proofs.«406795_j81097572483403_3_alg».proof.Proof.Gen.ReferenceIdeal
import proofs.«406795_j81097572483403_3_alg».proof.Proof.Gen.Pre_finite_inputs
import proofs.«406795_j81097572483403_3_alg».proof.Proof.PreFacts
import proofs.«406795_j81097572483403_3_alg».proof.Proof.Bridge
import proofs.«406795_j81097572483403_3_alg».proof.Proof.KerValue
import proofs.«406795_j81097572483403_3_alg».proof.Proof.RefRead
import Idealize.ShloMosaic.Adequacy
import Idealize.ShloMosaic.Init

noncomputable section

namespace Cert.Proof

open Idealize.ShloMosaic Idealize.SL.Sem Cert.Kernel

theorem frame_K : Cert.frame_Kernel := fun m ρ _ => Cert.Kernel.Gen.frame m ρ

theorem frame_KI : Cert.frame_KernelIdeal := fun m ρ _ => Cert.KernelIdeal.Gen.frame m ρ

/-- The reference's frame is its run with the two results dropped. -/
theorem frame_RI : Cert.frame_ReferenceIdeal := fun m ρ _ =>
  (θ_run Cert.ReferenceIdeal.defs _ _).mono (fun _ h c => (h c).2.2) (Cert.RefRead.ref_run m ρ)

/-- Under the precondition every cell has the facts the cells' agreement needs. -/
theorem facts_of_pre (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 8192) (j : Fin 2101) :
    Cert.Spec.CellFacts
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) i j := by
  obtain ⟨hN, hcab, hcar, hwater, hlma, hcant, hnr, hkab, hkcar, hkant, hkw, hkm, hden3⟩ :=
    Cert.PreFacts.pre_cells _ _ _ _ _ _ _ _ _ _ _ _ (hpre c) i j
  exact ⟨hN, hcab, hcar, hwater, hlma, hcant, hnr, hkab, hkcar, hkant, hkw, hkm, hden3⟩

/-- The kernel's run ends at the kernel's arrays of its arguments, the reference's at the reference's arrays of its own, the
    arguments agree and under the precondition the two pairs of arrays are one. -/
theorem algebraic : Cert.algebraic_KernelIdeal_ReferenceIdeal := by
  intro m ρ m' ρ' hpre hagree
  have heq := fun c : Dev Cert.KernelIdeal.nD =>
    Cert.Spec.arrays_eq _ _ _ _ _ _ _ _ _ _ _ _ (fun i j => facts_of_pre m hpre c i j)
  refine ⟨_, _, (θ_run Cert.KernelIdeal.defs _ _).mono
    (fun _ h c => ⟨(h c).1.trans (heq c).1, (h c).2.1.trans (heq c).2, (h c).2.2⟩) (Cert.KerValue.ker_run m ρ), ?_⟩
  refine (θ_run Cert.ReferenceIdeal.defs _ _).mono (fun _ h c => ⟨?_, ?_, (h c).2.2⟩) (Cert.RefRead.ref_run m' ρ')
  · rw [(h c).1]
    obtain ⟨e0, e1, e2, e3, e4, e5, e6, e7, e8, e9, e10, e11⟩ := hagree c
    rw [e0, e1, e2, e3, e4, e5, e6, e7, e8, e9, e10, e11]
  · rw [(h c).2.1]
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
